-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x512 : Shape := ⟨2, ![1024, 512]⟩
abbrev S1024x1024 : Shape := ⟨2, ![1024, 1024]⟩
abbrev S32 : Shape := ⟨1, ![32]⟩
abbrev S_ : Shape := ⟨0, ![]⟩
abbrev S1 : Shape := ⟨1, ![1]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .local _ .vmem, ⟨0, _⟩ => ⟨S1024x512, .f32⟩
  | .local _ .vmem, ⟨1, _⟩ => ⟨S1024x1024, .f32⟩
  | .local _ .vmem, ⟨2, _⟩ => ⟨S1024x512, .f32⟩
  | _, _ => ⟨S1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_dev3 (d0 : Dev nD) : Nat :=
  let c0_i32_16 : BitVec 32 := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.subi c1_i32_12 v2
  let c2_i32_15 : BitVec 32 := 2#32
  let v18 : BitVec 32 := Scalar.muli v17 c2_i32_15
  let v19 : BitVec 32 := Scalar.addi c0_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v20 : BitVec 32 := Scalar.muli v5 c1_i32_17
  let v21 : BitVec 32 := Scalar.addi v19 v20
  v21.toNat
def k0_dev4 (d0 : Dev nD) : Nat :=
  let c0_i32_26 : BitVec 32 := 0#32
  let c1_i32_22 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.subi c1_i32_22 v2
  let c2_i32_25 : BitVec 32 := 2#32
  let v29 : BitVec 32 := Scalar.muli v28 c2_i32_25
  let v30 : BitVec 32 := Scalar.addi c0_i32_26 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v31 : BitVec 32 := Scalar.muli v5 c1_i32_27
  let v32 : BitVec 32 := Scalar.addi v30 v31
  v32.toNat
def k0_dev5 (d0 : Dev nD) : Nat :=
  let c0_i32_35 : BitVec 32 := 0#32
  let c1_i32_31 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v39 : BitVec 32 := Scalar.subi c1_i32_31 v2
  let c2_i32_34 : BitVec 32 := 2#32
  let v40 : BitVec 32 := Scalar.muli v39 c2_i32_34
  let v41 : BitVec 32 := Scalar.addi c0_i32_35 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v42 : BitVec 32 := Scalar.muli v5 c1_i32_36
  let v43 : BitVec 32 := Scalar.addi v41 v42
  v43.toNat
def k0_dev6 (d0 : Dev nD) : Nat :=
  let c0_i32_43 : BitVec 32 := 0#32
  let c1_i32_40 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v50 : BitVec 32 := Scalar.subi c1_i32_40 v2
  let c2_i32_42 : BitVec 32 := 2#32
  let v51 : BitVec 32 := Scalar.muli v50 c2_i32_42
  let v52 : BitVec 32 := Scalar.addi c0_i32_43 v51
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v53 : BitVec 32 := Scalar.muli v5 c1_i32_44
  let v54 : BitVec 32 := Scalar.addi v52 v53
  v54.toNat
def k0_dev7 (d0 : Dev nD) : Nat :=
  let c0_i32_51 : BitVec 32 := 0#32
  let c1_i32_48 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v61 : BitVec 32 := Scalar.subi c1_i32_48 v2
  let c2_i32_50 : BitVec 32 := 2#32
  let v62 : BitVec 32 := Scalar.muli v61 c2_i32_50
  let v63 : BitVec 32 := Scalar.addi c0_i32_51 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v64 : BitVec 32 := Scalar.muli v5 c1_i32_52
  let v65 : BitVec 32 := Scalar.addi v63 v64
  v65.toNat
def k0_dev8 (d0 : Dev nD) : Nat :=
  let c0_i32_59 : BitVec 32 := 0#32
  let c1_i32_56 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v72 : BitVec 32 := Scalar.subi c1_i32_56 v2
  let c2_i32_58 : BitVec 32 := 2#32
  let v73 : BitVec 32 := Scalar.muli v72 c2_i32_58
  let v74 : BitVec 32 := Scalar.addi c0_i32_59 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v75 : BitVec 32 := Scalar.muli v5 c1_i32_60
  let v76 : BitVec 32 := Scalar.addi v74 v75
  v76.toNat
def k0_dev9 (d0 : Dev nD) : Nat :=
  let c0_i32_67 : BitVec 32 := 0#32
  let c1_i32_64 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v83 : BitVec 32 := Scalar.subi c1_i32_64 v2
  let c2_i32_66 : BitVec 32 := 2#32
  let v84 : BitVec 32 := Scalar.muli v83 c2_i32_66
  let v85 : BitVec 32 := Scalar.addi c0_i32_67 v84
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v86 : BitVec 32 := Scalar.muli v5 c1_i32_68
  let v87 : BitVec 32 := Scalar.addi v85 v86
  v87.toNat
def k0_dev10 (d0 : Dev nD) : Nat :=
  let c0_i32_75 : BitVec 32 := 0#32
  let c1_i32_72 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v94 : BitVec 32 := Scalar.subi c1_i32_72 v2
  let c2_i32_74 : BitVec 32 := 2#32
  let v95 : BitVec 32 := Scalar.muli v94 c2_i32_74
  let v96 : BitVec 32 := Scalar.addi c0_i32_75 v95
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v97 : BitVec 32 := Scalar.muli v5 c1_i32_76
  let v98 : BitVec 32 := Scalar.addi v96 v97
  v98.toNat
def k0_dev11 (d0 : Dev nD) : Nat :=
  let c0_i32_83 : BitVec 32 := 0#32
  let c1_i32_80 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v105 : BitVec 32 := Scalar.subi c1_i32_80 v2
  let c2_i32_82 : BitVec 32 := 2#32
  let v106 : BitVec 32 := Scalar.muli v105 c2_i32_82
  let v107 : BitVec 32 := Scalar.addi c0_i32_83 v106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v108 : BitVec 32 := Scalar.muli v5 c1_i32_84
  let v109 : BitVec 32 := Scalar.addi v107 v108
  v109.toNat
def k0_dev12 (d0 : Dev nD) : Nat :=
  let c0_i32_91 : BitVec 32 := 0#32
  let c1_i32_88 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v116 : BitVec 32 := Scalar.subi c1_i32_88 v2
  let c2_i32_90 : BitVec 32 := 2#32
  let v117 : BitVec 32 := Scalar.muli v116 c2_i32_90
  let v118 : BitVec 32 := Scalar.addi c0_i32_91 v117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v119 : BitVec 32 := Scalar.muli v5 c1_i32_92
  let v120 : BitVec 32 := Scalar.addi v118 v119
  v120.toNat
def k0_dev13 (d0 : Dev nD) : Nat :=
  let c0_i32_99 : BitVec 32 := 0#32
  let c1_i32_96 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v127 : BitVec 32 := Scalar.subi c1_i32_96 v2
  let c2_i32_98 : BitVec 32 := 2#32
  let v128 : BitVec 32 := Scalar.muli v127 c2_i32_98
  let v129 : BitVec 32 := Scalar.addi c0_i32_99 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v130 : BitVec 32 := Scalar.muli v5 c1_i32_100
  let v131 : BitVec 32 := Scalar.addi v129 v130
  v131.toNat
def k0_dev14 (d0 : Dev nD) : Nat :=
  let c0_i32_107 : BitVec 32 := 0#32
  let c1_i32_104 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v138 : BitVec 32 := Scalar.subi c1_i32_104 v2
  let c2_i32_106 : BitVec 32 := 2#32
  let v139 : BitVec 32 := Scalar.muli v138 c2_i32_106
  let v140 : BitVec 32 := Scalar.addi c0_i32_107 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_108 : BitVec 32 := 1#32
  let v141 : BitVec 32 := Scalar.muli v5 c1_i32_108
  let v142 : BitVec 32 := Scalar.addi v140 v141
  v142.toNat
def k0_dev15 (d0 : Dev nD) : Nat :=
  let c0_i32_115 : BitVec 32 := 0#32
  let c1_i32_112 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v149 : BitVec 32 := Scalar.subi c1_i32_112 v2
  let c2_i32_114 : BitVec 32 := 2#32
  let v150 : BitVec 32 := Scalar.muli v149 c2_i32_114
  let v151 : BitVec 32 := Scalar.addi c0_i32_115 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_116 : BitVec 32 := 1#32
  let v152 : BitVec 32 := Scalar.muli v5 c1_i32_116
  let v153 : BitVec 32 := Scalar.addi v151 v152
  v153.toNat
def k0_dev16 (d0 : Dev nD) : Nat :=
  let c0_i32_123 : BitVec 32 := 0#32
  let c1_i32_120 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v160 : BitVec 32 := Scalar.subi c1_i32_120 v2
  let c2_i32_122 : BitVec 32 := 2#32
  let v161 : BitVec 32 := Scalar.muli v160 c2_i32_122
  let v162 : BitVec 32 := Scalar.addi c0_i32_123 v161
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124 : BitVec 32 := 1#32
  let v163 : BitVec 32 := Scalar.muli v5 c1_i32_124
  let v164 : BitVec 32 := Scalar.addi v162 v163
  v164.toNat
def k0_dev17 (d0 : Dev nD) : Nat :=
  let c0_i32_131 : BitVec 32 := 0#32
  let c1_i32_128 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v171 : BitVec 32 := Scalar.subi c1_i32_128 v2
  let c2_i32_130 : BitVec 32 := 2#32
  let v172 : BitVec 32 := Scalar.muli v171 c2_i32_130
  let v173 : BitVec 32 := Scalar.addi c0_i32_131 v172
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_132 : BitVec 32 := 1#32
  let v174 : BitVec 32 := Scalar.muli v5 c1_i32_132
  let v175 : BitVec 32 := Scalar.addi v173 v174
  v175.toNat
def k0_dev18 (d0 : Dev nD) : Nat :=
  let c0_i32_139 : BitVec 32 := 0#32
  let c1_i32_136 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v182 : BitVec 32 := Scalar.subi c1_i32_136 v2
  let c2_i32_138 : BitVec 32 := 2#32
  let v183 : BitVec 32 := Scalar.muli v182 c2_i32_138
  let v184 : BitVec 32 := Scalar.addi c0_i32_139 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v185 : BitVec 32 := Scalar.muli v5 c1_i32_140
  let v186 : BitVec 32 := Scalar.addi v184 v185
  v186.toNat
def k0_dev19 (d0 : Dev nD) : Nat :=
  let c0_i32_147 : BitVec 32 := 0#32
  let c1_i32_144 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v193 : BitVec 32 := Scalar.subi c1_i32_144 v2
  let c2_i32_146 : BitVec 32 := 2#32
  let v194 : BitVec 32 := Scalar.muli v193 c2_i32_146
  let v195 : BitVec 32 := Scalar.addi c0_i32_147 v194
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v196 : BitVec 32 := Scalar.muli v5 c1_i32_148
  let v197 : BitVec 32 := Scalar.addi v195 v196
  v197.toNat
def k0_dev20 (d0 : Dev nD) : Nat :=
  let c0_i32_155 : BitVec 32 := 0#32
  let c1_i32_152 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v204 : BitVec 32 := Scalar.subi c1_i32_152 v2
  let c2_i32_154 : BitVec 32 := 2#32
  let v205 : BitVec 32 := Scalar.muli v204 c2_i32_154
  let v206 : BitVec 32 := Scalar.addi c0_i32_155 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_156 : BitVec 32 := 1#32
  let v207 : BitVec 32 := Scalar.muli v5 c1_i32_156
  let v208 : BitVec 32 := Scalar.addi v206 v207
  v208.toNat
def k0_dev21 (d0 : Dev nD) : Nat :=
  let c0_i32_163 : BitVec 32 := 0#32
  let c1_i32_160 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v215 : BitVec 32 := Scalar.subi c1_i32_160 v2
  let c2_i32_162 : BitVec 32 := 2#32
  let v216 : BitVec 32 := Scalar.muli v215 c2_i32_162
  let v217 : BitVec 32 := Scalar.addi c0_i32_163 v216
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_164 : BitVec 32 := 1#32
  let v218 : BitVec 32 := Scalar.muli v5 c1_i32_164
  let v219 : BitVec 32 := Scalar.addi v217 v218
  v219.toNat
def k0_dev22 (d0 : Dev nD) : Nat :=
  let c0_i32_171 : BitVec 32 := 0#32
  let c1_i32_168 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v226 : BitVec 32 := Scalar.subi c1_i32_168 v2
  let c2_i32_170 : BitVec 32 := 2#32
  let v227 : BitVec 32 := Scalar.muli v226 c2_i32_170
  let v228 : BitVec 32 := Scalar.addi c0_i32_171 v227
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_172 : BitVec 32 := 1#32
  let v229 : BitVec 32 := Scalar.muli v5 c1_i32_172
  let v230 : BitVec 32 := Scalar.addi v228 v229
  v230.toNat
def k0_dev23 (d0 : Dev nD) : Nat :=
  let c0_i32_179 : BitVec 32 := 0#32
  let c1_i32_176 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v237 : BitVec 32 := Scalar.subi c1_i32_176 v2
  let c2_i32_178 : BitVec 32 := 2#32
  let v238 : BitVec 32 := Scalar.muli v237 c2_i32_178
  let v239 : BitVec 32 := Scalar.addi c0_i32_179 v238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_180 : BitVec 32 := 1#32
  let v240 : BitVec 32 := Scalar.muli v5 c1_i32_180
  let v241 : BitVec 32 := Scalar.addi v239 v240
  v241.toNat
def k0_dev24 (d0 : Dev nD) : Nat :=
  let c0_i32_187 : BitVec 32 := 0#32
  let c1_i32_184 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v248 : BitVec 32 := Scalar.subi c1_i32_184 v2
  let c2_i32_186 : BitVec 32 := 2#32
  let v249 : BitVec 32 := Scalar.muli v248 c2_i32_186
  let v250 : BitVec 32 := Scalar.addi c0_i32_187 v249
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_188 : BitVec 32 := 1#32
  let v251 : BitVec 32 := Scalar.muli v5 c1_i32_188
  let v252 : BitVec 32 := Scalar.addi v250 v251
  v252.toNat
def k0_dev25 (d0 : Dev nD) : Nat :=
  let c0_i32_195 : BitVec 32 := 0#32
  let c1_i32_192 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v259 : BitVec 32 := Scalar.subi c1_i32_192 v2
  let c2_i32_194 : BitVec 32 := 2#32
  let v260 : BitVec 32 := Scalar.muli v259 c2_i32_194
  let v261 : BitVec 32 := Scalar.addi c0_i32_195 v260
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_196 : BitVec 32 := 1#32
  let v262 : BitVec 32 := Scalar.muli v5 c1_i32_196
  let v263 : BitVec 32 := Scalar.addi v261 v262
  v263.toNat
def k0_dev26 (d0 : Dev nD) : Nat :=
  let c0_i32_203 : BitVec 32 := 0#32
  let c1_i32_200 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v270 : BitVec 32 := Scalar.subi c1_i32_200 v2
  let c2_i32_202 : BitVec 32 := 2#32
  let v271 : BitVec 32 := Scalar.muli v270 c2_i32_202
  let v272 : BitVec 32 := Scalar.addi c0_i32_203 v271
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_204 : BitVec 32 := 1#32
  let v273 : BitVec 32 := Scalar.muli v5 c1_i32_204
  let v274 : BitVec 32 := Scalar.addi v272 v273
  v274.toNat
def k0_dev27 (d0 : Dev nD) : Nat :=
  let c0_i32_211 : BitVec 32 := 0#32
  let c1_i32_208 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v281 : BitVec 32 := Scalar.subi c1_i32_208 v2
  let c2_i32_210 : BitVec 32 := 2#32
  let v282 : BitVec 32 := Scalar.muli v281 c2_i32_210
  let v283 : BitVec 32 := Scalar.addi c0_i32_211 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_212 : BitVec 32 := 1#32
  let v284 : BitVec 32 := Scalar.muli v5 c1_i32_212
  let v285 : BitVec 32 := Scalar.addi v283 v284
  v285.toNat
def k0_dev28 (d0 : Dev nD) : Nat :=
  let c0_i32_219 : BitVec 32 := 0#32
  let c1_i32_216 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v292 : BitVec 32 := Scalar.subi c1_i32_216 v2
  let c2_i32_218 : BitVec 32 := 2#32
  let v293 : BitVec 32 := Scalar.muli v292 c2_i32_218
  let v294 : BitVec 32 := Scalar.addi c0_i32_219 v293
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_220 : BitVec 32 := 1#32
  let v295 : BitVec 32 := Scalar.muli v5 c1_i32_220
  let v296 : BitVec 32 := Scalar.addi v294 v295
  v296.toNat
def k0_dev29 (d0 : Dev nD) : Nat :=
  let c0_i32_227 : BitVec 32 := 0#32
  let c1_i32_224 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v303 : BitVec 32 := Scalar.subi c1_i32_224 v2
  let c2_i32_226 : BitVec 32 := 2#32
  let v304 : BitVec 32 := Scalar.muli v303 c2_i32_226
  let v305 : BitVec 32 := Scalar.addi c0_i32_227 v304
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_228 : BitVec 32 := 1#32
  let v306 : BitVec 32 := Scalar.muli v5 c1_i32_228
  let v307 : BitVec 32 := Scalar.addi v305 v306
  v307.toNat
def k0_dev30 (d0 : Dev nD) : Nat :=
  let c0_i32_235 : BitVec 32 := 0#32
  let c1_i32_232 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v314 : BitVec 32 := Scalar.subi c1_i32_232 v2
  let c2_i32_234 : BitVec 32 := 2#32
  let v315 : BitVec 32 := Scalar.muli v314 c2_i32_234
  let v316 : BitVec 32 := Scalar.addi c0_i32_235 v315
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v317 : BitVec 32 := Scalar.muli v5 c1_i32_236
  let v318 : BitVec 32 := Scalar.addi v316 v317
  v318.toNat
def k0_dev31 (d0 : Dev nD) : Nat :=
  let c0_i32_243 : BitVec 32 := 0#32
  let c1_i32_240 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v325 : BitVec 32 := Scalar.subi c1_i32_240 v2
  let c2_i32_242 : BitVec 32 := 2#32
  let v326 : BitVec 32 := Scalar.muli v325 c2_i32_242
  let v327 : BitVec 32 := Scalar.addi c0_i32_243 v326
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_244 : BitVec 32 := 1#32
  let v328 : BitVec 32 := Scalar.muli v5 c1_i32_244
  let v329 : BitVec 32 := Scalar.addi v327 v328
  v329.toNat
def k0_dev32 (d0 : Dev nD) : Nat :=
  let c0_i32_251 : BitVec 32 := 0#32
  let c1_i32_248 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v336 : BitVec 32 := Scalar.subi c1_i32_248 v2
  let c2_i32_250 : BitVec 32 := 2#32
  let v337 : BitVec 32 := Scalar.muli v336 c2_i32_250
  let v338 : BitVec 32 := Scalar.addi c0_i32_251 v337
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_252 : BitVec 32 := 1#32
  let v339 : BitVec 32 := Scalar.muli v5 c1_i32_252
  let v340 : BitVec 32 := Scalar.addi v338 v339
  v340.toNat
def k0_dev33 (d0 : Dev nD) : Nat :=
  let c0_i32_259 : BitVec 32 := 0#32
  let c1_i32_256 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v347 : BitVec 32 := Scalar.subi c1_i32_256 v2
  let c2_i32_258 : BitVec 32 := 2#32
  let v348 : BitVec 32 := Scalar.muli v347 c2_i32_258
  let v349 : BitVec 32 := Scalar.addi c0_i32_259 v348
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_260 : BitVec 32 := 1#32
  let v350 : BitVec 32 := Scalar.muli v5 c1_i32_260
  let v351 : BitVec 32 := Scalar.addi v349 v350
  v351.toNat
def k0_dev34 (d0 : Dev nD) : Nat :=
  let c0_i32_267 : BitVec 32 := 0#32
  let c1_i32_264 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v358 : BitVec 32 := Scalar.subi c1_i32_264 v2
  let c2_i32_266 : BitVec 32 := 2#32
  let v359 : BitVec 32 := Scalar.muli v358 c2_i32_266
  let v360 : BitVec 32 := Scalar.addi c0_i32_267 v359
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_268 : BitVec 32 := 1#32
  let v361 : BitVec 32 := Scalar.muli v5 c1_i32_268
  let v362 : BitVec 32 := Scalar.addi v360 v361
  v362.toNat
def k0_off1 (d0 : Dev nD) : Fin 2 → Nat :=
  let c0_285 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_284 : BitVec 32 := 512#32
  let v381 : BitVec 32 := Scalar.muli v5 c512_i32_284
  let v382 : Index := Scalar.indexCast v381
  ![0, v382.toNat]
def k0_off2 (d0 : Dev nD) : Fin 2 → Nat :=
  let c0_i32_294 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_287 : BitVec 32 := 512#32
  let v385 : BitVec 32 := Scalar.muli v5 c512_i32_287
  ![0, v385.toNat]
def k0_dev35 (d0 : Dev nD) : Nat :=
  let c0_i32_292 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_291 : BitVec 32 := 2#32
  let v387 : BitVec 32 := Scalar.muli v2 c2_i32_291
  let v388 : BitVec 32 := Scalar.addi c0_i32_292 v387
  let c1_i32_288 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v386 : BitVec 32 := Scalar.subi c1_i32_288 v5
  let c1_i32_293 : BitVec 32 := 1#32
  let v389 : BitVec 32 := Scalar.muli v386 c1_i32_293
  let v390 : BitVec 32 := Scalar.addi v388 v389
  v390.toNat
def k0_off3 (d0 : Dev nD) : Fin 2 → Nat :=
  let c32_309 : Index := 32#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_308 : BitVec 32 := 512#32
  let v409 : BitVec 32 := Scalar.muli v5 c512_i32_308
  let v410 : Index := Scalar.indexCast v409
  ![32, v410.toNat]
def k0_off4 (d0 : Dev nD) : Fin 2 → Nat :=
  let c32_i32_318 : BitVec 32 := 32#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_311 : BitVec 32 := 512#32
  let v413 : BitVec 32 := Scalar.muli v5 c512_i32_311
  ![32, v413.toNat]
def k0_dev36 (d0 : Dev nD) : Nat :=
  let c0_i32_316 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_315 : BitVec 32 := 2#32
  let v415 : BitVec 32 := Scalar.muli v2 c2_i32_315
  let v416 : BitVec 32 := Scalar.addi c0_i32_316 v415
  let c1_i32_312 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v414 : BitVec 32 := Scalar.subi c1_i32_312 v5
  let c1_i32_317 : BitVec 32 := 1#32
  let v417 : BitVec 32 := Scalar.muli v414 c1_i32_317
  let v418 : BitVec 32 := Scalar.addi v416 v417
  v418.toNat
def k0_off5 (d0 : Dev nD) : Fin 2 → Nat :=
  let c64_333 : Index := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_332 : BitVec 32 := 512#32
  let v437 : BitVec 32 := Scalar.muli v5 c512_i32_332
  let v438 : Index := Scalar.indexCast v437
  ![64, v438.toNat]
def k0_off6 (d0 : Dev nD) : Fin 2 → Nat :=
  let c64_i32_342 : BitVec 32 := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_335 : BitVec 32 := 512#32
  let v441 : BitVec 32 := Scalar.muli v5 c512_i32_335
  ![64, v441.toNat]
def k0_dev37 (d0 : Dev nD) : Nat :=
  let c0_i32_340 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_339 : BitVec 32 := 2#32
  let v443 : BitVec 32 := Scalar.muli v2 c2_i32_339
  let v444 : BitVec 32 := Scalar.addi c0_i32_340 v443
  let c1_i32_336 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v442 : BitVec 32 := Scalar.subi c1_i32_336 v5
  let c1_i32_341 : BitVec 32 := 1#32
  let v445 : BitVec 32 := Scalar.muli v442 c1_i32_341
  let v446 : BitVec 32 := Scalar.addi v444 v445
  v446.toNat
def k0_off7 (d0 : Dev nD) : Fin 2 → Nat :=
  let c96_357 : Index := 96#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_356 : BitVec 32 := 512#32
  let v465 : BitVec 32 := Scalar.muli v5 c512_i32_356
  let v466 : Index := Scalar.indexCast v465
  ![96, v466.toNat]
def k0_off8 (d0 : Dev nD) : Fin 2 → Nat :=
  let c96_i32_366 : BitVec 32 := 96#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_359 : BitVec 32 := 512#32
  let v469 : BitVec 32 := Scalar.muli v5 c512_i32_359
  ![96, v469.toNat]
def k0_dev38 (d0 : Dev nD) : Nat :=
  let c0_i32_364 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_363 : BitVec 32 := 2#32
  let v471 : BitVec 32 := Scalar.muli v2 c2_i32_363
  let v472 : BitVec 32 := Scalar.addi c0_i32_364 v471
  let c1_i32_360 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v470 : BitVec 32 := Scalar.subi c1_i32_360 v5
  let c1_i32_365 : BitVec 32 := 1#32
  let v473 : BitVec 32 := Scalar.muli v470 c1_i32_365
  let v474 : BitVec 32 := Scalar.addi v472 v473
  v474.toNat
def k0_off9 (d0 : Dev nD) : Fin 2 → Nat :=
  let c128_381 : Index := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_380 : BitVec 32 := 512#32
  let v493 : BitVec 32 := Scalar.muli v5 c512_i32_380
  let v494 : Index := Scalar.indexCast v493
  ![128, v494.toNat]
def k0_off10 (d0 : Dev nD) : Fin 2 → Nat :=
  let c128_i32_390 : BitVec 32 := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_383 : BitVec 32 := 512#32
  let v497 : BitVec 32 := Scalar.muli v5 c512_i32_383
  ![128, v497.toNat]
def k0_dev39 (d0 : Dev nD) : Nat :=
  let c0_i32_388 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_387 : BitVec 32 := 2#32
  let v499 : BitVec 32 := Scalar.muli v2 c2_i32_387
  let v500 : BitVec 32 := Scalar.addi c0_i32_388 v499
  let c1_i32_384 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v498 : BitVec 32 := Scalar.subi c1_i32_384 v5
  let c1_i32_389 : BitVec 32 := 1#32
  let v501 : BitVec 32 := Scalar.muli v498 c1_i32_389
  let v502 : BitVec 32 := Scalar.addi v500 v501
  v502.toNat
def k0_off11 (d0 : Dev nD) : Fin 2 → Nat :=
  let c160_405 : Index := 160#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_404 : BitVec 32 := 512#32
  let v521 : BitVec 32 := Scalar.muli v5 c512_i32_404
  let v522 : Index := Scalar.indexCast v521
  ![160, v522.toNat]
def k0_off12 (d0 : Dev nD) : Fin 2 → Nat :=
  let c160_i32_414 : BitVec 32 := 160#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_407 : BitVec 32 := 512#32
  let v525 : BitVec 32 := Scalar.muli v5 c512_i32_407
  ![160, v525.toNat]
def k0_dev40 (d0 : Dev nD) : Nat :=
  let c0_i32_412 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_411 : BitVec 32 := 2#32
  let v527 : BitVec 32 := Scalar.muli v2 c2_i32_411
  let v528 : BitVec 32 := Scalar.addi c0_i32_412 v527
  let c1_i32_408 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v526 : BitVec 32 := Scalar.subi c1_i32_408 v5
  let c1_i32_413 : BitVec 32 := 1#32
  let v529 : BitVec 32 := Scalar.muli v526 c1_i32_413
  let v530 : BitVec 32 := Scalar.addi v528 v529
  v530.toNat
def k0_off13 (d0 : Dev nD) : Fin 2 → Nat :=
  let c192_429 : Index := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_428 : BitVec 32 := 512#32
  let v549 : BitVec 32 := Scalar.muli v5 c512_i32_428
  let v550 : Index := Scalar.indexCast v549
  ![192, v550.toNat]
def k0_off14 (d0 : Dev nD) : Fin 2 → Nat :=
  let c192_i32_438 : BitVec 32 := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_431 : BitVec 32 := 512#32
  let v553 : BitVec 32 := Scalar.muli v5 c512_i32_431
  ![192, v553.toNat]
def k0_dev41 (d0 : Dev nD) : Nat :=
  let c0_i32_436 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_435 : BitVec 32 := 2#32
  let v555 : BitVec 32 := Scalar.muli v2 c2_i32_435
  let v556 : BitVec 32 := Scalar.addi c0_i32_436 v555
  let c1_i32_432 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v554 : BitVec 32 := Scalar.subi c1_i32_432 v5
  let c1_i32_437 : BitVec 32 := 1#32
  let v557 : BitVec 32 := Scalar.muli v554 c1_i32_437
  let v558 : BitVec 32 := Scalar.addi v556 v557
  v558.toNat
def k0_off15 (d0 : Dev nD) : Fin 2 → Nat :=
  let c224_453 : Index := 224#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_452 : BitVec 32 := 512#32
  let v577 : BitVec 32 := Scalar.muli v5 c512_i32_452
  let v578 : Index := Scalar.indexCast v577
  ![224, v578.toNat]
def k0_off16 (d0 : Dev nD) : Fin 2 → Nat :=
  let c224_i32_462 : BitVec 32 := 224#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_455 : BitVec 32 := 512#32
  let v581 : BitVec 32 := Scalar.muli v5 c512_i32_455
  ![224, v581.toNat]
def k0_dev42 (d0 : Dev nD) : Nat :=
  let c0_i32_460 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_459 : BitVec 32 := 2#32
  let v583 : BitVec 32 := Scalar.muli v2 c2_i32_459
  let v584 : BitVec 32 := Scalar.addi c0_i32_460 v583
  let c1_i32_456 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v582 : BitVec 32 := Scalar.subi c1_i32_456 v5
  let c1_i32_461 : BitVec 32 := 1#32
  let v585 : BitVec 32 := Scalar.muli v582 c1_i32_461
  let v586 : BitVec 32 := Scalar.addi v584 v585
  v586.toNat
def k0_off17 (d0 : Dev nD) : Fin 2 → Nat :=
  let c256_477 : Index := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_476 : BitVec 32 := 512#32
  let v605 : BitVec 32 := Scalar.muli v5 c512_i32_476
  let v606 : Index := Scalar.indexCast v605
  ![256, v606.toNat]
def k0_off18 (d0 : Dev nD) : Fin 2 → Nat :=
  let c256_i32_486 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_479 : BitVec 32 := 512#32
  let v609 : BitVec 32 := Scalar.muli v5 c512_i32_479
  ![256, v609.toNat]
def k0_dev43 (d0 : Dev nD) : Nat :=
  let c0_i32_484 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_483 : BitVec 32 := 2#32
  let v611 : BitVec 32 := Scalar.muli v2 c2_i32_483
  let v612 : BitVec 32 := Scalar.addi c0_i32_484 v611
  let c1_i32_480 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v610 : BitVec 32 := Scalar.subi c1_i32_480 v5
  let c1_i32_485 : BitVec 32 := 1#32
  let v613 : BitVec 32 := Scalar.muli v610 c1_i32_485
  let v614 : BitVec 32 := Scalar.addi v612 v613
  v614.toNat
def k0_off19 (d0 : Dev nD) : Fin 2 → Nat :=
  let c288_501 : Index := 288#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_500 : BitVec 32 := 512#32
  let v633 : BitVec 32 := Scalar.muli v5 c512_i32_500
  let v634 : Index := Scalar.indexCast v633
  ![288, v634.toNat]
def k0_off20 (d0 : Dev nD) : Fin 2 → Nat :=
  let c288_i32_510 : BitVec 32 := 288#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_503 : BitVec 32 := 512#32
  let v637 : BitVec 32 := Scalar.muli v5 c512_i32_503
  ![288, v637.toNat]
def k0_dev44 (d0 : Dev nD) : Nat :=
  let c0_i32_508 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_507 : BitVec 32 := 2#32
  let v639 : BitVec 32 := Scalar.muli v2 c2_i32_507
  let v640 : BitVec 32 := Scalar.addi c0_i32_508 v639
  let c1_i32_504 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v638 : BitVec 32 := Scalar.subi c1_i32_504 v5
  let c1_i32_509 : BitVec 32 := 1#32
  let v641 : BitVec 32 := Scalar.muli v638 c1_i32_509
  let v642 : BitVec 32 := Scalar.addi v640 v641
  v642.toNat
def k0_off21 (d0 : Dev nD) : Fin 2 → Nat :=
  let c320_525 : Index := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_524 : BitVec 32 := 512#32
  let v661 : BitVec 32 := Scalar.muli v5 c512_i32_524
  let v662 : Index := Scalar.indexCast v661
  ![320, v662.toNat]
def k0_off22 (d0 : Dev nD) : Fin 2 → Nat :=
  let c320_i32_534 : BitVec 32 := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_527 : BitVec 32 := 512#32
  let v665 : BitVec 32 := Scalar.muli v5 c512_i32_527
  ![320, v665.toNat]
def k0_dev45 (d0 : Dev nD) : Nat :=
  let c0_i32_532 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_531 : BitVec 32 := 2#32
  let v667 : BitVec 32 := Scalar.muli v2 c2_i32_531
  let v668 : BitVec 32 := Scalar.addi c0_i32_532 v667
  let c1_i32_528 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v666 : BitVec 32 := Scalar.subi c1_i32_528 v5
  let c1_i32_533 : BitVec 32 := 1#32
  let v669 : BitVec 32 := Scalar.muli v666 c1_i32_533
  let v670 : BitVec 32 := Scalar.addi v668 v669
  v670.toNat
def k0_off23 (d0 : Dev nD) : Fin 2 → Nat :=
  let c352_549 : Index := 352#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_548 : BitVec 32 := 512#32
  let v689 : BitVec 32 := Scalar.muli v5 c512_i32_548
  let v690 : Index := Scalar.indexCast v689
  ![352, v690.toNat]
def k0_off24 (d0 : Dev nD) : Fin 2 → Nat :=
  let c352_i32_558 : BitVec 32 := 352#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_551 : BitVec 32 := 512#32
  let v693 : BitVec 32 := Scalar.muli v5 c512_i32_551
  ![352, v693.toNat]
def k0_dev46 (d0 : Dev nD) : Nat :=
  let c0_i32_556 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_555 : BitVec 32 := 2#32
  let v695 : BitVec 32 := Scalar.muli v2 c2_i32_555
  let v696 : BitVec 32 := Scalar.addi c0_i32_556 v695
  let c1_i32_552 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v694 : BitVec 32 := Scalar.subi c1_i32_552 v5
  let c1_i32_557 : BitVec 32 := 1#32
  let v697 : BitVec 32 := Scalar.muli v694 c1_i32_557
  let v698 : BitVec 32 := Scalar.addi v696 v697
  v698.toNat
def k0_off25 (d0 : Dev nD) : Fin 2 → Nat :=
  let c384_573 : Index := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_572 : BitVec 32 := 512#32
  let v717 : BitVec 32 := Scalar.muli v5 c512_i32_572
  let v718 : Index := Scalar.indexCast v717
  ![384, v718.toNat]
def k0_off26 (d0 : Dev nD) : Fin 2 → Nat :=
  let c384_i32_582 : BitVec 32 := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_575 : BitVec 32 := 512#32
  let v721 : BitVec 32 := Scalar.muli v5 c512_i32_575
  ![384, v721.toNat]
def k0_dev47 (d0 : Dev nD) : Nat :=
  let c0_i32_580 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_579 : BitVec 32 := 2#32
  let v723 : BitVec 32 := Scalar.muli v2 c2_i32_579
  let v724 : BitVec 32 := Scalar.addi c0_i32_580 v723
  let c1_i32_576 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v722 : BitVec 32 := Scalar.subi c1_i32_576 v5
  let c1_i32_581 : BitVec 32 := 1#32
  let v725 : BitVec 32 := Scalar.muli v722 c1_i32_581
  let v726 : BitVec 32 := Scalar.addi v724 v725
  v726.toNat
def k0_off27 (d0 : Dev nD) : Fin 2 → Nat :=
  let c416_597 : Index := 416#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_596 : BitVec 32 := 512#32
  let v745 : BitVec 32 := Scalar.muli v5 c512_i32_596
  let v746 : Index := Scalar.indexCast v745
  ![416, v746.toNat]
def k0_off28 (d0 : Dev nD) : Fin 2 → Nat :=
  let c416_i32_606 : BitVec 32 := 416#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_599 : BitVec 32 := 512#32
  let v749 : BitVec 32 := Scalar.muli v5 c512_i32_599
  ![416, v749.toNat]
def k0_dev48 (d0 : Dev nD) : Nat :=
  let c0_i32_604 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_603 : BitVec 32 := 2#32
  let v751 : BitVec 32 := Scalar.muli v2 c2_i32_603
  let v752 : BitVec 32 := Scalar.addi c0_i32_604 v751
  let c1_i32_600 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v750 : BitVec 32 := Scalar.subi c1_i32_600 v5
  let c1_i32_605 : BitVec 32 := 1#32
  let v753 : BitVec 32 := Scalar.muli v750 c1_i32_605
  let v754 : BitVec 32 := Scalar.addi v752 v753
  v754.toNat
def k0_off29 (d0 : Dev nD) : Fin 2 → Nat :=
  let c448_621 : Index := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_620 : BitVec 32 := 512#32
  let v773 : BitVec 32 := Scalar.muli v5 c512_i32_620
  let v774 : Index := Scalar.indexCast v773
  ![448, v774.toNat]
def k0_off30 (d0 : Dev nD) : Fin 2 → Nat :=
  let c448_i32_630 : BitVec 32 := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_623 : BitVec 32 := 512#32
  let v777 : BitVec 32 := Scalar.muli v5 c512_i32_623
  ![448, v777.toNat]
def k0_dev49 (d0 : Dev nD) : Nat :=
  let c0_i32_628 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_627 : BitVec 32 := 2#32
  let v779 : BitVec 32 := Scalar.muli v2 c2_i32_627
  let v780 : BitVec 32 := Scalar.addi c0_i32_628 v779
  let c1_i32_624 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v778 : BitVec 32 := Scalar.subi c1_i32_624 v5
  let c1_i32_629 : BitVec 32 := 1#32
  let v781 : BitVec 32 := Scalar.muli v778 c1_i32_629
  let v782 : BitVec 32 := Scalar.addi v780 v781
  v782.toNat
def k0_off31 (d0 : Dev nD) : Fin 2 → Nat :=
  let c480_645 : Index := 480#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_644 : BitVec 32 := 512#32
  let v801 : BitVec 32 := Scalar.muli v5 c512_i32_644
  let v802 : Index := Scalar.indexCast v801
  ![480, v802.toNat]
def k0_off32 (d0 : Dev nD) : Fin 2 → Nat :=
  let c480_i32_654 : BitVec 32 := 480#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_647 : BitVec 32 := 512#32
  let v805 : BitVec 32 := Scalar.muli v5 c512_i32_647
  ![480, v805.toNat]
def k0_dev50 (d0 : Dev nD) : Nat :=
  let c0_i32_652 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_651 : BitVec 32 := 2#32
  let v807 : BitVec 32 := Scalar.muli v2 c2_i32_651
  let v808 : BitVec 32 := Scalar.addi c0_i32_652 v807
  let c1_i32_648 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v806 : BitVec 32 := Scalar.subi c1_i32_648 v5
  let c1_i32_653 : BitVec 32 := 1#32
  let v809 : BitVec 32 := Scalar.muli v806 c1_i32_653
  let v810 : BitVec 32 := Scalar.addi v808 v809
  v810.toNat
def k0_off33 (d0 : Dev nD) : Fin 2 → Nat :=
  let c512_669 : Index := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_668 : BitVec 32 := 512#32
  let v829 : BitVec 32 := Scalar.muli v5 c512_i32_668
  let v830 : Index := Scalar.indexCast v829
  ![512, v830.toNat]
def k0_off34 (d0 : Dev nD) : Fin 2 → Nat :=
  let c512_i32_678 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_671 : BitVec 32 := 512#32
  let v833 : BitVec 32 := Scalar.muli v5 c512_i32_671
  ![512, v833.toNat]
def k0_dev51 (d0 : Dev nD) : Nat :=
  let c0_i32_676 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_675 : BitVec 32 := 2#32
  let v835 : BitVec 32 := Scalar.muli v2 c2_i32_675
  let v836 : BitVec 32 := Scalar.addi c0_i32_676 v835
  let c1_i32_672 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v834 : BitVec 32 := Scalar.subi c1_i32_672 v5
  let c1_i32_677 : BitVec 32 := 1#32
  let v837 : BitVec 32 := Scalar.muli v834 c1_i32_677
  let v838 : BitVec 32 := Scalar.addi v836 v837
  v838.toNat
def k0_off35 (d0 : Dev nD) : Fin 2 → Nat :=
  let c544_693 : Index := 544#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_692 : BitVec 32 := 512#32
  let v857 : BitVec 32 := Scalar.muli v5 c512_i32_692
  let v858 : Index := Scalar.indexCast v857
  ![544, v858.toNat]
def k0_off36 (d0 : Dev nD) : Fin 2 → Nat :=
  let c544_i32_702 : BitVec 32 := 544#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_695 : BitVec 32 := 512#32
  let v861 : BitVec 32 := Scalar.muli v5 c512_i32_695
  ![544, v861.toNat]
def k0_dev52 (d0 : Dev nD) : Nat :=
  let c0_i32_700 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_699 : BitVec 32 := 2#32
  let v863 : BitVec 32 := Scalar.muli v2 c2_i32_699
  let v864 : BitVec 32 := Scalar.addi c0_i32_700 v863
  let c1_i32_696 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v862 : BitVec 32 := Scalar.subi c1_i32_696 v5
  let c1_i32_701 : BitVec 32 := 1#32
  let v865 : BitVec 32 := Scalar.muli v862 c1_i32_701
  let v866 : BitVec 32 := Scalar.addi v864 v865
  v866.toNat
def k0_off37 (d0 : Dev nD) : Fin 2 → Nat :=
  let c576_717 : Index := 576#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_716 : BitVec 32 := 512#32
  let v885 : BitVec 32 := Scalar.muli v5 c512_i32_716
  let v886 : Index := Scalar.indexCast v885
  ![576, v886.toNat]
def k0_off38 (d0 : Dev nD) : Fin 2 → Nat :=
  let c576_i32_726 : BitVec 32 := 576#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_719 : BitVec 32 := 512#32
  let v889 : BitVec 32 := Scalar.muli v5 c512_i32_719
  ![576, v889.toNat]
def k0_dev53 (d0 : Dev nD) : Nat :=
  let c0_i32_724 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_723 : BitVec 32 := 2#32
  let v891 : BitVec 32 := Scalar.muli v2 c2_i32_723
  let v892 : BitVec 32 := Scalar.addi c0_i32_724 v891
  let c1_i32_720 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v890 : BitVec 32 := Scalar.subi c1_i32_720 v5
  let c1_i32_725 : BitVec 32 := 1#32
  let v893 : BitVec 32 := Scalar.muli v890 c1_i32_725
  let v894 : BitVec 32 := Scalar.addi v892 v893
  v894.toNat
def k0_off39 (d0 : Dev nD) : Fin 2 → Nat :=
  let c608_741 : Index := 608#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_740 : BitVec 32 := 512#32
  let v913 : BitVec 32 := Scalar.muli v5 c512_i32_740
  let v914 : Index := Scalar.indexCast v913
  ![608, v914.toNat]
def k0_off40 (d0 : Dev nD) : Fin 2 → Nat :=
  let c608_i32_750 : BitVec 32 := 608#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_743 : BitVec 32 := 512#32
  let v917 : BitVec 32 := Scalar.muli v5 c512_i32_743
  ![608, v917.toNat]
def k0_dev54 (d0 : Dev nD) : Nat :=
  let c0_i32_748 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_747 : BitVec 32 := 2#32
  let v919 : BitVec 32 := Scalar.muli v2 c2_i32_747
  let v920 : BitVec 32 := Scalar.addi c0_i32_748 v919
  let c1_i32_744 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v918 : BitVec 32 := Scalar.subi c1_i32_744 v5
  let c1_i32_749 : BitVec 32 := 1#32
  let v921 : BitVec 32 := Scalar.muli v918 c1_i32_749
  let v922 : BitVec 32 := Scalar.addi v920 v921
  v922.toNat
def k0_off41 (d0 : Dev nD) : Fin 2 → Nat :=
  let c640_765 : Index := 640#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_764 : BitVec 32 := 512#32
  let v941 : BitVec 32 := Scalar.muli v5 c512_i32_764
  let v942 : Index := Scalar.indexCast v941
  ![640, v942.toNat]
def k0_off42 (d0 : Dev nD) : Fin 2 → Nat :=
  let c640_i32_774 : BitVec 32 := 640#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_767 : BitVec 32 := 512#32
  let v945 : BitVec 32 := Scalar.muli v5 c512_i32_767
  ![640, v945.toNat]
def k0_dev55 (d0 : Dev nD) : Nat :=
  let c0_i32_772 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_771 : BitVec 32 := 2#32
  let v947 : BitVec 32 := Scalar.muli v2 c2_i32_771
  let v948 : BitVec 32 := Scalar.addi c0_i32_772 v947
  let c1_i32_768 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v946 : BitVec 32 := Scalar.subi c1_i32_768 v5
  let c1_i32_773 : BitVec 32 := 1#32
  let v949 : BitVec 32 := Scalar.muli v946 c1_i32_773
  let v950 : BitVec 32 := Scalar.addi v948 v949
  v950.toNat
def k0_off43 (d0 : Dev nD) : Fin 2 → Nat :=
  let c672_789 : Index := 672#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_788 : BitVec 32 := 512#32
  let v969 : BitVec 32 := Scalar.muli v5 c512_i32_788
  let v970 : Index := Scalar.indexCast v969
  ![672, v970.toNat]
def k0_off44 (d0 : Dev nD) : Fin 2 → Nat :=
  let c672_i32_798 : BitVec 32 := 672#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_791 : BitVec 32 := 512#32
  let v973 : BitVec 32 := Scalar.muli v5 c512_i32_791
  ![672, v973.toNat]
def k0_dev56 (d0 : Dev nD) : Nat :=
  let c0_i32_796 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_795 : BitVec 32 := 2#32
  let v975 : BitVec 32 := Scalar.muli v2 c2_i32_795
  let v976 : BitVec 32 := Scalar.addi c0_i32_796 v975
  let c1_i32_792 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v974 : BitVec 32 := Scalar.subi c1_i32_792 v5
  let c1_i32_797 : BitVec 32 := 1#32
  let v977 : BitVec 32 := Scalar.muli v974 c1_i32_797
  let v978 : BitVec 32 := Scalar.addi v976 v977
  v978.toNat
def k0_off45 (d0 : Dev nD) : Fin 2 → Nat :=
  let c704_813 : Index := 704#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_812 : BitVec 32 := 512#32
  let v997 : BitVec 32 := Scalar.muli v5 c512_i32_812
  let v998 : Index := Scalar.indexCast v997
  ![704, v998.toNat]
def k0_off46 (d0 : Dev nD) : Fin 2 → Nat :=
  let c704_i32_822 : BitVec 32 := 704#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_815 : BitVec 32 := 512#32
  let v1001 : BitVec 32 := Scalar.muli v5 c512_i32_815
  ![704, v1001.toNat]
def k0_dev57 (d0 : Dev nD) : Nat :=
  let c0_i32_820 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_819 : BitVec 32 := 2#32
  let v1003 : BitVec 32 := Scalar.muli v2 c2_i32_819
  let v1004 : BitVec 32 := Scalar.addi c0_i32_820 v1003
  let c1_i32_816 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1002 : BitVec 32 := Scalar.subi c1_i32_816 v5
  let c1_i32_821 : BitVec 32 := 1#32
  let v1005 : BitVec 32 := Scalar.muli v1002 c1_i32_821
  let v1006 : BitVec 32 := Scalar.addi v1004 v1005
  v1006.toNat
def k0_off47 (d0 : Dev nD) : Fin 2 → Nat :=
  let c736_837 : Index := 736#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_836 : BitVec 32 := 512#32
  let v1025 : BitVec 32 := Scalar.muli v5 c512_i32_836
  let v1026 : Index := Scalar.indexCast v1025
  ![736, v1026.toNat]
def k0_off48 (d0 : Dev nD) : Fin 2 → Nat :=
  let c736_i32_846 : BitVec 32 := 736#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_839 : BitVec 32 := 512#32
  let v1029 : BitVec 32 := Scalar.muli v5 c512_i32_839
  ![736, v1029.toNat]
def k0_dev58 (d0 : Dev nD) : Nat :=
  let c0_i32_844 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_843 : BitVec 32 := 2#32
  let v1031 : BitVec 32 := Scalar.muli v2 c2_i32_843
  let v1032 : BitVec 32 := Scalar.addi c0_i32_844 v1031
  let c1_i32_840 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1030 : BitVec 32 := Scalar.subi c1_i32_840 v5
  let c1_i32_845 : BitVec 32 := 1#32
  let v1033 : BitVec 32 := Scalar.muli v1030 c1_i32_845
  let v1034 : BitVec 32 := Scalar.addi v1032 v1033
  v1034.toNat
def k0_off49 (d0 : Dev nD) : Fin 2 → Nat :=
  let c768_861 : Index := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_860 : BitVec 32 := 512#32
  let v1053 : BitVec 32 := Scalar.muli v5 c512_i32_860
  let v1054 : Index := Scalar.indexCast v1053
  ![768, v1054.toNat]
def k0_off50 (d0 : Dev nD) : Fin 2 → Nat :=
  let c768_i32_870 : BitVec 32 := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_863 : BitVec 32 := 512#32
  let v1057 : BitVec 32 := Scalar.muli v5 c512_i32_863
  ![768, v1057.toNat]
def k0_dev59 (d0 : Dev nD) : Nat :=
  let c0_i32_868 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_867 : BitVec 32 := 2#32
  let v1059 : BitVec 32 := Scalar.muli v2 c2_i32_867
  let v1060 : BitVec 32 := Scalar.addi c0_i32_868 v1059
  let c1_i32_864 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1058 : BitVec 32 := Scalar.subi c1_i32_864 v5
  let c1_i32_869 : BitVec 32 := 1#32
  let v1061 : BitVec 32 := Scalar.muli v1058 c1_i32_869
  let v1062 : BitVec 32 := Scalar.addi v1060 v1061
  v1062.toNat
def k0_off51 (d0 : Dev nD) : Fin 2 → Nat :=
  let c800_885 : Index := 800#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_884 : BitVec 32 := 512#32
  let v1081 : BitVec 32 := Scalar.muli v5 c512_i32_884
  let v1082 : Index := Scalar.indexCast v1081
  ![800, v1082.toNat]
def k0_off52 (d0 : Dev nD) : Fin 2 → Nat :=
  let c800_i32_894 : BitVec 32 := 800#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_887 : BitVec 32 := 512#32
  let v1085 : BitVec 32 := Scalar.muli v5 c512_i32_887
  ![800, v1085.toNat]
def k0_dev60 (d0 : Dev nD) : Nat :=
  let c0_i32_892 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_891 : BitVec 32 := 2#32
  let v1087 : BitVec 32 := Scalar.muli v2 c2_i32_891
  let v1088 : BitVec 32 := Scalar.addi c0_i32_892 v1087
  let c1_i32_888 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1086 : BitVec 32 := Scalar.subi c1_i32_888 v5
  let c1_i32_893 : BitVec 32 := 1#32
  let v1089 : BitVec 32 := Scalar.muli v1086 c1_i32_893
  let v1090 : BitVec 32 := Scalar.addi v1088 v1089
  v1090.toNat
def k0_off53 (d0 : Dev nD) : Fin 2 → Nat :=
  let c832_909 : Index := 832#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_908 : BitVec 32 := 512#32
  let v1109 : BitVec 32 := Scalar.muli v5 c512_i32_908
  let v1110 : Index := Scalar.indexCast v1109
  ![832, v1110.toNat]
def k0_off54 (d0 : Dev nD) : Fin 2 → Nat :=
  let c832_i32_918 : BitVec 32 := 832#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_911 : BitVec 32 := 512#32
  let v1113 : BitVec 32 := Scalar.muli v5 c512_i32_911
  ![832, v1113.toNat]
def k0_dev61 (d0 : Dev nD) : Nat :=
  let c0_i32_916 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_915 : BitVec 32 := 2#32
  let v1115 : BitVec 32 := Scalar.muli v2 c2_i32_915
  let v1116 : BitVec 32 := Scalar.addi c0_i32_916 v1115
  let c1_i32_912 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1114 : BitVec 32 := Scalar.subi c1_i32_912 v5
  let c1_i32_917 : BitVec 32 := 1#32
  let v1117 : BitVec 32 := Scalar.muli v1114 c1_i32_917
  let v1118 : BitVec 32 := Scalar.addi v1116 v1117
  v1118.toNat
def k0_off55 (d0 : Dev nD) : Fin 2 → Nat :=
  let c864_933 : Index := 864#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_932 : BitVec 32 := 512#32
  let v1137 : BitVec 32 := Scalar.muli v5 c512_i32_932
  let v1138 : Index := Scalar.indexCast v1137
  ![864, v1138.toNat]
def k0_off56 (d0 : Dev nD) : Fin 2 → Nat :=
  let c864_i32_942 : BitVec 32 := 864#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_935 : BitVec 32 := 512#32
  let v1141 : BitVec 32 := Scalar.muli v5 c512_i32_935
  ![864, v1141.toNat]
def k0_dev62 (d0 : Dev nD) : Nat :=
  let c0_i32_940 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_939 : BitVec 32 := 2#32
  let v1143 : BitVec 32 := Scalar.muli v2 c2_i32_939
  let v1144 : BitVec 32 := Scalar.addi c0_i32_940 v1143
  let c1_i32_936 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1142 : BitVec 32 := Scalar.subi c1_i32_936 v5
  let c1_i32_941 : BitVec 32 := 1#32
  let v1145 : BitVec 32 := Scalar.muli v1142 c1_i32_941
  let v1146 : BitVec 32 := Scalar.addi v1144 v1145
  v1146.toNat
def k0_off57 (d0 : Dev nD) : Fin 2 → Nat :=
  let c896_957 : Index := 896#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_956 : BitVec 32 := 512#32
  let v1165 : BitVec 32 := Scalar.muli v5 c512_i32_956
  let v1166 : Index := Scalar.indexCast v1165
  ![896, v1166.toNat]
def k0_off58 (d0 : Dev nD) : Fin 2 → Nat :=
  let c896_i32_966 : BitVec 32 := 896#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_959 : BitVec 32 := 512#32
  let v1169 : BitVec 32 := Scalar.muli v5 c512_i32_959
  ![896, v1169.toNat]
def k0_dev63 (d0 : Dev nD) : Nat :=
  let c0_i32_964 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_963 : BitVec 32 := 2#32
  let v1171 : BitVec 32 := Scalar.muli v2 c2_i32_963
  let v1172 : BitVec 32 := Scalar.addi c0_i32_964 v1171
  let c1_i32_960 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1170 : BitVec 32 := Scalar.subi c1_i32_960 v5
  let c1_i32_965 : BitVec 32 := 1#32
  let v1173 : BitVec 32 := Scalar.muli v1170 c1_i32_965
  let v1174 : BitVec 32 := Scalar.addi v1172 v1173
  v1174.toNat
def k0_off59 (d0 : Dev nD) : Fin 2 → Nat :=
  let c928_981 : Index := 928#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_980 : BitVec 32 := 512#32
  let v1193 : BitVec 32 := Scalar.muli v5 c512_i32_980
  let v1194 : Index := Scalar.indexCast v1193
  ![928, v1194.toNat]
def k0_off60 (d0 : Dev nD) : Fin 2 → Nat :=
  let c928_i32_990 : BitVec 32 := 928#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_983 : BitVec 32 := 512#32
  let v1197 : BitVec 32 := Scalar.muli v5 c512_i32_983
  ![928, v1197.toNat]
def k0_dev64 (d0 : Dev nD) : Nat :=
  let c0_i32_988 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_987 : BitVec 32 := 2#32
  let v1199 : BitVec 32 := Scalar.muli v2 c2_i32_987
  let v1200 : BitVec 32 := Scalar.addi c0_i32_988 v1199
  let c1_i32_984 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1198 : BitVec 32 := Scalar.subi c1_i32_984 v5
  let c1_i32_989 : BitVec 32 := 1#32
  let v1201 : BitVec 32 := Scalar.muli v1198 c1_i32_989
  let v1202 : BitVec 32 := Scalar.addi v1200 v1201
  v1202.toNat
def k0_off61 (d0 : Dev nD) : Fin 2 → Nat :=
  let c960_1005 : Index := 960#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_1004 : BitVec 32 := 512#32
  let v1221 : BitVec 32 := Scalar.muli v5 c512_i32_1004
  let v1222 : Index := Scalar.indexCast v1221
  ![960, v1222.toNat]
def k0_off62 (d0 : Dev nD) : Fin 2 → Nat :=
  let c960_i32_1014 : BitVec 32 := 960#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_1007 : BitVec 32 := 512#32
  let v1225 : BitVec 32 := Scalar.muli v5 c512_i32_1007
  ![960, v1225.toNat]
def k0_dev65 (d0 : Dev nD) : Nat :=
  let c0_i32_1012 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1011 : BitVec 32 := 2#32
  let v1227 : BitVec 32 := Scalar.muli v2 c2_i32_1011
  let v1228 : BitVec 32 := Scalar.addi c0_i32_1012 v1227
  let c1_i32_1008 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1226 : BitVec 32 := Scalar.subi c1_i32_1008 v5
  let c1_i32_1013 : BitVec 32 := 1#32
  let v1229 : BitVec 32 := Scalar.muli v1226 c1_i32_1013
  let v1230 : BitVec 32 := Scalar.addi v1228 v1229
  v1230.toNat
def k0_off63 (d0 : Dev nD) : Fin 2 → Nat :=
  let c992_1029 : Index := 992#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_1028 : BitVec 32 := 512#32
  let v1249 : BitVec 32 := Scalar.muli v5 c512_i32_1028
  let v1250 : Index := Scalar.indexCast v1249
  ![992, v1250.toNat]
def k0_off64 (d0 : Dev nD) : Fin 2 → Nat :=
  let c992_i32_1038 : BitVec 32 := 992#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_1031 : BitVec 32 := 512#32
  let v1253 : BitVec 32 := Scalar.muli v5 c512_i32_1031
  ![992, v1253.toNat]
def k0_dev66 (d0 : Dev nD) : Nat :=
  let c0_i32_1036 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1035 : BitVec 32 := 2#32
  let v1255 : BitVec 32 := Scalar.muli v2 c2_i32_1035
  let v1256 : BitVec 32 := Scalar.addi c0_i32_1036 v1255
  let c1_i32_1032 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1254 : BitVec 32 := Scalar.subi c1_i32_1032 v5
  let c1_i32_1037 : BitVec 32 := 1#32
  let v1257 : BitVec 32 := Scalar.muli v1254 c1_i32_1037
  let v1258 : BitVec 32 := Scalar.addi v1256 v1257
  v1258.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S1024x512_S32x512_0_0 : ∀ a, (![0, 0] : Fin 2 → Nat) a + S32x512.size a ≤ S1024x512.size a
  inb_S32_S1_1 : ∀ a, (![1] : Fin 1 → Nat) a + S1.size a ≤ S32.size a
  inb_S1024x512_S32x512_32_0 : ∀ a, (![32, 0] : Fin 2 → Nat) a + S32x512.size a ≤ S1024x512.size a
  inb_S32_S1_2 : ∀ a, (![2] : Fin 1 → Nat) a + S1.size a ≤ S32.size a
  inb_S1024x512_S32x512_64_0 : ∀ a, (![64, 0] : Fin 2 → Nat) a + S32x512.size a ≤ S1024x512.size a
  inb_S32_S1_3 : ∀ a, (![3] : Fin 1 → Nat) a + S1.size a ≤ S32.size a
  inb_S1024x512_S32x512_96_0 : ∀ a, (![96, 0] : Fin 2 → Nat) a + S32x512.size a ≤ S1024x512.size a
  inb_S32_S1_4 : ∀ a, (![4] : Fin 1 → Nat) a + S1.size a ≤ S32.size a
  inb_S1024x512_S32x512_128_0 : ∀ a, (![128, 0] : Fin 2 → Nat) a + S32x512.size a ≤ S1024x512.size a
  inb_S32_S1_5 : ∀ a, (![5] : Fin 1 → Nat) a + S1.size a ≤ S32.size a
  inb_S1024x512_S32x512_160_0 : ∀ a, (![160, 0] : Fin 2 → Nat) a + S32x512.size a ≤ S1024x512.size a
  inb_S32_S1_6 : ∀ a, (![6] : Fin 1 → Nat) a + S1.size a ≤ S32.size a
  inb_S1024x512_S32x512_192_0 : ∀ a, (![192, 0] : Fin 2 → Nat) a + S32x512.size a ≤ S1024x512.size a
  inb_S32_S1_7 : ∀ a, (![7] : Fin 1 → Nat) a + S1.size a ≤ S32.size a
  inb_S1024x512_S32x512_224_0 : ∀ a, (![224, 0] : Fin 2 → Nat) a + S32x512.size a ≤ S1024x512.size a
  inb_S32_S1_8 : ∀ a, (![8] : Fin 1 → Nat) a + S1.size a ≤ S32.size a
  inb_S1024x512_S32x512_256_0 : ∀ a, (![256, 0] : Fin 2 → Nat) a + S32x512.size a ≤ S1024x512.size a
  inb_S32_S1_9 : ∀ a, (![9] : Fin 1 → Nat) a + S1.size a ≤ S32.size a
  inb_S1024x512_S32x512_288_0 : ∀ a, (![288, 0] : Fin 2 → Nat) a + S32x512.size a ≤ S1024x512.size a
  inb_S32_S1_10 : ∀ a, (![10] : Fin 1 → Nat) a + S1.size a ≤ S32.size a
  inb_S1024x512_S32x512_320_0 : ∀ a, (![320, 0] : Fin 2 → Nat) a + S32x512.size a ≤ S1024x512.size a
  inb_S32_S1_11 : ∀ a, (![11] : Fin 1 → Nat) a + S1.size a ≤ S32.size a
  inb_S1024x512_S32x512_352_0 : ∀ a, (![352, 0] : Fin 2 → Nat) a + S32x512.size a ≤ S1024x512.size a
  inb_S32_S1_12 : ∀ a, (![12] : Fin 1 → Nat) a + S1.size a ≤ S32.size a
  inb_S1024x512_S32x512_384_0 : ∀ a, (![384, 0] : Fin 2 → Nat) a + S32x512.size a ≤ S1024x512.size a
  inb_S32_S1_13 : ∀ a, (![13] : Fin 1 → Nat) a + S1.size a ≤ S32.size a
  inb_S1024x512_S32x512_416_0 : ∀ a, (![416, 0] : Fin 2 → Nat) a + S32x512.size a ≤ S1024x512.size a
  inb_S32_S1_14 : ∀ a, (![14] : Fin 1 → Nat) a + S1.size a ≤ S32.size a
  inb_S1024x512_S32x512_448_0 : ∀ a, (![448, 0] : Fin 2 → Nat) a + S32x512.size a ≤ S1024x512.size a
  inb_S32_S1_15 : ∀ a, (![15] : Fin 1 → Nat) a + S1.size a ≤ S32.size a
  inb_S1024x512_S32x512_480_0 : ∀ a, (![480, 0] : Fin 2 → Nat) a + S32x512.size a ≤ S1024x512.size a
  inb_S32_S1_16 : ∀ a, (![16] : Fin 1 → Nat) a + S1.size a ≤ S32.size a
  inb_S1024x512_S32x512_512_0 : ∀ a, (![512, 0] : Fin 2 → Nat) a + S32x512.size a ≤ S1024x512.size a
  inb_S32_S1_17 : ∀ a, (![17] : Fin 1 → Nat) a + S1.size a ≤ S32.size a
  inb_S1024x512_S32x512_544_0 : ∀ a, (![544, 0] : Fin 2 → Nat) a + S32x512.size a ≤ S1024x512.size a
  inb_S32_S1_18 : ∀ a, (![18] : Fin 1 → Nat) a + S1.size a ≤ S32.size a
  inb_S1024x512_S32x512_576_0 : ∀ a, (![576, 0] : Fin 2 → Nat) a + S32x512.size a ≤ S1024x512.size a
  inb_S32_S1_19 : ∀ a, (![19] : Fin 1 → Nat) a + S1.size a ≤ S32.size a
  inb_S1024x512_S32x512_608_0 : ∀ a, (![608, 0] : Fin 2 → Nat) a + S32x512.size a ≤ S1024x512.size a
  inb_S32_S1_20 : ∀ a, (![20] : Fin 1 → Nat) a + S1.size a ≤ S32.size a
  inb_S1024x512_S32x512_640_0 : ∀ a, (![640, 0] : Fin 2 → Nat) a + S32x512.size a ≤ S1024x512.size a
  inb_S32_S1_21 : ∀ a, (![21] : Fin 1 → Nat) a + S1.size a ≤ S32.size a
  inb_S1024x512_S32x512_672_0 : ∀ a, (![672, 0] : Fin 2 → Nat) a + S32x512.size a ≤ S1024x512.size a
  inb_S32_S1_22 : ∀ a, (![22] : Fin 1 → Nat) a + S1.size a ≤ S32.size a
  inb_S1024x512_S32x512_704_0 : ∀ a, (![704, 0] : Fin 2 → Nat) a + S32x512.size a ≤ S1024x512.size a
  inb_S32_S1_23 : ∀ a, (![23] : Fin 1 → Nat) a + S1.size a ≤ S32.size a
  inb_S1024x512_S32x512_736_0 : ∀ a, (![736, 0] : Fin 2 → Nat) a + S32x512.size a ≤ S1024x512.size a
  inb_S32_S1_24 : ∀ a, (![24] : Fin 1 → Nat) a + S1.size a ≤ S32.size a
  inb_S1024x512_S32x512_768_0 : ∀ a, (![768, 0] : Fin 2 → Nat) a + S32x512.size a ≤ S1024x512.size a
  inb_S32_S1_25 : ∀ a, (![25] : Fin 1 → Nat) a + S1.size a ≤ S32.size a
  inb_S1024x512_S32x512_800_0 : ∀ a, (![800, 0] : Fin 2 → Nat) a + S32x512.size a ≤ S1024x512.size a
  inb_S32_S1_26 : ∀ a, (![26] : Fin 1 → Nat) a + S1.size a ≤ S32.size a
  inb_S1024x512_S32x512_832_0 : ∀ a, (![832, 0] : Fin 2 → Nat) a + S32x512.size a ≤ S1024x512.size a
  inb_S32_S1_27 : ∀ a, (![27] : Fin 1 → Nat) a + S1.size a ≤ S32.size a
  inb_S1024x512_S32x512_864_0 : ∀ a, (![864, 0] : Fin 2 → Nat) a + S32x512.size a ≤ S1024x512.size a
  inb_S32_S1_28 : ∀ a, (![28] : Fin 1 → Nat) a + S1.size a ≤ S32.size a
  inb_S1024x512_S32x512_896_0 : ∀ a, (![896, 0] : Fin 2 → Nat) a + S32x512.size a ≤ S1024x512.size a
  inb_S32_S1_29 : ∀ a, (![29] : Fin 1 → Nat) a + S1.size a ≤ S32.size a
  inb_S1024x512_S32x512_928_0 : ∀ a, (![928, 0] : Fin 2 → Nat) a + S32x512.size a ≤ S1024x512.size a
  inb_S32_S1_30 : ∀ a, (![30] : Fin 1 → Nat) a + S1.size a ≤ S32.size a
  inb_S1024x512_S32x512_960_0 : ∀ a, (![960, 0] : Fin 2 → Nat) a + S32x512.size a ≤ S1024x512.size a
  inb_S32_S1_31 : ∀ a, (![31] : Fin 1 → Nat) a + S1.size a ≤ S32.size a
  inb_S1024x512_S32x512_992_0 : ∀ a, (![992, 0] : Fin 2 → Nat) a + S32x512.size a ≤ S1024x512.size a
  h_S32x512 : 0 < S32x512.numel
  shapeCasts_S32x512_S32x512 : S32x512.ShapeCasts S32x512
  hcc0_scratch1 : 2 + S32.numel ≤ 130
  hcc0_scratch2 : 34 + S32.numel ≤ 130
  hcc0_scratch3 : 66 + S32.numel ≤ 130
  hcc0_scratch4 : 98 + S32.numel ≤ 130
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off1_inb : ∀ d0 : Dev nD, ∀ a, (k0_off1 d0) a + S32x512.size a ≤ S1024x1024.size a
  k0_off2_inb : ∀ d0 : Dev nD, ∀ a, (k0_off2 d0) a + S32x512.size a ≤ S1024x1024.size a
  k0_dev35_lt : ∀ d0 : Dev nD, (k0_dev35 d0) < nD
  k0_off3_inb : ∀ d0 : Dev nD, ∀ a, (k0_off3 d0) a + S32x512.size a ≤ S1024x1024.size a
  k0_off4_inb : ∀ d0 : Dev nD, ∀ a, (k0_off4 d0) a + S32x512.size a ≤ S1024x1024.size a
  k0_dev36_lt : ∀ d0 : Dev nD, (k0_dev36 d0) < nD
  k0_off5_inb : ∀ d0 : Dev nD, ∀ a, (k0_off5 d0) a + S32x512.size a ≤ S1024x1024.size a
  k0_off6_inb : ∀ d0 : Dev nD, ∀ a, (k0_off6 d0) a + S32x512.size a ≤ S1024x1024.size a
  k0_dev37_lt : ∀ d0 : Dev nD, (k0_dev37 d0) < nD
  k0_off7_inb : ∀ d0 : Dev nD, ∀ a, (k0_off7 d0) a + S32x512.size a ≤ S1024x1024.size a
  k0_off8_inb : ∀ d0 : Dev nD, ∀ a, (k0_off8 d0) a + S32x512.size a ≤ S1024x1024.size a
  k0_dev38_lt : ∀ d0 : Dev nD, (k0_dev38 d0) < nD
  k0_off9_inb : ∀ d0 : Dev nD, ∀ a, (k0_off9 d0) a + S32x512.size a ≤ S1024x1024.size a
  k0_off10_inb : ∀ d0 : Dev nD, ∀ a, (k0_off10 d0) a + S32x512.size a ≤ S1024x1024.size a
  k0_dev39_lt : ∀ d0 : Dev nD, (k0_dev39 d0) < nD
  k0_off11_inb : ∀ d0 : Dev nD, ∀ a, (k0_off11 d0) a + S32x512.size a ≤ S1024x1024.size a
  k0_off12_inb : ∀ d0 : Dev nD, ∀ a, (k0_off12 d0) a + S32x512.size a ≤ S1024x1024.size a
  k0_dev40_lt : ∀ d0 : Dev nD, (k0_dev40 d0) < nD
  k0_off13_inb : ∀ d0 : Dev nD, ∀ a, (k0_off13 d0) a + S32x512.size a ≤ S1024x1024.size a
  k0_off14_inb : ∀ d0 : Dev nD, ∀ a, (k0_off14 d0) a + S32x512.size a ≤ S1024x1024.size a
  k0_dev41_lt : ∀ d0 : Dev nD, (k0_dev41 d0) < nD
  k0_off15_inb : ∀ d0 : Dev nD, ∀ a, (k0_off15 d0) a + S32x512.size a ≤ S1024x1024.size a
  k0_off16_inb : ∀ d0 : Dev nD, ∀ a, (k0_off16 d0) a + S32x512.size a ≤ S1024x1024.size a
  k0_dev42_lt : ∀ d0 : Dev nD, (k0_dev42 d0) < nD
  k0_off17_inb : ∀ d0 : Dev nD, ∀ a, (k0_off17 d0) a + S32x512.size a ≤ S1024x1024.size a
  k0_off18_inb : ∀ d0 : Dev nD, ∀ a, (k0_off18 d0) a + S32x512.size a ≤ S1024x1024.size a
  k0_dev43_lt : ∀ d0 : Dev nD, (k0_dev43 d0) < nD
  k0_off19_inb : ∀ d0 : Dev nD, ∀ a, (k0_off19 d0) a + S32x512.size a ≤ S1024x1024.size a
  k0_off20_inb : ∀ d0 : Dev nD, ∀ a, (k0_off20 d0) a + S32x512.size a ≤ S1024x1024.size a
  k0_dev44_lt : ∀ d0 : Dev nD, (k0_dev44 d0) < nD
  k0_off21_inb : ∀ d0 : Dev nD, ∀ a, (k0_off21 d0) a + S32x512.size a ≤ S1024x1024.size a
  k0_off22_inb : ∀ d0 : Dev nD, ∀ a, (k0_off22 d0) a + S32x512.size a ≤ S1024x1024.size a
  k0_dev45_lt : ∀ d0 : Dev nD, (k0_dev45 d0) < nD
  k0_off23_inb : ∀ d0 : Dev nD, ∀ a, (k0_off23 d0) a + S32x512.size a ≤ S1024x1024.size a
  k0_off24_inb : ∀ d0 : Dev nD, ∀ a, (k0_off24 d0) a + S32x512.size a ≤ S1024x1024.size a
  k0_dev46_lt : ∀ d0 : Dev nD, (k0_dev46 d0) < nD
  k0_off25_inb : ∀ d0 : Dev nD, ∀ a, (k0_off25 d0) a + S32x512.size a ≤ S1024x1024.size a
  k0_off26_inb : ∀ d0 : Dev nD, ∀ a, (k0_off26 d0) a + S32x512.size a ≤ S1024x1024.size a
  k0_dev47_lt : ∀ d0 : Dev nD, (k0_dev47 d0) < nD
  k0_off27_inb : ∀ d0 : Dev nD, ∀ a, (k0_off27 d0) a + S32x512.size a ≤ S1024x1024.size a
  k0_off28_inb : ∀ d0 : Dev nD, ∀ a, (k0_off28 d0) a + S32x512.size a ≤ S1024x1024.size a
  k0_dev48_lt : ∀ d0 : Dev nD, (k0_dev48 d0) < nD
  k0_off29_inb : ∀ d0 : Dev nD, ∀ a, (k0_off29 d0) a + S32x512.size a ≤ S1024x1024.size a
  k0_off30_inb : ∀ d0 : Dev nD, ∀ a, (k0_off30 d0) a + S32x512.size a ≤ S1024x1024.size a
  k0_dev49_lt : ∀ d0 : Dev nD, (k0_dev49 d0) < nD
  k0_off31_inb : ∀ d0 : Dev nD, ∀ a, (k0_off31 d0) a + S32x512.size a ≤ S1024x1024.size a
  k0_off32_inb : ∀ d0 : Dev nD, ∀ a, (k0_off32 d0) a + S32x512.size a ≤ S1024x1024.size a
  k0_dev50_lt : ∀ d0 : Dev nD, (k0_dev50 d0) < nD
  k0_off33_inb : ∀ d0 : Dev nD, ∀ a, (k0_off33 d0) a + S32x512.size a ≤ S1024x1024.size a
  k0_off34_inb : ∀ d0 : Dev nD, ∀ a, (k0_off34 d0) a + S32x512.size a ≤ S1024x1024.size a
  k0_dev51_lt : ∀ d0 : Dev nD, (k0_dev51 d0) < nD
  k0_off35_inb : ∀ d0 : Dev nD, ∀ a, (k0_off35 d0) a + S32x512.size a ≤ S1024x1024.size a
  k0_off36_inb : ∀ d0 : Dev nD, ∀ a, (k0_off36 d0) a + S32x512.size a ≤ S1024x1024.size a
  k0_dev52_lt : ∀ d0 : Dev nD, (k0_dev52 d0) < nD
  k0_off37_inb : ∀ d0 : Dev nD, ∀ a, (k0_off37 d0) a + S32x512.size a ≤ S1024x1024.size a
  k0_off38_inb : ∀ d0 : Dev nD, ∀ a, (k0_off38 d0) a + S32x512.size a ≤ S1024x1024.size a
  k0_dev53_lt : ∀ d0 : Dev nD, (k0_dev53 d0) < nD
  k0_off39_inb : ∀ d0 : Dev nD, ∀ a, (k0_off39 d0) a + S32x512.size a ≤ S1024x1024.size a
  k0_off40_inb : ∀ d0 : Dev nD, ∀ a, (k0_off40 d0) a + S32x512.size a ≤ S1024x1024.size a
  k0_dev54_lt : ∀ d0 : Dev nD, (k0_dev54 d0) < nD
  k0_off41_inb : ∀ d0 : Dev nD, ∀ a, (k0_off41 d0) a + S32x512.size a ≤ S1024x1024.size a
  k0_off42_inb : ∀ d0 : Dev nD, ∀ a, (k0_off42 d0) a + S32x512.size a ≤ S1024x1024.size a
  k0_dev55_lt : ∀ d0 : Dev nD, (k0_dev55 d0) < nD
  k0_off43_inb : ∀ d0 : Dev nD, ∀ a, (k0_off43 d0) a + S32x512.size a ≤ S1024x1024.size a
  k0_off44_inb : ∀ d0 : Dev nD, ∀ a, (k0_off44 d0) a + S32x512.size a ≤ S1024x1024.size a
  k0_dev56_lt : ∀ d0 : Dev nD, (k0_dev56 d0) < nD
  k0_off45_inb : ∀ d0 : Dev nD, ∀ a, (k0_off45 d0) a + S32x512.size a ≤ S1024x1024.size a
  k0_off46_inb : ∀ d0 : Dev nD, ∀ a, (k0_off46 d0) a + S32x512.size a ≤ S1024x1024.size a
  k0_dev57_lt : ∀ d0 : Dev nD, (k0_dev57 d0) < nD
  k0_off47_inb : ∀ d0 : Dev nD, ∀ a, (k0_off47 d0) a + S32x512.size a ≤ S1024x1024.size a
  k0_off48_inb : ∀ d0 : Dev nD, ∀ a, (k0_off48 d0) a + S32x512.size a ≤ S1024x1024.size a
  k0_dev58_lt : ∀ d0 : Dev nD, (k0_dev58 d0) < nD
  k0_off49_inb : ∀ d0 : Dev nD, ∀ a, (k0_off49 d0) a + S32x512.size a ≤ S1024x1024.size a
  k0_off50_inb : ∀ d0 : Dev nD, ∀ a, (k0_off50 d0) a + S32x512.size a ≤ S1024x1024.size a
  k0_dev59_lt : ∀ d0 : Dev nD, (k0_dev59 d0) < nD
  k0_off51_inb : ∀ d0 : Dev nD, ∀ a, (k0_off51 d0) a + S32x512.size a ≤ S1024x1024.size a
  k0_off52_inb : ∀ d0 : Dev nD, ∀ a, (k0_off52 d0) a + S32x512.size a ≤ S1024x1024.size a
  k0_dev60_lt : ∀ d0 : Dev nD, (k0_dev60 d0) < nD
  k0_off53_inb : ∀ d0 : Dev nD, ∀ a, (k0_off53 d0) a + S32x512.size a ≤ S1024x1024.size a
  k0_off54_inb : ∀ d0 : Dev nD, ∀ a, (k0_off54 d0) a + S32x512.size a ≤ S1024x1024.size a
  k0_dev61_lt : ∀ d0 : Dev nD, (k0_dev61 d0) < nD
  k0_off55_inb : ∀ d0 : Dev nD, ∀ a, (k0_off55 d0) a + S32x512.size a ≤ S1024x1024.size a
  k0_off56_inb : ∀ d0 : Dev nD, ∀ a, (k0_off56 d0) a + S32x512.size a ≤ S1024x1024.size a
  k0_dev62_lt : ∀ d0 : Dev nD, (k0_dev62 d0) < nD
  k0_off57_inb : ∀ d0 : Dev nD, ∀ a, (k0_off57 d0) a + S32x512.size a ≤ S1024x1024.size a
  k0_off58_inb : ∀ d0 : Dev nD, ∀ a, (k0_off58 d0) a + S32x512.size a ≤ S1024x1024.size a
  k0_dev63_lt : ∀ d0 : Dev nD, (k0_dev63 d0) < nD
  k0_off59_inb : ∀ d0 : Dev nD, ∀ a, (k0_off59 d0) a + S32x512.size a ≤ S1024x1024.size a
  k0_off60_inb : ∀ d0 : Dev nD, ∀ a, (k0_off60 d0) a + S32x512.size a ≤ S1024x1024.size a
  k0_dev64_lt : ∀ d0 : Dev nD, (k0_dev64 d0) < nD
  k0_off61_inb : ∀ d0 : Dev nD, ∀ a, (k0_off61 d0) a + S32x512.size a ≤ S1024x1024.size a
  k0_off62_inb : ∀ d0 : Dev nD, ∀ a, (k0_off62 d0) a + S32x512.size a ≤ S1024x1024.size a
  k0_dev65_lt : ∀ d0 : Dev nD, (k0_dev65 d0) < nD
  k0_off63_inb : ∀ d0 : Dev nD, ∀ a, (k0_off63 d0) a + S32x512.size a ≤ S1024x1024.size a
  k0_off64_inb : ∀ d0 : Dev nD, ∀ a, (k0_off64 d0) a + S32x512.size a ≤ S1024x1024.size a
  k0_dev66_lt : ∀ d0 : Dev nD, (k0_dev66 d0) < nD
  hstage0_0 : ∀ j, (stage0_0 j).IsWhole
  hstage0_1 : ∀ j, (stage0_1 j).IsWhole

variable [Facts₀]

abbrev cc0_scratch1 : DmaSems sig S32 := SemArray.consecutive 2 S32 hcc0_scratch1
abbrev cc0_scratch2 : DmaSems sig S32 := SemArray.consecutive 34 S32 hcc0_scratch2
abbrev cc0_scratch3 : DmaSems sig S32 := SemArray.consecutive 66 S32 hcc0_scratch3
abbrev cc0_scratch4 : DmaSems sig S32 := SemArray.consecutive 98 S32 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024x1024, .f32⟩
  | .hbm, ⟨2, _⟩ => ⟨S_, .f32⟩
  | .hbm, ⟨3, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S2048x1024_S2x1024x1024 : S2048x1024.ShapeCasts S2x1024x1024
  reducesTo_S2x1024x1024_S1024x1024_d0 : S2x1024x1024.ReducesTo [0] S1024x1024
  h_S_ : 0 < S_.numel

variable [Facts₀]

class Facts : Prop extends Facts₀ where

variable [Facts]
-- ==== Proof.Spec.lean ====
/-
  What each device's result buffer holds after the run, as ONE function of the four devices' input blocks.

  The 2×2 mesh numbers its devices c = 2·cx + cy: cx = c / 2 is the position along the first mesh axis, cy = c % 2
  along the second. Device c's input is block (cx, cy) of the whole [2048, 1024] array: rows 1024·cx + r, columns
  512·cy + q. The result is [1024, 1024] on every device: entry (r, q) is the sum of the whole array's two row
  blocks at (r, q) and (1024 + r, q). On device c the column half q / 512 = cy is computed on c itself, as its own
  block plus the block of the device across the first axis; the other half is computed the same way on the device
  across the second axis and sent over. Both halves add "own block first, neighbour's second".
-/
import Idealize.ShloMosaic.PureOps.Ideal
import Idealize.ShloMosaic.Lib.ValueIdx
import Idealize.ShloMosaic.Lib.Layout

noncomputable section

namespace Cert.Spec

open Idealize.ShloMosaic Idealize.ShloMosaic.ValueIdx

variable {F : FTy → Type} [FloatOps F]

/-- A device's input block, the result, the whole input array. -/
abbrev SB : Shape := ⟨2, ![1024, 512]⟩
abbrev SO : Shape := ⟨2, ![1024, 1024]⟩
abbrev SW : Shape := ⟨2, ![2048, 1024]⟩

/-- The device across the first mesh axis (cx flipped). -/
def xn (c : Fin 4) : Fin 4 := ⟨((c.val % 2) + 2) - 2 * (c.val / 2), by omega⟩
/-- The device across the second mesh axis (cy flipped). -/
def yn (c : Fin 4) : Fin 4 := ⟨(2 * (c.val / 2) + 1) - (c.val % 2), by omega⟩

theorem xn_xn (c : Fin 4) : xn (xn c) = c := by revert c; decide
theorem yn_yn (c : Fin 4) : yn (yn c) = c := by revert c; decide
theorem xn_yn (c : Fin 4) : xn (yn c) = yn (xn c) := by revert c; decide

/-- A result index read inside its 512-wide column half: row kept, column modulo 512. -/
def inHalf (i : SO.Idx) : SB.Idx := ix2 (n0 := 1024) (n1 := 512) ⟨(i 0).val, (i 0).isLt⟩ ⟨(i 1).val % 512, Nat.mod_lt _ (by decide)⟩

/-- The device on which the column half of result index `i` of device `c` is computed: `c` for its own half, else the
    device across the second axis. -/
def maker (c : Fin 4) (i : SO.Idx) : Fin 4 := if (i 1).val / 512 = c.val % 2 then c else yn c

/-- Device `c`'s result from the four devices' input blocks `xb`. -/
def outAt (xb : Fin 4 → SB.Idx → F .f32) (c : Fin 4) : SO.Idx → F .f32 := fun i =>
  FloatOps.addf (xb (maker c i) (inHalf i)) (xb (xn (maker c i)) (inHalf i))

theorem outAt_apply (xb : Fin 4 → SB.Idx → F .f32) (c : Fin 4) (i : SO.Idx) :
    outAt xb c i = FloatOps.addf (xb (maker c i) (inHalf i)) (xb (xn (maker c i)) (inHalf i)) := rfl

end Cert.Spec

end
-- ==== Proof.RefSide.lean ====
/-
  The reference side: what the one-device reference computes from its whole argument array, and that each device's
  result (Spec.lean's `outAt` of the four blocks of that array) is that same array of sums.
-/
import proofs.«900267_g7700000000000268_dist_redx_gaty_m1024_n512_v7x_xy2x2_f32_1_alg».proof.Defs
import proofs.«900267_g7700000000000268_dist_redx_gaty_m1024_n512_v7x_xy2x2_f32_1_alg».proof.Proof.Gen.ReferenceIdeal
import proofs.«900267_g7700000000000268_dist_redx_gaty_m1024_n512_v7x_xy2x2_f32_1_alg».proof.Proof.Gen.ReferenceIdeal.Run
import proofs.«900267_g7700000000000268_dist_redx_gaty_m1024_n512_v7x_xy2x2_f32_1_alg».proof.Proof.Gen.ReferenceIdeal.Read
import proofs.«900267_g7700000000000268_dist_redx_gaty_m1024_n512_v7x_xy2x2_f32_1_alg».proof.Proof.Gen.Pre_finite_inputs_ReferenceIdeal
import proofs.«900267_g7700000000000268_dist_redx_gaty_m1024_n512_v7x_xy2x2_f32_1_alg».proof.Proof.Spec
import Idealize.ShloMosaic.Lib.Layout
import Idealize.ShloMosaic.Lib.ValueIdx
import Idealize.ShloMosaic.Lib.Pipeline.Value
import Idealize.ShloMosaic.PureOps.Ideal.Laws
import Idealize.ShloMosaic.Lib.StableHlo.Run

noncomputable section

namespace Cert.RefSide

open Idealize.ShloMosaic Idealize.SL.Sem Idealize.ShloMosaic.ValueIdx Cert.Spec

/-- The reference's result as a function of its whole argument array: entry (r, q) is the sum of the array's
    entries (r, q) and (1024 + r, q). -/
def refVal (X : SW.Idx → EReal) : SO.Idx → EReal := fun i =>
  X (ix2 (n0 := 2048) (n1 := 1024) ⟨(i 0).val, by have h : (i 0).val < 1024 := (i 0).isLt; omega⟩ ⟨(i 1).val, (i 1).isLt⟩)
    + X (ix2 (n0 := 2048) (n1 := 1024) ⟨1024 + (i 0).val, by have h : (i 0).val < 1024 := (i 0).isLt; omega⟩ ⟨(i 1).val, (i 1).isLt⟩)

/-- The reference's sum stage, read at an index: zero plus the two entries of the reshaped array, which are the whole
    array's entries (r, q) and (1024 + r, q). -/
theorem val_eq_refVal (X : SW.Idx → EReal) :
    Cert.ReferenceIdeal.Read.val_main_v1 (F := Ideal) X = refVal X := by
  funext i
  have h0 : (i 0).val < 1024 := (i 0).isLt
  have h1 : (i 1).val < 1024 := (i 1).isLt
  rw [Cert.ReferenceIdeal.Read.val_main_v1_apply, Fin.sum_univ_two,
    Cert.ReferenceIdeal.Read.val_main_v0_apply, Cert.ReferenceIdeal.Read.val_main_v0_apply,
    Cert.ReferenceIdeal.Read.val_main_cst_apply]
  show Ideal.ofBits .f32 0x00000000#32 + _ = _
  rw [Ideal.ofBits_zero_f32, zero_add]
  unfold refVal
  congr 1
  · refine congrArg X (funext fun a => Fin.ext ?_)
    match a with
    | ⟨0, _⟩ => show (((0 : Fin 2).val * 1024 + (i 0).val) * 1024 + (i 1).val) / 1024 = (i 0).val; simp only [Fin.val_zero]; omega
    | ⟨1, _⟩ => show (((0 : Fin 2).val * 1024 + (i 0).val) * 1024 + (i 1).val) % 1024 = (i 1).val; simp only [Fin.val_zero]; omega
  · refine congrArg X (funext fun a => Fin.ext ?_)
    match a with
    | ⟨0, _⟩ => show (((1 : Fin 2).val * 1024 + (i 0).val) * 1024 + (i 1).val) / 1024 = 1024 + (i 0).val; simp only [Fin.val_one]; omega
    | ⟨1, _⟩ => show (((1 : Fin 2).val * 1024 + (i 0).val) * 1024 + (i 1).val) % 1024 = (i 1).val; simp only [Fin.val_one]; omega

/-- The reference runs to the end with its result at `refVal` of its argument and the argument unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = refVal (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) := by
  refine (θ_run _ _ _).mono (fun r h => ?_) (Cert.ReferenceIdeal.Value.run (F := Ideal) m' g')
  refine ⟨?_, (h 0).2⟩
  rw [(h 0).1, Cert.ReferenceIdeal.Read.val_main_v1_eq]
  exact val_eq_refVal _

/-- On the 2 × 2 mesh device `d`'s block coordinate along the rows is `d / 2`, along the columns `d % 2`. -/
theorem meshLin_rows (d : Fin 4) : Layout.meshLin [2, 2] d.val [0] = d.val / 2 := by revert d; decide
theorem meshLin_cols (d : Fin 4) : Layout.meshLin [2, 2] d.val [1] = d.val % 2 := by revert d; decide

/-- The whole array read at equal coordinates. -/
theorem X_congr (X : SW.Idx → EReal) {a a' : Fin 2048} {b b' : Fin 1024} (ha : a.val = a'.val) (hb : b.val = b'.val) :
    X (ix2 a b) = X (ix2 a' b') := by
  obtain rfl := Fin.ext ha
  obtain rfl := Fin.ext hb
  rfl

/-- Device `d`'s block of the whole array `X` at (r, q) is `X` at (1024 · (d / 2) + r, 512 · (d % 2) + q). -/
theorem blk_apply (X : SW.Idx → EReal) (d : Fin 4) (j : SB.Idx) :
    (Layout.blockN SB SW (Layout.meshBlock [2, 2] ![[0], [1]] d) X) j
      = X (ix2 (n0 := 2048) (n1 := 1024)
          ⟨1024 * (d.val / 2) + (j 0).val, by have h : (j 0).val < 1024 := (j 0).isLt; have := d.isLt; omega⟩
          ⟨512 * (d.val % 2) + (j 1).val, by have h : (j 1).val < 512 := (j 1).isLt; omega⟩) := by
  rw [Layout.blockN_apply]
  refine congrArg X (funext fun a => Fin.ext ?_)
  match a with
  | ⟨0, _⟩ =>
    show Layout.meshLin [2, 2] d.val [0] * 1024 + (j 0).val = 1024 * (d.val / 2) + (j 0).val
    rw [meshLin_rows]; omega
  | ⟨1, _⟩ =>
    show Layout.meshLin [2, 2] d.val [1] * 512 + (j 1).val = 512 * (d.val % 2) + (j 1).val
    rw [meshLin_cols]; omega

/-- Each device's result, computed from the four blocks of the whole array `X`, is the reference's result of `X`. -/
theorem outAt_eq_refVal (X : SW.Idx → EReal) (c : Fin 4) :
    outAt (F := Ideal) (fun d => Layout.blockN SB SW (Layout.meshBlock [2, 2] ![[0], [1]] d) X) c = refVal X := by
  funext i
  have h0 : (i 0).val < 1024 := (i 0).isLt
  have h1 : (i 1).val < 1024 := (i 1).isLt
  have hc : c.val < 4 := c.isLt
  have e0 : (inHalf i 0).val = (i 0).val := rfl
  have e1 : (inHalf i 1).val = (i 1).val % 512 := rfl
  have hy : (yn c).val = (2 * (c.val / 2) + 1) - (c.val % 2) := rfl
  have hx : (xn (maker c i)).val = (((maker c i).val % 2) + 2) - 2 * ((maker c i).val / 2) := rfl
  have hm : (maker c i).val % 2 = (i 1).val / 512 ∧ (maker c i).val / 2 = c.val / 2 := by
    unfold maker
    split_ifs with h
    · omega
    · omega
  show (Layout.blockN SB SW (Layout.meshBlock [2, 2] ![[0], [1]] (maker c i)) X) (inHalf i)
      + (Layout.blockN SB SW (Layout.meshBlock [2, 2] ![[0], [1]] (xn (maker c i))) X) (inHalf i) = refVal X i
  rw [blk_apply, blk_apply]
  unfold refVal
  rcases (show c.val / 2 = 0 ∨ c.val / 2 = 1 by omega) with hcx | hcx
  · exact congrArg₂ (· + ·)
      (X_congr X (by dsimp only; omega) (by dsimp only; omega))
      (X_congr X (by dsimp only; omega) (by dsimp only; omega))
  · rw [add_comm]
    exact congrArg₂ (· + ·)
      (X_congr X (by dsimp only; omega) (by dsimp only; omega))
      (X_congr X (by dsimp only; omega) (by dsimp only; omega))

/-- The reference's frame: it runs and leaves its argument unchanged. -/
theorem frame_ri : Cert.frame_ReferenceIdeal := by
  unfold Cert.frame_ReferenceIdeal
  intro m g _
  exact (θ_run _ _ _).mono (fun _ h c => (h c).2) (Cert.ReferenceIdeal.Value.run (F := Ideal) m g)

end Cert.RefSide

end
-- ==== Proof.KernelIdeal.Views.lean ====
/-
  The buffers the kernel body works on, cut as the body cuts them, and what its copies, loads and stores do to
  their contents.

  The input block's staging buffer and the landing buffer are [1024, 512]; the result's staging buffer is
  [1024, 1024]. The body works in 32 chunks of 32 rows: chunk j is rows 32·j … 32·j + 31. In the result a chunk is
  further cut into two column halves of 512: half p is columns 512·p … 512·p + 511.
-/
import proofs.«900267_g7700000000000268_dist_redx_gaty_m1024_n512_v7x_xy2x2_f32_1_alg».proof.Proof.Gen.KernelIdeal
import proofs.«900267_g7700000000000268_dist_redx_gaty_m1024_n512_v7x_xy2x2_f32_1_alg».proof.Proof.Spec
import Idealize.ShloMosaic.Lib.Pipeline.Value
import Idealize.ShloMosaic.Lib.ValueIdx

noncomputable section

namespace Cert.KernelIdealProof

open Cert.KernelIdeal Cert.KernelIdeal.Gen
open Idealize.ShloMosaic Idealize.ShloMosaic.TcCoe Idealize.ShloMosaic.ValueIdx
open Idealize.SL Idealize.SL.RA Idealize.SL.Sem

variable {F : FTy → Type} [FloatOps F]

/-! ## The three buffers and their chunks -/

/-- The input block's staging buffer, the result's staging buffer, the landing buffer. -/
abbrev xM : Memref sig .tc .vmem S1024x512 .f32 := Memref.whole cc0_stg0_0
abbrev oM : Memref sig .tc .vmem S1024x1024 .f32 := Memref.whole cc0_stg1_0
abbrev rM : Memref sig .tc .vmem S1024x512 .f32 := Memref.whole cc0_scratch0

/-- A [32, 512] rectangle at offsets `off` lies inside a [1024, 512] buffer / the [1024, 1024] buffer. -/
abbrev InbB (off : Fin 2 → Nat) : Prop := ∀ a, off a + S32x512.size a ≤ S1024x512.size a
abbrev InbO (off : Fin 2 → Nat) : Prop := ∀ a, off a + S32x512.size a ≤ S1024x1024.size a

/-- The [32, 512] slice at `off` of each buffer, spelt as the body spells it. -/
abbrev xCh (off : Fin 2 → Nat) (h : InbB off) : Memref sig .tc .vmem S32x512 .f32 :=
  xM.slice (Rect.unit (s := S1024x512) off S32x512.size h) (fun _ => rfl)
abbrev rCh (off : Fin 2 → Nat) (h : InbB off) : Memref sig .tc .vmem S32x512 .f32 :=
  rM.slice (Rect.unit (s := S1024x512) off S32x512.size h) (fun _ => rfl)
abbrev oCh (off : Fin 2 → Nat) (h : InbO off) : Memref sig .tc .vmem S32x512 .f32 :=
  oM.slice (Rect.unit (s := S1024x1024) off S32x512.size h) (fun _ => rfl)

theorem inbB (j : Nat) (hj : j < 32) : InbB ![32 * j, 0] := by
  intro a; match a with
  | ⟨0, _⟩ => show 32 * j + 32 ≤ 1024; omega
  | ⟨1, _⟩ => show 0 + 512 ≤ 512; omega
theorem inbO (j p : Nat) (hj : j < 32) (hp : p < 2) : InbO ![32 * j, 512 * p] := by
  intro a; match a with
  | ⟨0, _⟩ => show 32 * j + 32 ≤ 1024; omega
  | ⟨1, _⟩ => show 512 * p + 512 ≤ 1024; omega

/-! ## The element sets -/

/-- Rows of chunk `j` of a [1024, 512] buffer. -/
def rowsB (j : Nat) : Finset S1024x512.Idx := Finset.univ.filter fun i => (i 0).val / 32 = j
/-- Rows of chunk `j`, column half `p`, of the [1024, 1024] buffer. -/
def blkO (j p : Nat) : Finset S1024x1024.Idx := Finset.univ.filter fun i => (i 0).val / 32 = j ∧ (i 1).val / 512 = p
/-- Column half `p` of the [1024, 1024] buffer. -/
def colO (p : Nat) : Finset S1024x1024.Idx := Finset.univ.filter fun i => (i 1).val / 512 = p

theorem mem_rowsB {j : Nat} {i : S1024x512.Idx} : i ∈ rowsB j ↔ (i 0).val / 32 = j := by
  unfold rowsB; rw [Finset.mem_filter]; exact ⟨fun h => h.2, fun h => ⟨Finset.mem_univ _, h⟩⟩
theorem mem_blkO {j p : Nat} {i : S1024x1024.Idx} : i ∈ blkO j p ↔ (i 0).val / 32 = j ∧ (i 1).val / 512 = p := by
  unfold blkO; rw [Finset.mem_filter]; exact ⟨fun h => h.2, fun h => ⟨Finset.mem_univ _, h⟩⟩
theorem mem_colO {p : Nat} {i : S1024x1024.Idx} : i ∈ colO p ↔ (i 1).val / 512 = p := by
  unfold colO; rw [Finset.mem_filter]; exact ⟨fun h => h.2, fun h => ⟨Finset.mem_univ _, h⟩⟩

/-- The [32, 512] rectangle at (32·j, 0) of a [1024, 512] shape is the rows of chunk `j`. -/
theorem unit_set_rows (j : Nat) (h : InbB ![32 * j, 0]) :
    (Rect.unit (s := S1024x512) ![32 * j, 0] S32x512.size h).set = rowsB j := by
  refine Finset.ext fun (i : S1024x512.Idx) => ?_
  have h0 : (i 0).val < 1024 := (i 0).isLt
  have h1 : (i 1).val < 512 := (i 1).isLt
  rw [Rect.mem_set_unit, mem_rowsB]
  constructor
  · intro H
    have a0 : 32 * j ≤ (i 0).val ∧ (i 0).val < 32 * j + 32 := H 0
    omega
  · intro H a
    match a with
    | ⟨0, _⟩ => show 32 * j ≤ (i 0).val ∧ (i 0).val < 32 * j + 32; omega
    | ⟨1, _⟩ => show 0 ≤ (i 1).val ∧ (i 1).val < 0 + 512; omega

/-- The [32, 512] rectangle at (32·j, 512·p) of the [1024, 1024] shape is the rows of chunk `j` in column half `p`. -/
theorem unit_set_blk (j p : Nat) (h : InbO ![32 * j, 512 * p]) :
    (Rect.unit (s := S1024x1024) ![32 * j, 512 * p] S32x512.size h).set = blkO j p := by
  refine Finset.ext fun (i : S1024x1024.Idx) => ?_
  have h0 : (i 0).val < 1024 := (i 0).isLt
  have h1 : (i 1).val < 1024 := (i 1).isLt
  rw [Rect.mem_set_unit, mem_blkO]
  constructor
  · intro H
    have a0 : 32 * j ≤ (i 0).val ∧ (i 0).val < 32 * j + 32 := H 0
    have a1 : 512 * p ≤ (i 1).val ∧ (i 1).val < 512 * p + 512 := H 1
    omega
  · intro H a
    match a with
    | ⟨0, _⟩ => show 32 * j ≤ (i 0).val ∧ (i 0).val < 32 * j + 32; omega
    | ⟨1, _⟩ => show 512 * p ≤ (i 1).val ∧ (i 1).val < 512 * p + 512; omega

/-- A chunk's slice goes through exactly the chunk's rows. -/
theorem xCh_set (j : Nat) (off : Fin 2 → Nat) (h : InbB off) (hoff : off = ![32 * j, 0]) :
    (xCh off h).view.set = rowsB j := by
  subst hoff
  show ((View.whole cc0_stg0_0).slice (Rect.unit (s := S1024x512) ![32 * j, 0] S32x512.size h)).set = rowsB j
  rw [View.set_slice_whole]
  exact unit_set_rows j h
theorem rCh_set (j : Nat) (off : Fin 2 → Nat) (h : InbB off) (hoff : off = ![32 * j, 0]) :
    (rCh off h).view.set = rowsB j := by
  subst hoff
  show ((View.whole cc0_scratch0).slice (Rect.unit (s := S1024x512) ![32 * j, 0] S32x512.size h)).set = rowsB j
  rw [View.set_slice_whole]
  exact unit_set_rows j h
theorem oCh_set (j p : Nat) (off : Fin 2 → Nat) (h : InbO off) (hoff : off = ![32 * j, 512 * p]) :
    (oCh off h).view.set = blkO j p := by
  subst hoff
  show ((View.whole cc0_stg1_0).slice (Rect.unit (s := S1024x1024) ![32 * j, 512 * p] S32x512.size h)).set = blkO j p
  rw [View.set_slice_whole]
  exact unit_set_blk j p h

/-- The 32 chunks tile a [1024, 512] buffer; -/
theorem univ_eq_rowsB : (Finset.univ : Finset S1024x512.Idx) = (Finset.range 32).biUnion rowsB := by
  refine Finset.ext fun (i : S1024x512.Idx) => ?_
  have h0 : (i 0).val < 1024 := (i 0).isLt
  simp only [Finset.mem_univ, Finset.mem_biUnion, Finset.mem_range, mem_rowsB, true_iff]
  exact ⟨(i 0).val / 32, by omega, rfl⟩
theorem rowsB_disjoint (j j' : Nat) (h : j ≠ j') : Disjoint (rowsB j) (rowsB j') := by
  rw [Finset.disjoint_left]
  intro i hi hi'
  rw [mem_rowsB] at hi hi'
  exact h (hi.symm.trans hi')
/-- the 32 chunks of a column half tile it; the two halves tile the result. -/
theorem colO_eq (p : Nat) : colO p = (Finset.range 32).biUnion fun j => blkO j p := by
  refine Finset.ext fun (i : S1024x1024.Idx) => ?_
  have h0 : (i 0).val < 1024 := (i 0).isLt
  simp only [Finset.mem_biUnion, Finset.mem_range, mem_blkO, mem_colO]
  constructor
  · intro H
    exact ⟨(i 0).val / 32, by omega, rfl, H⟩
  · rintro ⟨_, _, _, H⟩
    exact H
theorem blkO_disjoint (p j j' : Nat) (h : j ≠ j') : Disjoint (blkO j p) (blkO j' p) := by
  rw [Finset.disjoint_left]
  intro i hi hi'
  rw [mem_blkO] at hi hi'
  exact h (hi.1.symm.trans hi'.1)
theorem univ_eq_colO : (Finset.univ : Finset S1024x1024.Idx) = colO 0 ∪ colO 1 := by
  refine Finset.ext fun (i : S1024x1024.Idx) => ?_
  have h1 : (i 1).val < 1024 := (i 1).isLt
  simp only [Finset.mem_univ, Finset.mem_union, mem_colO, true_iff]
  omega
theorem colO_disjoint : Disjoint (colO 0) (colO 1) := by
  rw [Finset.disjoint_left]
  intro i hi hi'
  rw [mem_colO] at hi hi'
  omega
theorem blkO_subset_colO (j p : Nat) : blkO j p ⊆ colO p := fun i hi => mem_colO.mpr (mem_blkO.mp hi).2

/-! ## What a copy lands, what the loads read, what the store leaves -/

/-- A chunk copied from a [1024, 512] buffer holding `fs` into the same chunk of another [1024, 512] buffer: on the
    chunk the destination then holds `fs`. -/
theorem xcopy_val (off : Fin 2 → Nat) (h : InbB off) (fd : (cc0_scratch0 : Ref sig .tc).ty.Contents (Elt F))
    (fs : (cc0_stg0_0 : Ref sig .tc).ty.Contents (Elt F)) (i : S1024x512.Idx) (hi : i ∈ (rCh off h).view.set) :
    (rCh off h).view.write (Elt F) fd ((xCh off h).view.read (Elt F) fs) Finset.univ i = fs i := by
  obtain ⟨y, rfl⟩ := View.exists_emb_of_mem_set (rCh off h).view hi
  rw [View.write_emb_of_mem _ _ (Finset.mem_univ y)]
  rfl
/-- The same for a [32, 512] piece of the result buffer copied to the same piece of another device's. -/
theorem ycopy_val (off : Fin 2 → Nat) (h : InbO off) (fd fs : (cc0_stg1_0 : Ref sig .tc).ty.Contents (Elt F))
    (i : S1024x1024.Idx) (hi : i ∈ (oCh off h).view.set) :
    (oCh off h).view.write (Elt F) fd ((oCh off h).view.read (Elt F) fs) Finset.univ i = fs i := by
  obtain ⟨y, rfl⟩ := View.exists_emb_of_mem_set (oCh off h).view hi
  rw [View.write_emb_of_mem _ _ (Finset.mem_univ y)]
  rfl

/-- The store of chunk `j`: the sum, element by element, of the chunk loaded from a [1024, 512] buffer holding `fx`
    and the chunk loaded from one holding `fr`, stored at rows of chunk `j`, column half `p` of the result buffer:
    there the result buffer then holds `fx + fr` read at (row, column mod 512). `pay` is the body's sum of two loaded
    vectors, whichever of the printed payload names it is. -/
theorem store_val (j p : Nat) (offx : Fin 2 → Nat) (hx : InbB offx) (offo : Fin 2 → Nat) (ho : InbO offo)
    (hoffx : offx = ![32 * j, 0]) (hoffo : offo = ![32 * j, 512 * p])
    (fx : (cc0_stg0_0 : Ref sig .tc).ty.Contents (Elt F)) (fr : (cc0_scratch0 : Ref sig .tc).ty.Contents (Elt F))
    (fo : (cc0_stg1_0 : Ref sig .tc).ty.Contents (Elt F))
    (pay : Vec F S32x512 .f32 → Vec F S32x512 .f32 → FVec F S32x512 .f32)
    (hpay : ∀ a b y, pay a b y = FloatOps.addf (a y) (b y))
    (i : S1024x1024.Idx) (hi : i ∈ blkO j p) :
    ((oM.access (Rect.unit (s := S1024x1024) offo S32x512.size ho) : View sig .tc _ _ _).write (Elt F) fo
        (pay (xM.view.readAt (Elt F) (Rect.unit (s := S1024x512) offx S32x512.size hx).toLoadRect fx)
             (rM.view.readAt (Elt F) (Rect.unit (s := S1024x512) offx S32x512.size hx).toLoadRect fr)) Finset.univ) i
      = FloatOps.addf (fx (Cert.Spec.inHalf i)) (fr (Cert.Spec.inHalf i)) := by
  subst hoffx hoffo
  have hi' : i ∈ (oCh ![32 * j, 512 * p] ho).view.set := by rw [oCh_set j p _ ho rfl]; exact hi
  obtain ⟨y, rfl⟩ := View.exists_emb_of_mem_set _ hi'
  have hy0 : (y 0).val < 32 := (y 0).isLt
  have hy1 : (y 1).val < 512 := (y 1).isLt
  have hidx : Cert.Spec.inHalf ((oCh ![32 * j, 512 * p] ho).view.emb y)
      = (Rect.unit (s := S1024x512) ![32 * j, 0] S32x512.size hx).emb y := by
    funext a; apply Fin.ext
    match a with
    | ⟨0, _⟩ => show 32 * j + 1 * (y 0).val = 32 * j + 1 * (y 0).val; rfl
    | ⟨1, _⟩ => show (512 * p + 1 * (y 1).val) % 512 = 0 + 1 * (y 1).val; omega
  show (oCh ![32 * j, 512 * p] ho).view.write (Elt F) fo _ Finset.univ ((oCh ![32 * j, 512 * p] ho).view.emb y) = _
  rw [View.write_emb_of_mem _ _ (Finset.mem_univ y), hpay, hidx]
  rfl

/-- Off the stored piece the result buffer keeps what it held. -/
theorem store_off (offo : Fin 2 → Nat) (ho : InbO offo) (fo : (cc0_stg1_0 : Ref sig .tc).ty.Contents (Elt F))
    (w : Vec F S32x512 .f32) (i : S1024x1024.Idx) (hi : i ∉ (oCh offo ho).view.set) :
    ((oM.access (Rect.unit (s := S1024x1024) offo S32x512.size ho) : View sig .tc _ _ _).write (Elt F) fo w Finset.univ) i = fo i := by
  exact View.write_of_not_mem _ _ _ hi

/-! ## The copies' credit -/

/-- What a [32, 512] copy into the landing buffer / into the result buffer credits its semaphores. -/
abbrev Nx : Nat := (rCh ![0, 0] (inbB 0 (by decide))).view.dmaCredit
abbrev No : Nat := (oCh ![0, 0] (inbO 0 0 (by decide) (by decide))).view.dmaCredit
theorem Nx_pos : 0 < Nx := View.dmaCredit_pos _ (by decide)
theorem No_pos : 0 < No := View.dmaCredit_pos _ (by decide)
theorem rCh_amount (off : Fin 2 → Nat) (h : InbB off) (s : DmaSem sig) : (rCh off h).view.amount (.dma s) = Nx := by
  rfl
theorem oCh_amount (off : Fin 2 → Nat) (h : InbO off) (s : DmaSem sig) : (oCh off h).view.amount (.dma s) = No := by
  rfl
/-- The same amounts spelt as the views' credit; a chunk of the input block's staging buffer credits what a chunk of
    the landing buffer does. -/
theorem xCh_amount (off : Fin 2 → Nat) (h : InbB off) : (xCh off h).view.dmaCredit = Nx := rfl
theorem rCh_credit (off : Fin 2 → Nat) (h : InbB off) : (rCh off h).view.dmaCredit = Nx := rfl
theorem oCh_credit (off : Fin 2 → Nat) (h : InbO off) : (oCh off h).view.dmaCredit = No := rfl

end Cert.KernelIdealProof

end
-- ==== Proof.KernelIdeal.Sched.lean ====
/-
  The protocol of the kernel on the 2×2 mesh, as a schedule of rounds.

  Device c = 2·cx + cy. Across the first mesh axis sits X c (cx flipped), across the second Y c (cy flipped).
  Every device: signals the entry semaphore of X c and of Y c one unit each and waits for two units on its own;
  copies its input block, in 32 chunks of 32 rows, into X c's landing buffer (chunk j credits its own send
  semaphore j of the first family and X c's receive semaphore j of the second); then, chunk by chunk, waits for the
  chunk landed from X c, stores own chunk + landed chunk into its own column half of the result buffer and copies
  that piece into the same place of Y c's result buffer (third and fourth family); last it waits, chunk by chunk,
  for the piece from Y c, for its first send and for its second send.

  Cells and duties: the entry cell of c has two duties of one unit at round 0: `false`, paid by X c, whose payload is
  X c's whole landing buffer; `true`, paid by Y c, whose payload is the column half of Y c's result buffer that c's
  pieces land in. Every copy semaphore has one duty `false` at round 0 of the copy's credit; its payload is what the
  waiter gets: the lent share of the source chunk back (send cells), the landed chunk holding the sender's data
  (receive cells).
-/
import proofs.«900267_g7700000000000268_dist_redx_gaty_m1024_n512_v7x_xy2x2_f32_1_alg».proof.Proof.Gen.KernelIdeal
import proofs.«900267_g7700000000000268_dist_redx_gaty_m1024_n512_v7x_xy2x2_f32_1_alg».proof.Proof.Gen.KernelIdeal.Launch
import proofs.«900267_g7700000000000268_dist_redx_gaty_m1024_n512_v7x_xy2x2_f32_1_alg».proof.Proof.Gen.KernelIdeal.Points
import proofs.«900267_g7700000000000268_dist_redx_gaty_m1024_n512_v7x_xy2x2_f32_1_alg».proof.Proof.Spec
import proofs.«900267_g7700000000000268_dist_redx_gaty_m1024_n512_v7x_xy2x2_f32_1_alg».proof.Proof.KernelIdeal.Views
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The neighbours -/

/-- The device across the first mesh axis, across the second. -/
def xnb (c : Dev nD) : Dev nD := Cert.Spec.xn c
def ynb (c : Dev nD) : Dev nD := Cert.Spec.yn c

theorem xnb_xnb (c : Dev nD) : xnb (xnb c) = c := Cert.Spec.xn_xn c
theorem ynb_ynb (c : Dev nD) : ynb (ynb c) = c := Cert.Spec.yn_yn c
theorem xnb_ne (c : Dev nD) : xnb c ≠ c := by revert c; decide
theorem ynb_ne (c : Dev nD) : ynb c ≠ c := by revert c; decide
theorem xnb_ne_ynb (c : Dev nD) : xnb c ≠ ynb c := by revert c; decide

/-- A printed device chain with the closed form of the first kind names `xnb c`, of the second kind `ynb c`. -/
theorem dev_eq_xnb (c : Dev nD) (v : Nat) (h : v < nD) (e : v = ((c.val % 2) + 2) - 2 * (c.val / 2)) :
    (⟨v, h⟩ : Dev nD) = xnb c := Fin.ext e
theorem dev_eq_ynb (c : Dev nD) (v : Nat) (h : v < nD) (e : v = (2 * (c.val / 2) + 1) - (c.val % 2)) :
    (⟨v, h⟩ : Dev nD) = ynb c := Fin.ext e

def xring : Dev nD ≃ Dev nD := ⟨xnb, xnb, xnb_xnb, xnb_xnb⟩
def yring : Dev nD ≃ Dev nD := ⟨ynb, ynb, ynb_ynb, ynb_ynb⟩

/-- A device's own column half of the result: its position along the second axis. -/
def cy (c : Dev nD) : Nat := c.val % 2
theorem cy_lt (c : Dev nD) : cy c < 2 := Nat.mod_lt _ (by decide)
theorem cy_xnb (c : Dev nD) : cy (xnb c) = cy c := by revert c; decide
theorem cy_ynb (c : Dev nD) : cy (ynb c) = 1 - cy c := by revert c; decide

/-! ## Semaphores and cells -/

/-- The entry semaphore: the runtime's barrier semaphore of collective id 0 (not scoped to the launch). -/
abbrev barS : Sem sig := (SemArray.scalar (sig.barrier 0 rfl) : Sems sig S_).sem

abbrev InbS (j : Nat) : Prop := ∀ a, (![j] : Fin 1 → Nat) a + S1.size a ≤ S32.size a
theorem inbS (j : Nat) (hj : j < 32) : InbS j := by
  intro a; match a with
  | ⟨0, _⟩ => show j + 1 ≤ 32; omega

/-- Semaphore `j` of a family of 32, spelt as the body spells it. -/
abbrev semAt (A : DmaSems sig S32) (j : Nat) (h : InbS j) : DmaSem sig :=
  ((A.slice (Rect.unit (s := S32) ![j] S1.size h)).squeeze S_ squeezes_S1_S_).sem

/-- Semaphore `j` of family `a` (0: first sends, 1: first receives, 2: second sends, 3: second receives) by number. -/
def fsem (a j : Nat) : DmaSem sig := ⟨(2 + 32 * a + j) % 130, Nat.mod_lt _ (by decide)⟩

theorem fsem_val (a j : Nat) (ha : a < 4) (hj : j < 32) : (fsem a j).val = 2 + 32 * a + j := by
  show (2 + 32 * a + j) % 130 = _; exact Nat.mod_eq_of_lt (by omega)

/-- Semaphore `j` of a family laid out from `base` is number `base + j`. -/
theorem semAt_val {n : Nat} (base : Nat) (hb : base + S32.numel ≤ n) (j : Nat) (h : InbS j) :
    ((((SemArray.consecutive base S32 hb : SemArray (Fin n) S32).slice (Rect.unit (s := S32) ![j] S1.size h)).squeeze S_ squeezes_S1_S_).sem).val = base + j := by
  show base + (S32.rowMajor ((Rect.unit (s := S32) ![j] S1.size h).emb (Shape.reshapeEquiv squeezes_S1_S_.numel_eq fun i => i.elim0))).val = base + j
  rw [Shape.rowMajor_val_one, Rect.emb_apply]
  generalize (Shape.reshapeEquiv squeezes_S1_S_.numel_eq fun i => i.elim0) = y
  have hy : (y 0).val = 0 := Nat.lt_one_iff.mp (y 0).isLt
  rw [hy]; rfl

theorem semAt1 (j : Nat) (h : InbS j) (hj : j < 32) : semAt cc0_scratch1 j h = fsem 0 j :=
  Fin.ext ((semAt_val 2 _ j h).trans (fsem_val 0 j (by decide) hj).symm)
theorem semAt2 (j : Nat) (h : InbS j) (hj : j < 32) : semAt cc0_scratch2 j h = fsem 1 j :=
  Fin.ext ((semAt_val 34 _ j h).trans (fsem_val 1 j (by decide) hj).symm)
theorem semAt3 (j : Nat) (h : InbS j) (hj : j < 32) : semAt cc0_scratch3 j h = fsem 2 j :=
  Fin.ext ((semAt_val 66 _ j h).trans (fsem_val 2 j (by decide) hj).symm)
theorem semAt4 (j : Nat) (h : InbS j) (hj : j < 32) : semAt cc0_scratch4 j h = fsem 3 j :=
  Fin.ext ((semAt_val 98 _ j h).trans (fsem_val 3 j (by decide) hj).symm)

abbrev barCell (c : Dev nD) : GSem nD τ sig := ((c : Thread nD τ), .reg barS)
abbrev fcell (c : Dev nD) (a j : Nat) : GSem nD τ sig := ((c : Thread nD τ), .dma (fsem a j))

theorem fsem_inj {a j a' j' : Nat} (ha : a < 4) (hj : j < 32) (ha' : a' < 4) (hj' : j' < 32) (h : fsem a j = fsem a' j') : a = a' ∧ j = j' := by
  have := congrArg Fin.val h
  rw [fsem_val a j ha hj, fsem_val a' j' ha' hj'] at this
  omega

/-! ## Contents -/

/-- Device `c`'s input block as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- What device `c`'s result buffer ends holding (Spec.lean). -/
def outC (c : Dev nD) : (cc0_stg1_0 : Ref sig .tc).ty.Contents (Elt F) :=
  Cert.Spec.outAt (fun d => xstg m ρ d) c

/-- The lent and the kept half of the input staging buffer's share. -/
abbrev qL : PosShare TreeShare := fullShare.left
abbrev qR : PosShare TreeShare := fullShare.right

/-! ## The payloads -/

def barPayX (c : Dev nD) : sProp 𝕄 :=
  iprop(∃ f, (rM : Memref sig .tc .vmem S1024x512 .f32).view.loc (xnb c : Thread nD τ) ↦[(Finset.univ : Finset S1024x512.Idx)]{fullShare} f)
def barPayY (c : Dev nD) : sProp 𝕄 :=
  iprop(∃ f, (oM : Memref sig .tc .vmem S1024x1024 .f32).view.loc (ynb c : Thread nD τ) ↦[colO (cy c)]{fullShare} f)
def sxPay (c : Dev nD) (j : Nat) : sProp 𝕄 :=
  (xM : Memref sig .tc .vmem S1024x512 .f32).view.loc (c : Thread nD τ) ↦[rowsB j]{qL} xstg m ρ c
def rxPay (c : Dev nD) (j : Nat) : sProp 𝕄 :=
  (rM : Memref sig .tc .vmem S1024x512 .f32).view.loc (c : Thread nD τ) ↦[rowsB j]{fullShare} xstg m ρ (xnb c)
def syPay (c : Dev nD) (j : Nat) : sProp 𝕄 :=
  (oM : Memref sig .tc .vmem S1024x1024 .f32).view.loc (c : Thread nD τ) ↦[blkO j (cy c)]{fullShare} outC m ρ c
def ryPay (c : Dev nD) (j : Nat) : sProp 𝕄 :=
  (oM : Memref sig .tc .vmem S1024x1024 .f32).view.loc (c : Thread nD τ) ↦[blkO j (1 - cy c)]{fullShare} outC m ρ c

def famPay (c : Dev nD) (a j : Nat) : sProp 𝕄 :=
  if a = 0 then sxPay m ρ c j else if a = 1 then rxPay m ρ c j else if a = 2 then syPay m ρ c j else ryPay m ρ c j

def semPay (c : Dev nD) : SemLoc sig → Bool → sProp 𝕄
  | .reg _, d => if d then barPayY c else barPayX c
  | .dma i, _ => if 2 ≤ i.val then famPay m ρ c ((i.val - 2) / 32) ((i.val - 2) % 32) else iprop(emp)

def isXfer : SemLoc sig → Bool
  | .reg _ => false
  | .dma i => decide (2 ≤ i.val)

def semAmt : SemLoc sig → Nat
  | .reg _ => 1
  | .dma i => if (i.val - 2) / 64 = 0 then Nx else No

/-! ## The schedule: one round -/

def ringRd : Rounds.Schedule (GSem nD τ sig) Bool 𝕄 where
  duties g r := if r = 0 ∧ g.1.2 = .tc ∧ g.2 = .reg barS then Finset.univ else if r = 0 ∧ g.1.2 = .tc ∧ isXfer g.2 = true then {false} else ∅
  unitless _ := False
  amount g _ _ := semAmt g.2
  payload g _ d := semPay m ρ g.1.1 g.2 d
  amount_pos g _ _ _ := by
    show 0 < semAmt g.2
    unfold semAmt; split
    · exact Nat.one_pos
    · split
      · exact Nx_pos
      · exact No_pos

instance ringRd_payload_storable (g : GSem nD τ sig) (r : ℕ) (d : Bool) :
    BI.Storable (upEmb : UEmb _ 𝕄) ((ringRd (F := F) m ρ).payload g r d) := by
  show BI.Storable upEmb (semPay m ρ g.1.1 g.2 d)
  unfold semPay famPay barPayX barPayY sxPay rxPay syPay ryPay
  (repeat' split) <;> infer_instance

/-! ## The schedule's tables -/

section Tables
variable (c : Dev nD)

/-- A copy of the first two families credits `Nx`, of the last two `No`. -/
def famAmt (a : Nat) : Nat := if a / 2 = 0 then Nx else No
theorem famAmt_pos (a : Nat) : 0 < famAmt a := by unfold famAmt; split; exact Nx_pos; exact No_pos

theorem isXfer_fsem (a j : Nat) (ha : a < 4) (hj : j < 32) : isXfer (.dma (fsem a j) : SemLoc sig) = true := by
  show decide (2 ≤ (fsem a j).val) = true
  rw [fsem_val a j ha hj]; exact decide_eq_true (by omega)

theorem duties_bar : (ringRd (F := F) m ρ).duties (barCell c) 0 = Finset.univ := by dsimp only [ringRd]; exact if_pos ⟨rfl, rfl, rfl⟩
theorem duties_f (a j : Nat) (ha : a < 4) (hj : j < 32) : (ringRd (F := F) m ρ).duties (fcell c a j) 0 = {false} := by
  dsimp only [ringRd]; rw [if_neg (fun h => by cases h.2.2), if_pos ⟨rfl, rfl, isXfer_fsem a j ha hj⟩]
theorem duties_later (g : GSem nD τ sig) : ∀ r, 1 ≤ r → (ringRd (F := F) m ρ).duties g r = ∅ :=
  fun r hr => by dsimp only [ringRd]; rw [if_neg fun h => by omega, if_neg fun h => by omega]

theorem amount_bar (d : Bool) : (ringRd (F := F) m ρ).amount (barCell c) 0 d = 1 := rfl
theorem amount_f (a j : Nat) (ha : a < 4) (hj : j < 32) (d : Bool) : (ringRd (F := F) m ρ).amount (fcell c a j) 0 d = famAmt a := by
  show (if ((fsem a j).val - 2) / 64 = 0 then Nx else No) = _
  rw [fsem_val a j ha hj]; unfold famAmt
  by_cases h : a / 2 = 0
  · rw [if_pos h, if_pos (by omega)]
  · rw [if_neg h, if_neg (by omega)]

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_f (a j : Nat) (ha : a < 4) (hj : j < 32) : (ringRd (F := F) m ρ).expect (fcell c a j) 0 = famAmt a := by
  unfold Schedule.expect Schedule.amountOf; rw [duties_f m ρ c a j ha hj, Finset.sum_singleton, amount_f m ρ c a j ha hj]

theorem payload_bar_true : (ringRd (F := F) m ρ).payload (barCell c) 0 true = barPayY c := rfl
theorem payload_bar_false : (ringRd (F := F) m ρ).payload (barCell c) 0 false = barPayX c := rfl
theorem payload_f (a j : Nat) (ha : a < 4) (hj : j < 32) (d : Bool) : (ringRd (F := F) m ρ).payload (fcell c a j) 0 d = famPay m ρ c a j := by
  show (if 2 ≤ (fsem a j).val then famPay m ρ c (((fsem a j).val - 2) / 32) (((fsem a j).val - 2) % 32) else iprop(emp)) = _
  rw [fsem_val a j ha hj, if_pos (by omega)]
  rw [show (2 + 32 * a + j - 2) / 32 = a by omega, show (2 + 32 * a + j - 2) % 32 = j by omega]

/-- The rest of the entry cell's round, no duty taken: both neighbours' payloads. -/
theorem rest_bar : bigSep ((ringRd (F := F) m ρ).duties (barCell c) 0 \ ∅) (fun d => (ringRd (F := F) m ρ).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_f (a j : Nat) (ha : a < 4) (hj : j < 32) :
    bigSep ((ringRd (F := F) m ρ).duties (fcell c a j) 0 \ ∅) (fun d => (ringRd (F := F) m ρ).payload (fcell c a j) 0 d) = famPay m ρ c a j := by
  rw [Finset.sdiff_empty, duties_f m ρ c a j ha hj, bigSep_singleton, payload_f m ρ c a j ha hj]

end Tables

/-! ## What each core owes at launch; the levels -/

/-- What device `c` still owes its neighbours' receive cells from chunk `k` on: the first copies' credit to `X c`,
    the second copies' to `Y c`. -/
def Ox (c : Dev nD) (k : Nat) : CellTallies nD τ sig Unit := ∑ j ∈ Finset.Ico k 32, tallyAt (fcell (xnb c) 1 j) () Nx
def Oy (c : Dev nD) (k : Nat) : CellTallies nD τ sig Unit := ∑ j ∈ Finset.Ico k 32, tallyAt (fcell (ynb c) 3 j) () No

/-- At launch: all 64 copies' credit and one unit to each neighbour's entry cell — summed so that the first signal
    (to `X c`) peels the last summand, the second (to `Y c`) the one before. -/
def O₁ (c : Dev nD) : CellTallies nD τ sig Unit := Oy c 0 + Ox c 0
def O₀ (c : Dev nD) : CellTallies nD τ sig Unit := O₁ c + tallyAt (barCell (ynb c)) () 1 + tallyAt (barCell (xnb c)) () 1

theorem Ico_peel (k n : Nat) (hk : k < n) : Finset.Ico k n = insert k (Finset.Ico (k + 1) n) := by
  ext x; simp only [Finset.mem_Ico, Finset.mem_insert]; omega
theorem not_mem_Ico_succ (k n : Nat) : k ∉ Finset.Ico (k + 1) n := by
  simp only [Finset.mem_Ico]; omega
theorem range_peel (k : Nat) : Finset.range (k + 1) = insert k (Finset.range k) := Finset.range_add_one
theorem not_mem_range_self' (k : Nat) : k ∉ Finset.range k := Finset.notMem_range_self

theorem Ox_succ (c : Dev nD) (k : Nat) (hk : k < 32) : Ox c k = Ox c (k + 1) + tallyAt (fcell (xnb c) 1 k) () Nx := by
  unfold Ox; rw [Ico_peel k 32 hk, Finset.sum_insert (not_mem_Ico_succ k 32), add_comm]
theorem Oy_succ (c : Dev nD) (k : Nat) (hk : k < 32) : Oy c k = Oy c (k + 1) + tallyAt (fcell (ynb c) 3 k) () No := by
  unfold Oy; rw [Ico_peel k 32 hk, Finset.sum_insert (not_mem_Ico_succ k 32), add_comm]
theorem Ox_end (c : Dev nD) : Ox c 32 = 0 := by unfold Ox; rw [Finset.Ico_self, Finset.sum_empty]
theorem Oy_end (c : Dev nD) : Oy c 32 = 0 := by unfold Oy; rw [Finset.Ico_self, Finset.sum_empty]

def L (g : GSem nD τ sig) : Finset Unit := if g.1.2 = .tc then {()} else ∅
/-- Entry cells at 1, the first copies' receive cells at 2, the second copies' at 3, everything else (the staging
    semaphores, the send cells) at 0. -/
def lvS : SemLoc sig → ℕ
  | .reg _ => 1
  | .dma i => if 34 ≤ i.val ∧ i.val < 66 then 2 else if 98 ≤ i.val then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_f (c : Dev nD) (a j : Nat) (ha : a < 4) (hj : j < 32) (u : Unit) :
    lv (fcell c a j) u = if a = 1 then 2 else if a = 3 then 3 else 0 := by
  show (if 34 ≤ (fsem a j).val ∧ (fsem a j).val < 66 then 2 else if 98 ≤ (fsem a j).val then 3 else 0) = _
  rw [fsem_val a j ha hj]
  by_cases h1 : a = 1
  · rw [if_pos h1, if_pos (by omega)]
  · rw [if_neg h1, if_neg (by omega)]
    by_cases h3 : a = 3
    · rw [if_pos h3, if_pos (by omega)]
    · rw [if_neg h3, if_neg (by omega)]

/-! ## The cells as the launch indexes them, and what every device knows of all of them -/

/-- A device's cells: its entry cell (`none`) and semaphore `j` of family `a`. -/
abbrev CellIx : Type := Option (Fin 4 × Fin 32)
abbrev csem : CellIx → SemLoc sig
  | none => .reg barS
  | some aj => .dma (fsem aj.1.val aj.2.val)
abbrev kcell (ck : Dev nD × CellIx) : GSem nD τ sig := ((ck.1 : Thread nD τ), csem ck.2)

/-- Every cell's invariant, under the names `K` the launch allocated them at, and that every cell has reached round 0:
    persistent, known to every device. -/
def records (K : Dev nD × CellIx → ℕ) : sProp 𝕄 :=
  iprop((bigSep Finset.univ fun ck : Dev nD × CellIx => cellInv ER (ringRd m ρ) (K ck) (kcell ck))
    ∗ bigSep Finset.univ fun ck : Dev nD × CellIx => reached ER (kcell ck) 0)

instance records_persistent (K : Dev nD × CellIx → ℕ) : BI.Persistent (records m ρ K) := by unfold records; infer_instance

/-- The name of a cell by numbers. -/
def Kf (K : Dev nD × CellIx → ℕ) (c : Dev nD) (a j : Nat) : ℕ :=
  if h : a < 4 ∧ j < 32 then K (c, some (⟨a, h.1⟩, ⟨j, h.2⟩)) else 0

theorem invs_at (K : Dev nD × CellIx → ℕ) (ck : Dev nD × CellIx) :
    (bigSep Finset.univ fun ck : Dev nD × CellIx => (cellInv ER (ringRd m ρ) (K ck) (kcell ck) : sProp 𝕄)) ⊢ cellInv ER (ringRd m ρ) (K ck) (kcell ck) :=
  bigSep_elim (Finset.mem_univ ck)
theorem reacheds_at (ck : Dev nD × CellIx) :
    (bigSep Finset.univ fun ck : Dev nD × CellIx => (reached ER (kcell ck) 0 : sProp 𝕄)) ⊢ reached ER (kcell ck) 0 :=
  bigSep_elim (Finset.mem_univ ck)

theorem inv_bar (K : Dev nD × CellIx → ℕ) (c : Dev nD) : records m ρ K ⊢ cellInv ER (ringRd m ρ) (K (c, none)) (barCell c) := by
  unfold records; iintro ⟨HI, -⟩
  iapply (invs_at m ρ K (c, none)); iexact HI
theorem inv_f (K : Dev nD × CellIx → ℕ) (c : Dev nD) (a j : Nat) (ha : a < 4) (hj : j < 32) :
    records m ρ K ⊢ cellInv ER (ringRd m ρ) (Kf K c a j) (fcell c a j) := by
  unfold records Kf; rw [dif_pos ⟨ha, hj⟩]
  iintro ⟨HI, -⟩
  iapply (invs_at m ρ K (c, some (⟨a, ha⟩, ⟨j, hj⟩))); iexact HI
theorem reached_bar (K : Dev nD × CellIx → ℕ) (c : Dev nD) : records m ρ K ⊢ reached ER (barCell c) 0 := by
  unfold records; iintro ⟨-, HR⟩
  iapply (reacheds_at (F := F) (c, none)); iexact HR
theorem reached_f (K : Dev nD × CellIx → ℕ) (c : Dev nD) (a j : Nat) (ha : a < 4) (hj : j < 32) :
    records m ρ K ⊢ reached ER (fcell c a j) 0 := by
  unfold records
  iintro ⟨-, HR⟩
  iapply (reacheds_at (F := F) (c, some (⟨a, ha⟩, ⟨j, hj⟩))); iexact HR

/-! ## What a device's body starts from and ends with -/

/-- Over the 32 chunks. -/
abbrev R32 : Finset Nat := Finset.range 32

/-- Device `c`'s linear ghost state at launch: its positions at round 0 of its 129 cells, and the tokens of the duties IT
    pays: the entry duties `false` on `X c` and `true` on `Y c`, its 64 send duties, the 32 receive duties on `X c` and the
    32 on `Y c`. -/
def linear (c : Dev nD) : sProp 𝕄 :=
  iprop(atPos ER (barCell c) 0 ∅ 0
    ∗ (bigSep R32 fun j => atPos ER (fcell c 0 j) 0 ∅ 0) ∗ (bigSep R32 fun j => atPos ER (fcell c 1 j) 0 ∅ 0)
    ∗ (bigSep R32 fun j => atPos ER (fcell c 2 j) 0 ∅ 0) ∗ (bigSep R32 fun j => atPos ER (fcell c 3 j) 0 ∅ 0)
    ∗ dutyTok ER (barCell (xnb c)) 0 false ∗ dutyTok ER (barCell (ynb c)) 0 true
    ∗ (bigSep R32 fun j => dutyTok ER (fcell c 0 j) 0 false) ∗ (bigSep R32 fun j => dutyTok ER (fcell (xnb c) 1 j) 0 false)
    ∗ (bigSep R32 fun j => dutyTok ER (fcell c 2 j) 0 false) ∗ (bigSep R32 fun j => dutyTok ER (fcell (ynb c) 3 j) 0 false))

def ghost (K : Dev nD × CellIx → ℕ) (c : Dev nD) : sProp 𝕄 := iprop(records m ρ K ∗ linear c)

/-- The credit the launch deals device `c`: two units on its entry cell, each landing's credit on its 64 receive cells. -/
def creds (c : Dev nD) : sProp 𝕄 :=
  iprop(cred (tallyAt (barCell c) () 2) ∗ (bigSep R32 fun j => cred (tallyAt (fcell c 1 j) () Nx)) ∗ (bigSep R32 fun j => cred (tallyAt (fcell c 3 j) () No)))

def start (c : Dev nD) : sProp 𝕄 := iprop((∃ K, ghost m ρ K c) ∗ creds c ∗ levAts L lv)

/-- The landing buffer, whole, at some contents. -/
def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ scrAny c)
/-- After the point: the landing buffer back, and the 128 own copy cells closed, their counters at zero. -/
def Φ₁ (c : Dev nD) : sProp 𝕄 :=
  iprop(scrAny c ∗ (bigSep R32 fun j => semVal (fcell c 0 j) 0) ∗ (bigSep R32 fun j => semVal (fcell c 1 j) 0)
    ∗ (bigSep R32 fun j => semVal (fcell c 2 j) 0) ∗ (bigSep R32 fun j => semVal (fcell c 3 j) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body obligation hands the body on device `c`, and what the body must hand back. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outC m ρ c))

end Cert.KernelIdealProof

end
-- ==== Proof.KernelIdeal.StepsSend.lean ====
/-
  The body's remote steps, each proved once at a symbolic device `c` and a symbolic chunk `j`: a first copy (chunk `j` of
  the input block into the same chunk of `X c`'s landing buffer), a second copy (the piece of chunk `j` in the own column
  half of the result buffer into the same piece of `Y c`'s), a wait on one of the device's own copy cells, and what the
  store of chunk `j` leaves in the result buffer.
-/
import proofs.«900267_g7700000000000268_dist_redx_gaty_m1024_n512_v7x_xy2x2_f32_1_alg».proof.Proof.KernelIdeal.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-- The first copy of chunk `j`: the lent half share of the source chunk goes with the copy and comes back with the send
    cell's credit; `X c`'s landing chunk, handed over at the entry handshake, is rewritten and goes to `X c` with its
    receive cell's credit. The device pays that credit off what it owes and gets its send cell's credit token. -/
theorem step_xsend (c n : Dev nD) (hn : n = xnb c) (j : Nat) (hj : j < 32) (off : Fin 2 → Nat) (hoff : off = ![32 * j, 0])
    (hb hb' : InbB off) (hs hs' : InbS j)
    {hsc : (rCh off hb' : Memref sig (Dev.tc n : Thread nD τ).2.kind .vmem S32x512 .f32).view.ref.isScScratch = false}
    {hsrc : (xCh off hb : Memref sig .tc .vmem S32x512 .f32).view.WordExact} {hdst : (rCh off hb' : Memref sig .tc .vmem S32x512 .f32).view.WordExact}
    {hsem : DmaTarget.Typed .vmem (.dma (semAt cc0_scratch2 j hs')) (.remote (Dev.tc n : Thread nD τ) (rCh off hb' : Memref sig .tc .vmem S32x512 .f32) (.dma (semAt cc0_scratch1 j hs)) hsc)}
    {α : Type} {Q : α → sProp 𝕄} {k : PUnit → Prog (TpuEff nD τ sig (Elt F) Λ₀ .tc) α}
    (fN : Buf (Elt F) ((rM : Memref sig .tc .vmem S1024x512 .f32).view.loc (xnb c : Thread nD τ)))
    (O : CellTallies nD τ sig Unit) (W : Waits sig Unit) :
    iprop(records m ρ K ∗ sxPay m ρ c j
        ∗ ((rM : Memref sig .tc .vmem S1024x512 .f32).view.loc (xnb c : Thread nD τ) ↦[rowsB j]{fullShare} fN)
        ∗ owes (c : Thread nD τ) (O + tallyAt (fcell (xnb c) 1 j) () Nx) W
        ∗ dutyTok ER (fcell c 0 j) 0 false ∗ dutyTok ER (fcell (xnb c) 1 j) 0 false)
      ⊢ iprop(((cred (tallyAt (fcell c 0 j) () Nx) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xCh off hb) (.remote (Dev.tc n : Thread nD τ) (rCh off hb') (.dma (semAt cc0_scratch1 j hs)) hsc) (.dma (semAt cc0_scratch2 j hs')) hsrc hdst hsem) k) Q) := by
  subst hn
  subst hoff
  -- the two semaphores by number: the cells are the send cell (family 0) of `c` and the receive cell (family 1) of `X c`
  generalize h1 : semAt cc0_scratch1 j hs = s1 at hsem ⊢
  generalize h2 : semAt cc0_scratch2 j hs' = s2 at hsem ⊢
  rw [semAt1 j hs hj] at h1
  rw [semAt2 j hs' hj] at h2
  subst h1
  subst h2
  have core := Rounds.wp_send_pointsTo 𝒱₀ ER (ringRd m ρ) (c : Thread nD τ) none
    (κ₁ := Kf K c 0 j) (κ₂ := Kf K (xnb c) 1 j) (c' := (xnb c : Thread nD τ))
    (src := xCh ![32 * j, 0] hb) (dst := rCh ![32 * j, 0] hb') (hsc := hsc) (hsrc := hsrc) (hdst := hdst) (hsem := hsem)
    (k := k) (Q := Q) (q := qL) (fs := xstg m ρ c) (fd := fN)
    (r₁ := 0) (r₂ := 0) (d₁ := false) (d₂ := false)
    (by rw [duties_f m ρ c 0 j (by decide) hj]; exact Finset.mem_singleton_self _)
    (by rw [duties_f m ρ (xnb c) 1 j (by decide) hj]; exact Finset.mem_singleton_self _)
    () () Nx (rCh_amount _ hb' _)
    (amount_f m ρ c 0 j (by decide) hj false) (amount_f m ρ (xnb c) 1 j (by decide) hj false)
    O rfl (W := W) (Es := Set.univ) (defs := defs₀ (F := F)) (Γ := .empty)
    (by
      rw [payload_f m ρ c 0 j (by decide) hj false]
      unfold famPay
      rw [if_pos rfl]
      unfold sxPay
      rw [xCh_set j _ hb rfl])
    (by
      rw [payload_f m ρ (xnb c) 1 j (by decide) hj false]
      unfold famPay
      rw [if_neg (by decide), if_pos rfl]
      unfold rxPay
      -- `X (X c) = c`; on the chunk's rows the landing buffer now holds `c`'s block, off them the contents do not matter
      rw [xnb_xnb, pointsTo_congr (fun i hi => xcopy_val _ hb' fN (xstg m ρ c) i hi), rCh_set j _ hb' rfl])
  rw [xCh_set j _ hb rfl, rCh_set j _ hb' rfl] at core
  iintro ⟨#Hrec, Hsx, Hd, Ho, Ht1, Ht2⟩
  iapply core
  isplitr
  · iapply (inv_f m ρ K c 0 j (by decide) hj); iexact Hrec
  isplitr
  · iapply (inv_f m ρ K (xnb c) 1 j (by decide) hj); iexact Hrec
  isplitl [Hsx]
  · unfold sxPay; iexact Hsx
  isplitl [Hd]
  · iexact Hd
  isplitl [Ho]
  · iexact Ho
  isplitl [Ht1]
  · iexact Ht1
  isplitr
  · iapply (reached_f m ρ K c 0 j (by decide) hj); iexact Hrec
  isplitl [Ht2]
  · iexact Ht2
  iapply (reached_f m ρ K (xnb c) 1 j (by decide) hj); iexact Hrec

/-- On its own column half a device's result entry is made on the device itself. -/
theorem maker_own (c : Dev nD) (i : S1024x1024.Idx) (hi : (i 1).val / 512 = cy c) : Cert.Spec.maker c i = c := by
  unfold Cert.Spec.maker
  exact if_pos hi

/-- The device across the second axis has `c`'s column half made on `c`. -/
theorem maker_ynb (c : Dev nD) (i : S1024x1024.Idx) (hi : (i 1).val / 512 = cy c) : Cert.Spec.maker (ynb c) i = c := by
  have h1 : cy (ynb c) = 1 - cy c := cy_ynb c
  have h2 : cy c < 2 := cy_lt c
  have hne : ¬ (i 1).val / 512 = cy (ynb c) := by omega
  unfold Cert.Spec.maker
  exact (if_neg hne).trans (ynb_ynb c)

/-- On `c`'s column half the results of `c` and of the device across the second axis are the same entry. -/
theorem outC_ynb (c : Dev nD) (i : S1024x1024.Idx) (hi : (i 1).val / 512 = cy c) : outC m ρ (ynb c) i = outC m ρ c i := by
  unfold outC
  rw [Cert.Spec.outAt_apply, Cert.Spec.outAt_apply, maker_own c i hi, maker_ynb c i hi]

/-- The second copy of chunk `j`: the stored piece (own column half) goes whole with the copy and comes back with the send
    cell's credit; the same piece of `Y c`'s result buffer, handed over at the entry handshake, is rewritten and goes to
    `Y c` with its receive cell's credit. -/
theorem step_ysend (c n : Dev nD) (hn : n = ynb c) (j : Nat) (hj : j < 32) (off : Fin 2 → Nat) (hoff : off = ![32 * j, 512 * cy c])
    (hb hb' : InbO off) (hs hs' : InbS j)
    {hsc : (oCh off hb' : Memref sig (Dev.tc n : Thread nD τ).2.kind .vmem S32x512 .f32).view.ref.isScScratch = false}
    {hsrc : (oCh off hb : Memref sig .tc .vmem S32x512 .f32).view.WordExact} {hdst : (oCh off hb' : Memref sig .tc .vmem S32x512 .f32).view.WordExact}
    {hsem : DmaTarget.Typed .vmem (.dma (semAt cc0_scratch4 j hs')) (.remote (Dev.tc n : Thread nD τ) (oCh off hb' : Memref sig .tc .vmem S32x512 .f32) (.dma (semAt cc0_scratch3 j hs)) hsc)}
    {α : Type} {Q : α → sProp 𝕄} {k : PUnit → Prog (TpuEff nD τ sig (Elt F) Λ₀ .tc) α}
    (fN : Buf (Elt F) ((oM : Memref sig .tc .vmem S1024x1024 .f32).view.loc (ynb c : Thread nD τ)))
    (O : CellTallies nD τ sig Unit) (W : Waits sig Unit) :
    iprop(records m ρ K ∗ syPay m ρ c j
        ∗ ((oM : Memref sig .tc .vmem S1024x1024 .f32).view.loc (ynb c : Thread nD τ) ↦[blkO j (cy c)]{fullShare} fN)
        ∗ owes (c : Thread nD τ) (O + tallyAt (fcell (ynb c) 3 j) () No) W
        ∗ dutyTok ER (fcell c 2 j) 0 false ∗ dutyTok ER (fcell (ynb c) 3 j) 0 false)
      ⊢ iprop(((cred (tallyAt (fcell c 2 j) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oCh off hb) (.remote (Dev.tc n : Thread nD τ) (oCh off hb') (.dma (semAt cc0_scratch3 j hs)) hsc) (.dma (semAt cc0_scratch4 j hs')) hsrc hdst hsem) k) Q) := by
  subst hn
  subst hoff
  -- the two semaphores by number: the send cell (family 2) of `c` and the receive cell (family 3) of `Y c`
  generalize h1 : semAt cc0_scratch3 j hs = s1 at hsem ⊢
  generalize h2 : semAt cc0_scratch4 j hs' = s2 at hsem ⊢
  rw [semAt3 j hs hj] at h1
  rw [semAt4 j hs' hj] at h2
  subst h1
  subst h2
  -- the column half `Y c` receives is `c`'s own
  have hcy : 1 - cy (ynb c) = cy c := by
    have h1 : cy (ynb c) = 1 - cy c := cy_ynb c
    have h2 : cy c < 2 := cy_lt c
    omega
  have core := Rounds.wp_send_pointsTo 𝒱₀ ER (ringRd m ρ) (c : Thread nD τ) none
    (κ₁ := Kf K c 2 j) (κ₂ := Kf K (ynb c) 3 j) (c' := (ynb c : Thread nD τ))
    (src := oCh ![32 * j, 512 * cy c] hb) (dst := oCh ![32 * j, 512 * cy c] hb') (hsc := hsc) (hsrc := hsrc) (hdst := hdst) (hsem := hsem)
    (k := k) (Q := Q) (q := fullShare) (fs := outC m ρ c) (fd := fN)
    (r₁ := 0) (r₂ := 0) (d₁ := false) (d₂ := false)
    (by rw [duties_f m ρ c 2 j (by decide) hj]; exact Finset.mem_singleton_self _)
    (by rw [duties_f m ρ (ynb c) 3 j (by decide) hj]; exact Finset.mem_singleton_self _)
    () () No (oCh_amount _ hb' _)
    (amount_f m ρ c 2 j (by decide) hj false) (amount_f m ρ (ynb c) 3 j (by decide) hj false)
    O rfl (W := W) (Es := Set.univ) (defs := defs₀ (F := F)) (Γ := .empty)
    (by
      rw [payload_f m ρ c 2 j (by decide) hj false]
      unfold famPay
      rw [if_neg (by decide), if_neg (by decide), if_pos rfl]
      unfold syPay
      rw [oCh_set j (cy c) _ hb rfl])
    (by
      rw [payload_f m ρ (ynb c) 3 j (by decide) hj false]
      unfold famPay
      rw [if_neg (by decide), if_neg (by decide), if_neg (by decide)]
      unfold ryPay
      -- on the piece the copy lands `c`'s result, which there is `Y c`'s result too
      rw [hcy, pointsTo_congr (g := outC m ρ (ynb c)) (fun i hi =>
        (ycopy_val _ hb' fN (outC m ρ c) i hi).trans
          (outC_ynb m ρ c i (mem_blkO.mp ((oCh_set j (cy c) _ hb' rfl) ▸ hi)).2).symm), oCh_set j (cy c) _ hb' rfl])
  rw [oCh_set j (cy c) _ hb rfl] at core
  iintro ⟨#Hrec, Hsy, Hd, Ho, Ht1, Ht2⟩
  iapply core
  isplitr
  · iapply (inv_f m ρ K c 2 j (by decide) hj); iexact Hrec
  isplitr
  · iapply (inv_f m ρ K (ynb c) 3 j (by decide) hj); iexact Hrec
  isplitl [Hsy]
  · unfold syPay; iexact Hsy
  isplitl [Hd]
  · iexact Hd
  isplitl [Ho]
  · iexact Ho
  isplitl [Ht1]
  · iexact Ht1
  isplitr
  · iapply (reached_f m ρ K c 2 j (by decide) hj); iexact Hrec
  isplitl [Ht2]
  · iexact Ht2
  iapply (reached_f m ρ K (ynb c) 3 j (by decide) hj); iexact Hrec

end Cert.KernelIdealProof

end
-- ==== Proof.KernelIdeal.StepsWait.lean ====
/-
  The body's remote steps, each proved once at a symbolic device `c` and a symbolic chunk `j`: a first copy (chunk `j` of
  the input block into the same chunk of `X c`'s landing buffer), a second copy (the piece of chunk `j` in the own column
  half of the result buffer into the same piece of `Y c`'s), a wait on one of the device's own copy cells, and what the
  store of chunk `j` leaves in the result buffer.
-/
import proofs.«900267_g7700000000000268_dist_redx_gaty_m1024_n512_v7x_xy2x2_f32_1_alg».proof.Proof.KernelIdeal.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-- A wait on the device's own copy cell `j` of family `a`, for the whole of its one round: the cell's payload comes
    back, the wait is recorded, and the cell, all its rounds done, is closed: its counter at zero is the device's again. -/
theorem step_fwait (c : Dev nD) (a j : Nat) (ha : a < 4) (hj : j < 32) (s : DmaSem sig) (hs : s = fsem a j)
    {sp sp' : Space} {sh sh' : Shape} {e e' : EltTy}
    {src : Memref sig .tc sp' sh' e'} {κ' : Kind} {dst : Memref sig κ' sp sh e} {hsrc : src.view.WordExact} {hdst : dst.view.WordExact}
    (hamt : dst.view.dmaCredit = famAmt a)
    {α : Type} {Q : α → sProp 𝕄} {k : PUnit → Prog (TpuEff nD τ sig (Elt F) Λ₀ .tc) α}
    (O : CellTallies nD τ sig Unit) (W : Waits sig Unit) :
    iprop(records m ρ K ∗ cred (tallyAt (fcell c a j) () (famAmt a)) ∗ owes (c : Thread nD τ) O W
        ∗ MayWait (c : Thread nD τ) (.dma (fsem a j)) () O ∗ atPos ER (fcell c a j) 0 ∅ 0)
      ⊢ iprop(((owes (c : Thread nD τ) O (insert (SemLoc.dma (fsem a j), ()) W) ∗ semVal (fcell c a j) 0 ∗ famPay m ρ c a j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  iintro ⟨#Hrec, Hc, HO, HMW, Hat⟩ Hk
  iapply (Rounds.wp_wait_rest_token 𝒱₀ ER (ringRd m ρ) (c : Thread nD τ) none (κ := Kf K c a j)
      (wpE_waitDma2_eq 𝒱₀ (c : Thread nD τ) none Set.univ) (Set.mem_univ _) () (O := O) (W := W) (R := 0) (m := 0) (T := ∅)
      (by rw [Nat.zero_add, expect_f m ρ c a j ha hj]; exact hamt)) $$ [Hc HO HMW Hat]
  · isplitr; · iapply (inv_f m ρ K c a j ha hj); iexact Hrec
    isplitl [Hc]; · rw [hamt]; iexact Hc
    isplitl [HO]; · iexact HO
    isplitl [HMW]; · iexact HMW
    iexact Hat
  iintro ⟨HO, Hat, -, Hpay⟩
  ihave Hp := (Entails.of_eq (rest_f m ρ c a j ha hj)) $$ Hpay
  imod (Rounds.cell_close ER (ringRd m ρ) (Set.mem_univ (Kf K c a j)) (fun h => h) (R := 0 + 1) (duties_later m ρ (fcell c a j))) $$ [Hat] with Hz
  · isplitr; · iapply (inv_f m ρ K c a j ha hj); iexact Hrec
    iexact Hat
  iapply Hk
  isplitl [HO]; · iexact HO
  isplitl [Hz]; · iexact Hz
  iexact Hp

/-- What the store of chunk `j` leaves: own chunk + landed chunk, at the own column half — on that piece, what the
    device's result buffer is to hold. `pay` is the body's sum of two loaded vectors, whichever printed payload it is. -/
theorem stored_piece (c : Dev nD) (j : Nat) (hj : j < 32) (offx : Fin 2 → Nat) (hx : InbB offx) (offo : Fin 2 → Nat) (ho : InbO offo)
    (hoffx : offx = ![32 * j, 0]) (hoffo : offo = ![32 * j, 512 * cy c])
    (fo : (cc0_stg1_0 : Ref sig .tc).ty.Contents (Elt F))
    (pay : Vec F S32x512 .f32 → Vec F S32x512 .f32 → FVec F S32x512 .f32)
    (hpay : ∀ a b y, pay a b y = FloatOps.addf (a y) (b y)) (q : PosShare TreeShare) :
    ((oM : Memref sig .tc .vmem S1024x1024 .f32).view.loc (c : Thread nD τ) ↦[blkO j (cy c)]{q}
        ((oM.access (Rect.unit (s := S1024x1024) offo S32x512.size ho) : View sig .tc _ _ _).write (Elt F) fo
          (pay ((xM : Memref sig .tc .vmem S1024x512 .f32).view.readAt (Elt F) (Rect.unit (s := S1024x512) offx S32x512.size hx).toLoadRect (xstg m ρ c))
               ((rM : Memref sig .tc .vmem S1024x512 .f32).view.readAt (Elt F) (Rect.unit (s := S1024x512) offx S32x512.size hx).toLoadRect (xstg m ρ (xnb c)))) Finset.univ) : sProp 𝕄)
      = ((oM : Memref sig .tc .vmem S1024x1024 .f32).view.loc (c : Thread nD τ) ↦[blkO j (cy c)]{q} outC m ρ c) := by
  refine pointsTo_congr (fun i hi => ?_)
  have h1 : (i 1).val / 512 = c.val % 2 := (mem_blkO.mp hi).2
  rw [store_val j (cy c) offx hx offo ho hoffx hoffo (xstg m ρ c) (xstg m ρ (xnb c)) fo pay hpay i hi]
  show _ = Cert.Spec.outAt (fun d => xstg m ρ d) c i
  rw [Cert.Spec.outAt_apply, show Cert.Spec.maker c i = c from if_pos h1]
  rfl

end Cert.KernelIdealProof

end
-- ==== Proof.KernelIdeal.Fam.lean ====
/-
  Bookkeeping over the 32 chunks: a family of per-chunk resources held as one separating conjunction over the chunks
  still to come (`Finset.Ico k 32`) or already done (`Finset.range k`), one chunk taken off or put on at a time; and the
  three buffers cut into their chunks and put together again.
-/
import proofs.«900267_g7700000000000268_dist_redx_gaty_m1024_n512_v7x_xy2x2_f32_1_alg».proof.Proof.KernelIdeal.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over the chunks -/

/-- The chunks from `k` on: chunk `k` and the rest. -/
theorem ico_peel (Φ : Nat → sProp 𝕄) (k : Nat) (hk : k < 32) :
    bigSep (Finset.Ico k 32) Φ = iprop(Φ k ∗ bigSep (Finset.Ico (k + 1) 32) Φ) := by
  rw [Ico_peel k 32 hk, bigSep_insert (not_mem_Ico_succ k 32)]
  rfl
/-- The chunks below `k` and chunk `k`: the chunks below `k + 1`. -/
theorem rng_push (Φ : Nat → sProp 𝕄) (k : Nat) :
    bigSep (Finset.range (k + 1)) Φ = iprop(Φ k ∗ bigSep (Finset.range k) Φ) := by
  rw [range_peel k, bigSep_insert (not_mem_range_self' k)]
  rfl
theorem ico_end (Φ : Nat → sProp 𝕄) : bigSep (Finset.Ico 32 32) Φ = iprop(emp) := by
  rw [Finset.Ico_self, bigSep_empty]
  rfl
theorem rng_zero (Φ : Nat → sProp 𝕄) : bigSep (Finset.range 0) Φ = iprop(emp) := by
  rw [Finset.range_zero, bigSep_empty]
  rfl
theorem ico_zero (Φ : Nat → sProp 𝕄) : bigSep (Finset.Ico 0 32) Φ = bigSep R32 Φ := by
  rw [← Finset.range_eq_Ico]

/-! ## The buffers cut into chunks -/

/-- A points-to moves along an equality of its element sets. -/
theorem pt_congr {ℓ : Loc nD τ sig} {A B : Finset (Idx ℓ)} (e : A = B) (q : PosShare TreeShare) (f : Buf (Elt F) ℓ) :
    ((ℓ ↦[A]{q} f) : sProp 𝕄) = (ℓ ↦[B]{q} f) := by
  subst e; rfl
/-- An equivalence moves along an equality of its left side. -/
theorem equiv_of_eq_left {P P' Q : sProp 𝕄} (e : P = P') (h : P' ⊣⊢ Q) : P ⊣⊢ Q := by
  subst e; exact h

variable (c : Dev nD)

/-- A whole buffer's points-to is the points-to on all its elements. -/
theorem whole_x (q : PosShare TreeShare) (f : Buf (Elt F) ((c : Thread nD τ).loc cc0_stg0_0)) :
    ((((c : Thread nD τ).loc cc0_stg0_0) ↦{q} f) : sProp 𝕄)
      = ((xM : Memref sig .tc .vmem S1024x512 .f32).view.loc (c : Thread nD τ) ↦[(Finset.univ : Finset S1024x512.Idx)]{q} f) := by
  rfl
theorem whole_r (q : PosShare TreeShare) (f : Buf (Elt F) ((c : Thread nD τ).loc cc0_scratch0)) :
    ((((c : Thread nD τ).loc cc0_scratch0) ↦{q} f) : sProp 𝕄)
      = ((rM : Memref sig .tc .vmem S1024x512 .f32).view.loc (c : Thread nD τ) ↦[(Finset.univ : Finset S1024x512.Idx)]{q} f) := by
  rfl
theorem whole_o (q : PosShare TreeShare) (f : Buf (Elt F) ((c : Thread nD τ).loc cc0_stg1_0)) :
    ((((c : Thread nD τ).loc cc0_stg1_0) ↦{q} f) : sProp 𝕄)
      = ((oM : Memref sig .tc .vmem S1024x1024 .f32).view.loc (c : Thread nD τ) ↦[(Finset.univ : Finset S1024x1024.Idx)]{q} f) := by
  rfl

/-- The full share is its two halves. -/
theorem share_x (S : Finset S1024x512.Idx) (f : Buf (Elt F) ((c : Thread nD τ).loc cc0_stg0_0)) :
    (((xM : Memref sig .tc .vmem S1024x512 .f32).view.loc (c : Thread nD τ) ↦[S]{fullShare} f) : sProp 𝕄)
      ⊣⊢ iprop(((xM : Memref sig .tc .vmem S1024x512 .f32).view.loc (c : Thread nD τ) ↦[S]{qL} f)
          ∗ ((xM : Memref sig .tc .vmem S1024x512 .f32).view.loc (c : Thread nD τ) ↦[S]{qR} f)) := by
  exact pointsTo_share (PosShare.mem_left_op_right fullShare)

/-- A [1024, 512] buffer, at any share and contents, is its 32 chunks. -/
theorem rows_x (q : PosShare TreeShare) (f : Buf (Elt F) ((c : Thread nD τ).loc cc0_stg0_0)) :
    (((xM : Memref sig .tc .vmem S1024x512 .f32).view.loc (c : Thread nD τ) ↦[(Finset.univ : Finset S1024x512.Idx)]{q} f) : sProp 𝕄)
      = bigSep R32 fun j => ((xM : Memref sig .tc .vmem S1024x512 .f32).view.loc (c : Thread nD τ) ↦[rowsB j]{q} f) :=
  (pt_congr (ℓ := (xM : Memref sig .tc .vmem S1024x512 .f32).view.loc (c : Thread nD τ)) univ_eq_rowsB q f).trans
    (pointsTo_biUnion (ℓ := (xM : Memref sig .tc .vmem S1024x512 .f32).view.loc (c : Thread nD τ)) (q := q) (f := f)
      (Finset.range 32) rowsB fun t _ t' _ h => rowsB_disjoint t t' h)
theorem rows_r (q : PosShare TreeShare) (f : Buf (Elt F) ((c : Thread nD τ).loc cc0_scratch0)) :
    (((rM : Memref sig .tc .vmem S1024x512 .f32).view.loc (c : Thread nD τ) ↦[(Finset.univ : Finset S1024x512.Idx)]{q} f) : sProp 𝕄)
      = bigSep R32 fun j => ((rM : Memref sig .tc .vmem S1024x512 .f32).view.loc (c : Thread nD τ) ↦[rowsB j]{q} f) :=
  (pt_congr (ℓ := (rM : Memref sig .tc .vmem S1024x512 .f32).view.loc (c : Thread nD τ)) univ_eq_rowsB q f).trans
    (pointsTo_biUnion (ℓ := (rM : Memref sig .tc .vmem S1024x512 .f32).view.loc (c : Thread nD τ)) (q := q) (f := f)
      (Finset.range 32) rowsB fun t _ t' _ h => rowsB_disjoint t t' h)
/-- A column half of the result buffer is its 32 pieces. -/
theorem col_o (p : Nat) (q : PosShare TreeShare) (f : Buf (Elt F) ((c : Thread nD τ).loc cc0_stg1_0)) :
    (((oM : Memref sig .tc .vmem S1024x1024 .f32).view.loc (c : Thread nD τ) ↦[colO p]{q} f) : sProp 𝕄)
      = bigSep R32 fun j => ((oM : Memref sig .tc .vmem S1024x1024 .f32).view.loc (c : Thread nD τ) ↦[blkO j p]{q} f) :=
  (pt_congr (ℓ := (oM : Memref sig .tc .vmem S1024x1024 .f32).view.loc (c : Thread nD τ)) (colO_eq p) q f).trans
    (pointsTo_biUnion (ℓ := (oM : Memref sig .tc .vmem S1024x1024 .f32).view.loc (c : Thread nD τ)) (q := q) (f := f)
      (Finset.range 32) (fun j => blkO j p) fun t _ t' _ h => blkO_disjoint p t t' h)
/-- The result buffer is its two column halves. -/
theorem halves_o (p : Nat) (hp : p < 2) (q : PosShare TreeShare) (f : Buf (Elt F) ((c : Thread nD τ).loc cc0_stg1_0)) :
    (((oM : Memref sig .tc .vmem S1024x1024 .f32).view.loc (c : Thread nD τ) ↦[(Finset.univ : Finset S1024x1024.Idx)]{q} f) : sProp 𝕄)
      ⊣⊢ iprop(((oM : Memref sig .tc .vmem S1024x1024 .f32).view.loc (c : Thread nD τ) ↦[colO p]{q} f)
          ∗ ((oM : Memref sig .tc .vmem S1024x1024 .f32).view.loc (c : Thread nD τ) ↦[colO (1 - p)]{q} f)) := by
  have e01 := pt_congr (ℓ := (oM : Memref sig .tc .vmem S1024x1024 .f32).view.loc (c : Thread nD τ)) univ_eq_colO q f
  have e10 := pt_congr (ℓ := (oM : Memref sig .tc .vmem S1024x1024 .f32).view.loc (c : Thread nD τ))
    (univ_eq_colO.trans (Finset.union_comm _ _)) q f
  have u01 : (((oM : Memref sig .tc .vmem S1024x1024 .f32).view.loc (c : Thread nD τ) ↦[colO 0 ∪ colO 1]{q} f) : sProp 𝕄)
      ⊣⊢ iprop(((oM : Memref sig .tc .vmem S1024x1024 .f32).view.loc (c : Thread nD τ) ↦[colO 0]{q} f)
          ∗ ((oM : Memref sig .tc .vmem S1024x1024 .f32).view.loc (c : Thread nD τ) ↦[colO 1]{q} f)) :=
    pointsTo_union colO_disjoint
  have u10 : (((oM : Memref sig .tc .vmem S1024x1024 .f32).view.loc (c : Thread nD τ) ↦[colO 1 ∪ colO 0]{q} f) : sProp 𝕄)
      ⊣⊢ iprop(((oM : Memref sig .tc .vmem S1024x1024 .f32).view.loc (c : Thread nD τ) ↦[colO 1]{q} f)
          ∗ ((oM : Memref sig .tc .vmem S1024x1024 .f32).view.loc (c : Thread nD τ) ↦[colO 0]{q} f)) :=
    pointsTo_union colO_disjoint.symm
  match p, hp with
  | 0, _ => exact equiv_of_eq_left e01 u01
  | 1, _ => exact equiv_of_eq_left e10 u10

/-! ## What the loads and the store go through -/

/-- A load of chunk `j` from a [1024, 512] buffer reads inside the chunk's rows; -/
theorem load_sub_x (j : Nat) (off : Fin 2 → Nat) (h : InbB off) (hoff : off = ![32 * j, 0]) :
    (xM : Memref sig .tc .vmem S1024x512 .f32).view.setOn (Rect.unit (s := S1024x512) off S32x512.size h).toLoadRect.set ⊆ rowsB j := by
  subst hoff
  intro i hi
  obtain ⟨x, hx, rfl⟩ := Finset.mem_map.mp hi
  rw [unit_set_rows j h] at hx
  exact hx
theorem load_sub_r (j : Nat) (off : Fin 2 → Nat) (h : InbB off) (hoff : off = ![32 * j, 0]) :
    (rM : Memref sig .tc .vmem S1024x512 .f32).view.setOn (Rect.unit (s := S1024x512) off S32x512.size h).toLoadRect.set ⊆ rowsB j := by
  subst hoff
  intro i hi
  obtain ⟨x, hx, rfl⟩ := Finset.mem_map.mp hi
  rw [unit_set_rows j h] at hx
  exact hx
/-- a load or store of piece (`j`, `p`) of the result buffer goes through exactly that piece. -/
theorem load_sub_o (j p : Nat) (off : Fin 2 → Nat) (h : InbO off) (hoff : off = ![32 * j, 512 * p]) :
    (oM : Memref sig .tc .vmem S1024x1024 .f32).view.setOn (Rect.unit (s := S1024x1024) off S32x512.size h).toLoadRect.set ⊆ blkO j p := by
  subst hoff
  intro i hi
  obtain ⟨x, hx, rfl⟩ := Finset.mem_map.mp hi
  rw [unit_set_blk j p h] at hx
  exact hx
theorem store_set_o (j p : Nat) (off : Fin 2 → Nat) (h : InbO off) (hoff : off = ![32 * j, 512 * p]) :
    ((oM : Memref sig .tc .vmem S1024x1024 .f32).access (Rect.unit (s := S1024x1024) off S32x512.size h) : View sig .tc _ _ _).set = blkO j p := by
  exact oCh_set j p off h hoff
/-- Stored through the whole mask, the piece's view goes through exactly that piece. -/
theorem store_sub_o (j p : Nat) (off : Fin 2 → Nat) (h : InbO off) (hoff : off = ![32 * j, 512 * p]) :
    ((oM : Memref sig .tc .vmem S1024x1024 .f32).access (Rect.unit (s := S1024x1024) off S32x512.size h) : View sig .tc _ _ _).setOn Finset.univ ⊆ blkO j p := by
  intro i hi
  rw [← store_set_o j p off h hoff]
  exact hi

end Cert.KernelIdealProof

end
-- ==== Proof.KernelIdeal.FamSteps.lean ====
/-
  The body's steps at the level of the 32-chunk families: each takes chunk `k`'s resources off the families still to
  come, makes the step, and puts what comes back on the families already done.
-/
import proofs.«900267_g7700000000000268_dist_redx_gaty_m1024_n512_v7x_xy2x2_f32_1_alg».proof.Proof.KernelIdeal.StepsSend
import proofs.«900267_g7700000000000268_dist_redx_gaty_m1024_n512_v7x_xy2x2_f32_1_alg».proof.Proof.KernelIdeal.StepsWait
import proofs.«900267_g7700000000000268_dist_redx_gaty_m1024_n512_v7x_xy2x2_f32_1_alg».proof.Proof.KernelIdeal.Fam

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-- What the device owes, its recorded waits not named. -/
def owesE (c : Dev nD) (O : CellTallies nD τ sig Unit) : sProp 𝕄 := iprop(∃ W, owes (c : Thread nD τ) O W)

theorem famAmt_0 : famAmt 0 = Nx := rfl
theorem famAmt_1 : famAmt 1 = Nx := rfl
theorem famAmt_2 : famAmt 2 = No := rfl
theorem famAmt_3 : famAmt 3 = No := rfl

/-! ## The first copies -/

/-- Before the first copy of chunk `k`: the lent shares of the source chunks and `X c`'s landing chunks still to go, the
    tokens of the two duties of each copy still to make, and the send cells' credit of the copies made. -/
def XS (c : Dev nD) (fN : Buf (Elt F) ((rM : Memref sig .tc .vmem S1024x512 .f32).view.loc (xnb c : Thread nD τ))) (k : Nat) : sProp 𝕄 :=
  iprop(bigSep (Finset.Ico k 32) (fun j => sxPay m ρ c j)
    ∗ bigSep (Finset.Ico k 32) (fun j => ((rM : Memref sig .tc .vmem S1024x512 .f32).view.loc (xnb c : Thread nD τ) ↦[rowsB j]{fullShare} fN))
    ∗ bigSep (Finset.Ico k 32) (fun j => dutyTok ER (fcell c 0 j) 0 false)
    ∗ bigSep (Finset.Ico k 32) (fun j => dutyTok ER (fcell (xnb c) 1 j) 0 false)
    ∗ bigSep (Finset.range k) (fun j => cred (tallyAt (fcell c 0 j) () (famAmt 0))))

theorem fam_xsend (c n : Dev nD) (hn : n = xnb c) (k : Nat) (hk : k < 32) (off : Fin 2 → Nat) (hoff : off = ![32 * k, 0])
    (hb hb' : InbB off) (hs hs' : InbS k)
    {hsc : (rCh off hb' : Memref sig (Dev.tc n : Thread nD τ).2.kind .vmem S32x512 .f32).view.ref.isScScratch = false}
    {hsrc : (xCh off hb : Memref sig .tc .vmem S32x512 .f32).view.WordExact} {hdst : (rCh off hb' : Memref sig .tc .vmem S32x512 .f32).view.WordExact}
    {hsem : DmaTarget.Typed .vmem (.dma (semAt cc0_scratch2 k hs')) (.remote (Dev.tc n : Thread nD τ) (rCh off hb' : Memref sig .tc .vmem S32x512 .f32) (.dma (semAt cc0_scratch1 k hs)) hsc)}
    {α : Type} {Q : α → sProp 𝕄} {k' : PUnit → Prog (TpuEff nD τ sig (Elt F) Λ₀ .tc) α}
    (fN : Buf (Elt F) ((rM : Memref sig .tc .vmem S1024x512 .f32).view.loc (xnb c : Thread nD τ)))
    (O : CellTallies nD τ sig Unit) :
    iprop(records m ρ K ∗ XS m ρ c fN k ∗ owesE c (O + Ox c k))
      ⊢ iprop(((XS m ρ c fN (k + 1) ∗ owesE c (O + Ox c (k + 1))) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (xCh off hb) (.remote (Dev.tc n : Thread nD τ) (rCh off hb') (.dma (semAt cc0_scratch1 k hs)) hsc) (.dma (semAt cc0_scratch2 k hs')) hsrc hdst hsem) k') Q) := by
  unfold XS owesE
  rw [ico_peel (fun j => sxPay m ρ c j) k hk,
    ico_peel (fun j => ((rM : Memref sig .tc .vmem S1024x512 .f32).view.loc (xnb c : Thread nD τ) ↦[rowsB j]{fullShare} fN)) k hk,
    ico_peel (fun j => (dutyTok ER (fcell c 0 j) 0 false : sProp 𝕄)) k hk, ico_peel (fun j => (dutyTok ER (fcell (xnb c) 1 j) 0 false : sProp 𝕄)) k hk,
    rng_push (fun j => (cred (tallyAt (fcell c 0 j) () (famAmt 0)) : sProp 𝕄)) k, Ox_succ c k hk, ← add_assoc, famAmt_0]
  iintro ⟨#Hrec, ⟨⟨Hsk, Hs⟩, ⟨Hrk, Hr⟩, ⟨Htk, Ht⟩, ⟨Htrk, Htr⟩, Hc⟩, ⟨%W, HO⟩⟩ Hk
  iapply (step_xsend m ρ K c n hn k hk off hoff hb hb' hs hs' fN (O + Ox c (k + 1)) W) $$ [Hsk Hrk Htk Htrk HO]
  · isplitr; · iexact Hrec
    isplitl [Hsk]; · iexact Hsk
    isplitl [Hrk]; · iexact Hrk
    isplitl [HO]; · iexact HO
    isplitl [Htk]; · iexact Htk
    iexact Htrk
  iintro ⟨Hck, HO⟩
  iapply Hk
  isplitr [HO]
  · isplitl [Hs]; · iexact Hs
    isplitl [Hr]; · iexact Hr
    isplitl [Ht]; · iexact Ht
    isplitl [Htr]; · iexact Htr
    isplitl [Hck]; · iexact Hck
    iexact Hc
  · iexists W; iexact HO

/-! ## The second copies -/

/-- Before the second copy of chunk `k`: `Y c`'s pieces still to be written, the tokens of the two duties of each copy
    still to make, and the send cells' credit of the copies made. -/
def YS (c : Dev nD) (fN : Buf (Elt F) ((oM : Memref sig .tc .vmem S1024x1024 .f32).view.loc (ynb c : Thread nD τ))) (k : Nat) : sProp 𝕄 :=
  iprop(bigSep (Finset.Ico k 32) (fun j => ((oM : Memref sig .tc .vmem S1024x1024 .f32).view.loc (ynb c : Thread nD τ) ↦[blkO j (cy c)]{fullShare} fN))
    ∗ bigSep (Finset.Ico k 32) (fun j => dutyTok ER (fcell c 2 j) 0 false)
    ∗ bigSep (Finset.Ico k 32) (fun j => dutyTok ER (fcell (ynb c) 3 j) 0 false)
    ∗ bigSep (Finset.range k) (fun j => cred (tallyAt (fcell c 2 j) () (famAmt 2))))

theorem fam_ysend (c n : Dev nD) (hn : n = ynb c) (k : Nat) (hk : k < 32) (off : Fin 2 → Nat) (hoff : off = ![32 * k, 512 * cy c])
    (hb hb' : InbO off) (hs hs' : InbS k)
    {hsc : (oCh off hb' : Memref sig (Dev.tc n : Thread nD τ).2.kind .vmem S32x512 .f32).view.ref.isScScratch = false}
    {hsrc : (oCh off hb : Memref sig .tc .vmem S32x512 .f32).view.WordExact} {hdst : (oCh off hb' : Memref sig .tc .vmem S32x512 .f32).view.WordExact}
    {hsem : DmaTarget.Typed .vmem (.dma (semAt cc0_scratch4 k hs')) (.remote (Dev.tc n : Thread nD τ) (oCh off hb' : Memref sig .tc .vmem S32x512 .f32) (.dma (semAt cc0_scratch3 k hs)) hsc)}
    {α : Type} {Q : α → sProp 𝕄} {k' : PUnit → Prog (TpuEff nD τ sig (Elt F) Λ₀ .tc) α}
    (fN : Buf (Elt F) ((oM : Memref sig .tc .vmem S1024x1024 .f32).view.loc (ynb c : Thread nD τ))) :
    iprop(records m ρ K ∗ syPay m ρ c k ∗ YS c fN k ∗ owesE c (Oy c k))
      ⊢ iprop(((YS c fN (k + 1) ∗ owesE c (Oy c (k + 1))) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (oCh off hb) (.remote (Dev.tc n : Thread nD τ) (oCh off hb') (.dma (semAt cc0_scratch3 k hs)) hsc) (.dma (semAt cc0_scratch4 k hs')) hsrc hdst hsem) k') Q) := by
  unfold YS owesE
  rw [ico_peel (fun j => ((oM : Memref sig .tc .vmem S1024x1024 .f32).view.loc (ynb c : Thread nD τ) ↦[blkO j (cy c)]{fullShare} fN)) k hk,
    ico_peel (fun j => (dutyTok ER (fcell c 2 j) 0 false : sProp 𝕄)) k hk, ico_peel (fun j => (dutyTok ER (fcell (ynb c) 3 j) 0 false : sProp 𝕄)) k hk,
    rng_push (fun j => (cred (tallyAt (fcell c 2 j) () (famAmt 2)) : sProp 𝕄)) k, Oy_succ c k hk, famAmt_2]
  iintro ⟨#Hrec, Hsrc, ⟨⟨Hrk, Hr⟩, ⟨Htk, Ht⟩, ⟨Htrk, Htr⟩, Hc⟩, ⟨%W, HO⟩⟩ Hk
  iapply (step_ysend m ρ K c n hn k hk off hoff hb hb' hs hs' fN (Oy c (k + 1)) W) $$ [Hsrc Hrk Htk Htrk HO]
  · isplitr; · iexact Hrec
    isplitl [Hsrc]; · iexact Hsrc
    isplitl [Hrk]; · iexact Hrk
    isplitl [HO]; · iexact HO
    isplitl [Htk]; · iexact Htk
    iexact Htrk
  iintro ⟨Hck, HO⟩
  iapply Hk
  isplitr [HO]
  · isplitl [Hr]; · iexact Hr
    isplitl [Ht]; · iexact Ht
    isplitl [Htr]; · iexact Htr
    isplitl [Hck]; · iexact Hck
    iexact Hc
  · iexists W; iexact HO

/-! ## The waits on the device's own copy cells -/

/-- Before the wait on cell `k` of family `a`: the positions and the credit of the cells still to be waited on, and the
    counters at zero of the cells waited on and closed. -/
def WS (c : Dev nD) (a k : Nat) : sProp 𝕄 :=
  iprop(bigSep (Finset.Ico k 32) (fun j => atPos ER (fcell c a j) 0 ∅ 0)
    ∗ bigSep (Finset.Ico k 32) (fun j => cred (tallyAt (fcell c a j) () (famAmt a)))
    ∗ bigSep (Finset.range k) (fun j => semVal (fcell c a j) 0))

theorem fam_wait (c : Dev nD) (a : Nat) (ha : a < 4) (k : Nat) (hk : k < 32) (s : DmaSem sig) (hs : s = fsem a k)
    {sp sp' : Space} {sh sh' : Shape} {e e' : EltTy}
    {src : Memref sig .tc sp' sh' e'} {κ' : Kind} {dst : Memref sig κ' sp sh e} {hsrc : src.view.WordExact} {hdst : dst.view.WordExact}
    (hamt : dst.view.dmaCredit = famAmt a)
    {α : Type} {Q : α → sProp 𝕄} {k' : PUnit → Prog (TpuEff nD τ sig (Elt F) Λ₀ .tc) α}
    (O : CellTallies nD τ sig Unit) :
    iprop(records m ρ K ∗ WS (F := F) c a k ∗ owesE c O ∗ MayWait (c : Thread nD τ) (.dma (fsem a k)) () O)
      ⊢ iprop(((WS (F := F) c a (k + 1) ∗ owesE c O ∗ famPay m ρ c a k)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s src dst hsrc hdst) k') Q) := by
  unfold WS owesE
  rw [ico_peel (fun j => (atPos ER (fcell c a j) 0 ∅ 0 : sProp 𝕄)) k hk, ico_peel (fun j => (cred (tallyAt (fcell c a j) () (famAmt a)) : sProp 𝕄)) k hk,
    rng_push (fun j => (semVal (fcell c a j) 0 : sProp 𝕄)) k]
  iintro ⟨#Hrec, ⟨⟨Hak, Ha⟩, ⟨Hck, Hc⟩, Hz⟩, ⟨%W, HO⟩, Hmw⟩ Hk
  iapply (step_fwait m ρ K c a k ha hk s hs hamt O W) $$ [Hak Hck HO Hmw]
  · isplitr; · iexact Hrec
    isplitl [Hck]; · iexact Hck
    isplitl [HO]; · iexact HO
    isplitl [Hmw]; · iexact Hmw
    iexact Hak
  iintro ⟨HO, Hzk, Hpay⟩
  iapply Hk
  isplitl [Ha Hc Hz Hzk]
  · isplitl [Ha]; · iexact Ha
    isplitl [Hc]; · iexact Hc
    isplitl [Hzk]; · iexact Hzk
    iexact Hz
  isplitl [HO]
  · iexists _; iexact HO
  iexact Hpay

end Cert.KernelIdealProof

end
-- ==== Proof.KernelIdeal.Glue.lean ====
/-
  Getting into and out of the chunk families: what the body is handed, cut into the families its steps work on, and the
  families, all 32 chunks done, put back into what the body must hand back.
-/
import proofs.«900267_g7700000000000268_dist_redx_gaty_m1024_n512_v7x_xy2x2_f32_1_alg».proof.Proof.KernelIdeal.FamSteps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the waits have brought back so far -/

/-- The payloads of cells 0 … k − 1 of family `a`. -/
def DONE (a k : Nat) : sProp 𝕄 := bigSep (Finset.range k) (fun j => famPay m ρ c a j)

theorem done_zero (a : Nat) : (iprop(emp) : sProp 𝕄) ⊢ DONE m ρ c a 0 := by
  unfold DONE
  exact Entails.of_eq (rng_zero _).symm
theorem done_push (a k : Nat) : iprop(famPay m ρ c a k ∗ DONE m ρ c a k) ⊢ DONE m ρ c a (k + 1) := by
  unfold DONE
  exact Entails.of_eq (rng_push (fun j => famPay m ρ c a j) k).symm

/-! ## The own column half of the result buffer, piece by piece -/

/-- The pieces of the own column half not yet stored, at the contents `g` the buffer came with. -/
def OWN (g : Buf (Elt F) ((c : Thread nD τ).loc cc0_stg1_0)) (k : Nat) : sProp 𝕄 :=
  bigSep (Finset.Ico k 32) (fun j => ((oM : Memref sig .tc .vmem S1024x1024 .f32).view.loc (c : Thread nD τ) ↦[blkO j (cy c)]{fullShare} g))

theorem own_peel (g : Buf (Elt F) ((c : Thread nD τ).loc cc0_stg1_0)) (k : Nat) (hk : k < 32) :
    OWN c g k ⊢ iprop(((oM : Memref sig .tc .vmem S1024x1024 .f32).view.loc (c : Thread nD τ) ↦[blkO k (cy c)]{fullShare} g) ∗ OWN c g (k + 1)) := by
  unfold OWN
  exact Entails.of_eq (ico_peel _ k hk)

/-! ## Entry -/

/-- The input staging buffer: the lent half share cut into the 32 chunks the copies take, the kept half whole for the loads. -/
theorem enter_x :
    ((((c : Thread nD τ).loc cc0_stg0_0) ↦{fullShare} xstg m ρ c) : sProp 𝕄)
      ⊢ iprop(bigSep (Finset.Ico 0 32) (fun j => sxPay m ρ c j)
          ∗ ((xM : Memref sig .tc .vmem S1024x512 .f32).view.loc (c : Thread nD τ) ↦[(Finset.univ : Finset S1024x512.Idx)]{qR} xstg m ρ c)) := by
  rw [ico_zero]
  -- the whole buffer at the full share: its two halves; the lent half by chunks
  refine (Entails.of_eq (whole_x c fullShare (xstg m ρ c))).trans
    ((share_x c Finset.univ (xstg m ρ c)).1.trans (sep_mono_left (Entails.of_eq ?_)))
  exact rows_x c qL (xstg m ρ c)

/-- The first copies' state before chunk 0, from `X c`'s whole landing buffer and the tokens. -/
theorem enter_XS (fX : Buf (Elt F) ((rM : Memref sig .tc .vmem S1024x512 .f32).view.loc (xnb c : Thread nD τ))) :
    iprop(bigSep (Finset.Ico 0 32) (fun j => sxPay m ρ c j)
        ∗ ((rM : Memref sig .tc .vmem S1024x512 .f32).view.loc (xnb c : Thread nD τ) ↦[(Finset.univ : Finset S1024x512.Idx)]{fullShare} fX)
        ∗ (bigSep R32 fun j => dutyTok ER (fcell c 0 j) 0 false) ∗ (bigSep R32 fun j => dutyTok ER (fcell (xnb c) 1 j) 0 false))
      ⊢ XS m ρ c fX 0 := by
  unfold XS
  rw [rows_r (xnb c) fullShare fX]
  simp only [ico_zero, rng_zero]
  iintro ⟨H1, H2, H3, H4⟩
  isplitl [H1]; · iexact H1
  isplitl [H2]; · iexact H2
  isplitl [H3]; · iexact H3
  isplitl [H4]; · iexact H4
  iempintro

/-- The result staging buffer: the own column half piece by piece, and the other half whole (to hand to `Y c`). -/
theorem enter_out (g : Buf (Elt F) ((c : Thread nD τ).loc cc0_stg1_0)) :
    ((((c : Thread nD τ).loc cc0_stg1_0) ↦{fullShare} g) : sProp 𝕄)
      ⊢ iprop(OWN c g 0 ∗ ((oM : Memref sig .tc .vmem S1024x1024 .f32).view.loc (c : Thread nD τ) ↦[colO (1 - cy c)]{fullShare} g)) := by
  unfold OWN
  rw [ico_zero]
  -- the whole buffer: its two column halves; the own half by pieces
  refine (Entails.of_eq (whole_o c fullShare g)).trans
    ((halves_o c (cy c) (cy_lt c) fullShare g).1.trans (sep_mono_left (Entails.of_eq ?_)))
  exact col_o c (cy c) fullShare g

/-- The second copies' state before chunk 0, from the half of `Y c`'s result buffer it handed over and the tokens. -/
theorem enter_YS (fY : Buf (Elt F) ((oM : Memref sig .tc .vmem S1024x1024 .f32).view.loc (ynb c : Thread nD τ))) :
    iprop(((oM : Memref sig .tc .vmem S1024x1024 .f32).view.loc (ynb c : Thread nD τ) ↦[colO (cy c)]{fullShare} fY)
        ∗ (bigSep R32 fun j => dutyTok ER (fcell c 2 j) 0 false) ∗ (bigSep R32 fun j => dutyTok ER (fcell (ynb c) 3 j) 0 false))
      ⊢ YS c fY 0 := by
  unfold YS
  rw [col_o (ynb c) (cy c) fullShare fY]
  simp only [ico_zero, rng_zero]
  iintro ⟨H1, H2, H3⟩
  isplitl [H1]; · iexact H1
  isplitl [H2]; · iexact H2
  isplitl [H3]; · iexact H3
  iempintro

/-- The receive cells' wait states before chunk 0, from the positions and the launch credit. -/
theorem enter_WS1 :
    iprop((bigSep R32 fun j => atPos ER (fcell c 1 j) 0 ∅ 0) ∗ (bigSep R32 fun j => cred (tallyAt (fcell c 1 j) () Nx))) ⊢ WS (F := F) c 1 0 := by
  unfold WS
  rw [famAmt_1]
  simp only [ico_zero, rng_zero]
  iintro ⟨H1, H2⟩
  isplitl [H1]; · iexact H1
  isplitl [H2]; · iexact H2
  iempintro
theorem enter_WS3 :
    iprop((bigSep R32 fun j => atPos ER (fcell c 3 j) 0 ∅ 0) ∗ (bigSep R32 fun j => cred (tallyAt (fcell c 3 j) () No))) ⊢ WS (F := F) c 3 0 := by
  unfold WS
  rw [famAmt_3]
  simp only [ico_zero, rng_zero]
  iintro ⟨H1, H2⟩
  isplitl [H1]; · iexact H1
  isplitl [H2]; · iexact H2
  iempintro

/-- What the two entry signals hand over: the device's own landing buffer to `X c`, the other column half of its result
    buffer to `Y c`. -/
theorem scr_to_pay : scrAny (F := F) c ⊢ barPayX (xnb c) := by
  unfold scrAny barPayX
  -- `X (X c) = c`: the payload is the device's own landing buffer, whole, at some contents
  rw [xnb_xnb]
theorem out_to_pay (g : Buf (Elt F) ((c : Thread nD τ).loc cc0_stg1_0)) :
    (((oM : Memref sig .tc .vmem S1024x1024 .f32).view.loc (c : Thread nD τ) ↦[colO (1 - cy c)]{fullShare} g) : sProp 𝕄) ⊢ barPayY (ynb c) := by
  unfold barPayY
  rw [ynb_ynb, cy_ynb]
  iintro H
  iexists g
  iexact H

/-! ## Between the phases: the send cells' credit, all 32 copies made -/

theorem mid_WS0 (fX : Buf (Elt F) ((rM : Memref sig .tc .vmem S1024x512 .f32).view.loc (xnb c : Thread nD τ))) :
    iprop(XS m ρ c fX 32 ∗ (bigSep R32 fun j => atPos ER (fcell c 0 j) 0 ∅ 0)) ⊢ WS (F := F) c 0 0 := by
  unfold XS WS
  simp only [ico_end, ico_zero, rng_zero]
  iintro ⟨⟨-, -, -, -, Hc⟩, Ha⟩
  isplitl [Ha]; · iexact Ha
  isplitl [Hc]; · iexact Hc
  iempintro
theorem mid_WS2 (fY : Buf (Elt F) ((oM : Memref sig .tc .vmem S1024x1024 .f32).view.loc (ynb c : Thread nD τ))) :
    iprop(YS c fY 32 ∗ (bigSep R32 fun j => atPos ER (fcell c 2 j) 0 ∅ 0)) ⊢ WS (F := F) c 2 0 := by
  unfold YS WS
  simp only [ico_end, ico_zero, rng_zero]
  iintro ⟨⟨-, -, -, Hc⟩, Ha⟩
  isplitl [Ha]; · iexact Ha
  isplitl [Hc]; · iexact Hc
  iempintro

/-! ## Exit -/

theorem exit_sems (a : Nat) : WS (F := F) c a 32 ⊢ (bigSep R32 fun j => semVal (fcell c a j) 0) := by
  unfold WS
  iintro ⟨-, -, H⟩
  iexact H
/-- The landing buffer, all 32 chunks landed, is whole again. -/
theorem exit_scr : DONE m ρ c 1 32 ⊢ scrAny c := by
  -- the 32 landed chunks are the whole landing buffer, holding `X c`'s block
  have e : DONE m ρ c 1 32
      = ((rM : Memref sig .tc .vmem S1024x512 .f32).view.loc (c : Thread nD τ) ↦[(Finset.univ : Finset S1024x512.Idx)]{fullShare} xstg m ρ (xnb c)) :=
    (rows_r c fullShare (xstg m ρ (xnb c))).symm
  rw [e]
  unfold scrAny
  iintro H
  iexists (xstg m ρ (xnb c))
  iexact H
/-- The input staging buffer: the 32 lent chunks back and the kept half. -/
theorem exit_x :
    iprop(DONE m ρ c 0 32 ∗ ((xM : Memref sig .tc .vmem S1024x512 .f32).view.loc (c : Thread nD τ) ↦[(Finset.univ : Finset S1024x512.Idx)]{qR} xstg m ρ c))
      ⊢ stg c cc0_stg0_0 (xstg m ρ c) := by
  -- the 32 lent chunks are the whole buffer at the lent half share; with the kept half, the full share
  have e : DONE m ρ c 0 32
      = ((xM : Memref sig .tc .vmem S1024x512 .f32).view.loc (c : Thread nD τ) ↦[(Finset.univ : Finset S1024x512.Idx)]{qL} xstg m ρ c) :=
    (rows_x c qL (xstg m ρ c)).symm
  rw [e]
  refine (share_x c Finset.univ (xstg m ρ c)).2.trans ?_
  iintro H
  iexists (xstg m ρ c)
  isplitr
  · ipureintro; rfl
  iexact H
/-- The result staging buffer: the 32 own pieces back from the second copies and the 32 pieces landed from `Y c`. -/
theorem exit_out : iprop(DONE m ρ c 2 32 ∗ DONE m ρ c 3 32) ⊢ stg c cc0_stg1_0 (outC m ρ c) := by
  -- the own pieces are the own column half, the landed pieces the other; the two halves are the whole buffer
  have e2 : DONE m ρ c 2 32
      = ((oM : Memref sig .tc .vmem S1024x1024 .f32).view.loc (c : Thread nD τ) ↦[colO (cy c)]{fullShare} outC m ρ c) :=
    (col_o c (cy c) fullShare (outC m ρ c)).symm
  have e3 : DONE m ρ c 3 32
      = ((oM : Memref sig .tc .vmem S1024x1024 .f32).view.loc (c : Thread nD τ) ↦[colO (1 - cy c)]{fullShare} outC m ρ c) :=
    (col_o c (1 - cy c) fullShare (outC m ρ c)).symm
  rw [e2, e3]
  refine (halves_o c (cy c) (cy_lt c) fullShare (outC m ρ c)).2.trans ?_
  iintro H
  iexists (outC m ρ c)
  isplitr
  · ipureintro; rfl
  iexact H

end Cert.KernelIdealProof

end
-- ==== Proof.KernelIdeal.MayWaits.lean ====
/-
  The deadlock argument's evidence at the device's waits while it still owes: the cell waited on sits strictly below
  every cell the device owes. Entry cells are at level 1, the first copies' receive cells at 2, the second copies' at 3.
-/
import proofs.«900267_g7700000000000268_dist_redx_gaty_m1024_n512_v7x_xy2x2_f32_1_alg».proof.Proof.KernelIdeal.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- At its entry wait a device owes all 64 copies' credit: receive cells, above its entry cell. -/
theorem mayWait_bar (c : Dev nD) :
    (levAts L lv : sProp 𝕄) ⊢ MayWait (c : Thread nD τ) (.reg barS) () (O₁ c) := by
  refine Pipeline.mayWait_of_levAts (by rw [L_tc]; exact Finset.mem_singleton_self _) (fun g i h => ?_)
  unfold O₁ at h
  rcases Pipeline.add_pos_cases h with h | h
  · unfold Oy at h
    obtain ⟨j, hj, hp⟩ := Pipeline.sum_pos_exists h
    obtain ⟨rfl, rfl⟩ := Pipeline.tallyAt_pos hp
    have hj32 : j < 32 := (Finset.mem_Ico.mp hj).2
    refine ⟨by rw [L_tc]; exact Finset.mem_singleton_self _, ?_⟩
    rw [lv_bar, lv_f (ynb c) 3 j (by decide) hj32]
    decide
  · unfold Ox at h
    obtain ⟨j, hj, hp⟩ := Pipeline.sum_pos_exists h
    obtain ⟨rfl, rfl⟩ := Pipeline.tallyAt_pos hp
    have hj32 : j < 32 := (Finset.mem_Ico.mp hj).2
    refine ⟨by rw [L_tc]; exact Finset.mem_singleton_self _, ?_⟩
    rw [lv_bar, lv_f (xnb c) 1 j (by decide) hj32]
    decide

/-- At its wait for the chunk landed from `X c` a device owes the second copies' credit from chunk `k` on: receive cells of
    the second kind, above its receive cells of the first kind. -/
theorem mayWait_rx (c : Dev nD) (j k : Nat) (hj : j < 32) :
    (levAts L lv : sProp 𝕄) ⊢ MayWait (c : Thread nD τ) (.dma (fsem 1 j)) () (Oy c k) := by
  refine Pipeline.mayWait_of_levAts (by rw [L_tc]; exact Finset.mem_singleton_self _) (fun g i h => ?_)
  unfold Oy at h
  obtain ⟨j', hj', hp⟩ := Pipeline.sum_pos_exists h
  obtain ⟨rfl, rfl⟩ := Pipeline.tallyAt_pos hp
  have hj32 : j' < 32 := (Finset.mem_Ico.mp hj').2
  refine ⟨by rw [L_tc]; exact Finset.mem_singleton_self _, ?_⟩
  rw [lv_f c 1 j (by decide) hj, lv_f (ynb c) 3 j' (by decide) hj32]
  decide

end Cert.KernelIdealProof

end
-- ==== Proof.KernelIdeal.Seg.lean ====
/-
  One chunk of each phase as ONE step over the rest of the body: the first copy of chunk `k`; the middle phase's chunk `k`
  (the wait for the landed chunk, the three loads, the store of the sum, the second copy); the last phase's chunk `k` (the
  three waits). Each is proved once at a symbolic device, a symbolic chunk and an arbitrary rest of the program.
-/
import proofs.«900267_g7700000000000268_dist_redx_gaty_m1024_n512_v7x_xy2x2_f32_1_alg».proof.Proof.KernelIdeal.FamSteps
import proofs.«900267_g7700000000000268_dist_redx_gaty_m1024_n512_v7x_xy2x2_f32_1_alg».proof.Proof.KernelIdeal.Glue
import proofs.«900267_g7700000000000268_dist_redx_gaty_m1024_n512_v7x_xy2x2_f32_1_alg».proof.Proof.KernelIdeal.MayWaits

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-- The body's sum of two loaded vectors, element by element (the first operand goes through a shape cast to its own shape). -/
theorem pay_shape (a b : Vec F S32x512 .f32) (h : S32x512.ShapeCasts S32x512) (y : S32x512.Idx) :
    addf (shapeCast S32x512 a h) b y = FloatOps.addf (a y) (b y) := by
  rw [shapeCast_self]; rfl

/-- The landed chunk, as the receive cell's payload and as a points-to. -/
theorem famPay_1' (c : Dev nD) (j : Nat) :
    famPay m ρ c 1 j = ((rM : Memref sig .tc .vmem S1024x512 .f32).view.loc (c : Thread nD τ) ↦[rowsB j]{fullShare} xstg m ρ (xnb c)) := rfl

/-- `stored_piece`, its right-hand side named as the second send cell's payload. -/
theorem stored_piece_sy (c : Dev nD) (j : Nat) (hj : j < 32) (offx : Fin 2 → Nat) (hx : InbB offx) (offo : Fin 2 → Nat) (ho : InbO offo)
    (hoffx : offx = ![32 * j, 0]) (hoffo : offo = ![32 * j, 512 * cy c])
    (fo : (cc0_stg1_0 : Ref sig .tc).ty.Contents (Elt F))
    (pay : Vec F S32x512 .f32 → Vec F S32x512 .f32 → FVec F S32x512 .f32)
    (hpay : ∀ a b y, pay a b y = FloatOps.addf (a y) (b y)) :
    ((oM : Memref sig .tc .vmem S1024x1024 .f32).view.loc (c : Thread nD τ) ↦[blkO j (cy c)]{fullShare}
        ((oM.access (Rect.unit (s := S1024x1024) offo S32x512.size ho) : View sig .tc _ _ _).write (Elt F) fo
          (pay ((xM : Memref sig .tc .vmem S1024x512 .f32).view.readAt (Elt F) (Rect.unit (s := S1024x512) offx S32x512.size hx).toLoadRect (xstg m ρ c))
               ((rM : Memref sig .tc .vmem S1024x512 .f32).view.readAt (Elt F) (Rect.unit (s := S1024x512) offx S32x512.size hx).toLoadRect (xstg m ρ (xnb c)))) Finset.univ) : sProp 𝕄)
      = syPay m ρ c j :=
  stored_piece m ρ c j hj offx hx offo ho hoffx hoffo fo pay hpay fullShare

/-! ## The first phase -/

/-- Before the first copy of chunk `k`. -/
def P1 (c : Dev nD) (fX : Buf (Elt F) ((rM : Memref sig .tc .vmem S1024x512 .f32).view.loc (xnb c : Thread nD τ))) (k : Nat) : sProp 𝕄 :=
  iprop(XS m ρ c fX k ∗ owesE c (Oy c 0 + Ox c k))

theorem seg_xsend (c n : Dev nD) (hn : n = xnb c) (k : Nat) (hk : k < 32) (off : Fin 2 → Nat) (hoff : off = ![32 * k, 0])
    (hb hb' : InbB off) (hs hs' : InbS k)
    {hsc : (rCh off hb' : Memref sig (Dev.tc n : Thread nD τ).2.kind .vmem S32x512 .f32).view.ref.isScScratch = false}
    {hsrc : (xCh off hb : Memref sig .tc .vmem S32x512 .f32).view.WordExact} {hdst : (rCh off hb' : Memref sig .tc .vmem S32x512 .f32).view.WordExact}
    {hsem : DmaTarget.Typed .vmem (.dma (semAt cc0_scratch2 k hs')) (.remote (Dev.tc n : Thread nD τ) (rCh off hb' : Memref sig .tc .vmem S32x512 .f32) (.dma (semAt cc0_scratch1 k hs)) hsc)}
    {α : Type} {Q : α → sProp 𝕄} {k' : PUnit → Prog (TpuEff nD τ sig (Elt F) Λ₀ .tc) α}
    (fX : Buf (Elt F) ((rM : Memref sig .tc .vmem S1024x512 .f32).view.loc (xnb c : Thread nD τ))) :
    iprop(records m ρ K ∗ P1 m ρ c fX k)
      ⊢ iprop((P1 m ρ c fX (k + 1) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (xCh off hb) (.remote (Dev.tc n : Thread nD τ) (rCh off hb') (.dma (semAt cc0_scratch1 k hs)) hsc) (.dma (semAt cc0_scratch2 k hs')) hsrc hdst hsem) k') Q) := by
  unfold P1
  iintro ⟨#Hrec, HXS, HO⟩ Hk
  iapply (fam_xsend m ρ K c n hn k hk off hoff hb hb' hs hs' fX (Oy c 0)) $$ [HXS HO]
  · isplitr; · iexact Hrec
    isplitl [HXS]; · iexact HXS
    iexact HO
  iintro H
  iapply Hk; iexact H

/-! ## The middle phase -/

/-- Before chunk `k` of the middle phase: the receive cells' wait state and the chunks landed so far; the own pieces not yet
    stored; the second copies' state; what is still owed; the kept half share of the input block. -/
def P2 (c : Dev nD) (fY : Buf (Elt F) ((oM : Memref sig .tc .vmem S1024x1024 .f32).view.loc (ynb c : Thread nD τ)))
    (g : Buf (Elt F) ((c : Thread nD τ).loc cc0_stg1_0)) (k : Nat) : sProp 𝕄 :=
  iprop(WS (F := F) c 1 k ∗ DONE m ρ c 1 k ∗ OWN c g k ∗ YS c fY k ∗ owesE c (Oy c k)
    ∗ ((xM : Memref sig .tc .vmem S1024x512 .f32).view.loc (c : Thread nD τ) ↦[(Finset.univ : Finset S1024x512.Idx)]{qR} xstg m ρ c))

set_option maxHeartbeats 1600000 in
theorem seg_chunk (c n : Dev nD) (hn : n = ynb c) (k : Nat) (hk : k < 32)
    (offx : Fin 2 → Nat) (hoffx : offx = ![32 * k, 0]) (hx1 hx2 hx3 hx4 : InbB offx)
    (offo : Fin 2 → Nat) (hoffo : offo = ![32 * k, 512 * cy c]) (ho1 ho2 : InbO offo)
    (offy : Fin 2 → Nat) (hoffy : offy = ![32 * k, 512 * cy c]) (hy1 hy2 : InbO offy)
    (hs2 hs3 hs4 : InbS k)
    (pay : Vec F S32x512 .f32 → Vec F S32x512 .f32 → FVec F S32x512 .f32) (hpay : ∀ a b y, pay a b y = FloatOps.addf (a y) (b y))
    {hws : (xCh offx hx3 : Memref sig .tc .vmem S32x512 .f32).view.WordExact} {hwd : (rCh offx hx4 : Memref sig .tc .vmem S32x512 .f32).view.WordExact}
    {hl1 : (xM : Memref sig .tc .vmem S1024x512 .f32).view.LoadsAt (Rect.unit (s := S1024x512) offx S32x512.size hx1).toLoadRect}
    {hl2 : (rM : Memref sig .tc .vmem S1024x512 .f32).view.LoadsAt (Rect.unit (s := S1024x512) offx S32x512.size hx2).toLoadRect}
    {hl3 : (oM : Memref sig .tc .vmem S1024x1024 .f32).view.LoadsAt (Rect.unit (s := S1024x1024) offo S32x512.size ho1).toLoadRect}
    {hst : ((oM : Memref sig .tc .vmem S1024x1024 .f32).access (Rect.unit (s := S1024x1024) offo S32x512.size ho2)).Stores Finset.univ}
    {hst' : (Finset.univ : Finset (Rect.unit (s := S1024x1024) offo S32x512.size ho2).shape.Idx) = Finset.univ ∨ ∀ a, (Rect.unit (s := S1024x1024) offo S32x512.size ho2).stride a = 1}
    {hsc : (oCh offy hy2 : Memref sig (Dev.tc n : Thread nD τ).2.kind .vmem S32x512 .f32).view.ref.isScScratch = false}
    {hsrc : (oCh offy hy1 : Memref sig .tc .vmem S32x512 .f32).view.WordExact} {hdst : (oCh offy hy2 : Memref sig .tc .vmem S32x512 .f32).view.WordExact}
    {hsem : DmaTarget.Typed .vmem (.dma (semAt cc0_scratch4 k hs4)) (.remote (Dev.tc n : Thread nD τ) (oCh offy hy2 : Memref sig .tc .vmem S32x512 .f32) (.dma (semAt cc0_scratch3 k hs3)) hsc)}
    {α : Type} {Q : α → sProp 𝕄} {k' : PUnit → Prog (TpuEff nD τ sig (Elt F) Λ₀ .tc) α}
    (fY : Buf (Elt F) ((oM : Memref sig .tc .vmem S1024x1024 .f32).view.loc (ynb c : Thread nD τ)))
    (g : Buf (Elt F) ((c : Thread nD τ).loc cc0_stg1_0)) :
    iprop(records m ρ K ∗ levAts L lv ∗ P2 m ρ c fY g k)
      ⊢ iprop((P2 m ρ c fY g (k + 1) -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 (semAt cc0_scratch2 k hs2) (xCh offx hx3) (rCh offx hx4) hws hwd) fun _ =>
               .op (.load xM (Rect.unit (s := S1024x512) offx S32x512.size hx1).toLoadRect hl1) fun v1 =>
               .op (.load rM (Rect.unit (s := S1024x512) offx S32x512.size hx2).toLoadRect hl2) fun v2 =>
               .op (.load oM (Rect.unit (s := S1024x1024) offo S32x512.size ho1).toLoadRect hl3) fun _v3 =>
               .op (.store oM (Rect.unit (s := S1024x1024) offo S32x512.size ho2) (pay v1 v2) Finset.univ hst hst') fun _ =>
               .op (.enqueueDma (oCh offy hy1) (.remote (Dev.tc n : Thread nD τ) (oCh offy hy2) (.dma (semAt cc0_scratch3 k hs3)) hsc) (.dma (semAt cc0_scratch4 k hs4)) hsrc hdst hsem) k') Q) := by
  unfold P2
  iintro ⟨#Hrec, #Hlev, HW1, HD1, HOWN, HYS, HO, HxR⟩ Hk
  iapply (fam_wait m ρ K c 1 (by decide) k hk _ (semAt2 k hs2 hk) (rCh_credit offx hx4) (Oy c k)) $$ [HW1 HO]
  · isplitr; · iexact Hrec
    isplitl [HW1]; · iexact HW1
    isplitl [HO]; · iexact HO
    iapply (mayWait_rx c k k hk); iexact Hlev
  iintro ⟨HW1, HO, Hland⟩
  ihave Hland := (Entails.of_eq (famPay_1' m ρ c k)) $$ Hland
  iapply (wp_load 𝒱₀ (c : Thread nD τ) none Set.univ (m := xM) (Finset.subset_univ _)) $$ HxR; iintro HxR
  iapply (wp_load 𝒱₀ (c : Thread nD τ) none Set.univ (m := rM) (load_sub_r k offx hx2 hoffx)) $$ Hland; iintro Hland
  ihave Hp := (own_peel c g k hk) $$ HOWN
  icases Hp with ⟨Hp, HOWN⟩
  iapply (wp_load 𝒱₀ (c : Thread nD τ) none Set.univ (m := oM) (load_sub_o k (cy c) offo ho1 hoffo)) $$ Hp; iintro Hp
  iapply (wp_store 𝒱₀ (c : Thread nD τ) none Set.univ (m := oM) (r := Rect.unit (s := S1024x1024) offo S32x512.size ho2) (Mk := Finset.univ)
    (store_sub_o k (cy c) offo ho2 hoffo)) $$ Hp; iintro Hp
  ihave Hp := (Entails.of_eq (stored_piece_sy m ρ c k hk offx hx1 offo ho2 hoffx hoffo g pay hpay)) $$ Hp
  ihave Hland := (Entails.of_eq (famPay_1' m ρ c k).symm) $$ Hland
  ihave HD1 := (done_push m ρ c 1 k) $$ [Hland HD1]
  · isplitl [Hland]; · iexact Hland
    iexact HD1
  iapply (fam_ysend m ρ K c n hn k hk offy hoffy hy1 hy2 hs3 hs4 fY) $$ [Hp HYS HO]
  · isplitr; · iexact Hrec
    isplitl [Hp]; · iexact Hp
    isplitl [HYS]; · iexact HYS
    iexact HO
  iintro ⟨HYS, HO⟩
  iapply Hk
  isplitl [HW1]; · iexact HW1
  isplitl [HD1]; · iexact HD1
  isplitl [HOWN]; · iexact HOWN
  isplitl [HYS]; · iexact HYS
  isplitl [HO]; · iexact HO
  iexact HxR

/-! ## The last phase -/

/-- A wait on the device's own cell `k` of family `a` whose payload goes straight onto what the family has brought back. -/
theorem fam_wait_done (c : Dev nD) (a : Nat) (ha : a < 4) (k : Nat) (hk : k < 32) (s : DmaSem sig) (hs : s = fsem a k)
    {sp sp' : Space} {sh sh' : Shape} {e e' : EltTy}
    {src : Memref sig .tc sp' sh' e'} {κ' : Kind} {dst : Memref sig κ' sp sh e} {hsrc : src.view.WordExact} {hdst : dst.view.WordExact}
    (hamt : dst.view.dmaCredit = famAmt a)
    {α : Type} {Q : α → sProp 𝕄} {k' : PUnit → Prog (TpuEff nD τ sig (Elt F) Λ₀ .tc) α}
    (O : CellTallies nD τ sig Unit) :
    iprop(records m ρ K ∗ WS (F := F) c a k ∗ DONE m ρ c a k ∗ owesE c O ∗ MayWait (c : Thread nD τ) (.dma (fsem a k)) () O)
      ⊢ iprop(((WS (F := F) c a (k + 1) ∗ DONE m ρ c a (k + 1) ∗ owesE c O)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s src dst hsrc hdst) k') Q) := by
  iintro ⟨#Hrec, HW, HD, HO, Hmw⟩ Hk
  iapply (fam_wait m ρ K c a ha k hk s hs hamt O) $$ [HW HO Hmw]
  · isplitr; · iexact Hrec
    isplitl [HW]; · iexact HW
    isplitl [HO]; · iexact HO
    iexact Hmw
  iintro ⟨HW, HO, Hpay⟩
  ihave HD := (done_push m ρ c a k) $$ [Hpay HD]
  · isplitl [Hpay]; · iexact Hpay
    iexact HD
  iapply Hk
  isplitl [HW]; · iexact HW
  isplitl [HD]; · iexact HD
  iexact HO

/-- Before chunk `k` of the last phase: the wait states of the three families and what they have brought back; nothing owed. -/
def P3 (c : Dev nD) (k : Nat) : sProp 𝕄 :=
  iprop(WS (F := F) c 3 k ∗ DONE m ρ c 3 k ∗ WS (F := F) c 0 k ∗ DONE m ρ c 0 k ∗ WS (F := F) c 2 k ∗ DONE m ρ c 2 k ∗ owesE c 0)

theorem seg_tail (c : Dev nD) (k : Nat) (hk : k < 32) (hs1 hs3 hs4 : InbS k)
    {spa spa' spb spb' spc spc' : Space} {sa sa' sb sb' sc sc' : Shape} {ea ea' eb eb' ec ec' : EltTy}
    {srca : Memref sig .tc spa' sa' ea'} {κa : Kind} {dsta : Memref sig κa spa sa ea} {hsa : srca.view.WordExact} {hda : dsta.view.WordExact}
    {srcb : Memref sig .tc spb' sb' eb'} {κb : Kind} {dstb : Memref sig κb spb sb eb} {hsb : srcb.view.WordExact} {hdb : dstb.view.WordExact}
    {srcc : Memref sig .tc spc' sc' ec'} {κc : Kind} {dstc : Memref sig κc spc sc ec} {hsc : srcc.view.WordExact} {hdc : dstc.view.WordExact}
    (hamta : dsta.view.dmaCredit = famAmt 3) (hamtb : dstb.view.dmaCredit = famAmt 0) (hamtc : dstc.view.dmaCredit = famAmt 2)
    {α : Type} {Q : α → sProp 𝕄} {k' : PUnit → Prog (TpuEff nD τ sig (Elt F) Λ₀ .tc) α} :
    iprop(records m ρ K ∗ P3 m ρ c k)
      ⊢ iprop((P3 m ρ c (k + 1) -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 (semAt cc0_scratch4 k hs4) srca dsta hsa hda) fun _ =>
               .op (.waitDma2 (semAt cc0_scratch1 k hs1) srcb dstb hsb hdb) fun _ =>
               .op (.waitDma2 (semAt cc0_scratch3 k hs3) srcc dstc hsc hdc) k') Q) := by
  unfold P3
  iintro ⟨#Hrec, HW3, HD3, HW0, HD0, HW2, HD2, HO⟩ Hk
  iapply (fam_wait_done m ρ K c 3 (by decide) k hk _ (semAt4 k hs4 hk) hamta 0) $$ [HW3 HD3 HO]
  · isplitr; · iexact Hrec
    isplitl [HW3]; · iexact HW3
    isplitl [HD3]; · iexact HD3
    isplitl [HO]; · iexact HO
    rw [MayWait_zero]; iempintro
  iintro ⟨HW3, HD3, HO⟩
  iapply (fam_wait_done m ρ K c 0 (by decide) k hk _ (semAt1 k hs1 hk) hamtb 0) $$ [HW0 HD0 HO]
  · isplitr; · iexact Hrec
    isplitl [HW0]; · iexact HW0
    isplitl [HD0]; · iexact HD0
    isplitl [HO]; · iexact HO
    rw [MayWait_zero]; iempintro
  iintro ⟨HW0, HD0, HO⟩
  iapply (fam_wait_done m ρ K c 2 (by decide) k hk _ (semAt3 k hs3 hk) hamtc 0) $$ [HW2 HD2 HO]
  · isplitr; · iexact Hrec
    isplitl [HW2]; · iexact HW2
    isplitl [HD2]; · iexact HD2
    isplitl [HO]; · iexact HO
    rw [MayWait_zero]; iempintro
  iintro ⟨HW2, HD2, HO⟩
  iapply Hk
  isplitl [HW3]; · iexact HW3
  isplitl [HD3]; · iexact HD3
  isplitl [HW0]; · iexact HW0
  isplitl [HD0]; · iexact HD0
  isplitl [HW2]; · iexact HW2
  isplitl [HD2]; · iexact HD2
  iexact HO

end Cert.KernelIdealProof

end
-- ==== Proof.KernelIdeal.Body.lean ====
/-
  The kernel body on device `c`, run from what the pipeline hands it to what it must hand back: the entry handshake,
  the 32 first copies, then chunk by chunk the wait for the landed chunk, the sum stored into the own column half and
  the second copy, and last the waits for the pieces from `Y c` and for both kinds of sends.
-/
import proofs.«900267_g7700000000000268_dist_redx_gaty_m1024_n512_v7x_xy2x2_f32_1_alg».proof.Proof.Gen.KernelIdeal.Skeleton
import proofs.«900267_g7700000000000268_dist_redx_gaty_m1024_n512_v7x_xy2x2_f32_1_alg».proof.Proof.KernelIdeal.Seg

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The two entry signals name `X c` and `Y c`. -/
theorem dev1_eq (c : Dev nD) : (⟨k0_dev1 c, k0_dev1_lt c⟩ : Dev nD) = xnb c := dev_eq_xnb c _ _ (k0_dev1_eq c)
theorem dev2_eq (c : Dev nD) : (⟨k0_dev2 c, k0_dev2_lt c⟩ : Dev nD) = ynb c := dev_eq_ynb c _ _ (k0_dev2_eq c)

theorem famPay_0 (c : Dev nD) (j : Nat) : famPay m ρ c 0 j = sxPay m ρ c j := rfl
theorem famPay_1 (c : Dev nD) (j : Nat) : famPay m ρ c 1 j = rxPay m ρ c j := rfl
theorem famPay_2 (c : Dev nD) (j : Nat) : famPay m ρ c 2 j = syPay m ρ c j := rfl
theorem famPay_3 (c : Dev nD) (j : Nat) : famPay m ρ c 3 j = ryPay m ρ c j := rfl

/-- A whole staging buffer held at given contents, as the pipeline states it and as a points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owesE_congr (c : Dev nD) {O O' : CellTallies nD τ sig Unit} (h : O = O') : (owesE c O : sProp 𝕄) ⊢ owesE c O' := by
  subst h; exact BI.Entails.refl _

section Driver

set_option hygiene false

/-- The first copy of chunk `k`, the device chain's closed form `d`. -/
syntax "xsend " num ident : tactic
macro_rules
  | `(tactic| xsend $k $d) => `(tactic| (
      iapply (seg_xsend m ρ K c _ (dev_eq_xnb c _ _ ($d c)) $k (by decide) _ rfl _ _ _ _ fX) $$ [HP1]
      · isplitr; · iexact Hrec
        iexact HP1
      iintro HP1))

/-- Chunk `k` of the middle phase. `o1` / `o2` are the closed forms of the store's and the copy's offsets, `d` the device
    chain's, `pay` the printed sum. -/
syntax "chunk " num ident ident ident term : tactic
macro_rules
  | `(tactic| chunk $k $o1 $o2 $d $pay) => `(tactic| (
      iapply (seg_chunk m ρ K c _ (dev_eq_ynb c _ _ ($d c)) $k (by decide) _ rfl _ _ _ _ _ ($o1 c) _ _ _ ($o2 c) _ _ _ _ _
        $pay (fun a b y => pay_shape a b _ y) fY g1) $$ [HP2]
      · isplitr; · iexact Hrec
        isplitr; · iexact Hlev
        iexact HP2
      iintro HP2))

/-- Chunk `k` of the last phase: the three waits. -/
syntax "tail3 " num : tactic
macro_rules
  | `(tactic| tail3 $k) => `(tactic| (
      iapply (seg_tail m ρ K c $k (by decide) _ _ _ (oCh_credit _ _) (xCh_amount _ _) (oCh_credit _ _)) $$ [HP3]
      · isplitr; · iexact Hrec
        iexact HP3
      iintro HP3))

open Lean in
/-- All 32 first copies: chunk `k`'s device chain is the `(3 + k)`-th printed one. -/
macro "phase1" : tactic => do
  let mut tacs : Array (TSyntax `tactic) := #[]
  for k in [0:32] do
    let d := mkIdent (Name.mkSimple s!"k0_dev{3 + k}_eq")
    tacs := tacs.push (← `(tactic| xsend $(Syntax.mkNumLit (toString k)) $d))
  `(tactic| ($[$tacs]*))

open Lean in
/-- The middle phase: chunk `k`'s store goes through the `(2k + 1)`-th printed offset, its copy through the `(2k + 2)`-th and
    the `(35 + k)`-th device chain; its sum is the printed payload the cut of the body into parts left it as. -/
macro "phase2" : tactic => do
  let mut tacs : Array (TSyntax `tactic) := #[]
  for k in [0:32] do
    let o1 := mkIdent (Name.mkSimple s!"k0_off{2 * k + 1}_eq")
    let o2 := mkIdent (Name.mkSimple s!"k0_off{2 * k + 2}_eq")
    let d := mkIdent (Name.mkSimple s!"k0_dev{35 + k}_eq")
    let pn (n : Nat) := mkIdent (Name.mkSimple s!"k0_pay{n}")
    let pay : TSyntax `term ←
      if k = 11 then `(fun a b => $(pn 13) ($(pn 12) a) b)
      else if k = 26 then `(fun a b => $(pn 29) ($(pn 28) a) b)
      else
        let n := if k ≤ 10 then k + 1 else if k ≤ 25 then k + 2 else k + 3
        `(fun a b => $(pn n) a b)
    tacs := tacs.push (← `(tactic| chunk $(Syntax.mkNumLit (toString k)) $o1 $o2 $d $pay))
  `(tactic| ($[$tacs]*))

open Lean in
/-- The last phase, all 32 chunks. -/
macro "phase3" : tactic => do
  let mut tacs : Array (TSyntax `tactic) := #[]
  for k in [0:32] do
    tacs := tacs.push (← `(tactic| tail3 $(Syntax.mkNumLit (toString k))))
  `(tactic| ($[$tacs]*))

end Driver

set_option maxRecDepth 65536 in
set_option maxHeartbeats 0 in
/-- The body on device `c`, from what the pipeline hands it (`bodyPre'`) to what it hands back (`bodyPost`). -/
theorem sound_body (c : Dev nD) (Kt : PUnit → sProp 𝕄) :
    iprop(bodyPre' m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  -- the body as one sequence of its memory operations
  simp only [cc0_body_eq_skeleton]; unfold cc0_body_skel
  simp only [k0_part63_eq_skeleton, k0_part61_eq_skeleton, k0_part62_eq_skeleton]; unfold k0_part63_skel k0_part61_skel k0_part62_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel
  simp only [semSignalWord, semWaitWord, Prog.lift, Prog.bind_op, Prog.bind_ret, Prog.pure_eq_ret, Prog.bind_assoc, wp_deviceId]
  -- what the body starts from
  unfold bodyPre' Φ₀ start ghost linear creds
  iintro ⟨⟨⟨⟨⟨%K, #Hrec, HaB, Ha0, Ha1, Ha2, Ha3, HtBX, HtBY, Ht0, Ht1N, Ht2, Ht3N⟩, ⟨HcB, Hc1, Hc3⟩, #Hlev⟩, Hscr⟩,
    Ho, ⟨%d0, %g0, %hg0, Hx⟩, ⟨%d1, %g1, %hg1, Hout⟩⟩, Hk⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  -- the result buffer: the own column half piece by piece, the other half for `Y c`
  ihave Hout := (enter_out c g1) $$ Hout
  icases Hout with ⟨HOWN, HoutY⟩
  -- the FIRST signal, to `X c`'s entry cell: its duty `false`, handing over the own landing buffer
  iapply (Rounds.wp_signal 𝒱₀ ER (ringRd m ρ) (c : Thread nD τ) none (dst := (xnb c : Thread nD τ)) (κ := K (xnb c, none))
      (d := false) (by rw [duties_bar]; exact Finset.mem_univ _) ((amount_bar m ρ (xnb c) false).trans (by decide)) ()
      (O₁ c + tallyAt (barCell (ynb c)) () 1) rfl) $$ [HO HtBX Hscr]
  · isplitr; · iapply (inv_bar m ρ K (xnb c)); iexact Hrec
    isplitl [HO]; · iexact HO
    isplitl [HtBX]; · iexact HtBX
    isplitl [Hscr]
    · rw [payload_bar_false]; iapply (scr_to_pay c); iexact Hscr
    · iapply (reached_bar m ρ K (xnb c)); iexact Hrec
  iintro HO
  -- the SECOND, to `Y c`'s entry cell: its duty `true`, handing over the other column half of the result buffer
  iapply (Rounds.wp_signal 𝒱₀ ER (ringRd m ρ) (c : Thread nD τ) none (dst := (ynb c : Thread nD τ)) (κ := K (ynb c, none))
      (d := true) (by rw [duties_bar]; exact Finset.mem_univ _) ((amount_bar m ρ (ynb c) true).trans (by decide)) ()
      (O₁ c) rfl) $$ [HO HtBY HoutY]
  · isplitr; · iapply (inv_bar m ρ K (ynb c)); iexact Hrec
    isplitl [HO]; · iexact HO
    isplitl [HtBY]; · iexact HtBY
    isplitl [HoutY]
    · rw [payload_bar_true]; iapply (out_to_pay c g1); iexact HoutY
    · iapply (reached_bar m ρ K (ynb c)); iexact Hrec
  iintro HO
  -- the WAIT for two units on the own entry cell, owing all 64 copies' credit: both neighbours' buffers come with it
  iapply (Rounds.wp_wait_rest_token 𝒱₀ ER (ringRd m ρ) (c : Thread nD τ) none (κ := K (c, none))
      (wpE_semWait_eq 𝒱₀ (c : Thread nD τ) none Set.univ) (Set.mem_univ _) () (O := O₁ c) (W := W) (R := 0) (m := 0) (T := ∅)
      (by rw [expect_bar]; decide)) $$ [HcB HO HaB]
  · isplitr; · iapply (inv_bar m ρ K c); iexact Hrec
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPayX barPayY
  icases Hp with ⟨⟨%fX, HrX⟩, ⟨%fY, HoY⟩⟩
  -- the families the three phases work on
  ihave Hx := (enter_x m ρ c) $$ Hx
  icases Hx with ⟨HsxP, HxR⟩
  ihave HXS := (enter_XS m ρ c fX) $$ [HsxP HrX Ht0 Ht1N]
  · isplitl [HsxP]; · iexact HsxP
    isplitl [HrX]; · iexact HrX
    isplitl [Ht0]; · iexact Ht0
    iexact Ht1N
  ihave HYS := (enter_YS c fY) $$ [HoY Ht2 Ht3N]
  · isplitl [HoY]; · iexact HoY
    isplitl [Ht2]; · iexact Ht2
    iexact Ht3N
  ihave HW1 := (enter_WS1 (F := F) c) $$ [Ha1 Hc1]
  · isplitl [Ha1]; · iexact Ha1
    iexact Hc1
  ihave HW3 := (enter_WS3 (F := F) c) $$ [Ha3 Hc3]
  · isplitl [Ha3]; · iexact Ha3
    iexact Hc3
  ihave HD0 := (done_zero m ρ c 0) $$ []
  · iempintro
  ihave HD1 := (done_zero m ρ c 1) $$ []
  · iempintro
  ihave HD2 := (done_zero m ρ c 2) $$ []
  · iempintro
  ihave HD3 := (done_zero m ρ c 3) $$ []
  · iempintro
  ihave HO := (show (owes (c : Thread nD τ) (O₁ c) (insert (SemLoc.reg barS, ()) W) : sProp 𝕄) ⊢ owesE c (Oy c 0 + Ox c 0) from by
    unfold owesE O₁; iintro H; iexists _; iexact H) $$ HO
  -- the 32 first copies
  ihave HP1 := (Entails.of_eq (show iprop(XS m ρ c fX 0 ∗ owesE c (Oy c 0 + Ox c 0)) = P1 m ρ c fX 0 from rfl)) $$ [HXS HO]
  · isplitl [HXS]; · iexact HXS
    iexact HO
  phase1
  unfold P1
  icases HP1 with ⟨HXS, HO⟩
  ihave HO := (owesE_congr c (show Oy c 0 + Ox c 32 = Oy c 0 by rw [Ox_end, add_zero])) $$ HO
  ihave HW0 := (mid_WS0 m ρ c fX) $$ [HXS Ha0]
  · isplitl [HXS]; · iexact HXS
    iexact Ha0
  -- chunk by chunk: the landed chunk, the sum, the second copy
  ihave HP2 := (Entails.of_eq (show iprop(WS (F := F) c 1 0 ∗ DONE m ρ c 1 0 ∗ OWN c g1 0 ∗ YS c fY 0 ∗ owesE c (Oy c 0)
      ∗ ((xM : Memref sig .tc .vmem S1024x512 .f32).view.loc (c : Thread nD τ) ↦[(Finset.univ : Finset S1024x512.Idx)]{qR} xstg m ρ c)) = P2 m ρ c fY g1 0 from rfl))
    $$ [HW1 HD1 HOWN HYS HO HxR]
  · isplitl [HW1]; · iexact HW1
    isplitl [HD1]; · iexact HD1
    isplitl [HOWN]; · iexact HOWN
    isplitl [HYS]; · iexact HYS
    isplitl [HO]; · iexact HO
    iexact HxR
  phase2
  unfold P2
  icases HP2 with ⟨HW1, HD1, -, HYS, HO, HxR⟩
  ihave HO := (owesE_congr c (Oy_end c)) $$ HO
  ihave HW2 := (mid_WS2 c fY) $$ [HYS Ha2]
  · isplitl [HYS]; · iexact HYS
    iexact Ha2
  -- chunk by chunk: the piece from `Y c`, the first send, the second send
  ihave HP3 := (Entails.of_eq (show iprop(WS (F := F) c 3 0 ∗ DONE m ρ c 3 0 ∗ WS (F := F) c 0 0 ∗ DONE m ρ c 0 0 ∗ WS (F := F) c 2 0 ∗ DONE m ρ c 2 0 ∗ owesE c 0)
      = P3 m ρ c 0 from rfl)) $$ [HW3 HD3 HW0 HD0 HW2 HD2 HO]
  · isplitl [HW3]; · iexact HW3
    isplitl [HD3]; · iexact HD3
    isplitl [HW0]; · iexact HW0
    isplitl [HD0]; · iexact HD0
    isplitl [HW2]; · iexact HW2
    isplitl [HD2]; · iexact HD2
    iexact HO
  phase3
  unfold P3
  icases HP3 with ⟨HW3, HD3, HW0, HD0, HW2, HD2, HO⟩
  -- what the body hands back
  rw [wp_ret]; imodintro
  iapply Hk
  unfold bodyPost Φ₁ Dat.owesAt Pipeline.owesWithin owesE
  rw [show (dats m ρ 0 c).owed t₀.succ = 0 from rfl]
  icases HO with ⟨%W', HO⟩
  isplitl [HD1 HW0 HW1 HW2 HW3]
  · isplitl [HD1]; · iapply (exit_scr m ρ c); iexact HD1
    isplitl [HW0]; · iapply (exit_sems (F := F) c 0); iexact HW0
    isplitl [HW1]; · iapply (exit_sems (F := F) c 1); iexact HW1
    isplitl [HW2]; · iapply (exit_sems (F := F) c 2); iexact HW2
    iapply (exit_sems (F := F) c 3); iexact HW3
  isplitl [HO]
  · iexists W'
    isplitr; · ipureintro; exact fun _ _ => Or.inl trivial
    iexact HO
  isplitl [HD0 HxR]
  · iapply (exit_x m ρ c)
    isplitl [HD0]; · iexact HD0
    iexact HxR
  iapply (exit_out m ρ c)
  isplitl [HD2]; · iexact HD2
  iexact HD3

/-- info: 'Cert.KernelIdealProof.sound_body' depends on axioms: [propext, Classical.choice, Quot.sound] -/
#guard_msgs in #print axioms sound_body

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  iintro H
  iapply (sound_body m ρ c fun _ => bodyPost m ρ c)
  isplitl [H]; · iexact H
  iintro H; iexact H

end Cert.KernelIdealProof

end
-- ==== Proof.KernelIdeal.Launch.Fund.lean ====
/-
  The launch's ghost state: the cells and duty tokens minted, dealt to the devices that pay them, and every cell's
  invariant allocated.
-/
import proofs.«900267_g7700000000000268_dist_redx_gaty_m1024_n512_v7x_xy2x2_f32_1_alg».proof.Proof.KernelIdeal.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over the cells, family by family -/

theorem range_eq_map_val (n : ℕ) : Finset.range n = (Finset.univ : Finset (Fin n)).map Fin.valEmbedding := by
  ext x
  simp only [Finset.mem_range, Finset.mem_map, Finset.mem_univ, true_and, Fin.valEmbedding_apply]
  exact ⟨fun h => ⟨⟨x, h⟩, rfl⟩, fun ⟨y, hy⟩ => hy ▸ y.isLt⟩

/-- Over the 32 chunks, by number. -/
theorem bigSep_fin32 (Φ : ℕ → sProp 𝕄) : bigSep (Finset.univ : Finset (Fin 32)) (fun j => Φ j.val) = bigSep R32 Φ := by
  rw [show R32 = Finset.range 32 from rfl, range_eq_map_val, bigSep_map]; rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Over the four families of 32, family by family. -/
theorem bigSep_fam (Ψ : ℕ → ℕ → sProp 𝕄) :
    bigSep (Finset.univ : Finset (Fin 4 × Fin 32)) (fun aj => Ψ aj.1.val aj.2.val)
      = iprop((bigSep R32 fun j => Ψ 0 j) ∗ (bigSep R32 fun j => Ψ 1 j) ∗ (bigSep R32 fun j => Ψ 2 j) ∗ (bigSep R32 fun j => Ψ 3 j)) := by
  rw [bigSep_univ_prod, bigSep_fin4, ← bigSep_fin32 (Ψ 0), ← bigSep_fin32 (Ψ 1), ← bigSep_fin32 (Ψ 2), ← bigSep_fin32 (Ψ 3)]
  rfl

theorem univ_option_eq {α : Type} [Fintype α] [DecidableEq α] :
    (Finset.univ : Finset (Option α)) = insert none ((Finset.univ : Finset α).map Function.Embedding.some) := by
  ext x; cases x <;> simp

theorem bigSep_option {α : Type} [Fintype α] [DecidableEq α] (Φ : Option α → sProp 𝕄) :
    bigSep Finset.univ Φ = iprop(Φ none ∗ bigSep Finset.univ fun a => Φ (some a)) := by
  rw [univ_option_eq, bigSep_insert (by simp), bigSep_map]; rfl

/-- Over a device's 129 cells: the entry cell, then the four families. -/
theorem bigSep_cells (c : Dev nD) (Φ : GSem nD τ sig → sProp 𝕄) :
    bigSep (Finset.univ : Finset CellIx) (fun k => Φ (kcell (c, k)))
      = iprop(Φ (barCell c) ∗ (bigSep R32 fun j => Φ (fcell c 0 j)) ∗ (bigSep R32 fun j => Φ (fcell c 1 j))
          ∗ (bigSep R32 fun j => Φ (fcell c 2 j)) ∗ (bigSep R32 fun j => Φ (fcell c 3 j))) := by
  rw [bigSep_option, ← bigSep_fam (fun a j => Φ (fcell c a j))]

/-! ## The kernel's own semaphores, the cells, the tokens -/

/-- The kernel's own semaphores as the launch indexes them: semaphore `j` of family `a`. -/
abbrev osem : Fin 4 × Fin 32 → SemLoc sig := fun aj => .dma (fsem aj.1.val aj.2.val)

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective (csem : CellIx → SemLoc sig) := by
  intro k k' h
  match k, k', h with
  | none, none, _ => rfl
  | none, some _, h => exact absurd h (fun h' => by cases h')
  | some _, none, h => exact absurd h (fun h' => by cases h')
  | some (a, j), some (a', j'), h =>
    have h' : fsem a.val j.val = fsem a'.val j'.val := SemLoc.dma.inj h
    obtain ⟨h1, h2⟩ := fsem_inj a.isLt j.isLt a'.isLt j'.isLt h'
    rw [Fin.ext h1, Fin.ext h2]

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

/-- The duty tokens minted: per device, its entry cell's two duties and each copy cell's one. -/
abbrev TokIx : Type := Bool ⊕ (Fin 4 × Fin 32)
abbrev tokOf (ct : Dev nD × TokIx) : GSem nD τ sig × ℕ × Bool := match ct.2 with
  | .inl d => (barCell ct.1, 0, d)
  | .inr aj => (fcell ct.1 aj.1.val aj.2.val, 0, false)

theorem tokOf_injective : Function.Injective (tokOf : Dev nD × TokIx → GSem nD τ sig × ℕ × Bool) := by
  rintro ⟨c, t⟩ ⟨c', t'⟩ h
  have h1 : c = c' := by
    have := congrArg (fun x : GSem nD τ sig × ℕ × Bool => x.1.1.1) h
    match t, t' with
    | .inl _, .inl _ => exact this
    | .inl _, .inr _ => exact this
    | .inr _, .inl _ => exact this
    | .inr _, .inr _ => exact this
  subst h1
  match t, t', h with
  | .inl d, .inl d', h =>
    have : d = d' := congrArg (fun x : GSem nD τ sig × ℕ × Bool => x.2.2) h
    rw [this]
  | .inl _, .inr _, h => exact absurd (congrArg (fun x : GSem nD τ sig × ℕ × Bool => x.1.2) h) (fun h' => by cases h')
  | .inr _, .inl _, h => exact absurd (congrArg (fun x : GSem nD τ sig × ℕ × Bool => x.1.2) h) (fun h' => by cases h')
  | .inr (a, j), .inr (a', j'), h =>
    have h' : fsem a.val j.val = fsem a'.val j'.val := SemLoc.dma.inj (congrArg (fun x : GSem nD τ sig × ℕ × Bool => x.1.2) h)
    obtain ⟨e1, e2⟩ := fsem_inj a.isLt j.isLt a'.isLt j'.isLt h'
    rw [Fin.ext e1, Fin.ext e2]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells, family by family. -/
def toks (c : Dev nD) : sProp 𝕄 :=
  iprop(dutyTok ER (barCell c) 0 false ∗ dutyTok ER (barCell c) 0 true
    ∗ (bigSep R32 fun j => dutyTok ER (fcell c 0 j) 0 false) ∗ (bigSep R32 fun j => dutyTok ER (fcell c 1 j) 0 false)
    ∗ (bigSep R32 fun j => dutyTok ER (fcell c 2 j) 0 false) ∗ (bigSep R32 fun j => dutyTok ER (fcell c 3 j) 0 false))

/-- What the launch element deals device `c`. -/
def G (c : Dev nD) : sProp 𝕄 :=
  iprop((bigSep Finset.univ fun k : CellIx => roundState ER (ringRd m ρ) (kcell (c, k)) 0)
    ∗ (bigSep Finset.univ fun k : CellIx => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_bool (Φ : Bool → sProp 𝕄) : bigSep Finset.univ Φ = iprop(Φ false ∗ Φ true) :=
  bigSep_univ_eq_bigSepL [false, true] (by decide) (by decide) Φ

theorem toks_intro (c : Dev nD) :
    (bigSep Finset.univ fun t : TokIx => (dutyTok ER (tokOf (c, t)).1 (tokOf (c, t)).2.1 (tokOf (c, t)).2.2 : sProp 𝕄)) ⊢ toks c := by
  unfold toks
  rw [bigSep_univ_sum, bigSep_bool, ← bigSep_fam (fun a j => (dutyTok ER (fcell c a j) 0 false : sProp 𝕄))]
  show iprop((_ ∗ _) ∗ _) ⊢ _
  iintro ⟨⟨HA, HB⟩, HC⟩
  isplitl [HA]; · iexact HA
  isplitl [HB]; · iexact HB
  iexact HC

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (hT) $$ Htok
  unfold G; simp only [bigSep_sep']
  isplitl [Hst']; · iexact Hst'
  isplitl [Hat' Hr']
  · isplitl [Hat'] <;> iassumption
  iexact Htok'

/-- The launch element, split: the pipeline's part and the protocol's, the latter dealt to the devices. -/
theorem u₀_intro : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The semaphores at zero, cell by cell; the invariants allocated -/

/-- The runtime's barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores at zero, family by family. -/
theorem ownSems0_eq (c : Dev nD) :
    (Pipeline.ownSems0 (Ix := Unit) (Name := ℕ) (U := UU) (Lvl := ℕ) (Val := Elt F) (τ := τ) osem c : sProp 𝕄)
      = iprop((bigSep R32 fun j => semVal (fcell c 0 j) 0) ∗ (bigSep R32 fun j => semVal (fcell c 1 j) 0)
          ∗ (bigSep R32 fun j => semVal (fcell c 2 j) 0) ∗ (bigSep R32 fun j => semVal (fcell c 3 j) 0)) := by
  rw [← bigSep_fam (fun a j => (semVal (fcell c a j) 0 : sProp 𝕄))]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  have e : (Pipeline.ownSems0 (Ix := Unit) (Name := ℕ) (U := UU) (Lvl := ℕ) (Val := Elt F) (τ := τ) osem c : sProp 𝕄)
      = bigSep Finset.univ fun a : Fin 4 × Fin 32 => semVal (kcell (c, some a)) 0 := rfl
  rw [e, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellIx => iprop(∃ κ : ℕ, cellInv ER (ringRd m ρ) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (ringRd m ρ) (kcell (c, k)) 0)
      ⊢ (|={Set.univ}=> bigSep Finset.univ fun k : CellIx => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay them; the devices' ghost state -/

theorem ghost_intro (K : Dev nD × CellIx → ℕ) (c : Dev nD) : iprop(records m ρ K ∗ linear c) ⊢ G' m ρ c := by
  unfold G' ghost
  iintro H
  iexists K
  iexact H

/-- The tokens of the duties device `c` pays. -/
def payToks (c : Dev nD) : sProp 𝕄 :=
  iprop(dutyTok ER (barCell (xnb c)) 0 false ∗ dutyTok ER (barCell (ynb c)) 0 true
    ∗ (bigSep R32 fun j => dutyTok ER (fcell c 0 j) 0 false) ∗ (bigSep R32 fun j => dutyTok ER (fcell (xnb c) 1 j) 0 false)
    ∗ (bigSep R32 fun j => dutyTok ER (fcell c 2 j) 0 false) ∗ (bigSep R32 fun j => dutyTok ER (fcell (ynb c) 3 j) 0 false))

/-- The tokens dealt across the mesh: an entry cell's `false` token and the first receive cells' tokens to the device
    across the first axis, the `true` token and the second receive cells' tokens to the device across the second. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv xring (fun c : Dev nD => (dutyTok ER (barCell c) 0 false : sProp 𝕄)),
    bigSep_univ_equiv yring (fun c : Dev nD => (dutyTok ER (barCell c) 0 true : sProp 𝕄)),
    bigSep_univ_equiv xring (fun c : Dev nD => (bigSep R32 fun j => dutyTok ER (fcell c 1 j) 0 false : sProp 𝕄)),
    bigSep_univ_equiv yring (fun c : Dev nD => (bigSep R32 fun j => dutyTok ER (fcell c 3 j) 0 false : sProp 𝕄))]
  iintro ⟨H1, H2, H3, H4, H5, H6⟩
  isplitl [H1]; · iexact H1
  isplitl [H2]; · iexact H2
  isplitl [H3]; · iexact H3
  isplitl [H4]; · iexact H4
  isplitl [H5]; · iexact H5
  iexact H6

theorem linear_intro (c : Dev nD) :
    iprop((bigSep Finset.univ fun k : CellIx => atPos ER (kcell (c, k)) 0 ∅ 0) ∗ payToks c) ⊢ (linear c : sProp 𝕄) := by
  rw [bigSep_cells c (fun g => (atPos ER g 0 ∅ 0 : sProp 𝕄))]
  unfold linear payToks
  iintro ⟨⟨Ha, H0, H1, H2, H3⟩, HP⟩
  isplitl [Ha]; · iexact Ha
  isplitl [H0]; · iexact H0
  isplitl [H1]; · iexact H1
  isplitl [H2]; · iexact H2
  isplitl [H3]; · iexact H3
  iexact HP

theorem regroup :
    (bigSep Finset.univ fun c : Dev nD => iprop((bigSep Finset.univ fun k : CellIx => iprop(∃ κ : ℕ, cellInv ER (ringRd m ρ) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellIx => iprop(∃ κ : ℕ, cellInv ER (ringRd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄)) payToks).symm).trans
      (bigSep_mono fun c _ => linear_intro c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdealProof.glob' depends on axioms: [propext, Classical.choice, Quot.sound] -/
#guard_msgs in #print axioms glob

end Cert.KernelIdealProof

end
-- ==== Proof.KernelIdeal.Launch.Credit.lean ====
/-
  The launch credit (what every device owes a device's cells at launch, dealt to that device as credit tokens) and the
  level facts: the pipeline's staging semaphores sit below every cell a device owes to.
-/
import proofs.«900267_g7700000000000268_dist_redx_gaty_m1024_n512_v7x_xy2x2_f32_1_alg».proof.Proof.KernelIdeal.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit: what the devices owe a device's cells at launch, dealt to it as credit -/

/-- A device's launch credit under the four kinds of dues. -/
theorem launchCred_O₀ (c : Dev nD) :
    (Pipeline.launchCred O₀ c : sProp 𝕄)
      = iprop(((Pipeline.launchCred (fun d => Oy d 0) c ∗ Pipeline.launchCred (fun d => Ox d 0) c)
          ∗ Pipeline.launchCred (fun d => tallyAt (barCell (ynb d)) () 1) c)
          ∗ Pipeline.launchCred (fun d => tallyAt (barCell (xnb d)) () 1) c) := by
  rw [← Pipeline.launchCred_add (fun d => Oy d 0) (fun d => Ox d 0) c,
    ← Pipeline.launchCred_add (fun d => Oy d 0 + Ox d 0) (fun d => tallyAt (barCell (ynb d)) () 1) c,
    ← Pipeline.launchCred_add (fun d => Oy d 0 + Ox d 0 + tallyAt (barCell (ynb d)) () 1) (fun d => tallyAt (barCell (xnb d)) () 1) c]
  rfl

/-- The first copies' credit: every device owes chunk `j`'s landing to the device across the first axis. -/
theorem launchCred_Ox (c : Dev nD) :
    (Pipeline.launchCred (fun d => Ox d 0) c : sProp 𝕄) ⊢ bigSep R32 fun j => cred (tallyAt (fcell c 1 j) () Nx) := by
  have e : (Pipeline.launchCred (fun d => Ox d 0) c : sProp 𝕄)
      = bigSep (Finset.Ico 0 32) fun j => Pipeline.launchCred (fun d => tallyAt (fcell (xnb d) 1 j) () Nx) c :=
    Pipeline.launchCred_sum (Finset.Ico 0 32) (fun j d => tallyAt (fcell (xnb d) 1 j) () Nx) c
  rw [e, show R32 = Finset.Ico 0 32 from Finset.range_eq_Ico 32]
  exact bigSep_mono fun j _ => Pipeline.launchCred_tallyAt (.dma (fsem 1 j)) xnb xnb xnb_xnb xnb_xnb () Nx c

/-- The second copies' credit, across the second axis. -/
theorem launchCred_Oy (c : Dev nD) :
    (Pipeline.launchCred (fun d => Oy d 0) c : sProp 𝕄) ⊢ bigSep R32 fun j => cred (tallyAt (fcell c 3 j) () No) := by
  have e : (Pipeline.launchCred (fun d => Oy d 0) c : sProp 𝕄)
      = bigSep (Finset.Ico 0 32) fun j => Pipeline.launchCred (fun d => tallyAt (fcell (ynb d) 3 j) () No) c :=
    Pipeline.launchCred_sum (Finset.Ico 0 32) (fun j d => tallyAt (fcell (ynb d) 3 j) () No) c
  rw [e, show R32 = Finset.Ico 0 32 from Finset.range_eq_Ico 32]
  exact bigSep_mono fun j _ => Pipeline.launchCred_tallyAt (.dma (fsem 3 j)) ynb ynb ynb_ynb ynb_ynb () No c

/-- Two units on one cell are one credit of two. -/
theorem cred_two (c : Dev nD) :
    iprop(cred (tallyAt (barCell c) () 1) ∗ cred (tallyAt (barCell c) () 1)) ⊢ (cred (tallyAt (barCell c) () 2) : sProp 𝕄) :=
  (cred_add _ _).2.trans (Entails.of_eq (by rw [tallyAt_add]))

/-- What the launch deals device `c`. -/
theorem creds_intro (c : Dev nD) : (Pipeline.launchCred O₀ c : sProp 𝕄) ⊢ creds c := by
  rw [launchCred_O₀]
  unfold creds
  iintro ⟨⟨⟨Hy, Hx⟩, Hby⟩, Hbx⟩
  ihave Hby' := (Pipeline.launchCred_tallyAt (.reg barS) ynb ynb ynb_ynb ynb_ynb () 1 c) $$ Hby
  ihave Hbx' := (Pipeline.launchCred_tallyAt (.reg barS) xnb xnb xnb_xnb xnb_xnb () 1 c) $$ Hbx
  isplitl [Hby' Hbx']
  · iapply (cred_two (F := F) c)
    isplitl [Hby'] <;> iassumption
  isplitl [Hx]
  · iapply (launchCred_Ox (F := F) c); iexact Hx
  · iapply (launchCred_Oy (F := F) c); iexact Hy

/-! ## The levels: a staging semaphore may be waited whatever the device still owes -/

/-- Where the launch dues are positive. -/
theorem O₀_pos {c : Dev nD} {g : GSem nD τ sig} {u : Unit} (h : 0 < O₀ c g u) :
    (∃ j, j < 32 ∧ g = fcell (xnb c) 1 j) ∨ (∃ j, j < 32 ∧ g = fcell (ynb c) 3 j) ∨ g = barCell (ynb c) ∨ g = barCell (xnb c) := by
  unfold O₀ O₁ at h
  rcases Pipeline.add_pos_cases h with h | h
  · rcases Pipeline.add_pos_cases h with h | h
    · rcases Pipeline.add_pos_cases h with h | h
      · unfold Oy at h
        obtain ⟨j, hj, hp⟩ := Pipeline.sum_pos_exists h
        exact Or.inr (Or.inl ⟨j, (Finset.mem_Ico.mp hj).2, (Pipeline.tallyAt_pos hp).1⟩)
      · unfold Ox at h
        obtain ⟨j, hj, hp⟩ := Pipeline.sum_pos_exists h
        exact Or.inl ⟨j, (Finset.mem_Ico.mp hj).2, (Pipeline.tallyAt_pos hp).1⟩
    · exact Or.inr (Or.inr (Or.inl (Pipeline.tallyAt_pos h).1))
  · exact Or.inr (Or.inr (Or.inr (Pipeline.tallyAt_pos h).1))

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) (fun g u hg => ?_)
    have hlq : lv ((c : Thread nD τ), .dma q) () = 0 := by
      show (if 34 ≤ q.val ∧ q.val < 66 then 2 else if 98 ≤ q.val then 3 else 0) = 0
      rw [if_neg (by omega), if_neg (by omega)]
    rw [hlq]
    rcases O₀_pos hg with ⟨j, hj, rfl⟩ | ⟨j, hj, rfl⟩ | rfl | rfl
    · exact ⟨by rw [L_tc]; exact Finset.mem_singleton_self _, by rw [lv_f _ 1 j (by decide) hj]; decide⟩
    · exact ⟨by rw [L_tc]; exact Finset.mem_singleton_self _, by rw [lv_f _ 3 j (by decide) hj]; decide⟩
    · exact ⟨by rw [L_tc]; exact Finset.mem_singleton_self _, by rw [lv_bar]; decide⟩
    · exact ⟨by rw [L_tc]; exact Finset.mem_singleton_self _, by rw [lv_bar]; decide⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelIdealProof

end
-- ==== Proof.KernelIdeal.Launch.lean ====
/-
  The launch: from each device's body obligation to the run of the whole program on the four devices — every weakly
  fair execution terminates, and every final state has each device's windowed arrays at the proof data's final contents.
-/
import proofs.«900267_g7700000000000268_dist_redx_gaty_m1024_n512_v7x_xy2x2_f32_1_alg».proof.Proof.KernelIdeal.Sched
import proofs.«900267_g7700000000000268_dist_redx_gaty_m1024_n512_v7x_xy2x2_f32_1_alg».proof.Proof.KernelIdeal.Launch.Fund
import proofs.«900267_g7700000000000268_dist_redx_gaty_m1024_n512_v7x_xy2x2_f32_1_alg».proof.Proof.KernelIdeal.Launch.Credit

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

/-- What a device's body starts from, out of what the launch deals it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

/-- Before the point: that and the landing buffer, the one scoped buffer that is no staging buffer. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, Hr⟩
  isplitl [Hs]; · iexact Hs
  iexact Hr

/-- After the point: the kernel's own semaphores at zero and the landing buffer go back. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrAny
  iintro ⟨Hr, H0, H1, H2, H3⟩
  isplitr; · iempintro
  isplitr [Hr]
  · isplitl [H0]; · iexact H0
    isplitl [H1]; · iexact H1
    isplitl [H2]; · iexact H2
    iexact H3
  iexact Hr

/-! ## The run -/

/-- Each windowed array's contents after the run, as the proof data computes them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- At the compiled mesh of four devices, for any float values, from any memory with zero counters: every weakly fair
    execution of @main terminates, and every final state has each device's arrays at `finalA`. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := u₀_intro m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds what the body left in the result's staging buffer. -/
theorem finalA_out (c : Dev nD) : finalA m ρ c (1 : Fin 2) = outC m ρ c := by
  have h := (dats (F := F) m ρ 0 c).arrAt_succ (1 : Fin 2) t₀
  rw [flush0_1 t₀, if_pos rfl] at h
  refine Eq.trans (show finalA m ρ c (1 : Fin 2) = (dats (F := F) m ρ 0 c).arrAt (1 : Fin 2) (t₀.val + 1) from rfl) (h.trans ?_)
  generalize (dats (F := F) m ρ 0 c).arrAt (1 : Fin 2) t₀.val = prev
  have hw : (dats (F := F) m ρ 0 c).flushed (1 : Fin 2) t₀ = outC m ρ c := rfl
  rw [hw]
  have hz : (fun a => (cfg0.win (1 : Fin 2)).index t₀ a * (cfg0.win (1 : Fin 2)).size a) = fun _ => 0 := funext fun a => Nat.zero_mul _
  have hr := Memref.read_access_unit_zero (Elt F) main_v1 hz (fun a => Pipeline.Clip.inb ((cfg0.win (1 : Fin 2)).hclip (cfg0.grid.coords t₀) a))
    (((cfg0.win (1 : Fin 2)).blk t₀).view.write (Elt F) prev (outC m ρ c) Finset.univ)
  exact hr.symm.trans (View.read_write_univ _ _)

/-- info: 'Cert.KernelIdealProof.run_main' depends on axioms: [propext, Classical.choice, Quot.sound] -/
#guard_msgs in #print axioms run_main

end Cert.KernelIdealProof

end
-- ==== Proof.KernelIdeal.Final.lean ====
/-
  The run read back: what each device's result array holds at the end, as a function of the devices' input blocks.
-/
import proofs.«900267_g7700000000000268_dist_redx_gaty_m1024_n512_v7x_xy2x2_f32_1_alg».proof.Proof.KernelIdeal.Launch

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input window's one block is the whole array: the input block as staged is the argument array's contents. -/
theorem xstg_eq (c : Dev nD) : xstg m ρ c = m ((c : Thread nD τ).loc main_arg0) := by
  unfold xstg
  have hz : (fun a => win0_0.index (0 : Fin 1) a * win0_0.size a) = fun _ => 0 := funext fun a => Nat.zero_mul _
  exact Memref.read_access_unit_zero (Elt F) main_arg0 hz (fun a => Pipeline.Clip.inb (win0_0.hclip (grid0.coords (0 : Fin 1)) a)) _

/-- The run with its values: every weakly fair execution terminates, each device's result array ends at `outC` of the
    devices' input blocks and its argument array unchanged. -/
theorem run_vals (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outC m ρ c
      ∧ r.2.mem ((c.tc : Thread nD τ).loc main_arg0) = m ((c.tc : Thread nD τ).loc main_arg0)) :=
  (θ_run _ _ _).mono (fun r h c => ⟨(h c (1 : Fin 2)).trans (finalA_out m ρ c), (h c (0 : Fin 2)).trans (finalA_x m ρ c)⟩)
    (run_main m ρ hbody)

end Cert.KernelIdealProof

end
-- ==== Proof.Kernel.Views.lean ====
/-
  The buffers the kernel body works on, cut as the body cuts them, and what its copies, loads and stores do to
  their contents.

  The input block's staging buffer and the landing buffer are [1024, 512]; the result's staging buffer is
  [1024, 1024]. The body works in 32 chunks of 32 rows: chunk j is rows 32·j … 32·j + 31. In the result a chunk is
  further cut into two column halves of 512: half p is columns 512·p … 512·p + 511.
-/
import proofs.«900267_g7700000000000268_dist_redx_gaty_m1024_n512_v7x_xy2x2_f32_1_alg».proof.Proof.Gen.Kernel
import proofs.«900267_g7700000000000268_dist_redx_gaty_m1024_n512_v7x_xy2x2_f32_1_alg».proof.Proof.Spec
import Idealize.ShloMosaic.Lib.Pipeline.Value
import Idealize.ShloMosaic.Lib.ValueIdx

noncomputable section

namespace Cert.KernelProof

open Cert.Kernel Cert.Kernel.Gen
open Idealize.ShloMosaic Idealize.ShloMosaic.TcCoe Idealize.ShloMosaic.ValueIdx
open Idealize.SL Idealize.SL.RA Idealize.SL.Sem

variable {F : FTy → Type} [FloatOps F]

/-! ## The three buffers and their chunks -/

/-- The input block's staging buffer, the result's staging buffer, the landing buffer. -/
abbrev xM : Memref sig .tc .vmem S1024x512 .f32 := Memref.whole cc0_stg0_0
abbrev oM : Memref sig .tc .vmem S1024x1024 .f32 := Memref.whole cc0_stg1_0
abbrev rM : Memref sig .tc .vmem S1024x512 .f32 := Memref.whole cc0_scratch0

/-- A [32, 512] rectangle at offsets `off` lies inside a [1024, 512] buffer / the [1024, 1024] buffer. -/
abbrev InbB (off : Fin 2 → Nat) : Prop := ∀ a, off a + S32x512.size a ≤ S1024x512.size a
abbrev InbO (off : Fin 2 → Nat) : Prop := ∀ a, off a + S32x512.size a ≤ S1024x1024.size a

/-- The [32, 512] slice at `off` of each buffer, spelt as the body spells it. -/
abbrev xCh (off : Fin 2 → Nat) (h : InbB off) : Memref sig .tc .vmem S32x512 .f32 :=
  xM.slice (Rect.unit (s := S1024x512) off S32x512.size h) (fun _ => rfl)
abbrev rCh (off : Fin 2 → Nat) (h : InbB off) : Memref sig .tc .vmem S32x512 .f32 :=
  rM.slice (Rect.unit (s := S1024x512) off S32x512.size h) (fun _ => rfl)
abbrev oCh (off : Fin 2 → Nat) (h : InbO off) : Memref sig .tc .vmem S32x512 .f32 :=
  oM.slice (Rect.unit (s := S1024x1024) off S32x512.size h) (fun _ => rfl)

theorem inbB (j : Nat) (hj : j < 32) : InbB ![32 * j, 0] := by
  intro a; match a with
  | ⟨0, _⟩ => show 32 * j + 32 ≤ 1024; omega
  | ⟨1, _⟩ => show 0 + 512 ≤ 512; omega
theorem inbO (j p : Nat) (hj : j < 32) (hp : p < 2) : InbO ![32 * j, 512 * p] := by
  intro a; match a with
  | ⟨0, _⟩ => show 32 * j + 32 ≤ 1024; omega
  | ⟨1, _⟩ => show 512 * p + 512 ≤ 1024; omega

/-! ## The element sets -/

/-- Rows of chunk `j` of a [1024, 512] buffer. -/
def rowsB (j : Nat) : Finset S1024x512.Idx := Finset.univ.filter fun i => (i 0).val / 32 = j
/-- Rows of chunk `j`, column half `p`, of the [1024, 1024] buffer. -/
def blkO (j p : Nat) : Finset S1024x1024.Idx := Finset.univ.filter fun i => (i 0).val / 32 = j ∧ (i 1).val / 512 = p
/-- Column half `p` of the [1024, 1024] buffer. -/
def colO (p : Nat) : Finset S1024x1024.Idx := Finset.univ.filter fun i => (i 1).val / 512 = p

theorem mem_rowsB {j : Nat} {i : S1024x512.Idx} : i ∈ rowsB j ↔ (i 0).val / 32 = j := by
  unfold rowsB; rw [Finset.mem_filter]; exact ⟨fun h => h.2, fun h => ⟨Finset.mem_univ _, h⟩⟩
theorem mem_blkO {j p : Nat} {i : S1024x1024.Idx} : i ∈ blkO j p ↔ (i 0).val / 32 = j ∧ (i 1).val / 512 = p := by
  unfold blkO; rw [Finset.mem_filter]; exact ⟨fun h => h.2, fun h => ⟨Finset.mem_univ _, h⟩⟩
theorem mem_colO {p : Nat} {i : S1024x1024.Idx} : i ∈ colO p ↔ (i 1).val / 512 = p := by
  unfold colO; rw [Finset.mem_filter]; exact ⟨fun h => h.2, fun h => ⟨Finset.mem_univ _, h⟩⟩

/-- The [32, 512] rectangle at (32·j, 0) of a [1024, 512] shape is the rows of chunk `j`. -/
theorem unit_set_rows (j : Nat) (h : InbB ![32 * j, 0]) :
    (Rect.unit (s := S1024x512) ![32 * j, 0] S32x512.size h).set = rowsB j := by
  refine Finset.ext fun (i : S1024x512.Idx) => ?_
  have h0 : (i 0).val < 1024 := (i 0).isLt
  have h1 : (i 1).val < 512 := (i 1).isLt
  rw [Rect.mem_set_unit, mem_rowsB]
  constructor
  · intro H
    have a0 : 32 * j ≤ (i 0).val ∧ (i 0).val < 32 * j + 32 := H 0
    omega
  · intro H a
    match a with
    | ⟨0, _⟩ => show 32 * j ≤ (i 0).val ∧ (i 0).val < 32 * j + 32; omega
    | ⟨1, _⟩ => show 0 ≤ (i 1).val ∧ (i 1).val < 0 + 512; omega

/-- The [32, 512] rectangle at (32·j, 512·p) of the [1024, 1024] shape is the rows of chunk `j` in column half `p`. -/
theorem unit_set_blk (j p : Nat) (h : InbO ![32 * j, 512 * p]) :
    (Rect.unit (s := S1024x1024) ![32 * j, 512 * p] S32x512.size h).set = blkO j p := by
  refine Finset.ext fun (i : S1024x1024.Idx) => ?_
  have h0 : (i 0).val < 1024 := (i 0).isLt
  have h1 : (i 1).val < 1024 := (i 1).isLt
  rw [Rect.mem_set_unit, mem_blkO]
  constructor
  · intro H
    have a0 : 32 * j ≤ (i 0).val ∧ (i 0).val < 32 * j + 32 := H 0
    have a1 : 512 * p ≤ (i 1).val ∧ (i 1).val < 512 * p + 512 := H 1
    omega
  · intro H a
    match a with
    | ⟨0, _⟩ => show 32 * j ≤ (i 0).val ∧ (i 0).val < 32 * j + 32; omega
    | ⟨1, _⟩ => show 512 * p ≤ (i 1).val ∧ (i 1).val < 512 * p + 512; omega

/-- A chunk's slice goes through exactly the chunk's rows. -/
theorem xCh_set (j : Nat) (off : Fin 2 → Nat) (h : InbB off) (hoff : off = ![32 * j, 0]) :
    (xCh off h).view.set = rowsB j := by
  subst hoff
  show ((View.whole cc0_stg0_0).slice (Rect.unit (s := S1024x512) ![32 * j, 0] S32x512.size h)).set = rowsB j
  rw [View.set_slice_whole]
  exact unit_set_rows j h
theorem rCh_set (j : Nat) (off : Fin 2 → Nat) (h : InbB off) (hoff : off = ![32 * j, 0]) :
    (rCh off h).view.set = rowsB j := by
  subst hoff
  show ((View.whole cc0_scratch0).slice (Rect.unit (s := S1024x512) ![32 * j, 0] S32x512.size h)).set = rowsB j
  rw [View.set_slice_whole]
  exact unit_set_rows j h
theorem oCh_set (j p : Nat) (off : Fin 2 → Nat) (h : InbO off) (hoff : off = ![32 * j, 512 * p]) :
    (oCh off h).view.set = blkO j p := by
  subst hoff
  show ((View.whole cc0_stg1_0).slice (Rect.unit (s := S1024x1024) ![32 * j, 512 * p] S32x512.size h)).set = blkO j p
  rw [View.set_slice_whole]
  exact unit_set_blk j p h

/-- The 32 chunks tile a [1024, 512] buffer; -/
theorem univ_eq_rowsB : (Finset.univ : Finset S1024x512.Idx) = (Finset.range 32).biUnion rowsB := by
  refine Finset.ext fun (i : S1024x512.Idx) => ?_
  have h0 : (i 0).val < 1024 := (i 0).isLt
  simp only [Finset.mem_univ, Finset.mem_biUnion, Finset.mem_range, mem_rowsB, true_iff]
  exact ⟨(i 0).val / 32, by omega, rfl⟩
theorem rowsB_disjoint (j j' : Nat) (h : j ≠ j') : Disjoint (rowsB j) (rowsB j') := by
  rw [Finset.disjoint_left]
  intro i hi hi'
  rw [mem_rowsB] at hi hi'
  exact h (hi.symm.trans hi')
/-- the 32 chunks of a column half tile it; the two halves tile the result. -/
theorem colO_eq (p : Nat) : colO p = (Finset.range 32).biUnion fun j => blkO j p := by
  refine Finset.ext fun (i : S1024x1024.Idx) => ?_
  have h0 : (i 0).val < 1024 := (i 0).isLt
  simp only [Finset.mem_biUnion, Finset.mem_range, mem_blkO, mem_colO]
  constructor
  · intro H
    exact ⟨(i 0).val / 32, by omega, rfl, H⟩
  · rintro ⟨_, _, _, H⟩
    exact H
theorem blkO_disjoint (p j j' : Nat) (h : j ≠ j') : Disjoint (blkO j p) (blkO j' p) := by
  rw [Finset.disjoint_left]
  intro i hi hi'
  rw [mem_blkO] at hi hi'
  exact h (hi.1.symm.trans hi'.1)
theorem univ_eq_colO : (Finset.univ : Finset S1024x1024.Idx) = colO 0 ∪ colO 1 := by
  refine Finset.ext fun (i : S1024x1024.Idx) => ?_
  have h1 : (i 1).val < 1024 := (i 1).isLt
  simp only [Finset.mem_univ, Finset.mem_union, mem_colO, true_iff]
  omega
theorem colO_disjoint : Disjoint (colO 0) (colO 1) := by
  rw [Finset.disjoint_left]
  intro i hi hi'
  rw [mem_colO] at hi hi'
  omega
theorem blkO_subset_colO (j p : Nat) : blkO j p ⊆ colO p := fun i hi => mem_colO.mpr (mem_blkO.mp hi).2

/-! ## What a copy lands, what the loads read, what the store leaves -/

/-- A chunk copied from a [1024, 512] buffer holding `fs` into the same chunk of another [1024, 512] buffer: on the
    chunk the destination then holds `fs`. -/
theorem xcopy_val (off : Fin 2 → Nat) (h : InbB off) (fd : (cc0_scratch0 : Ref sig .tc).ty.Contents (Elt F))
    (fs : (cc0_stg0_0 : Ref sig .tc).ty.Contents (Elt F)) (i : S1024x512.Idx) (hi : i ∈ (rCh off h).view.set) :
    (rCh off h).view.write (Elt F) fd ((xCh off h).view.read (Elt F) fs) Finset.univ i = fs i := by
  obtain ⟨y, rfl⟩ := View.exists_emb_of_mem_set (rCh off h).view hi
  rw [View.write_emb_of_mem _ _ (Finset.mem_univ y)]
  rfl
/-- The same for a [32, 512] piece of the result buffer copied to the same piece of another device's. -/
theorem ycopy_val (off : Fin 2 → Nat) (h : InbO off) (fd fs : (cc0_stg1_0 : Ref sig .tc).ty.Contents (Elt F))
    (i : S1024x1024.Idx) (hi : i ∈ (oCh off h).view.set) :
    (oCh off h).view.write (Elt F) fd ((oCh off h).view.read (Elt F) fs) Finset.univ i = fs i := by
  obtain ⟨y, rfl⟩ := View.exists_emb_of_mem_set (oCh off h).view hi
  rw [View.write_emb_of_mem _ _ (Finset.mem_univ y)]
  rfl

/-- The store of chunk `j`: the sum, element by element, of the chunk loaded from a [1024, 512] buffer holding `fx`
    and the chunk loaded from one holding `fr`, stored at rows of chunk `j`, column half `p` of the result buffer:
    there the result buffer then holds `fx + fr` read at (row, column mod 512). `pay` is the body's sum of two loaded
    vectors, whichever of the printed payload names it is. -/
theorem store_val (j p : Nat) (offx : Fin 2 → Nat) (hx : InbB offx) (offo : Fin 2 → Nat) (ho : InbO offo)
    (hoffx : offx = ![32 * j, 0]) (hoffo : offo = ![32 * j, 512 * p])
    (fx : (cc0_stg0_0 : Ref sig .tc).ty.Contents (Elt F)) (fr : (cc0_scratch0 : Ref sig .tc).ty.Contents (Elt F))
    (fo : (cc0_stg1_0 : Ref sig .tc).ty.Contents (Elt F))
    (pay : Vec F S32x512 .f32 → Vec F S32x512 .f32 → FVec F S32x512 .f32)
    (hpay : ∀ a b y, pay a b y = FloatOps.addf (a y) (b y))
    (i : S1024x1024.Idx) (hi : i ∈ blkO j p) :
    ((oM.access (Rect.unit (s := S1024x1024) offo S32x512.size ho) : View sig .tc _ _ _).write (Elt F) fo
        (pay (xM.view.readAt (Elt F) (Rect.unit (s := S1024x512) offx S32x512.size hx).toLoadRect fx)
             (rM.view.readAt (Elt F) (Rect.unit (s := S1024x512) offx S32x512.size hx).toLoadRect fr)) Finset.univ) i
      = FloatOps.addf (fx (Cert.Spec.inHalf i)) (fr (Cert.Spec.inHalf i)) := by
  subst hoffx hoffo
  have hi' : i ∈ (oCh ![32 * j, 512 * p] ho).view.set := by rw [oCh_set j p _ ho rfl]; exact hi
  obtain ⟨y, rfl⟩ := View.exists_emb_of_mem_set _ hi'
  have hy0 : (y 0).val < 32 := (y 0).isLt
  have hy1 : (y 1).val < 512 := (y 1).isLt
  have hidx : Cert.Spec.inHalf ((oCh ![32 * j, 512 * p] ho).view.emb y)
      = (Rect.unit (s := S1024x512) ![32 * j, 0] S32x512.size hx).emb y := by
    funext a; apply Fin.ext
    match a with
    | ⟨0, _⟩ => show 32 * j + 1 * (y 0).val = 32 * j + 1 * (y 0).val; rfl
    | ⟨1, _⟩ => show (512 * p + 1 * (y 1).val) % 512 = 0 + 1 * (y 1).val; omega
  show (oCh ![32 * j, 512 * p] ho).view.write (Elt F) fo _ Finset.univ ((oCh ![32 * j, 512 * p] ho).view.emb y) = _
  rw [View.write_emb_of_mem _ _ (Finset.mem_univ y), hpay, hidx]
  rfl

/-- Off the stored piece the result buffer keeps what it held. -/
theorem store_off (offo : Fin 2 → Nat) (ho : InbO offo) (fo : (cc0_stg1_0 : Ref sig .tc).ty.Contents (Elt F))
    (w : Vec F S32x512 .f32) (i : S1024x1024.Idx) (hi : i ∉ (oCh offo ho).view.set) :
    ((oM.access (Rect.unit (s := S1024x1024) offo S32x512.size ho) : View sig .tc _ _ _).write (Elt F) fo w Finset.univ) i = fo i := by
  exact View.write_of_not_mem _ _ _ hi

/-! ## The copies' credit -/

/-- What a [32, 512] copy into the landing buffer / into the result buffer credits its semaphores. -/
abbrev Nx : Nat := (rCh ![0, 0] (inbB 0 (by decide))).view.dmaCredit
abbrev No : Nat := (oCh ![0, 0] (inbO 0 0 (by decide) (by decide))).view.dmaCredit
theorem Nx_pos : 0 < Nx := View.dmaCredit_pos _ (by decide)
theorem No_pos : 0 < No := View.dmaCredit_pos _ (by decide)
theorem rCh_amount (off : Fin 2 → Nat) (h : InbB off) (s : DmaSem sig) : (rCh off h).view.amount (.dma s) = Nx := by
  rfl
theorem oCh_amount (off : Fin 2 → Nat) (h : InbO off) (s : DmaSem sig) : (oCh off h).view.amount (.dma s) = No := by
  rfl
/-- The same amounts spelt as the views' credit; a chunk of the input block's staging buffer credits what a chunk of
    the landing buffer does. -/
theorem xCh_amount (off : Fin 2 → Nat) (h : InbB off) : (xCh off h).view.dmaCredit = Nx := rfl
theorem rCh_credit (off : Fin 2 → Nat) (h : InbB off) : (rCh off h).view.dmaCredit = Nx := rfl
theorem oCh_credit (off : Fin 2 → Nat) (h : InbO off) : (oCh off h).view.dmaCredit = No := rfl

end Cert.KernelProof

end
-- ==== Proof.Kernel.Sched.lean ====
/-
  The protocol of the kernel on the 2×2 mesh, as a schedule of rounds.

  Device c = 2·cx + cy. Across the first mesh axis sits X c (cx flipped), across the second Y c (cy flipped).
  Every device: signals the entry semaphore of X c and of Y c one unit each and waits for two units on its own;
  copies its input block, in 32 chunks of 32 rows, into X c's landing buffer (chunk j credits its own send
  semaphore j of the first family and X c's receive semaphore j of the second); then, chunk by chunk, waits for the
  chunk landed from X c, stores own chunk + landed chunk into its own column half of the result buffer and copies
  that piece into the same place of Y c's result buffer (third and fourth family); last it waits, chunk by chunk,
  for the piece from Y c, for its first send and for its second send.

  Cells and duties: the entry cell of c has two duties of one unit at round 0: `false`, paid by X c, whose payload is
  X c's whole landing buffer; `true`, paid by Y c, whose payload is the column half of Y c's result buffer that c's
  pieces land in. Every copy semaphore has one duty `false` at round 0 of the copy's credit; its payload is what the
  waiter gets: the lent share of the source chunk back (send cells), the landed chunk holding the sender's data
  (receive cells).
-/
import proofs.«900267_g7700000000000268_dist_redx_gaty_m1024_n512_v7x_xy2x2_f32_1_alg».proof.Proof.Gen.Kernel
import proofs.«900267_g7700000000000268_dist_redx_gaty_m1024_n512_v7x_xy2x2_f32_1_alg».proof.Proof.Gen.Kernel.Launch
import proofs.«900267_g7700000000000268_dist_redx_gaty_m1024_n512_v7x_xy2x2_f32_1_alg».proof.Proof.Gen.Kernel.Points
import proofs.«900267_g7700000000000268_dist_redx_gaty_m1024_n512_v7x_xy2x2_f32_1_alg».proof.Proof.Spec
import proofs.«900267_g7700000000000268_dist_redx_gaty_m1024_n512_v7x_xy2x2_f32_1_alg».proof.Proof.Kernel.Views
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The neighbours -/

/-- The device across the first mesh axis, across the second. -/
def xnb (c : Dev nD) : Dev nD := Cert.Spec.xn c
def ynb (c : Dev nD) : Dev nD := Cert.Spec.yn c

theorem xnb_xnb (c : Dev nD) : xnb (xnb c) = c := Cert.Spec.xn_xn c
theorem ynb_ynb (c : Dev nD) : ynb (ynb c) = c := Cert.Spec.yn_yn c
theorem xnb_ne (c : Dev nD) : xnb c ≠ c := by revert c; decide
theorem ynb_ne (c : Dev nD) : ynb c ≠ c := by revert c; decide
theorem xnb_ne_ynb (c : Dev nD) : xnb c ≠ ynb c := by revert c; decide

/-- A printed device chain with the closed form of the first kind names `xnb c`, of the second kind `ynb c`. -/
theorem dev_eq_xnb (c : Dev nD) (v : Nat) (h : v < nD) (e : v = ((c.val % 2) + 2) - 2 * (c.val / 2)) :
    (⟨v, h⟩ : Dev nD) = xnb c := Fin.ext e
theorem dev_eq_ynb (c : Dev nD) (v : Nat) (h : v < nD) (e : v = (2 * (c.val / 2) + 1) - (c.val % 2)) :
    (⟨v, h⟩ : Dev nD) = ynb c := Fin.ext e

def xring : Dev nD ≃ Dev nD := ⟨xnb, xnb, xnb_xnb, xnb_xnb⟩
def yring : Dev nD ≃ Dev nD := ⟨ynb, ynb, ynb_ynb, ynb_ynb⟩

/-- A device's own column half of the result: its position along the second axis. -/
def cy (c : Dev nD) : Nat := c.val % 2
theorem cy_lt (c : Dev nD) : cy c < 2 := Nat.mod_lt _ (by decide)
theorem cy_xnb (c : Dev nD) : cy (xnb c) = cy c := by revert c; decide
theorem cy_ynb (c : Dev nD) : cy (ynb c) = 1 - cy c := by revert c; decide

/-! ## Semaphores and cells -/

/-- The entry semaphore: the runtime's barrier semaphore of collective id 0 (not scoped to the launch). -/
abbrev barS : Sem sig := (SemArray.scalar (sig.barrier 0 rfl) : Sems sig S_).sem

abbrev InbS (j : Nat) : Prop := ∀ a, (![j] : Fin 1 → Nat) a + S1.size a ≤ S32.size a
theorem inbS (j : Nat) (hj : j < 32) : InbS j := by
  intro a; match a with
  | ⟨0, _⟩ => show j + 1 ≤ 32; omega

/-- Semaphore `j` of a family of 32, spelt as the body spells it. -/
abbrev semAt (A : DmaSems sig S32) (j : Nat) (h : InbS j) : DmaSem sig :=
  ((A.slice (Rect.unit (s := S32) ![j] S1.size h)).squeeze S_ squeezes_S1_S_).sem

/-- Semaphore `j` of family `a` (0: first sends, 1: first receives, 2: second sends, 3: second receives) by number. -/
def fsem (a j : Nat) : DmaSem sig := ⟨(2 + 32 * a + j) % 130, Nat.mod_lt _ (by decide)⟩

theorem fsem_val (a j : Nat) (ha : a < 4) (hj : j < 32) : (fsem a j).val = 2 + 32 * a + j := by
  show (2 + 32 * a + j) % 130 = _; exact Nat.mod_eq_of_lt (by omega)

/-- Semaphore `j` of a family laid out from `base` is number `base + j`. -/
theorem semAt_val {n : Nat} (base : Nat) (hb : base + S32.numel ≤ n) (j : Nat) (h : InbS j) :
    ((((SemArray.consecutive base S32 hb : SemArray (Fin n) S32).slice (Rect.unit (s := S32) ![j] S1.size h)).squeeze S_ squeezes_S1_S_).sem).val = base + j := by
  show base + (S32.rowMajor ((Rect.unit (s := S32) ![j] S1.size h).emb (Shape.reshapeEquiv squeezes_S1_S_.numel_eq fun i => i.elim0))).val = base + j
  rw [Shape.rowMajor_val_one, Rect.emb_apply]
  generalize (Shape.reshapeEquiv squeezes_S1_S_.numel_eq fun i => i.elim0) = y
  have hy : (y 0).val = 0 := Nat.lt_one_iff.mp (y 0).isLt
  rw [hy]; rfl

theorem semAt1 (j : Nat) (h : InbS j) (hj : j < 32) : semAt cc0_scratch1 j h = fsem 0 j :=
  Fin.ext ((semAt_val 2 _ j h).trans (fsem_val 0 j (by decide) hj).symm)
theorem semAt2 (j : Nat) (h : InbS j) (hj : j < 32) : semAt cc0_scratch2 j h = fsem 1 j :=
  Fin.ext ((semAt_val 34 _ j h).trans (fsem_val 1 j (by decide) hj).symm)
theorem semAt3 (j : Nat) (h : InbS j) (hj : j < 32) : semAt cc0_scratch3 j h = fsem 2 j :=
  Fin.ext ((semAt_val 66 _ j h).trans (fsem_val 2 j (by decide) hj).symm)
theorem semAt4 (j : Nat) (h : InbS j) (hj : j < 32) : semAt cc0_scratch4 j h = fsem 3 j :=
  Fin.ext ((semAt_val 98 _ j h).trans (fsem_val 3 j (by decide) hj).symm)

abbrev barCell (c : Dev nD) : GSem nD τ sig := ((c : Thread nD τ), .reg barS)
abbrev fcell (c : Dev nD) (a j : Nat) : GSem nD τ sig := ((c : Thread nD τ), .dma (fsem a j))

theorem fsem_inj {a j a' j' : Nat} (ha : a < 4) (hj : j < 32) (ha' : a' < 4) (hj' : j' < 32) (h : fsem a j = fsem a' j') : a = a' ∧ j = j' := by
  have := congrArg Fin.val h
  rw [fsem_val a j ha hj, fsem_val a' j' ha' hj'] at this
  omega

/-! ## Contents -/

/-- Device `c`'s input block as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- What device `c`'s result buffer ends holding (Spec.lean). -/
def outC (c : Dev nD) : (cc0_stg1_0 : Ref sig .tc).ty.Contents (Elt F) :=
  Cert.Spec.outAt (fun d => xstg m ρ d) c

/-- The lent and the kept half of the input staging buffer's share. -/
abbrev qL : PosShare TreeShare := fullShare.left
abbrev qR : PosShare TreeShare := fullShare.right

/-! ## The payloads -/

def barPayX (c : Dev nD) : sProp 𝕄 :=
  iprop(∃ f, (rM : Memref sig .tc .vmem S1024x512 .f32).view.loc (xnb c : Thread nD τ) ↦[(Finset.univ : Finset S1024x512.Idx)]{fullShare} f)
def barPayY (c : Dev nD) : sProp 𝕄 :=
  iprop(∃ f, (oM : Memref sig .tc .vmem S1024x1024 .f32).view.loc (ynb c : Thread nD τ) ↦[colO (cy c)]{fullShare} f)
def sxPay (c : Dev nD) (j : Nat) : sProp 𝕄 :=
  (xM : Memref sig .tc .vmem S1024x512 .f32).view.loc (c : Thread nD τ) ↦[rowsB j]{qL} xstg m ρ c
def rxPay (c : Dev nD) (j : Nat) : sProp 𝕄 :=
  (rM : Memref sig .tc .vmem S1024x512 .f32).view.loc (c : Thread nD τ) ↦[rowsB j]{fullShare} xstg m ρ (xnb c)
def syPay (c : Dev nD) (j : Nat) : sProp 𝕄 :=
  (oM : Memref sig .tc .vmem S1024x1024 .f32).view.loc (c : Thread nD τ) ↦[blkO j (cy c)]{fullShare} outC m ρ c
def ryPay (c : Dev nD) (j : Nat) : sProp 𝕄 :=
  (oM : Memref sig .tc .vmem S1024x1024 .f32).view.loc (c : Thread nD τ) ↦[blkO j (1 - cy c)]{fullShare} outC m ρ c

def famPay (c : Dev nD) (a j : Nat) : sProp 𝕄 :=
  if a = 0 then sxPay m ρ c j else if a = 1 then rxPay m ρ c j else if a = 2 then syPay m ρ c j else ryPay m ρ c j

def semPay (c : Dev nD) : SemLoc sig → Bool → sProp 𝕄
  | .reg _, d => if d then barPayY c else barPayX c
  | .dma i, _ => if 2 ≤ i.val then famPay m ρ c ((i.val - 2) / 32) ((i.val - 2) % 32) else iprop(emp)

def isXfer : SemLoc sig → Bool
  | .reg _ => false
  | .dma i => decide (2 ≤ i.val)

def semAmt : SemLoc sig → Nat
  | .reg _ => 1
  | .dma i => if (i.val - 2) / 64 = 0 then Nx else No

/-! ## The schedule: one round -/

def ringRd : Rounds.Schedule (GSem nD τ sig) Bool 𝕄 where
  duties g r := if r = 0 ∧ g.1.2 = .tc ∧ g.2 = .reg barS then Finset.univ else if r = 0 ∧ g.1.2 = .tc ∧ isXfer g.2 = true then {false} else ∅
  unitless _ := False
  amount g _ _ := semAmt g.2
  payload g _ d := semPay m ρ g.1.1 g.2 d
  amount_pos g _ _ _ := by
    show 0 < semAmt g.2
    unfold semAmt; split
    · exact Nat.one_pos
    · split
      · exact Nx_pos
      · exact No_pos

instance ringRd_payload_storable (g : GSem nD τ sig) (r : ℕ) (d : Bool) :
    BI.Storable (upEmb : UEmb _ 𝕄) ((ringRd (F := F) m ρ).payload g r d) := by
  show BI.Storable upEmb (semPay m ρ g.1.1 g.2 d)
  unfold semPay famPay barPayX barPayY sxPay rxPay syPay ryPay
  (repeat' split) <;> infer_instance

/-! ## The schedule's tables -/

section Tables
variable (c : Dev nD)

/-- A copy of the first two families credits `Nx`, of the last two `No`. -/
def famAmt (a : Nat) : Nat := if a / 2 = 0 then Nx else No
theorem famAmt_pos (a : Nat) : 0 < famAmt a := by unfold famAmt; split; exact Nx_pos; exact No_pos

theorem isXfer_fsem (a j : Nat) (ha : a < 4) (hj : j < 32) : isXfer (.dma (fsem a j) : SemLoc sig) = true := by
  show decide (2 ≤ (fsem a j).val) = true
  rw [fsem_val a j ha hj]; exact decide_eq_true (by omega)

theorem duties_bar : (ringRd (F := F) m ρ).duties (barCell c) 0 = Finset.univ := by dsimp only [ringRd]; exact if_pos ⟨rfl, rfl, rfl⟩
theorem duties_f (a j : Nat) (ha : a < 4) (hj : j < 32) : (ringRd (F := F) m ρ).duties (fcell c a j) 0 = {false} := by
  dsimp only [ringRd]; rw [if_neg (fun h => by cases h.2.2), if_pos ⟨rfl, rfl, isXfer_fsem a j ha hj⟩]
theorem duties_later (g : GSem nD τ sig) : ∀ r, 1 ≤ r → (ringRd (F := F) m ρ).duties g r = ∅ :=
  fun r hr => by dsimp only [ringRd]; rw [if_neg fun h => by omega, if_neg fun h => by omega]

theorem amount_bar (d : Bool) : (ringRd (F := F) m ρ).amount (barCell c) 0 d = 1 := rfl
theorem amount_f (a j : Nat) (ha : a < 4) (hj : j < 32) (d : Bool) : (ringRd (F := F) m ρ).amount (fcell c a j) 0 d = famAmt a := by
  show (if ((fsem a j).val - 2) / 64 = 0 then Nx else No) = _
  rw [fsem_val a j ha hj]; unfold famAmt
  by_cases h : a / 2 = 0
  · rw [if_pos h, if_pos (by omega)]
  · rw [if_neg h, if_neg (by omega)]

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_f (a j : Nat) (ha : a < 4) (hj : j < 32) : (ringRd (F := F) m ρ).expect (fcell c a j) 0 = famAmt a := by
  unfold Schedule.expect Schedule.amountOf; rw [duties_f m ρ c a j ha hj, Finset.sum_singleton, amount_f m ρ c a j ha hj]

theorem payload_bar_true : (ringRd (F := F) m ρ).payload (barCell c) 0 true = barPayY c := rfl
theorem payload_bar_false : (ringRd (F := F) m ρ).payload (barCell c) 0 false = barPayX c := rfl
theorem payload_f (a j : Nat) (ha : a < 4) (hj : j < 32) (d : Bool) : (ringRd (F := F) m ρ).payload (fcell c a j) 0 d = famPay m ρ c a j := by
  show (if 2 ≤ (fsem a j).val then famPay m ρ c (((fsem a j).val - 2) / 32) (((fsem a j).val - 2) % 32) else iprop(emp)) = _
  rw [fsem_val a j ha hj, if_pos (by omega)]
  rw [show (2 + 32 * a + j - 2) / 32 = a by omega, show (2 + 32 * a + j - 2) % 32 = j by omega]

/-- The rest of the entry cell's round, no duty taken: both neighbours' payloads. -/
theorem rest_bar : bigSep ((ringRd (F := F) m ρ).duties (barCell c) 0 \ ∅) (fun d => (ringRd (F := F) m ρ).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_f (a j : Nat) (ha : a < 4) (hj : j < 32) :
    bigSep ((ringRd (F := F) m ρ).duties (fcell c a j) 0 \ ∅) (fun d => (ringRd (F := F) m ρ).payload (fcell c a j) 0 d) = famPay m ρ c a j := by
  rw [Finset.sdiff_empty, duties_f m ρ c a j ha hj, bigSep_singleton, payload_f m ρ c a j ha hj]

end Tables

/-! ## What each core owes at launch; the levels -/

/-- What device `c` still owes its neighbours' receive cells from chunk `k` on: the first copies' credit to `X c`,
    the second copies' to `Y c`. -/
def Ox (c : Dev nD) (k : Nat) : CellTallies nD τ sig Unit := ∑ j ∈ Finset.Ico k 32, tallyAt (fcell (xnb c) 1 j) () Nx
def Oy (c : Dev nD) (k : Nat) : CellTallies nD τ sig Unit := ∑ j ∈ Finset.Ico k 32, tallyAt (fcell (ynb c) 3 j) () No

/-- At launch: all 64 copies' credit and one unit to each neighbour's entry cell — summed so that the first signal
    (to `X c`) peels the last summand, the second (to `Y c`) the one before. -/
def O₁ (c : Dev nD) : CellTallies nD τ sig Unit := Oy c 0 + Ox c 0
def O₀ (c : Dev nD) : CellTallies nD τ sig Unit := O₁ c + tallyAt (barCell (ynb c)) () 1 + tallyAt (barCell (xnb c)) () 1

theorem Ico_peel (k n : Nat) (hk : k < n) : Finset.Ico k n = insert k (Finset.Ico (k + 1) n) := by
  ext x; simp only [Finset.mem_Ico, Finset.mem_insert]; omega
theorem not_mem_Ico_succ (k n : Nat) : k ∉ Finset.Ico (k + 1) n := by
  simp only [Finset.mem_Ico]; omega
theorem range_peel (k : Nat) : Finset.range (k + 1) = insert k (Finset.range k) := Finset.range_add_one
theorem not_mem_range_self' (k : Nat) : k ∉ Finset.range k := Finset.notMem_range_self

theorem Ox_succ (c : Dev nD) (k : Nat) (hk : k < 32) : Ox c k = Ox c (k + 1) + tallyAt (fcell (xnb c) 1 k) () Nx := by
  unfold Ox; rw [Ico_peel k 32 hk, Finset.sum_insert (not_mem_Ico_succ k 32), add_comm]
theorem Oy_succ (c : Dev nD) (k : Nat) (hk : k < 32) : Oy c k = Oy c (k + 1) + tallyAt (fcell (ynb c) 3 k) () No := by
  unfold Oy; rw [Ico_peel k 32 hk, Finset.sum_insert (not_mem_Ico_succ k 32), add_comm]
theorem Ox_end (c : Dev nD) : Ox c 32 = 0 := by unfold Ox; rw [Finset.Ico_self, Finset.sum_empty]
theorem Oy_end (c : Dev nD) : Oy c 32 = 0 := by unfold Oy; rw [Finset.Ico_self, Finset.sum_empty]

def L (g : GSem nD τ sig) : Finset Unit := if g.1.2 = .tc then {()} else ∅
/-- Entry cells at 1, the first copies' receive cells at 2, the second copies' at 3, everything else (the staging
    semaphores, the send cells) at 0. -/
def lvS : SemLoc sig → ℕ
  | .reg _ => 1
  | .dma i => if 34 ≤ i.val ∧ i.val < 66 then 2 else if 98 ≤ i.val then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_f (c : Dev nD) (a j : Nat) (ha : a < 4) (hj : j < 32) (u : Unit) :
    lv (fcell c a j) u = if a = 1 then 2 else if a = 3 then 3 else 0 := by
  show (if 34 ≤ (fsem a j).val ∧ (fsem a j).val < 66 then 2 else if 98 ≤ (fsem a j).val then 3 else 0) = _
  rw [fsem_val a j ha hj]
  by_cases h1 : a = 1
  · rw [if_pos h1, if_pos (by omega)]
  · rw [if_neg h1, if_neg (by omega)]
    by_cases h3 : a = 3
    · rw [if_pos h3, if_pos (by omega)]
    · rw [if_neg h3, if_neg (by omega)]

/-! ## The cells as the launch indexes them, and what every device knows of all of them -/

/-- A device's cells: its entry cell (`none`) and semaphore `j` of family `a`. -/
abbrev CellIx : Type := Option (Fin 4 × Fin 32)
abbrev csem : CellIx → SemLoc sig
  | none => .reg barS
  | some aj => .dma (fsem aj.1.val aj.2.val)
abbrev kcell (ck : Dev nD × CellIx) : GSem nD τ sig := ((ck.1 : Thread nD τ), csem ck.2)

/-- Every cell's invariant, under the names `K` the launch allocated them at, and that every cell has reached round 0:
    persistent, known to every device. -/
def records (K : Dev nD × CellIx → ℕ) : sProp 𝕄 :=
  iprop((bigSep Finset.univ fun ck : Dev nD × CellIx => cellInv ER (ringRd m ρ) (K ck) (kcell ck))
    ∗ bigSep Finset.univ fun ck : Dev nD × CellIx => reached ER (kcell ck) 0)

instance records_persistent (K : Dev nD × CellIx → ℕ) : BI.Persistent (records m ρ K) := by unfold records; infer_instance

/-- The name of a cell by numbers. -/
def Kf (K : Dev nD × CellIx → ℕ) (c : Dev nD) (a j : Nat) : ℕ :=
  if h : a < 4 ∧ j < 32 then K (c, some (⟨a, h.1⟩, ⟨j, h.2⟩)) else 0

theorem invs_at (K : Dev nD × CellIx → ℕ) (ck : Dev nD × CellIx) :
    (bigSep Finset.univ fun ck : Dev nD × CellIx => (cellInv ER (ringRd m ρ) (K ck) (kcell ck) : sProp 𝕄)) ⊢ cellInv ER (ringRd m ρ) (K ck) (kcell ck) :=
  bigSep_elim (Finset.mem_univ ck)
theorem reacheds_at (ck : Dev nD × CellIx) :
    (bigSep Finset.univ fun ck : Dev nD × CellIx => (reached ER (kcell ck) 0 : sProp 𝕄)) ⊢ reached ER (kcell ck) 0 :=
  bigSep_elim (Finset.mem_univ ck)

theorem inv_bar (K : Dev nD × CellIx → ℕ) (c : Dev nD) : records m ρ K ⊢ cellInv ER (ringRd m ρ) (K (c, none)) (barCell c) := by
  unfold records; iintro ⟨HI, -⟩
  iapply (invs_at m ρ K (c, none)); iexact HI
theorem inv_f (K : Dev nD × CellIx → ℕ) (c : Dev nD) (a j : Nat) (ha : a < 4) (hj : j < 32) :
    records m ρ K ⊢ cellInv ER (ringRd m ρ) (Kf K c a j) (fcell c a j) := by
  unfold records Kf; rw [dif_pos ⟨ha, hj⟩]
  iintro ⟨HI, -⟩
  iapply (invs_at m ρ K (c, some (⟨a, ha⟩, ⟨j, hj⟩))); iexact HI
theorem reached_bar (K : Dev nD × CellIx → ℕ) (c : Dev nD) : records m ρ K ⊢ reached ER (barCell c) 0 := by
  unfold records; iintro ⟨-, HR⟩
  iapply (reacheds_at (F := F) (c, none)); iexact HR
theorem reached_f (K : Dev nD × CellIx → ℕ) (c : Dev nD) (a j : Nat) (ha : a < 4) (hj : j < 32) :
    records m ρ K ⊢ reached ER (fcell c a j) 0 := by
  unfold records
  iintro ⟨-, HR⟩
  iapply (reacheds_at (F := F) (c, some (⟨a, ha⟩, ⟨j, hj⟩))); iexact HR

/-! ## What a device's body starts from and ends with -/

/-- Over the 32 chunks. -/
abbrev R32 : Finset Nat := Finset.range 32

/-- Device `c`'s linear ghost state at launch: its positions at round 0 of its 129 cells, and the tokens of the duties IT
    pays: the entry duties `false` on `X c` and `true` on `Y c`, its 64 send duties, the 32 receive duties on `X c` and the
    32 on `Y c`. -/
def linear (c : Dev nD) : sProp 𝕄 :=
  iprop(atPos ER (barCell c) 0 ∅ 0
    ∗ (bigSep R32 fun j => atPos ER (fcell c 0 j) 0 ∅ 0) ∗ (bigSep R32 fun j => atPos ER (fcell c 1 j) 0 ∅ 0)
    ∗ (bigSep R32 fun j => atPos ER (fcell c 2 j) 0 ∅ 0) ∗ (bigSep R32 fun j => atPos ER (fcell c 3 j) 0 ∅ 0)
    ∗ dutyTok ER (barCell (xnb c)) 0 false ∗ dutyTok ER (barCell (ynb c)) 0 true
    ∗ (bigSep R32 fun j => dutyTok ER (fcell c 0 j) 0 false) ∗ (bigSep R32 fun j => dutyTok ER (fcell (xnb c) 1 j) 0 false)
    ∗ (bigSep R32 fun j => dutyTok ER (fcell c 2 j) 0 false) ∗ (bigSep R32 fun j => dutyTok ER (fcell (ynb c) 3 j) 0 false))

def ghost (K : Dev nD × CellIx → ℕ) (c : Dev nD) : sProp 𝕄 := iprop(records m ρ K ∗ linear c)

/-- The credit the launch deals device `c`: two units on its entry cell, each landing's credit on its 64 receive cells. -/
def creds (c : Dev nD) : sProp 𝕄 :=
  iprop(cred (tallyAt (barCell c) () 2) ∗ (bigSep R32 fun j => cred (tallyAt (fcell c 1 j) () Nx)) ∗ (bigSep R32 fun j => cred (tallyAt (fcell c 3 j) () No)))

def start (c : Dev nD) : sProp 𝕄 := iprop((∃ K, ghost m ρ K c) ∗ creds c ∗ levAts L lv)

/-- The landing buffer, whole, at some contents. -/
def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ scrAny c)
/-- After the point: the landing buffer back, and the 128 own copy cells closed, their counters at zero. -/
def Φ₁ (c : Dev nD) : sProp 𝕄 :=
  iprop(scrAny c ∗ (bigSep R32 fun j => semVal (fcell c 0 j) 0) ∗ (bigSep R32 fun j => semVal (fcell c 1 j) 0)
    ∗ (bigSep R32 fun j => semVal (fcell c 2 j) 0) ∗ (bigSep R32 fun j => semVal (fcell c 3 j) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body obligation hands the body on device `c`, and what the body must hand back. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outC m ρ c))

end Cert.KernelProof

end
-- ==== Proof.Kernel.StepsSend.lean ====
/-
  The body's remote steps, each proved once at a symbolic device `c` and a symbolic chunk `j`: a first copy (chunk `j` of
  the input block into the same chunk of `X c`'s landing buffer), a second copy (the piece of chunk `j` in the own column
  half of the result buffer into the same piece of `Y c`'s), a wait on one of the device's own copy cells, and what the
  store of chunk `j` leaves in the result buffer.
-/
import proofs.«900267_g7700000000000268_dist_redx_gaty_m1024_n512_v7x_xy2x2_f32_1_alg».proof.Proof.Kernel.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-- The first copy of chunk `j`: the lent half share of the source chunk goes with the copy and comes back with the send
    cell's credit; `X c`'s landing chunk, handed over at the entry handshake, is rewritten and goes to `X c` with its
    receive cell's credit. The device pays that credit off what it owes and gets its send cell's credit token. -/
theorem step_xsend (c n : Dev nD) (hn : n = xnb c) (j : Nat) (hj : j < 32) (off : Fin 2 → Nat) (hoff : off = ![32 * j, 0])
    (hb hb' : InbB off) (hs hs' : InbS j)
    {hsc : (rCh off hb' : Memref sig (Dev.tc n : Thread nD τ).2.kind .vmem S32x512 .f32).view.ref.isScScratch = false}
    {hsrc : (xCh off hb : Memref sig .tc .vmem S32x512 .f32).view.WordExact} {hdst : (rCh off hb' : Memref sig .tc .vmem S32x512 .f32).view.WordExact}
    {hsem : DmaTarget.Typed .vmem (.dma (semAt cc0_scratch2 j hs')) (.remote (Dev.tc n : Thread nD τ) (rCh off hb' : Memref sig .tc .vmem S32x512 .f32) (.dma (semAt cc0_scratch1 j hs)) hsc)}
    {α : Type} {Q : α → sProp 𝕄} {k : PUnit → Prog (TpuEff nD τ sig (Elt F) Λ₀ .tc) α}
    (fN : Buf (Elt F) ((rM : Memref sig .tc .vmem S1024x512 .f32).view.loc (xnb c : Thread nD τ)))
    (O : CellTallies nD τ sig Unit) (W : Waits sig Unit) :
    iprop(records m ρ K ∗ sxPay m ρ c j
        ∗ ((rM : Memref sig .tc .vmem S1024x512 .f32).view.loc (xnb c : Thread nD τ) ↦[rowsB j]{fullShare} fN)
        ∗ owes (c : Thread nD τ) (O + tallyAt (fcell (xnb c) 1 j) () Nx) W
        ∗ dutyTok ER (fcell c 0 j) 0 false ∗ dutyTok ER (fcell (xnb c) 1 j) 0 false)
      ⊢ iprop(((cred (tallyAt (fcell c 0 j) () Nx) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xCh off hb) (.remote (Dev.tc n : Thread nD τ) (rCh off hb') (.dma (semAt cc0_scratch1 j hs)) hsc) (.dma (semAt cc0_scratch2 j hs')) hsrc hdst hsem) k) Q) := by
  subst hn
  subst hoff
  -- the two semaphores by number: the cells are the send cell (family 0) of `c` and the receive cell (family 1) of `X c`
  generalize h1 : semAt cc0_scratch1 j hs = s1 at hsem ⊢
  generalize h2 : semAt cc0_scratch2 j hs' = s2 at hsem ⊢
  rw [semAt1 j hs hj] at h1
  rw [semAt2 j hs' hj] at h2
  subst h1
  subst h2
  have core := Rounds.wp_send_pointsTo 𝒱₀ ER (ringRd m ρ) (c : Thread nD τ) none
    (κ₁ := Kf K c 0 j) (κ₂ := Kf K (xnb c) 1 j) (c' := (xnb c : Thread nD τ))
    (src := xCh ![32 * j, 0] hb) (dst := rCh ![32 * j, 0] hb') (hsc := hsc) (hsrc := hsrc) (hdst := hdst) (hsem := hsem)
    (k := k) (Q := Q) (q := qL) (fs := xstg m ρ c) (fd := fN)
    (r₁ := 0) (r₂ := 0) (d₁ := false) (d₂ := false)
    (by rw [duties_f m ρ c 0 j (by decide) hj]; exact Finset.mem_singleton_self _)
    (by rw [duties_f m ρ (xnb c) 1 j (by decide) hj]; exact Finset.mem_singleton_self _)
    () () Nx (rCh_amount _ hb' _)
    (amount_f m ρ c 0 j (by decide) hj false) (amount_f m ρ (xnb c) 1 j (by decide) hj false)
    O rfl (W := W) (Es := Set.univ) (defs := defs₀ (F := F)) (Γ := .empty)
    (by
      rw [payload_f m ρ c 0 j (by decide) hj false]
      unfold famPay
      rw [if_pos rfl]
      unfold sxPay
      rw [xCh_set j _ hb rfl])
    (by
      rw [payload_f m ρ (xnb c) 1 j (by decide) hj false]
      unfold famPay
      rw [if_neg (by decide), if_pos rfl]
      unfold rxPay
      -- `X (X c) = c`; on the chunk's rows the landing buffer now holds `c`'s block, off them the contents do not matter
      rw [xnb_xnb, pointsTo_congr (fun i hi => xcopy_val _ hb' fN (xstg m ρ c) i hi), rCh_set j _ hb' rfl])
  rw [xCh_set j _ hb rfl, rCh_set j _ hb' rfl] at core
  iintro ⟨#Hrec, Hsx, Hd, Ho, Ht1, Ht2⟩
  iapply core
  isplitr
  · iapply (inv_f m ρ K c 0 j (by decide) hj); iexact Hrec
  isplitr
  · iapply (inv_f m ρ K (xnb c) 1 j (by decide) hj); iexact Hrec
  isplitl [Hsx]
  · unfold sxPay; iexact Hsx
  isplitl [Hd]
  · iexact Hd
  isplitl [Ho]
  · iexact Ho
  isplitl [Ht1]
  · iexact Ht1
  isplitr
  · iapply (reached_f m ρ K c 0 j (by decide) hj); iexact Hrec
  isplitl [Ht2]
  · iexact Ht2
  iapply (reached_f m ρ K (xnb c) 1 j (by decide) hj); iexact Hrec

/-- On its own column half a device's result entry is made on the device itself. -/
theorem maker_own (c : Dev nD) (i : S1024x1024.Idx) (hi : (i 1).val / 512 = cy c) : Cert.Spec.maker c i = c := by
  unfold Cert.Spec.maker
  exact if_pos hi

/-- The device across the second axis has `c`'s column half made on `c`. -/
theorem maker_ynb (c : Dev nD) (i : S1024x1024.Idx) (hi : (i 1).val / 512 = cy c) : Cert.Spec.maker (ynb c) i = c := by
  have h1 : cy (ynb c) = 1 - cy c := cy_ynb c
  have h2 : cy c < 2 := cy_lt c
  have hne : ¬ (i 1).val / 512 = cy (ynb c) := by omega
  unfold Cert.Spec.maker
  exact (if_neg hne).trans (ynb_ynb c)

/-- On `c`'s column half the results of `c` and of the device across the second axis are the same entry. -/
theorem outC_ynb (c : Dev nD) (i : S1024x1024.Idx) (hi : (i 1).val / 512 = cy c) : outC m ρ (ynb c) i = outC m ρ c i := by
  unfold outC
  rw [Cert.Spec.outAt_apply, Cert.Spec.outAt_apply, maker_own c i hi, maker_ynb c i hi]

/-- The second copy of chunk `j`: the stored piece (own column half) goes whole with the copy and comes back with the send
    cell's credit; the same piece of `Y c`'s result buffer, handed over at the entry handshake, is rewritten and goes to
    `Y c` with its receive cell's credit. -/
theorem step_ysend (c n : Dev nD) (hn : n = ynb c) (j : Nat) (hj : j < 32) (off : Fin 2 → Nat) (hoff : off = ![32 * j, 512 * cy c])
    (hb hb' : InbO off) (hs hs' : InbS j)
    {hsc : (oCh off hb' : Memref sig (Dev.tc n : Thread nD τ).2.kind .vmem S32x512 .f32).view.ref.isScScratch = false}
    {hsrc : (oCh off hb : Memref sig .tc .vmem S32x512 .f32).view.WordExact} {hdst : (oCh off hb' : Memref sig .tc .vmem S32x512 .f32).view.WordExact}
    {hsem : DmaTarget.Typed .vmem (.dma (semAt cc0_scratch4 j hs')) (.remote (Dev.tc n : Thread nD τ) (oCh off hb' : Memref sig .tc .vmem S32x512 .f32) (.dma (semAt cc0_scratch3 j hs)) hsc)}
    {α : Type} {Q : α → sProp 𝕄} {k : PUnit → Prog (TpuEff nD τ sig (Elt F) Λ₀ .tc) α}
    (fN : Buf (Elt F) ((oM : Memref sig .tc .vmem S1024x1024 .f32).view.loc (ynb c : Thread nD τ)))
    (O : CellTallies nD τ sig Unit) (W : Waits sig Unit) :
    iprop(records m ρ K ∗ syPay m ρ c j
        ∗ ((oM : Memref sig .tc .vmem S1024x1024 .f32).view.loc (ynb c : Thread nD τ) ↦[blkO j (cy c)]{fullShare} fN)
        ∗ owes (c : Thread nD τ) (O + tallyAt (fcell (ynb c) 3 j) () No) W
        ∗ dutyTok ER (fcell c 2 j) 0 false ∗ dutyTok ER (fcell (ynb c) 3 j) 0 false)
      ⊢ iprop(((cred (tallyAt (fcell c 2 j) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oCh off hb) (.remote (Dev.tc n : Thread nD τ) (oCh off hb') (.dma (semAt cc0_scratch3 j hs)) hsc) (.dma (semAt cc0_scratch4 j hs')) hsrc hdst hsem) k) Q) := by
  subst hn
  subst hoff
  -- the two semaphores by number: the send cell (family 2) of `c` and the receive cell (family 3) of `Y c`
  generalize h1 : semAt cc0_scratch3 j hs = s1 at hsem ⊢
  generalize h2 : semAt cc0_scratch4 j hs' = s2 at hsem ⊢
  rw [semAt3 j hs hj] at h1
  rw [semAt4 j hs' hj] at h2
  subst h1
  subst h2
  -- the column half `Y c` receives is `c`'s own
  have hcy : 1 - cy (ynb c) = cy c := by
    have h1 : cy (ynb c) = 1 - cy c := cy_ynb c
    have h2 : cy c < 2 := cy_lt c
    omega
  have core := Rounds.wp_send_pointsTo 𝒱₀ ER (ringRd m ρ) (c : Thread nD τ) none
    (κ₁ := Kf K c 2 j) (κ₂ := Kf K (ynb c) 3 j) (c' := (ynb c : Thread nD τ))
    (src := oCh ![32 * j, 512 * cy c] hb) (dst := oCh ![32 * j, 512 * cy c] hb') (hsc := hsc) (hsrc := hsrc) (hdst := hdst) (hsem := hsem)
    (k := k) (Q := Q) (q := fullShare) (fs := outC m ρ c) (fd := fN)
    (r₁ := 0) (r₂ := 0) (d₁ := false) (d₂ := false)
    (by rw [duties_f m ρ c 2 j (by decide) hj]; exact Finset.mem_singleton_self _)
    (by rw [duties_f m ρ (ynb c) 3 j (by decide) hj]; exact Finset.mem_singleton_self _)
    () () No (oCh_amount _ hb' _)
    (amount_f m ρ c 2 j (by decide) hj false) (amount_f m ρ (ynb c) 3 j (by decide) hj false)
    O rfl (W := W) (Es := Set.univ) (defs := defs₀ (F := F)) (Γ := .empty)
    (by
      rw [payload_f m ρ c 2 j (by decide) hj false]
      unfold famPay
      rw [if_neg (by decide), if_neg (by decide), if_pos rfl]
      unfold syPay
      rw [oCh_set j (cy c) _ hb rfl])
    (by
      rw [payload_f m ρ (ynb c) 3 j (by decide) hj false]
      unfold famPay
      rw [if_neg (by decide), if_neg (by decide), if_neg (by decide)]
      unfold ryPay
      -- on the piece the copy lands `c`'s result, which there is `Y c`'s result too
      rw [hcy, pointsTo_congr (g := outC m ρ (ynb c)) (fun i hi =>
        (ycopy_val _ hb' fN (outC m ρ c) i hi).trans
          (outC_ynb m ρ c i (mem_blkO.mp ((oCh_set j (cy c) _ hb' rfl) ▸ hi)).2).symm), oCh_set j (cy c) _ hb' rfl])
  rw [oCh_set j (cy c) _ hb rfl] at core
  iintro ⟨#Hrec, Hsy, Hd, Ho, Ht1, Ht2⟩
  iapply core
  isplitr
  · iapply (inv_f m ρ K c 2 j (by decide) hj); iexact Hrec
  isplitr
  · iapply (inv_f m ρ K (ynb c) 3 j (by decide) hj); iexact Hrec
  isplitl [Hsy]
  · unfold syPay; iexact Hsy
  isplitl [Hd]
  · iexact Hd
  isplitl [Ho]
  · iexact Ho
  isplitl [Ht1]
  · iexact Ht1
  isplitr
  · iapply (reached_f m ρ K c 2 j (by decide) hj); iexact Hrec
  isplitl [Ht2]
  · iexact Ht2
  iapply (reached_f m ρ K (ynb c) 3 j (by decide) hj); iexact Hrec

end Cert.KernelProof

end
-- ==== Proof.Kernel.StepsWait.lean ====
/-
  The body's remote steps, each proved once at a symbolic device `c` and a symbolic chunk `j`: a first copy (chunk `j` of
  the input block into the same chunk of `X c`'s landing buffer), a second copy (the piece of chunk `j` in the own column
  half of the result buffer into the same piece of `Y c`'s), a wait on one of the device's own copy cells, and what the
  store of chunk `j` leaves in the result buffer.
-/
import proofs.«900267_g7700000000000268_dist_redx_gaty_m1024_n512_v7x_xy2x2_f32_1_alg».proof.Proof.Kernel.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-- A wait on the device's own copy cell `j` of family `a`, for the whole of its one round: the cell's payload comes
    back, the wait is recorded, and the cell, all its rounds done, is closed: its counter at zero is the device's again. -/
theorem step_fwait (c : Dev nD) (a j : Nat) (ha : a < 4) (hj : j < 32) (s : DmaSem sig) (hs : s = fsem a j)
    {sp sp' : Space} {sh sh' : Shape} {e e' : EltTy}
    {src : Memref sig .tc sp' sh' e'} {κ' : Kind} {dst : Memref sig κ' sp sh e} {hsrc : src.view.WordExact} {hdst : dst.view.WordExact}
    (hamt : dst.view.dmaCredit = famAmt a)
    {α : Type} {Q : α → sProp 𝕄} {k : PUnit → Prog (TpuEff nD τ sig (Elt F) Λ₀ .tc) α}
    (O : CellTallies nD τ sig Unit) (W : Waits sig Unit) :
    iprop(records m ρ K ∗ cred (tallyAt (fcell c a j) () (famAmt a)) ∗ owes (c : Thread nD τ) O W
        ∗ MayWait (c : Thread nD τ) (.dma (fsem a j)) () O ∗ atPos ER (fcell c a j) 0 ∅ 0)
      ⊢ iprop(((owes (c : Thread nD τ) O (insert (SemLoc.dma (fsem a j), ()) W) ∗ semVal (fcell c a j) 0 ∗ famPay m ρ c a j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  iintro ⟨#Hrec, Hc, HO, HMW, Hat⟩ Hk
  iapply (Rounds.wp_wait_rest_token 𝒱₀ ER (ringRd m ρ) (c : Thread nD τ) none (κ := Kf K c a j)
      (wpE_waitDma2_eq 𝒱₀ (c : Thread nD τ) none Set.univ) (Set.mem_univ _) () (O := O) (W := W) (R := 0) (m := 0) (T := ∅)
      (by rw [Nat.zero_add, expect_f m ρ c a j ha hj]; exact hamt)) $$ [Hc HO HMW Hat]
  · isplitr; · iapply (inv_f m ρ K c a j ha hj); iexact Hrec
    isplitl [Hc]; · rw [hamt]; iexact Hc
    isplitl [HO]; · iexact HO
    isplitl [HMW]; · iexact HMW
    iexact Hat
  iintro ⟨HO, Hat, -, Hpay⟩
  ihave Hp := (Entails.of_eq (rest_f m ρ c a j ha hj)) $$ Hpay
  imod (Rounds.cell_close ER (ringRd m ρ) (Set.mem_univ (Kf K c a j)) (fun h => h) (R := 0 + 1) (duties_later m ρ (fcell c a j))) $$ [Hat] with Hz
  · isplitr; · iapply (inv_f m ρ K c a j ha hj); iexact Hrec
    iexact Hat
  iapply Hk
  isplitl [HO]; · iexact HO
  isplitl [Hz]; · iexact Hz
  iexact Hp

/-- What the store of chunk `j` leaves: own chunk + landed chunk, at the own column half — on that piece, what the
    device's result buffer is to hold. `pay` is the body's sum of two loaded vectors, whichever printed payload it is. -/
theorem stored_piece (c : Dev nD) (j : Nat) (hj : j < 32) (offx : Fin 2 → Nat) (hx : InbB offx) (offo : Fin 2 → Nat) (ho : InbO offo)
    (hoffx : offx = ![32 * j, 0]) (hoffo : offo = ![32 * j, 512 * cy c])
    (fo : (cc0_stg1_0 : Ref sig .tc).ty.Contents (Elt F))
    (pay : Vec F S32x512 .f32 → Vec F S32x512 .f32 → FVec F S32x512 .f32)
    (hpay : ∀ a b y, pay a b y = FloatOps.addf (a y) (b y)) (q : PosShare TreeShare) :
    ((oM : Memref sig .tc .vmem S1024x1024 .f32).view.loc (c : Thread nD τ) ↦[blkO j (cy c)]{q}
        ((oM.access (Rect.unit (s := S1024x1024) offo S32x512.size ho) : View sig .tc _ _ _).write (Elt F) fo
          (pay ((xM : Memref sig .tc .vmem S1024x512 .f32).view.readAt (Elt F) (Rect.unit (s := S1024x512) offx S32x512.size hx).toLoadRect (xstg m ρ c))
               ((rM : Memref sig .tc .vmem S1024x512 .f32).view.readAt (Elt F) (Rect.unit (s := S1024x512) offx S32x512.size hx).toLoadRect (xstg m ρ (xnb c)))) Finset.univ) : sProp 𝕄)
      = ((oM : Memref sig .tc .vmem S1024x1024 .f32).view.loc (c : Thread nD τ) ↦[blkO j (cy c)]{q} outC m ρ c) := by
  refine pointsTo_congr (fun i hi => ?_)
  have h1 : (i 1).val / 512 = c.val % 2 := (mem_blkO.mp hi).2
  rw [store_val j (cy c) offx hx offo ho hoffx hoffo (xstg m ρ c) (xstg m ρ (xnb c)) fo pay hpay i hi]
  show _ = Cert.Spec.outAt (fun d => xstg m ρ d) c i
  rw [Cert.Spec.outAt_apply, show Cert.Spec.maker c i = c from if_pos h1]
  rfl

end Cert.KernelProof

end
-- ==== Proof.Kernel.Fam.lean ====
/-
  Bookkeeping over the 32 chunks: a family of per-chunk resources held as one separating conjunction over the chunks
  still to come (`Finset.Ico k 32`) or already done (`Finset.range k`), one chunk taken off or put on at a time; and the
  three buffers cut into their chunks and put together again.
-/
import proofs.«900267_g7700000000000268_dist_redx_gaty_m1024_n512_v7x_xy2x2_f32_1_alg».proof.Proof.Kernel.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over the chunks -/

/-- The chunks from `k` on: chunk `k` and the rest. -/
theorem ico_peel (Φ : Nat → sProp 𝕄) (k : Nat) (hk : k < 32) :
    bigSep (Finset.Ico k 32) Φ = iprop(Φ k ∗ bigSep (Finset.Ico (k + 1) 32) Φ) := by
  rw [Ico_peel k 32 hk, bigSep_insert (not_mem_Ico_succ k 32)]
  rfl
/-- The chunks below `k` and chunk `k`: the chunks below `k + 1`. -/
theorem rng_push (Φ : Nat → sProp 𝕄) (k : Nat) :
    bigSep (Finset.range (k + 1)) Φ = iprop(Φ k ∗ bigSep (Finset.range k) Φ) := by
  rw [range_peel k, bigSep_insert (not_mem_range_self' k)]
  rfl
theorem ico_end (Φ : Nat → sProp 𝕄) : bigSep (Finset.Ico 32 32) Φ = iprop(emp) := by
  rw [Finset.Ico_self, bigSep_empty]
  rfl
theorem rng_zero (Φ : Nat → sProp 𝕄) : bigSep (Finset.range 0) Φ = iprop(emp) := by
  rw [Finset.range_zero, bigSep_empty]
  rfl
theorem ico_zero (Φ : Nat → sProp 𝕄) : bigSep (Finset.Ico 0 32) Φ = bigSep R32 Φ := by
  rw [← Finset.range_eq_Ico]

/-! ## The buffers cut into chunks -/

/-- A points-to moves along an equality of its element sets. -/
theorem pt_congr {ℓ : Loc nD τ sig} {A B : Finset (Idx ℓ)} (e : A = B) (q : PosShare TreeShare) (f : Buf (Elt F) ℓ) :
    ((ℓ ↦[A]{q} f) : sProp 𝕄) = (ℓ ↦[B]{q} f) := by
  subst e; rfl
/-- An equivalence moves along an equality of its left side. -/
theorem equiv_of_eq_left {P P' Q : sProp 𝕄} (e : P = P') (h : P' ⊣⊢ Q) : P ⊣⊢ Q := by
  subst e; exact h

variable (c : Dev nD)

/-- A whole buffer's points-to is the points-to on all its elements. -/
theorem whole_x (q : PosShare TreeShare) (f : Buf (Elt F) ((c : Thread nD τ).loc cc0_stg0_0)) :
    ((((c : Thread nD τ).loc cc0_stg0_0) ↦{q} f) : sProp 𝕄)
      = ((xM : Memref sig .tc .vmem S1024x512 .f32).view.loc (c : Thread nD τ) ↦[(Finset.univ : Finset S1024x512.Idx)]{q} f) := by
  rfl
theorem whole_r (q : PosShare TreeShare) (f : Buf (Elt F) ((c : Thread nD τ).loc cc0_scratch0)) :
    ((((c : Thread nD τ).loc cc0_scratch0) ↦{q} f) : sProp 𝕄)
      = ((rM : Memref sig .tc .vmem S1024x512 .f32).view.loc (c : Thread nD τ) ↦[(Finset.univ : Finset S1024x512.Idx)]{q} f) := by
  rfl
theorem whole_o (q : PosShare TreeShare) (f : Buf (Elt F) ((c : Thread nD τ).loc cc0_stg1_0)) :
    ((((c : Thread nD τ).loc cc0_stg1_0) ↦{q} f) : sProp 𝕄)
      = ((oM : Memref sig .tc .vmem S1024x1024 .f32).view.loc (c : Thread nD τ) ↦[(Finset.univ : Finset S1024x1024.Idx)]{q} f) := by
  rfl

/-- The full share is its two halves. -/
theorem share_x (S : Finset S1024x512.Idx) (f : Buf (Elt F) ((c : Thread nD τ).loc cc0_stg0_0)) :
    (((xM : Memref sig .tc .vmem S1024x512 .f32).view.loc (c : Thread nD τ) ↦[S]{fullShare} f) : sProp 𝕄)
      ⊣⊢ iprop(((xM : Memref sig .tc .vmem S1024x512 .f32).view.loc (c : Thread nD τ) ↦[S]{qL} f)
          ∗ ((xM : Memref sig .tc .vmem S1024x512 .f32).view.loc (c : Thread nD τ) ↦[S]{qR} f)) := by
  exact pointsTo_share (PosShare.mem_left_op_right fullShare)

/-- A [1024, 512] buffer, at any share and contents, is its 32 chunks. -/
theorem rows_x (q : PosShare TreeShare) (f : Buf (Elt F) ((c : Thread nD τ).loc cc0_stg0_0)) :
    (((xM : Memref sig .tc .vmem S1024x512 .f32).view.loc (c : Thread nD τ) ↦[(Finset.univ : Finset S1024x512.Idx)]{q} f) : sProp 𝕄)
      = bigSep R32 fun j => ((xM : Memref sig .tc .vmem S1024x512 .f32).view.loc (c : Thread nD τ) ↦[rowsB j]{q} f) :=
  (pt_congr (ℓ := (xM : Memref sig .tc .vmem S1024x512 .f32).view.loc (c : Thread nD τ)) univ_eq_rowsB q f).trans
    (pointsTo_biUnion (ℓ := (xM : Memref sig .tc .vmem S1024x512 .f32).view.loc (c : Thread nD τ)) (q := q) (f := f)
      (Finset.range 32) rowsB fun t _ t' _ h => rowsB_disjoint t t' h)
theorem rows_r (q : PosShare TreeShare) (f : Buf (Elt F) ((c : Thread nD τ).loc cc0_scratch0)) :
    (((rM : Memref sig .tc .vmem S1024x512 .f32).view.loc (c : Thread nD τ) ↦[(Finset.univ : Finset S1024x512.Idx)]{q} f) : sProp 𝕄)
      = bigSep R32 fun j => ((rM : Memref sig .tc .vmem S1024x512 .f32).view.loc (c : Thread nD τ) ↦[rowsB j]{q} f) :=
  (pt_congr (ℓ := (rM : Memref sig .tc .vmem S1024x512 .f32).view.loc (c : Thread nD τ)) univ_eq_rowsB q f).trans
    (pointsTo_biUnion (ℓ := (rM : Memref sig .tc .vmem S1024x512 .f32).view.loc (c : Thread nD τ)) (q := q) (f := f)
      (Finset.range 32) rowsB fun t _ t' _ h => rowsB_disjoint t t' h)
/-- A column half of the result buffer is its 32 pieces. -/
theorem col_o (p : Nat) (q : PosShare TreeShare) (f : Buf (Elt F) ((c : Thread nD τ).loc cc0_stg1_0)) :
    (((oM : Memref sig .tc .vmem S1024x1024 .f32).view.loc (c : Thread nD τ) ↦[colO p]{q} f) : sProp 𝕄)
      = bigSep R32 fun j => ((oM : Memref sig .tc .vmem S1024x1024 .f32).view.loc (c : Thread nD τ) ↦[blkO j p]{q} f) :=
  (pt_congr (ℓ := (oM : Memref sig .tc .vmem S1024x1024 .f32).view.loc (c : Thread nD τ)) (colO_eq p) q f).trans
    (pointsTo_biUnion (ℓ := (oM : Memref sig .tc .vmem S1024x1024 .f32).view.loc (c : Thread nD τ)) (q := q) (f := f)
      (Finset.range 32) (fun j => blkO j p) fun t _ t' _ h => blkO_disjoint p t t' h)
/-- The result buffer is its two column halves. -/
theorem halves_o (p : Nat) (hp : p < 2) (q : PosShare TreeShare) (f : Buf (Elt F) ((c : Thread nD τ).loc cc0_stg1_0)) :
    (((oM : Memref sig .tc .vmem S1024x1024 .f32).view.loc (c : Thread nD τ) ↦[(Finset.univ : Finset S1024x1024.Idx)]{q} f) : sProp 𝕄)
      ⊣⊢ iprop(((oM : Memref sig .tc .vmem S1024x1024 .f32).view.loc (c : Thread nD τ) ↦[colO p]{q} f)
          ∗ ((oM : Memref sig .tc .vmem S1024x1024 .f32).view.loc (c : Thread nD τ) ↦[colO (1 - p)]{q} f)) := by
  have e01 := pt_congr (ℓ := (oM : Memref sig .tc .vmem S1024x1024 .f32).view.loc (c : Thread nD τ)) univ_eq_colO q f
  have e10 := pt_congr (ℓ := (oM : Memref sig .tc .vmem S1024x1024 .f32).view.loc (c : Thread nD τ))
    (univ_eq_colO.trans (Finset.union_comm _ _)) q f
  have u01 : (((oM : Memref sig .tc .vmem S1024x1024 .f32).view.loc (c : Thread nD τ) ↦[colO 0 ∪ colO 1]{q} f) : sProp 𝕄)
      ⊣⊢ iprop(((oM : Memref sig .tc .vmem S1024x1024 .f32).view.loc (c : Thread nD τ) ↦[colO 0]{q} f)
          ∗ ((oM : Memref sig .tc .vmem S1024x1024 .f32).view.loc (c : Thread nD τ) ↦[colO 1]{q} f)) :=
    pointsTo_union colO_disjoint
  have u10 : (((oM : Memref sig .tc .vmem S1024x1024 .f32).view.loc (c : Thread nD τ) ↦[colO 1 ∪ colO 0]{q} f) : sProp 𝕄)
      ⊣⊢ iprop(((oM : Memref sig .tc .vmem S1024x1024 .f32).view.loc (c : Thread nD τ) ↦[colO 1]{q} f)
          ∗ ((oM : Memref sig .tc .vmem S1024x1024 .f32).view.loc (c : Thread nD τ) ↦[colO 0]{q} f)) :=
    pointsTo_union colO_disjoint.symm
  match p, hp with
  | 0, _ => exact equiv_of_eq_left e01 u01
  | 1, _ => exact equiv_of_eq_left e10 u10

/-! ## What the loads and the store go through -/

/-- A load of chunk `j` from a [1024, 512] buffer reads inside the chunk's rows; -/
theorem load_sub_x (j : Nat) (off : Fin 2 → Nat) (h : InbB off) (hoff : off = ![32 * j, 0]) :
    (xM : Memref sig .tc .vmem S1024x512 .f32).view.setOn (Rect.unit (s := S1024x512) off S32x512.size h).toLoadRect.set ⊆ rowsB j := by
  subst hoff
  intro i hi
  obtain ⟨x, hx, rfl⟩ := Finset.mem_map.mp hi
  rw [unit_set_rows j h] at hx
  exact hx
theorem load_sub_r (j : Nat) (off : Fin 2 → Nat) (h : InbB off) (hoff : off = ![32 * j, 0]) :
    (rM : Memref sig .tc .vmem S1024x512 .f32).view.setOn (Rect.unit (s := S1024x512) off S32x512.size h).toLoadRect.set ⊆ rowsB j := by
  subst hoff
  intro i hi
  obtain ⟨x, hx, rfl⟩ := Finset.mem_map.mp hi
  rw [unit_set_rows j h] at hx
  exact hx
/-- a load or store of piece (`j`, `p`) of the result buffer goes through exactly that piece. -/
theorem load_sub_o (j p : Nat) (off : Fin 2 → Nat) (h : InbO off) (hoff : off = ![32 * j, 512 * p]) :
    (oM : Memref sig .tc .vmem S1024x1024 .f32).view.setOn (Rect.unit (s := S1024x1024) off S32x512.size h).toLoadRect.set ⊆ blkO j p := by
  subst hoff
  intro i hi
  obtain ⟨x, hx, rfl⟩ := Finset.mem_map.mp hi
  rw [unit_set_blk j p h] at hx
  exact hx
theorem store_set_o (j p : Nat) (off : Fin 2 → Nat) (h : InbO off) (hoff : off = ![32 * j, 512 * p]) :
    ((oM : Memref sig .tc .vmem S1024x1024 .f32).access (Rect.unit (s := S1024x1024) off S32x512.size h) : View sig .tc _ _ _).set = blkO j p := by
  exact oCh_set j p off h hoff
/-- Stored through the whole mask, the piece's view goes through exactly that piece. -/
theorem store_sub_o (j p : Nat) (off : Fin 2 → Nat) (h : InbO off) (hoff : off = ![32 * j, 512 * p]) :
    ((oM : Memref sig .tc .vmem S1024x1024 .f32).access (Rect.unit (s := S1024x1024) off S32x512.size h) : View sig .tc _ _ _).setOn Finset.univ ⊆ blkO j p := by
  intro i hi
  rw [← store_set_o j p off h hoff]
  exact hi

end Cert.KernelProof

end
-- ==== Proof.Kernel.FamSteps.lean ====
/-
  The body's steps at the level of the 32-chunk families: each takes chunk `k`'s resources off the families still to
  come, makes the step, and puts what comes back on the families already done.
-/
import proofs.«900267_g7700000000000268_dist_redx_gaty_m1024_n512_v7x_xy2x2_f32_1_alg».proof.Proof.Kernel.StepsSend
import proofs.«900267_g7700000000000268_dist_redx_gaty_m1024_n512_v7x_xy2x2_f32_1_alg».proof.Proof.Kernel.StepsWait
import proofs.«900267_g7700000000000268_dist_redx_gaty_m1024_n512_v7x_xy2x2_f32_1_alg».proof.Proof.Kernel.Fam

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-- What the device owes, its recorded waits not named. -/
def owesE (c : Dev nD) (O : CellTallies nD τ sig Unit) : sProp 𝕄 := iprop(∃ W, owes (c : Thread nD τ) O W)

theorem famAmt_0 : famAmt 0 = Nx := rfl
theorem famAmt_1 : famAmt 1 = Nx := rfl
theorem famAmt_2 : famAmt 2 = No := rfl
theorem famAmt_3 : famAmt 3 = No := rfl

/-! ## The first copies -/

/-- Before the first copy of chunk `k`: the lent shares of the source chunks and `X c`'s landing chunks still to go, the
    tokens of the two duties of each copy still to make, and the send cells' credit of the copies made. -/
def XS (c : Dev nD) (fN : Buf (Elt F) ((rM : Memref sig .tc .vmem S1024x512 .f32).view.loc (xnb c : Thread nD τ))) (k : Nat) : sProp 𝕄 :=
  iprop(bigSep (Finset.Ico k 32) (fun j => sxPay m ρ c j)
    ∗ bigSep (Finset.Ico k 32) (fun j => ((rM : Memref sig .tc .vmem S1024x512 .f32).view.loc (xnb c : Thread nD τ) ↦[rowsB j]{fullShare} fN))
    ∗ bigSep (Finset.Ico k 32) (fun j => dutyTok ER (fcell c 0 j) 0 false)
    ∗ bigSep (Finset.Ico k 32) (fun j => dutyTok ER (fcell (xnb c) 1 j) 0 false)
    ∗ bigSep (Finset.range k) (fun j => cred (tallyAt (fcell c 0 j) () (famAmt 0))))

theorem fam_xsend (c n : Dev nD) (hn : n = xnb c) (k : Nat) (hk : k < 32) (off : Fin 2 → Nat) (hoff : off = ![32 * k, 0])
    (hb hb' : InbB off) (hs hs' : InbS k)
    {hsc : (rCh off hb' : Memref sig (Dev.tc n : Thread nD τ).2.kind .vmem S32x512 .f32).view.ref.isScScratch = false}
    {hsrc : (xCh off hb : Memref sig .tc .vmem S32x512 .f32).view.WordExact} {hdst : (rCh off hb' : Memref sig .tc .vmem S32x512 .f32).view.WordExact}
    {hsem : DmaTarget.Typed .vmem (.dma (semAt cc0_scratch2 k hs')) (.remote (Dev.tc n : Thread nD τ) (rCh off hb' : Memref sig .tc .vmem S32x512 .f32) (.dma (semAt cc0_scratch1 k hs)) hsc)}
    {α : Type} {Q : α → sProp 𝕄} {k' : PUnit → Prog (TpuEff nD τ sig (Elt F) Λ₀ .tc) α}
    (fN : Buf (Elt F) ((rM : Memref sig .tc .vmem S1024x512 .f32).view.loc (xnb c : Thread nD τ)))
    (O : CellTallies nD τ sig Unit) :
    iprop(records m ρ K ∗ XS m ρ c fN k ∗ owesE c (O + Ox c k))
      ⊢ iprop(((XS m ρ c fN (k + 1) ∗ owesE c (O + Ox c (k + 1))) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (xCh off hb) (.remote (Dev.tc n : Thread nD τ) (rCh off hb') (.dma (semAt cc0_scratch1 k hs)) hsc) (.dma (semAt cc0_scratch2 k hs')) hsrc hdst hsem) k') Q) := by
  unfold XS owesE
  rw [ico_peel (fun j => sxPay m ρ c j) k hk,
    ico_peel (fun j => ((rM : Memref sig .tc .vmem S1024x512 .f32).view.loc (xnb c : Thread nD τ) ↦[rowsB j]{fullShare} fN)) k hk,
    ico_peel (fun j => (dutyTok ER (fcell c 0 j) 0 false : sProp 𝕄)) k hk, ico_peel (fun j => (dutyTok ER (fcell (xnb c) 1 j) 0 false : sProp 𝕄)) k hk,
    rng_push (fun j => (cred (tallyAt (fcell c 0 j) () (famAmt 0)) : sProp 𝕄)) k, Ox_succ c k hk, ← add_assoc, famAmt_0]
  iintro ⟨#Hrec, ⟨⟨Hsk, Hs⟩, ⟨Hrk, Hr⟩, ⟨Htk, Ht⟩, ⟨Htrk, Htr⟩, Hc⟩, ⟨%W, HO⟩⟩ Hk
  iapply (step_xsend m ρ K c n hn k hk off hoff hb hb' hs hs' fN (O + Ox c (k + 1)) W) $$ [Hsk Hrk Htk Htrk HO]
  · isplitr; · iexact Hrec
    isplitl [Hsk]; · iexact Hsk
    isplitl [Hrk]; · iexact Hrk
    isplitl [HO]; · iexact HO
    isplitl [Htk]; · iexact Htk
    iexact Htrk
  iintro ⟨Hck, HO⟩
  iapply Hk
  isplitr [HO]
  · isplitl [Hs]; · iexact Hs
    isplitl [Hr]; · iexact Hr
    isplitl [Ht]; · iexact Ht
    isplitl [Htr]; · iexact Htr
    isplitl [Hck]; · iexact Hck
    iexact Hc
  · iexists W; iexact HO

/-! ## The second copies -/

/-- Before the second copy of chunk `k`: `Y c`'s pieces still to be written, the tokens of the two duties of each copy
    still to make, and the send cells' credit of the copies made. -/
def YS (c : Dev nD) (fN : Buf (Elt F) ((oM : Memref sig .tc .vmem S1024x1024 .f32).view.loc (ynb c : Thread nD τ))) (k : Nat) : sProp 𝕄 :=
  iprop(bigSep (Finset.Ico k 32) (fun j => ((oM : Memref sig .tc .vmem S1024x1024 .f32).view.loc (ynb c : Thread nD τ) ↦[blkO j (cy c)]{fullShare} fN))
    ∗ bigSep (Finset.Ico k 32) (fun j => dutyTok ER (fcell c 2 j) 0 false)
    ∗ bigSep (Finset.Ico k 32) (fun j => dutyTok ER (fcell (ynb c) 3 j) 0 false)
    ∗ bigSep (Finset.range k) (fun j => cred (tallyAt (fcell c 2 j) () (famAmt 2))))

theorem fam_ysend (c n : Dev nD) (hn : n = ynb c) (k : Nat) (hk : k < 32) (off : Fin 2 → Nat) (hoff : off = ![32 * k, 512 * cy c])
    (hb hb' : InbO off) (hs hs' : InbS k)
    {hsc : (oCh off hb' : Memref sig (Dev.tc n : Thread nD τ).2.kind .vmem S32x512 .f32).view.ref.isScScratch = false}
    {hsrc : (oCh off hb : Memref sig .tc .vmem S32x512 .f32).view.WordExact} {hdst : (oCh off hb' : Memref sig .tc .vmem S32x512 .f32).view.WordExact}
    {hsem : DmaTarget.Typed .vmem (.dma (semAt cc0_scratch4 k hs')) (.remote (Dev.tc n : Thread nD τ) (oCh off hb' : Memref sig .tc .vmem S32x512 .f32) (.dma (semAt cc0_scratch3 k hs)) hsc)}
    {α : Type} {Q : α → sProp 𝕄} {k' : PUnit → Prog (TpuEff nD τ sig (Elt F) Λ₀ .tc) α}
    (fN : Buf (Elt F) ((oM : Memref sig .tc .vmem S1024x1024 .f32).view.loc (ynb c : Thread nD τ))) :
    iprop(records m ρ K ∗ syPay m ρ c k ∗ YS c fN k ∗ owesE c (Oy c k))
      ⊢ iprop(((YS c fN (k + 1) ∗ owesE c (Oy c (k + 1))) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (oCh off hb) (.remote (Dev.tc n : Thread nD τ) (oCh off hb') (.dma (semAt cc0_scratch3 k hs)) hsc) (.dma (semAt cc0_scratch4 k hs')) hsrc hdst hsem) k') Q) := by
  unfold YS owesE
  rw [ico_peel (fun j => ((oM : Memref sig .tc .vmem S1024x1024 .f32).view.loc (ynb c : Thread nD τ) ↦[blkO j (cy c)]{fullShare} fN)) k hk,
    ico_peel (fun j => (dutyTok ER (fcell c 2 j) 0 false : sProp 𝕄)) k hk, ico_peel (fun j => (dutyTok ER (fcell (ynb c) 3 j) 0 false : sProp 𝕄)) k hk,
    rng_push (fun j => (cred (tallyAt (fcell c 2 j) () (famAmt 2)) : sProp 𝕄)) k, Oy_succ c k hk, famAmt_2]
  iintro ⟨#Hrec, Hsrc, ⟨⟨Hrk, Hr⟩, ⟨Htk, Ht⟩, ⟨Htrk, Htr⟩, Hc⟩, ⟨%W, HO⟩⟩ Hk
  iapply (step_ysend m ρ K c n hn k hk off hoff hb hb' hs hs' fN (Oy c (k + 1)) W) $$ [Hsrc Hrk Htk Htrk HO]
  · isplitr; · iexact Hrec
    isplitl [Hsrc]; · iexact Hsrc
    isplitl [Hrk]; · iexact Hrk
    isplitl [HO]; · iexact HO
    isplitl [Htk]; · iexact Htk
    iexact Htrk
  iintro ⟨Hck, HO⟩
  iapply Hk
  isplitr [HO]
  · isplitl [Hr]; · iexact Hr
    isplitl [Ht]; · iexact Ht
    isplitl [Htr]; · iexact Htr
    isplitl [Hck]; · iexact Hck
    iexact Hc
  · iexists W; iexact HO

/-! ## The waits on the device's own copy cells -/

/-- Before the wait on cell `k` of family `a`: the positions and the credit of the cells still to be waited on, and the
    counters at zero of the cells waited on and closed. -/
def WS (c : Dev nD) (a k : Nat) : sProp 𝕄 :=
  iprop(bigSep (Finset.Ico k 32) (fun j => atPos ER (fcell c a j) 0 ∅ 0)
    ∗ bigSep (Finset.Ico k 32) (fun j => cred (tallyAt (fcell c a j) () (famAmt a)))
    ∗ bigSep (Finset.range k) (fun j => semVal (fcell c a j) 0))

theorem fam_wait (c : Dev nD) (a : Nat) (ha : a < 4) (k : Nat) (hk : k < 32) (s : DmaSem sig) (hs : s = fsem a k)
    {sp sp' : Space} {sh sh' : Shape} {e e' : EltTy}
    {src : Memref sig .tc sp' sh' e'} {κ' : Kind} {dst : Memref sig κ' sp sh e} {hsrc : src.view.WordExact} {hdst : dst.view.WordExact}
    (hamt : dst.view.dmaCredit = famAmt a)
    {α : Type} {Q : α → sProp 𝕄} {k' : PUnit → Prog (TpuEff nD τ sig (Elt F) Λ₀ .tc) α}
    (O : CellTallies nD τ sig Unit) :
    iprop(records m ρ K ∗ WS (F := F) c a k ∗ owesE c O ∗ MayWait (c : Thread nD τ) (.dma (fsem a k)) () O)
      ⊢ iprop(((WS (F := F) c a (k + 1) ∗ owesE c O ∗ famPay m ρ c a k)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s src dst hsrc hdst) k') Q) := by
  unfold WS owesE
  rw [ico_peel (fun j => (atPos ER (fcell c a j) 0 ∅ 0 : sProp 𝕄)) k hk, ico_peel (fun j => (cred (tallyAt (fcell c a j) () (famAmt a)) : sProp 𝕄)) k hk,
    rng_push (fun j => (semVal (fcell c a j) 0 : sProp 𝕄)) k]
  iintro ⟨#Hrec, ⟨⟨Hak, Ha⟩, ⟨Hck, Hc⟩, Hz⟩, ⟨%W, HO⟩, Hmw⟩ Hk
  iapply (step_fwait m ρ K c a k ha hk s hs hamt O W) $$ [Hak Hck HO Hmw]
  · isplitr; · iexact Hrec
    isplitl [Hck]; · iexact Hck
    isplitl [HO]; · iexact HO
    isplitl [Hmw]; · iexact Hmw
    iexact Hak
  iintro ⟨HO, Hzk, Hpay⟩
  iapply Hk
  isplitl [Ha Hc Hz Hzk]
  · isplitl [Ha]; · iexact Ha
    isplitl [Hc]; · iexact Hc
    isplitl [Hzk]; · iexact Hzk
    iexact Hz
  isplitl [HO]
  · iexists _; iexact HO
  iexact Hpay

end Cert.KernelProof

end
-- ==== Proof.Kernel.Glue.lean ====
/-
  Getting into and out of the chunk families: what the body is handed, cut into the families its steps work on, and the
  families, all 32 chunks done, put back into what the body must hand back.
-/
import proofs.«900267_g7700000000000268_dist_redx_gaty_m1024_n512_v7x_xy2x2_f32_1_alg».proof.Proof.Kernel.FamSteps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the waits have brought back so far -/

/-- The payloads of cells 0 … k − 1 of family `a`. -/
def DONE (a k : Nat) : sProp 𝕄 := bigSep (Finset.range k) (fun j => famPay m ρ c a j)

theorem done_zero (a : Nat) : (iprop(emp) : sProp 𝕄) ⊢ DONE m ρ c a 0 := by
  unfold DONE
  exact Entails.of_eq (rng_zero _).symm
theorem done_push (a k : Nat) : iprop(famPay m ρ c a k ∗ DONE m ρ c a k) ⊢ DONE m ρ c a (k + 1) := by
  unfold DONE
  exact Entails.of_eq (rng_push (fun j => famPay m ρ c a j) k).symm

/-! ## The own column half of the result buffer, piece by piece -/

/-- The pieces of the own column half not yet stored, at the contents `g` the buffer came with. -/
def OWN (g : Buf (Elt F) ((c : Thread nD τ).loc cc0_stg1_0)) (k : Nat) : sProp 𝕄 :=
  bigSep (Finset.Ico k 32) (fun j => ((oM : Memref sig .tc .vmem S1024x1024 .f32).view.loc (c : Thread nD τ) ↦[blkO j (cy c)]{fullShare} g))

theorem own_peel (g : Buf (Elt F) ((c : Thread nD τ).loc cc0_stg1_0)) (k : Nat) (hk : k < 32) :
    OWN c g k ⊢ iprop(((oM : Memref sig .tc .vmem S1024x1024 .f32).view.loc (c : Thread nD τ) ↦[blkO k (cy c)]{fullShare} g) ∗ OWN c g (k + 1)) := by
  unfold OWN
  exact Entails.of_eq (ico_peel _ k hk)

/-! ## Entry -/

/-- The input staging buffer: the lent half share cut into the 32 chunks the copies take, the kept half whole for the loads. -/
theorem enter_x :
    ((((c : Thread nD τ).loc cc0_stg0_0) ↦{fullShare} xstg m ρ c) : sProp 𝕄)
      ⊢ iprop(bigSep (Finset.Ico 0 32) (fun j => sxPay m ρ c j)
          ∗ ((xM : Memref sig .tc .vmem S1024x512 .f32).view.loc (c : Thread nD τ) ↦[(Finset.univ : Finset S1024x512.Idx)]{qR} xstg m ρ c)) := by
  rw [ico_zero]
  -- the whole buffer at the full share: its two halves; the lent half by chunks
  refine (Entails.of_eq (whole_x c fullShare (xstg m ρ c))).trans
    ((share_x c Finset.univ (xstg m ρ c)).1.trans (sep_mono_left (Entails.of_eq ?_)))
  exact rows_x c qL (xstg m ρ c)

/-- The first copies' state before chunk 0, from `X c`'s whole landing buffer and the tokens. -/
theorem enter_XS (fX : Buf (Elt F) ((rM : Memref sig .tc .vmem S1024x512 .f32).view.loc (xnb c : Thread nD τ))) :
    iprop(bigSep (Finset.Ico 0 32) (fun j => sxPay m ρ c j)
        ∗ ((rM : Memref sig .tc .vmem S1024x512 .f32).view.loc (xnb c : Thread nD τ) ↦[(Finset.univ : Finset S1024x512.Idx)]{fullShare} fX)
        ∗ (bigSep R32 fun j => dutyTok ER (fcell c 0 j) 0 false) ∗ (bigSep R32 fun j => dutyTok ER (fcell (xnb c) 1 j) 0 false))
      ⊢ XS m ρ c fX 0 := by
  unfold XS
  rw [rows_r (xnb c) fullShare fX]
  simp only [ico_zero, rng_zero]
  iintro ⟨H1, H2, H3, H4⟩
  isplitl [H1]; · iexact H1
  isplitl [H2]; · iexact H2
  isplitl [H3]; · iexact H3
  isplitl [H4]; · iexact H4
  iempintro

/-- The result staging buffer: the own column half piece by piece, and the other half whole (to hand to `Y c`). -/
theorem enter_out (g : Buf (Elt F) ((c : Thread nD τ).loc cc0_stg1_0)) :
    ((((c : Thread nD τ).loc cc0_stg1_0) ↦{fullShare} g) : sProp 𝕄)
      ⊢ iprop(OWN c g 0 ∗ ((oM : Memref sig .tc .vmem S1024x1024 .f32).view.loc (c : Thread nD τ) ↦[colO (1 - cy c)]{fullShare} g)) := by
  unfold OWN
  rw [ico_zero]
  -- the whole buffer: its two column halves; the own half by pieces
  refine (Entails.of_eq (whole_o c fullShare g)).trans
    ((halves_o c (cy c) (cy_lt c) fullShare g).1.trans (sep_mono_left (Entails.of_eq ?_)))
  exact col_o c (cy c) fullShare g

/-- The second copies' state before chunk 0, from the half of `Y c`'s result buffer it handed over and the tokens. -/
theorem enter_YS (fY : Buf (Elt F) ((oM : Memref sig .tc .vmem S1024x1024 .f32).view.loc (ynb c : Thread nD τ))) :
    iprop(((oM : Memref sig .tc .vmem S1024x1024 .f32).view.loc (ynb c : Thread nD τ) ↦[colO (cy c)]{fullShare} fY)
        ∗ (bigSep R32 fun j => dutyTok ER (fcell c 2 j) 0 false) ∗ (bigSep R32 fun j => dutyTok ER (fcell (ynb c) 3 j) 0 false))
      ⊢ YS c fY 0 := by
  unfold YS
  rw [col_o (ynb c) (cy c) fullShare fY]
  simp only [ico_zero, rng_zero]
  iintro ⟨H1, H2, H3⟩
  isplitl [H1]; · iexact H1
  isplitl [H2]; · iexact H2
  isplitl [H3]; · iexact H3
  iempintro

/-- The receive cells' wait states before chunk 0, from the positions and the launch credit. -/
theorem enter_WS1 :
    iprop((bigSep R32 fun j => atPos ER (fcell c 1 j) 0 ∅ 0) ∗ (bigSep R32 fun j => cred (tallyAt (fcell c 1 j) () Nx))) ⊢ WS (F := F) c 1 0 := by
  unfold WS
  rw [famAmt_1]
  simp only [ico_zero, rng_zero]
  iintro ⟨H1, H2⟩
  isplitl [H1]; · iexact H1
  isplitl [H2]; · iexact H2
  iempintro
theorem enter_WS3 :
    iprop((bigSep R32 fun j => atPos ER (fcell c 3 j) 0 ∅ 0) ∗ (bigSep R32 fun j => cred (tallyAt (fcell c 3 j) () No))) ⊢ WS (F := F) c 3 0 := by
  unfold WS
  rw [famAmt_3]
  simp only [ico_zero, rng_zero]
  iintro ⟨H1, H2⟩
  isplitl [H1]; · iexact H1
  isplitl [H2]; · iexact H2
  iempintro

/-- What the two entry signals hand over: the device's own landing buffer to `X c`, the other column half of its result
    buffer to `Y c`. -/
theorem scr_to_pay : scrAny (F := F) c ⊢ barPayX (xnb c) := by
  unfold scrAny barPayX
  -- `X (X c) = c`: the payload is the device's own landing buffer, whole, at some contents
  rw [xnb_xnb]
theorem out_to_pay (g : Buf (Elt F) ((c : Thread nD τ).loc cc0_stg1_0)) :
    (((oM : Memref sig .tc .vmem S1024x1024 .f32).view.loc (c : Thread nD τ) ↦[colO (1 - cy c)]{fullShare} g) : sProp 𝕄) ⊢ barPayY (ynb c) := by
  unfold barPayY
  rw [ynb_ynb, cy_ynb]
  iintro H
  iexists g
  iexact H

/-! ## Between the phases: the send cells' credit, all 32 copies made -/

theorem mid_WS0 (fX : Buf (Elt F) ((rM : Memref sig .tc .vmem S1024x512 .f32).view.loc (xnb c : Thread nD τ))) :
    iprop(XS m ρ c fX 32 ∗ (bigSep R32 fun j => atPos ER (fcell c 0 j) 0 ∅ 0)) ⊢ WS (F := F) c 0 0 := by
  unfold XS WS
  simp only [ico_end, ico_zero, rng_zero]
  iintro ⟨⟨-, -, -, -, Hc⟩, Ha⟩
  isplitl [Ha]; · iexact Ha
  isplitl [Hc]; · iexact Hc
  iempintro
theorem mid_WS2 (fY : Buf (Elt F) ((oM : Memref sig .tc .vmem S1024x1024 .f32).view.loc (ynb c : Thread nD τ))) :
    iprop(YS c fY 32 ∗ (bigSep R32 fun j => atPos ER (fcell c 2 j) 0 ∅ 0)) ⊢ WS (F := F) c 2 0 := by
  unfold YS WS
  simp only [ico_end, ico_zero, rng_zero]
  iintro ⟨⟨-, -, -, Hc⟩, Ha⟩
  isplitl [Ha]; · iexact Ha
  isplitl [Hc]; · iexact Hc
  iempintro

/-! ## Exit -/

theorem exit_sems (a : Nat) : WS (F := F) c a 32 ⊢ (bigSep R32 fun j => semVal (fcell c a j) 0) := by
  unfold WS
  iintro ⟨-, -, H⟩
  iexact H
/-- The landing buffer, all 32 chunks landed, is whole again. -/
theorem exit_scr : DONE m ρ c 1 32 ⊢ scrAny c := by
  -- the 32 landed chunks are the whole landing buffer, holding `X c`'s block
  have e : DONE m ρ c 1 32
      = ((rM : Memref sig .tc .vmem S1024x512 .f32).view.loc (c : Thread nD τ) ↦[(Finset.univ : Finset S1024x512.Idx)]{fullShare} xstg m ρ (xnb c)) :=
    (rows_r c fullShare (xstg m ρ (xnb c))).symm
  rw [e]
  unfold scrAny
  iintro H
  iexists (xstg m ρ (xnb c))
  iexact H
/-- The input staging buffer: the 32 lent chunks back and the kept half. -/
theorem exit_x :
    iprop(DONE m ρ c 0 32 ∗ ((xM : Memref sig .tc .vmem S1024x512 .f32).view.loc (c : Thread nD τ) ↦[(Finset.univ : Finset S1024x512.Idx)]{qR} xstg m ρ c))
      ⊢ stg c cc0_stg0_0 (xstg m ρ c) := by
  -- the 32 lent chunks are the whole buffer at the lent half share; with the kept half, the full share
  have e : DONE m ρ c 0 32
      = ((xM : Memref sig .tc .vmem S1024x512 .f32).view.loc (c : Thread nD τ) ↦[(Finset.univ : Finset S1024x512.Idx)]{qL} xstg m ρ c) :=
    (rows_x c qL (xstg m ρ c)).symm
  rw [e]
  refine (share_x c Finset.univ (xstg m ρ c)).2.trans ?_
  iintro H
  iexists (xstg m ρ c)
  isplitr
  · ipureintro; rfl
  iexact H
/-- The result staging buffer: the 32 own pieces back from the second copies and the 32 pieces landed from `Y c`. -/
theorem exit_out : iprop(DONE m ρ c 2 32 ∗ DONE m ρ c 3 32) ⊢ stg c cc0_stg1_0 (outC m ρ c) := by
  -- the own pieces are the own column half, the landed pieces the other; the two halves are the whole buffer
  have e2 : DONE m ρ c 2 32
      = ((oM : Memref sig .tc .vmem S1024x1024 .f32).view.loc (c : Thread nD τ) ↦[colO (cy c)]{fullShare} outC m ρ c) :=
    (col_o c (cy c) fullShare (outC m ρ c)).symm
  have e3 : DONE m ρ c 3 32
      = ((oM : Memref sig .tc .vmem S1024x1024 .f32).view.loc (c : Thread nD τ) ↦[colO (1 - cy c)]{fullShare} outC m ρ c) :=
    (col_o c (1 - cy c) fullShare (outC m ρ c)).symm
  rw [e2, e3]
  refine (halves_o c (cy c) (cy_lt c) fullShare (outC m ρ c)).2.trans ?_
  iintro H
  iexists (outC m ρ c)
  isplitr
  · ipureintro; rfl
  iexact H

end Cert.KernelProof

end
-- ==== Proof.Kernel.MayWaits.lean ====
/-
  The deadlock argument's evidence at the device's waits while it still owes: the cell waited on sits strictly below
  every cell the device owes. Entry cells are at level 1, the first copies' receive cells at 2, the second copies' at 3.
-/
import proofs.«900267_g7700000000000268_dist_redx_gaty_m1024_n512_v7x_xy2x2_f32_1_alg».proof.Proof.Kernel.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- At its entry wait a device owes all 64 copies' credit: receive cells, above its entry cell. -/
theorem mayWait_bar (c : Dev nD) :
    (levAts L lv : sProp 𝕄) ⊢ MayWait (c : Thread nD τ) (.reg barS) () (O₁ c) := by
  refine Pipeline.mayWait_of_levAts (by rw [L_tc]; exact Finset.mem_singleton_self _) (fun g i h => ?_)
  unfold O₁ at h
  rcases Pipeline.add_pos_cases h with h | h
  · unfold Oy at h
    obtain ⟨j, hj, hp⟩ := Pipeline.sum_pos_exists h
    obtain ⟨rfl, rfl⟩ := Pipeline.tallyAt_pos hp
    have hj32 : j < 32 := (Finset.mem_Ico.mp hj).2
    refine ⟨by rw [L_tc]; exact Finset.mem_singleton_self _, ?_⟩
    rw [lv_bar, lv_f (ynb c) 3 j (by decide) hj32]
    decide
  · unfold Ox at h
    obtain ⟨j, hj, hp⟩ := Pipeline.sum_pos_exists h
    obtain ⟨rfl, rfl⟩ := Pipeline.tallyAt_pos hp
    have hj32 : j < 32 := (Finset.mem_Ico.mp hj).2
    refine ⟨by rw [L_tc]; exact Finset.mem_singleton_self _, ?_⟩
    rw [lv_bar, lv_f (xnb c) 1 j (by decide) hj32]
    decide

/-- At its wait for the chunk landed from `X c` a device owes the second copies' credit from chunk `k` on: receive cells of
    the second kind, above its receive cells of the first kind. -/
theorem mayWait_rx (c : Dev nD) (j k : Nat) (hj : j < 32) :
    (levAts L lv : sProp 𝕄) ⊢ MayWait (c : Thread nD τ) (.dma (fsem 1 j)) () (Oy c k) := by
  refine Pipeline.mayWait_of_levAts (by rw [L_tc]; exact Finset.mem_singleton_self _) (fun g i h => ?_)
  unfold Oy at h
  obtain ⟨j', hj', hp⟩ := Pipeline.sum_pos_exists h
  obtain ⟨rfl, rfl⟩ := Pipeline.tallyAt_pos hp
  have hj32 : j' < 32 := (Finset.mem_Ico.mp hj').2
  refine ⟨by rw [L_tc]; exact Finset.mem_singleton_self _, ?_⟩
  rw [lv_f c 1 j (by decide) hj, lv_f (ynb c) 3 j' (by decide) hj32]
  decide

end Cert.KernelProof

end
-- ==== Proof.Kernel.Seg.lean ====
/-
  One chunk of each phase as ONE step over the rest of the body: the first copy of chunk `k`; the middle phase's chunk `k`
  (the wait for the landed chunk, the three loads, the store of the sum, the second copy); the last phase's chunk `k` (the
  three waits). Each is proved once at a symbolic device, a symbolic chunk and an arbitrary rest of the program.
-/
import proofs.«900267_g7700000000000268_dist_redx_gaty_m1024_n512_v7x_xy2x2_f32_1_alg».proof.Proof.Kernel.FamSteps
import proofs.«900267_g7700000000000268_dist_redx_gaty_m1024_n512_v7x_xy2x2_f32_1_alg».proof.Proof.Kernel.Glue
import proofs.«900267_g7700000000000268_dist_redx_gaty_m1024_n512_v7x_xy2x2_f32_1_alg».proof.Proof.Kernel.MayWaits

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-- The body's sum of two loaded vectors, element by element (the first operand goes through a shape cast to its own shape). -/
theorem pay_shape (a b : Vec F S32x512 .f32) (h : S32x512.ShapeCasts S32x512) (y : S32x512.Idx) :
    addf (shapeCast S32x512 a h) b y = FloatOps.addf (a y) (b y) := by
  rw [shapeCast_self]; rfl

/-- The landed chunk, as the receive cell's payload and as a points-to. -/
theorem famPay_1' (c : Dev nD) (j : Nat) :
    famPay m ρ c 1 j = ((rM : Memref sig .tc .vmem S1024x512 .f32).view.loc (c : Thread nD τ) ↦[rowsB j]{fullShare} xstg m ρ (xnb c)) := rfl

/-- `stored_piece`, its right-hand side named as the second send cell's payload. -/
theorem stored_piece_sy (c : Dev nD) (j : Nat) (hj : j < 32) (offx : Fin 2 → Nat) (hx : InbB offx) (offo : Fin 2 → Nat) (ho : InbO offo)
    (hoffx : offx = ![32 * j, 0]) (hoffo : offo = ![32 * j, 512 * cy c])
    (fo : (cc0_stg1_0 : Ref sig .tc).ty.Contents (Elt F))
    (pay : Vec F S32x512 .f32 → Vec F S32x512 .f32 → FVec F S32x512 .f32)
    (hpay : ∀ a b y, pay a b y = FloatOps.addf (a y) (b y)) :
    ((oM : Memref sig .tc .vmem S1024x1024 .f32).view.loc (c : Thread nD τ) ↦[blkO j (cy c)]{fullShare}
        ((oM.access (Rect.unit (s := S1024x1024) offo S32x512.size ho) : View sig .tc _ _ _).write (Elt F) fo
          (pay ((xM : Memref sig .tc .vmem S1024x512 .f32).view.readAt (Elt F) (Rect.unit (s := S1024x512) offx S32x512.size hx).toLoadRect (xstg m ρ c))
               ((rM : Memref sig .tc .vmem S1024x512 .f32).view.readAt (Elt F) (Rect.unit (s := S1024x512) offx S32x512.size hx).toLoadRect (xstg m ρ (xnb c)))) Finset.univ) : sProp 𝕄)
      = syPay m ρ c j :=
  stored_piece m ρ c j hj offx hx offo ho hoffx hoffo fo pay hpay fullShare

/-! ## The first phase -/

/-- Before the first copy of chunk `k`. -/
def P1 (c : Dev nD) (fX : Buf (Elt F) ((rM : Memref sig .tc .vmem S1024x512 .f32).view.loc (xnb c : Thread nD τ))) (k : Nat) : sProp 𝕄 :=
  iprop(XS m ρ c fX k ∗ owesE c (Oy c 0 + Ox c k))

theorem seg_xsend (c n : Dev nD) (hn : n = xnb c) (k : Nat) (hk : k < 32) (off : Fin 2 → Nat) (hoff : off = ![32 * k, 0])
    (hb hb' : InbB off) (hs hs' : InbS k)
    {hsc : (rCh off hb' : Memref sig (Dev.tc n : Thread nD τ).2.kind .vmem S32x512 .f32).view.ref.isScScratch = false}
    {hsrc : (xCh off hb : Memref sig .tc .vmem S32x512 .f32).view.WordExact} {hdst : (rCh off hb' : Memref sig .tc .vmem S32x512 .f32).view.WordExact}
    {hsem : DmaTarget.Typed .vmem (.dma (semAt cc0_scratch2 k hs')) (.remote (Dev.tc n : Thread nD τ) (rCh off hb' : Memref sig .tc .vmem S32x512 .f32) (.dma (semAt cc0_scratch1 k hs)) hsc)}
    {α : Type} {Q : α → sProp 𝕄} {k' : PUnit → Prog (TpuEff nD τ sig (Elt F) Λ₀ .tc) α}
    (fX : Buf (Elt F) ((rM : Memref sig .tc .vmem S1024x512 .f32).view.loc (xnb c : Thread nD τ))) :
    iprop(records m ρ K ∗ P1 m ρ c fX k)
      ⊢ iprop((P1 m ρ c fX (k + 1) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (xCh off hb) (.remote (Dev.tc n : Thread nD τ) (rCh off hb') (.dma (semAt cc0_scratch1 k hs)) hsc) (.dma (semAt cc0_scratch2 k hs')) hsrc hdst hsem) k') Q) := by
  unfold P1
  iintro ⟨#Hrec, HXS, HO⟩ Hk
  iapply (fam_xsend m ρ K c n hn k hk off hoff hb hb' hs hs' fX (Oy c 0)) $$ [HXS HO]
  · isplitr; · iexact Hrec
    isplitl [HXS]; · iexact HXS
    iexact HO
  iintro H
  iapply Hk; iexact H

/-! ## The middle phase -/

/-- Before chunk `k` of the middle phase: the receive cells' wait state and the chunks landed so far; the own pieces not yet
    stored; the second copies' state; what is still owed; the kept half share of the input block. -/
def P2 (c : Dev nD) (fY : Buf (Elt F) ((oM : Memref sig .tc .vmem S1024x1024 .f32).view.loc (ynb c : Thread nD τ)))
    (g : Buf (Elt F) ((c : Thread nD τ).loc cc0_stg1_0)) (k : Nat) : sProp 𝕄 :=
  iprop(WS (F := F) c 1 k ∗ DONE m ρ c 1 k ∗ OWN c g k ∗ YS c fY k ∗ owesE c (Oy c k)
    ∗ ((xM : Memref sig .tc .vmem S1024x512 .f32).view.loc (c : Thread nD τ) ↦[(Finset.univ : Finset S1024x512.Idx)]{qR} xstg m ρ c))

set_option maxHeartbeats 1600000 in
theorem seg_chunk (c n : Dev nD) (hn : n = ynb c) (k : Nat) (hk : k < 32)
    (offx : Fin 2 → Nat) (hoffx : offx = ![32 * k, 0]) (hx1 hx2 hx3 hx4 : InbB offx)
    (offo : Fin 2 → Nat) (hoffo : offo = ![32 * k, 512 * cy c]) (ho1 ho2 : InbO offo)
    (offy : Fin 2 → Nat) (hoffy : offy = ![32 * k, 512 * cy c]) (hy1 hy2 : InbO offy)
    (hs2 hs3 hs4 : InbS k)
    (pay : Vec F S32x512 .f32 → Vec F S32x512 .f32 → FVec F S32x512 .f32) (hpay : ∀ a b y, pay a b y = FloatOps.addf (a y) (b y))
    {hws : (xCh offx hx3 : Memref sig .tc .vmem S32x512 .f32).view.WordExact} {hwd : (rCh offx hx4 : Memref sig .tc .vmem S32x512 .f32).view.WordExact}
    {hl1 : (xM : Memref sig .tc .vmem S1024x512 .f32).view.LoadsAt (Rect.unit (s := S1024x512) offx S32x512.size hx1).toLoadRect}
    {hl2 : (rM : Memref sig .tc .vmem S1024x512 .f32).view.LoadsAt (Rect.unit (s := S1024x512) offx S32x512.size hx2).toLoadRect}
    {hl3 : (oM : Memref sig .tc .vmem S1024x1024 .f32).view.LoadsAt (Rect.unit (s := S1024x1024) offo S32x512.size ho1).toLoadRect}
    {hst : ((oM : Memref sig .tc .vmem S1024x1024 .f32).access (Rect.unit (s := S1024x1024) offo S32x512.size ho2)).Stores Finset.univ}
    {hst' : (Finset.univ : Finset (Rect.unit (s := S1024x1024) offo S32x512.size ho2).shape.Idx) = Finset.univ ∨ ∀ a, (Rect.unit (s := S1024x1024) offo S32x512.size ho2).stride a = 1}
    {hsc : (oCh offy hy2 : Memref sig (Dev.tc n : Thread nD τ).2.kind .vmem S32x512 .f32).view.ref.isScScratch = false}
    {hsrc : (oCh offy hy1 : Memref sig .tc .vmem S32x512 .f32).view.WordExact} {hdst : (oCh offy hy2 : Memref sig .tc .vmem S32x512 .f32).view.WordExact}
    {hsem : DmaTarget.Typed .vmem (.dma (semAt cc0_scratch4 k hs4)) (.remote (Dev.tc n : Thread nD τ) (oCh offy hy2 : Memref sig .tc .vmem S32x512 .f32) (.dma (semAt cc0_scratch3 k hs3)) hsc)}
    {α : Type} {Q : α → sProp 𝕄} {k' : PUnit → Prog (TpuEff nD τ sig (Elt F) Λ₀ .tc) α}
    (fY : Buf (Elt F) ((oM : Memref sig .tc .vmem S1024x1024 .f32).view.loc (ynb c : Thread nD τ)))
    (g : Buf (Elt F) ((c : Thread nD τ).loc cc0_stg1_0)) :
    iprop(records m ρ K ∗ levAts L lv ∗ P2 m ρ c fY g k)
      ⊢ iprop((P2 m ρ c fY g (k + 1) -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 (semAt cc0_scratch2 k hs2) (xCh offx hx3) (rCh offx hx4) hws hwd) fun _ =>
               .op (.load xM (Rect.unit (s := S1024x512) offx S32x512.size hx1).toLoadRect hl1) fun v1 =>
               .op (.load rM (Rect.unit (s := S1024x512) offx S32x512.size hx2).toLoadRect hl2) fun v2 =>
               .op (.load oM (Rect.unit (s := S1024x1024) offo S32x512.size ho1).toLoadRect hl3) fun _v3 =>
               .op (.store oM (Rect.unit (s := S1024x1024) offo S32x512.size ho2) (pay v1 v2) Finset.univ hst hst') fun _ =>
               .op (.enqueueDma (oCh offy hy1) (.remote (Dev.tc n : Thread nD τ) (oCh offy hy2) (.dma (semAt cc0_scratch3 k hs3)) hsc) (.dma (semAt cc0_scratch4 k hs4)) hsrc hdst hsem) k') Q) := by
  unfold P2
  iintro ⟨#Hrec, #Hlev, HW1, HD1, HOWN, HYS, HO, HxR⟩ Hk
  iapply (fam_wait m ρ K c 1 (by decide) k hk _ (semAt2 k hs2 hk) (rCh_credit offx hx4) (Oy c k)) $$ [HW1 HO]
  · isplitr; · iexact Hrec
    isplitl [HW1]; · iexact HW1
    isplitl [HO]; · iexact HO
    iapply (mayWait_rx c k k hk); iexact Hlev
  iintro ⟨HW1, HO, Hland⟩
  ihave Hland := (Entails.of_eq (famPay_1' m ρ c k)) $$ Hland
  iapply (wp_load 𝒱₀ (c : Thread nD τ) none Set.univ (m := xM) (Finset.subset_univ _)) $$ HxR; iintro HxR
  iapply (wp_load 𝒱₀ (c : Thread nD τ) none Set.univ (m := rM) (load_sub_r k offx hx2 hoffx)) $$ Hland; iintro Hland
  ihave Hp := (own_peel c g k hk) $$ HOWN
  icases Hp with ⟨Hp, HOWN⟩
  iapply (wp_load 𝒱₀ (c : Thread nD τ) none Set.univ (m := oM) (load_sub_o k (cy c) offo ho1 hoffo)) $$ Hp; iintro Hp
  iapply (wp_store 𝒱₀ (c : Thread nD τ) none Set.univ (m := oM) (r := Rect.unit (s := S1024x1024) offo S32x512.size ho2) (Mk := Finset.univ)
    (store_sub_o k (cy c) offo ho2 hoffo)) $$ Hp; iintro Hp
  ihave Hp := (Entails.of_eq (stored_piece_sy m ρ c k hk offx hx1 offo ho2 hoffx hoffo g pay hpay)) $$ Hp
  ihave Hland := (Entails.of_eq (famPay_1' m ρ c k).symm) $$ Hland
  ihave HD1 := (done_push m ρ c 1 k) $$ [Hland HD1]
  · isplitl [Hland]; · iexact Hland
    iexact HD1
  iapply (fam_ysend m ρ K c n hn k hk offy hoffy hy1 hy2 hs3 hs4 fY) $$ [Hp HYS HO]
  · isplitr; · iexact Hrec
    isplitl [Hp]; · iexact Hp
    isplitl [HYS]; · iexact HYS
    iexact HO
  iintro ⟨HYS, HO⟩
  iapply Hk
  isplitl [HW1]; · iexact HW1
  isplitl [HD1]; · iexact HD1
  isplitl [HOWN]; · iexact HOWN
  isplitl [HYS]; · iexact HYS
  isplitl [HO]; · iexact HO
  iexact HxR

/-! ## The last phase -/

/-- A wait on the device's own cell `k` of family `a` whose payload goes straight onto what the family has brought back. -/
theorem fam_wait_done (c : Dev nD) (a : Nat) (ha : a < 4) (k : Nat) (hk : k < 32) (s : DmaSem sig) (hs : s = fsem a k)
    {sp sp' : Space} {sh sh' : Shape} {e e' : EltTy}
    {src : Memref sig .tc sp' sh' e'} {κ' : Kind} {dst : Memref sig κ' sp sh e} {hsrc : src.view.WordExact} {hdst : dst.view.WordExact}
    (hamt : dst.view.dmaCredit = famAmt a)
    {α : Type} {Q : α → sProp 𝕄} {k' : PUnit → Prog (TpuEff nD τ sig (Elt F) Λ₀ .tc) α}
    (O : CellTallies nD τ sig Unit) :
    iprop(records m ρ K ∗ WS (F := F) c a k ∗ DONE m ρ c a k ∗ owesE c O ∗ MayWait (c : Thread nD τ) (.dma (fsem a k)) () O)
      ⊢ iprop(((WS (F := F) c a (k + 1) ∗ DONE m ρ c a (k + 1) ∗ owesE c O)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s src dst hsrc hdst) k') Q) := by
  iintro ⟨#Hrec, HW, HD, HO, Hmw⟩ Hk
  iapply (fam_wait m ρ K c a ha k hk s hs hamt O) $$ [HW HO Hmw]
  · isplitr; · iexact Hrec
    isplitl [HW]; · iexact HW
    isplitl [HO]; · iexact HO
    iexact Hmw
  iintro ⟨HW, HO, Hpay⟩
  ihave HD := (done_push m ρ c a k) $$ [Hpay HD]
  · isplitl [Hpay]; · iexact Hpay
    iexact HD
  iapply Hk
  isplitl [HW]; · iexact HW
  isplitl [HD]; · iexact HD
  iexact HO

/-- Before chunk `k` of the last phase: the wait states of the three families and what they have brought back; nothing owed. -/
def P3 (c : Dev nD) (k : Nat) : sProp 𝕄 :=
  iprop(WS (F := F) c 3 k ∗ DONE m ρ c 3 k ∗ WS (F := F) c 0 k ∗ DONE m ρ c 0 k ∗ WS (F := F) c 2 k ∗ DONE m ρ c 2 k ∗ owesE c 0)

theorem seg_tail (c : Dev nD) (k : Nat) (hk : k < 32) (hs1 hs3 hs4 : InbS k)
    {spa spa' spb spb' spc spc' : Space} {sa sa' sb sb' sc sc' : Shape} {ea ea' eb eb' ec ec' : EltTy}
    {srca : Memref sig .tc spa' sa' ea'} {κa : Kind} {dsta : Memref sig κa spa sa ea} {hsa : srca.view.WordExact} {hda : dsta.view.WordExact}
    {srcb : Memref sig .tc spb' sb' eb'} {κb : Kind} {dstb : Memref sig κb spb sb eb} {hsb : srcb.view.WordExact} {hdb : dstb.view.WordExact}
    {srcc : Memref sig .tc spc' sc' ec'} {κc : Kind} {dstc : Memref sig κc spc sc ec} {hsc : srcc.view.WordExact} {hdc : dstc.view.WordExact}
    (hamta : dsta.view.dmaCredit = famAmt 3) (hamtb : dstb.view.dmaCredit = famAmt 0) (hamtc : dstc.view.dmaCredit = famAmt 2)
    {α : Type} {Q : α → sProp 𝕄} {k' : PUnit → Prog (TpuEff nD τ sig (Elt F) Λ₀ .tc) α} :
    iprop(records m ρ K ∗ P3 m ρ c k)
      ⊢ iprop((P3 m ρ c (k + 1) -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 (semAt cc0_scratch4 k hs4) srca dsta hsa hda) fun _ =>
               .op (.waitDma2 (semAt cc0_scratch1 k hs1) srcb dstb hsb hdb) fun _ =>
               .op (.waitDma2 (semAt cc0_scratch3 k hs3) srcc dstc hsc hdc) k') Q) := by
  unfold P3
  iintro ⟨#Hrec, HW3, HD3, HW0, HD0, HW2, HD2, HO⟩ Hk
  iapply (fam_wait_done m ρ K c 3 (by decide) k hk _ (semAt4 k hs4 hk) hamta 0) $$ [HW3 HD3 HO]
  · isplitr; · iexact Hrec
    isplitl [HW3]; · iexact HW3
    isplitl [HD3]; · iexact HD3
    isplitl [HO]; · iexact HO
    rw [MayWait_zero]; iempintro
  iintro ⟨HW3, HD3, HO⟩
  iapply (fam_wait_done m ρ K c 0 (by decide) k hk _ (semAt1 k hs1 hk) hamtb 0) $$ [HW0 HD0 HO]
  · isplitr; · iexact Hrec
    isplitl [HW0]; · iexact HW0
    isplitl [HD0]; · iexact HD0
    isplitl [HO]; · iexact HO
    rw [MayWait_zero]; iempintro
  iintro ⟨HW0, HD0, HO⟩
  iapply (fam_wait_done m ρ K c 2 (by decide) k hk _ (semAt3 k hs3 hk) hamtc 0) $$ [HW2 HD2 HO]
  · isplitr; · iexact Hrec
    isplitl [HW2]; · iexact HW2
    isplitl [HD2]; · iexact HD2
    isplitl [HO]; · iexact HO
    rw [MayWait_zero]; iempintro
  iintro ⟨HW2, HD2, HO⟩
  iapply Hk
  isplitl [HW3]; · iexact HW3
  isplitl [HD3]; · iexact HD3
  isplitl [HW0]; · iexact HW0
  isplitl [HD0]; · iexact HD0
  isplitl [HW2]; · iexact HW2
  isplitl [HD2]; · iexact HD2
  iexact HO

end Cert.KernelProof

end
-- ==== Proof.Kernel.Body.lean ====
/-
  The kernel body on device `c`, run from what the pipeline hands it to what it must hand back: the entry handshake,
  the 32 first copies, then chunk by chunk the wait for the landed chunk, the sum stored into the own column half and
  the second copy, and last the waits for the pieces from `Y c` and for both kinds of sends.
-/
import proofs.«900267_g7700000000000268_dist_redx_gaty_m1024_n512_v7x_xy2x2_f32_1_alg».proof.Proof.Gen.Kernel.Skeleton
import proofs.«900267_g7700000000000268_dist_redx_gaty_m1024_n512_v7x_xy2x2_f32_1_alg».proof.Proof.Kernel.Seg

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The two entry signals name `X c` and `Y c`. -/
theorem dev1_eq (c : Dev nD) : (⟨k0_dev1 c, k0_dev1_lt c⟩ : Dev nD) = xnb c := dev_eq_xnb c _ _ (k0_dev1_eq c)
theorem dev2_eq (c : Dev nD) : (⟨k0_dev2 c, k0_dev2_lt c⟩ : Dev nD) = ynb c := dev_eq_ynb c _ _ (k0_dev2_eq c)

theorem famPay_0 (c : Dev nD) (j : Nat) : famPay m ρ c 0 j = sxPay m ρ c j := rfl
theorem famPay_1 (c : Dev nD) (j : Nat) : famPay m ρ c 1 j = rxPay m ρ c j := rfl
theorem famPay_2 (c : Dev nD) (j : Nat) : famPay m ρ c 2 j = syPay m ρ c j := rfl
theorem famPay_3 (c : Dev nD) (j : Nat) : famPay m ρ c 3 j = ryPay m ρ c j := rfl

/-- A whole staging buffer held at given contents, as the pipeline states it and as a points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owesE_congr (c : Dev nD) {O O' : CellTallies nD τ sig Unit} (h : O = O') : (owesE c O : sProp 𝕄) ⊢ owesE c O' := by
  subst h; exact BI.Entails.refl _

section Driver

set_option hygiene false

/-- The first copy of chunk `k`, the device chain's closed form `d`. -/
syntax "xsend " num ident : tactic
macro_rules
  | `(tactic| xsend $k $d) => `(tactic| (
      iapply (seg_xsend m ρ K c _ (dev_eq_xnb c _ _ ($d c)) $k (by decide) _ rfl _ _ _ _ fX) $$ [HP1]
      · isplitr; · iexact Hrec
        iexact HP1
      iintro HP1))

/-- Chunk `k` of the middle phase. `o1` / `o2` are the closed forms of the store's and the copy's offsets, `d` the device
    chain's, `pay` the printed sum. -/
syntax "chunk " num ident ident ident term : tactic
macro_rules
  | `(tactic| chunk $k $o1 $o2 $d $pay) => `(tactic| (
      iapply (seg_chunk m ρ K c _ (dev_eq_ynb c _ _ ($d c)) $k (by decide) _ rfl _ _ _ _ _ ($o1 c) _ _ _ ($o2 c) _ _ _ _ _
        $pay (fun a b y => pay_shape a b _ y) fY g1) $$ [HP2]
      · isplitr; · iexact Hrec
        isplitr; · iexact Hlev
        iexact HP2
      iintro HP2))

/-- Chunk `k` of the last phase: the three waits. -/
syntax "tail3 " num : tactic
macro_rules
  | `(tactic| tail3 $k) => `(tactic| (
      iapply (seg_tail m ρ K c $k (by decide) _ _ _ (oCh_credit _ _) (xCh_amount _ _) (oCh_credit _ _)) $$ [HP3]
      · isplitr; · iexact Hrec
        iexact HP3
      iintro HP3))

open Lean in
/-- All 32 first copies: chunk `k`'s device chain is the `(3 + k)`-th printed one. -/
macro "phase1" : tactic => do
  let mut tacs : Array (TSyntax `tactic) := #[]
  for k in [0:32] do
    let d := mkIdent (Name.mkSimple s!"k0_dev{3 + k}_eq")
    tacs := tacs.push (← `(tactic| xsend $(Syntax.mkNumLit (toString k)) $d))
  `(tactic| ($[$tacs]*))

open Lean in
/-- The middle phase: chunk `k`'s store goes through the `(2k + 1)`-th printed offset, its copy through the `(2k + 2)`-th and
    the `(35 + k)`-th device chain; its sum is the printed payload the cut of the body into parts left it as. -/
macro "phase2" : tactic => do
  let mut tacs : Array (TSyntax `tactic) := #[]
  for k in [0:32] do
    let o1 := mkIdent (Name.mkSimple s!"k0_off{2 * k + 1}_eq")
    let o2 := mkIdent (Name.mkSimple s!"k0_off{2 * k + 2}_eq")
    let d := mkIdent (Name.mkSimple s!"k0_dev{35 + k}_eq")
    let pn (n : Nat) := mkIdent (Name.mkSimple s!"k0_pay{n}")
    let pay : TSyntax `term ←
      if k = 11 then `(fun a b => $(pn 13) ($(pn 12) a) b)
      else if k = 26 then `(fun a b => $(pn 29) ($(pn 28) a) b)
      else
        let n := if k ≤ 10 then k + 1 else if k ≤ 25 then k + 2 else k + 3
        `(fun a b => $(pn n) a b)
    tacs := tacs.push (← `(tactic| chunk $(Syntax.mkNumLit (toString k)) $o1 $o2 $d $pay))
  `(tactic| ($[$tacs]*))

open Lean in
/-- The last phase, all 32 chunks. -/
macro "phase3" : tactic => do
  let mut tacs : Array (TSyntax `tactic) := #[]
  for k in [0:32] do
    tacs := tacs.push (← `(tactic| tail3 $(Syntax.mkNumLit (toString k))))
  `(tactic| ($[$tacs]*))

end Driver

set_option maxRecDepth 65536 in
set_option maxHeartbeats 0 in
/-- The body on device `c`, from what the pipeline hands it (`bodyPre'`) to what it hands back (`bodyPost`). -/
theorem sound_body (c : Dev nD) (Kt : PUnit → sProp 𝕄) :
    iprop(bodyPre' m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  -- the body as one sequence of its memory operations
  simp only [cc0_body_eq_skeleton]; unfold cc0_body_skel
  simp only [k0_part63_eq_skeleton, k0_part61_eq_skeleton, k0_part62_eq_skeleton]; unfold k0_part63_skel k0_part61_skel k0_part62_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel
  simp only [semSignalWord, semWaitWord, Prog.lift, Prog.bind_op, Prog.bind_ret, Prog.pure_eq_ret, Prog.bind_assoc, wp_deviceId]
  -- what the body starts from
  unfold bodyPre' Φ₀ start ghost linear creds
  iintro ⟨⟨⟨⟨⟨%K, #Hrec, HaB, Ha0, Ha1, Ha2, Ha3, HtBX, HtBY, Ht0, Ht1N, Ht2, Ht3N⟩, ⟨HcB, Hc1, Hc3⟩, #Hlev⟩, Hscr⟩,
    Ho, ⟨%d0, %g0, %hg0, Hx⟩, ⟨%d1, %g1, %hg1, Hout⟩⟩, Hk⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  -- the result buffer: the own column half piece by piece, the other half for `Y c`
  ihave Hout := (enter_out c g1) $$ Hout
  icases Hout with ⟨HOWN, HoutY⟩
  -- the FIRST signal, to `X c`'s entry cell: its duty `false`, handing over the own landing buffer
  iapply (Rounds.wp_signal 𝒱₀ ER (ringRd m ρ) (c : Thread nD τ) none (dst := (xnb c : Thread nD τ)) (κ := K (xnb c, none))
      (d := false) (by rw [duties_bar]; exact Finset.mem_univ _) ((amount_bar m ρ (xnb c) false).trans (by decide)) ()
      (O₁ c + tallyAt (barCell (ynb c)) () 1) rfl) $$ [HO HtBX Hscr]
  · isplitr; · iapply (inv_bar m ρ K (xnb c)); iexact Hrec
    isplitl [HO]; · iexact HO
    isplitl [HtBX]; · iexact HtBX
    isplitl [Hscr]
    · rw [payload_bar_false]; iapply (scr_to_pay c); iexact Hscr
    · iapply (reached_bar m ρ K (xnb c)); iexact Hrec
  iintro HO
  -- the SECOND, to `Y c`'s entry cell: its duty `true`, handing over the other column half of the result buffer
  iapply (Rounds.wp_signal 𝒱₀ ER (ringRd m ρ) (c : Thread nD τ) none (dst := (ynb c : Thread nD τ)) (κ := K (ynb c, none))
      (d := true) (by rw [duties_bar]; exact Finset.mem_univ _) ((amount_bar m ρ (ynb c) true).trans (by decide)) ()
      (O₁ c) rfl) $$ [HO HtBY HoutY]
  · isplitr; · iapply (inv_bar m ρ K (ynb c)); iexact Hrec
    isplitl [HO]; · iexact HO
    isplitl [HtBY]; · iexact HtBY
    isplitl [HoutY]
    · rw [payload_bar_true]; iapply (out_to_pay c g1); iexact HoutY
    · iapply (reached_bar m ρ K (ynb c)); iexact Hrec
  iintro HO
  -- the WAIT for two units on the own entry cell, owing all 64 copies' credit: both neighbours' buffers come with it
  iapply (Rounds.wp_wait_rest_token 𝒱₀ ER (ringRd m ρ) (c : Thread nD τ) none (κ := K (c, none))
      (wpE_semWait_eq 𝒱₀ (c : Thread nD τ) none Set.univ) (Set.mem_univ _) () (O := O₁ c) (W := W) (R := 0) (m := 0) (T := ∅)
      (by rw [expect_bar]; decide)) $$ [HcB HO HaB]
  · isplitr; · iapply (inv_bar m ρ K c); iexact Hrec
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPayX barPayY
  icases Hp with ⟨⟨%fX, HrX⟩, ⟨%fY, HoY⟩⟩
  -- the families the three phases work on
  ihave Hx := (enter_x m ρ c) $$ Hx
  icases Hx with ⟨HsxP, HxR⟩
  ihave HXS := (enter_XS m ρ c fX) $$ [HsxP HrX Ht0 Ht1N]
  · isplitl [HsxP]; · iexact HsxP
    isplitl [HrX]; · iexact HrX
    isplitl [Ht0]; · iexact Ht0
    iexact Ht1N
  ihave HYS := (enter_YS c fY) $$ [HoY Ht2 Ht3N]
  · isplitl [HoY]; · iexact HoY
    isplitl [Ht2]; · iexact Ht2
    iexact Ht3N
  ihave HW1 := (enter_WS1 (F := F) c) $$ [Ha1 Hc1]
  · isplitl [Ha1]; · iexact Ha1
    iexact Hc1
  ihave HW3 := (enter_WS3 (F := F) c) $$ [Ha3 Hc3]
  · isplitl [Ha3]; · iexact Ha3
    iexact Hc3
  ihave HD0 := (done_zero m ρ c 0) $$ []
  · iempintro
  ihave HD1 := (done_zero m ρ c 1) $$ []
  · iempintro
  ihave HD2 := (done_zero m ρ c 2) $$ []
  · iempintro
  ihave HD3 := (done_zero m ρ c 3) $$ []
  · iempintro
  ihave HO := (show (owes (c : Thread nD τ) (O₁ c) (insert (SemLoc.reg barS, ()) W) : sProp 𝕄) ⊢ owesE c (Oy c 0 + Ox c 0) from by
    unfold owesE O₁; iintro H; iexists _; iexact H) $$ HO
  -- the 32 first copies
  ihave HP1 := (Entails.of_eq (show iprop(XS m ρ c fX 0 ∗ owesE c (Oy c 0 + Ox c 0)) = P1 m ρ c fX 0 from rfl)) $$ [HXS HO]
  · isplitl [HXS]; · iexact HXS
    iexact HO
  phase1
  unfold P1
  icases HP1 with ⟨HXS, HO⟩
  ihave HO := (owesE_congr c (show Oy c 0 + Ox c 32 = Oy c 0 by rw [Ox_end, add_zero])) $$ HO
  ihave HW0 := (mid_WS0 m ρ c fX) $$ [HXS Ha0]
  · isplitl [HXS]; · iexact HXS
    iexact Ha0
  -- chunk by chunk: the landed chunk, the sum, the second copy
  ihave HP2 := (Entails.of_eq (show iprop(WS (F := F) c 1 0 ∗ DONE m ρ c 1 0 ∗ OWN c g1 0 ∗ YS c fY 0 ∗ owesE c (Oy c 0)
      ∗ ((xM : Memref sig .tc .vmem S1024x512 .f32).view.loc (c : Thread nD τ) ↦[(Finset.univ : Finset S1024x512.Idx)]{qR} xstg m ρ c)) = P2 m ρ c fY g1 0 from rfl))
    $$ [HW1 HD1 HOWN HYS HO HxR]
  · isplitl [HW1]; · iexact HW1
    isplitl [HD1]; · iexact HD1
    isplitl [HOWN]; · iexact HOWN
    isplitl [HYS]; · iexact HYS
    isplitl [HO]; · iexact HO
    iexact HxR
  phase2
  unfold P2
  icases HP2 with ⟨HW1, HD1, -, HYS, HO, HxR⟩
  ihave HO := (owesE_congr c (Oy_end c)) $$ HO
  ihave HW2 := (mid_WS2 c fY) $$ [HYS Ha2]
  · isplitl [HYS]; · iexact HYS
    iexact Ha2
  -- chunk by chunk: the piece from `Y c`, the first send, the second send
  ihave HP3 := (Entails.of_eq (show iprop(WS (F := F) c 3 0 ∗ DONE m ρ c 3 0 ∗ WS (F := F) c 0 0 ∗ DONE m ρ c 0 0 ∗ WS (F := F) c 2 0 ∗ DONE m ρ c 2 0 ∗ owesE c 0)
      = P3 m ρ c 0 from rfl)) $$ [HW3 HD3 HW0 HD0 HW2 HD2 HO]
  · isplitl [HW3]; · iexact HW3
    isplitl [HD3]; · iexact HD3
    isplitl [HW0]; · iexact HW0
    isplitl [HD0]; · iexact HD0
    isplitl [HW2]; · iexact HW2
    isplitl [HD2]; · iexact HD2
    iexact HO
  phase3
  unfold P3
  icases HP3 with ⟨HW3, HD3, HW0, HD0, HW2, HD2, HO⟩
  -- what the body hands back
  rw [wp_ret]; imodintro
  iapply Hk
  unfold bodyPost Φ₁ Dat.owesAt Pipeline.owesWithin owesE
  rw [show (dats m ρ 0 c).owed t₀.succ = 0 from rfl]
  icases HO with ⟨%W', HO⟩
  isplitl [HD1 HW0 HW1 HW2 HW3]
  · isplitl [HD1]; · iapply (exit_scr m ρ c); iexact HD1
    isplitl [HW0]; · iapply (exit_sems (F := F) c 0); iexact HW0
    isplitl [HW1]; · iapply (exit_sems (F := F) c 1); iexact HW1
    isplitl [HW2]; · iapply (exit_sems (F := F) c 2); iexact HW2
    iapply (exit_sems (F := F) c 3); iexact HW3
  isplitl [HO]
  · iexists W'
    isplitr; · ipureintro; exact fun _ _ => Or.inl trivial
    iexact HO
  isplitl [HD0 HxR]
  · iapply (exit_x m ρ c)
    isplitl [HD0]; · iexact HD0
    iexact HxR
  iapply (exit_out m ρ c)
  isplitl [HD2]; · iexact HD2
  iexact HD3

/-- info: 'Cert.KernelProof.sound_body' depends on axioms: [propext, Classical.choice, Quot.sound] -/
#guard_msgs in #print axioms sound_body

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  iintro H
  iapply (sound_body m ρ c fun _ => bodyPost m ρ c)
  isplitl [H]; · iexact H
  iintro H; iexact H

end Cert.KernelProof

end
-- ==== Proof.Kernel.Launch.Fund.lean ====
/-
  The launch's ghost state: the cells and duty tokens minted, dealt to the devices that pay them, and every cell's
  invariant allocated.
-/
import proofs.«900267_g7700000000000268_dist_redx_gaty_m1024_n512_v7x_xy2x2_f32_1_alg».proof.Proof.Kernel.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over the cells, family by family -/

theorem range_eq_map_val (n : ℕ) : Finset.range n = (Finset.univ : Finset (Fin n)).map Fin.valEmbedding := by
  ext x
  simp only [Finset.mem_range, Finset.mem_map, Finset.mem_univ, true_and, Fin.valEmbedding_apply]
  exact ⟨fun h => ⟨⟨x, h⟩, rfl⟩, fun ⟨y, hy⟩ => hy ▸ y.isLt⟩

/-- Over the 32 chunks, by number. -/
theorem bigSep_fin32 (Φ : ℕ → sProp 𝕄) : bigSep (Finset.univ : Finset (Fin 32)) (fun j => Φ j.val) = bigSep R32 Φ := by
  rw [show R32 = Finset.range 32 from rfl, range_eq_map_val, bigSep_map]; rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Over the four families of 32, family by family. -/
theorem bigSep_fam (Ψ : ℕ → ℕ → sProp 𝕄) :
    bigSep (Finset.univ : Finset (Fin 4 × Fin 32)) (fun aj => Ψ aj.1.val aj.2.val)
      = iprop((bigSep R32 fun j => Ψ 0 j) ∗ (bigSep R32 fun j => Ψ 1 j) ∗ (bigSep R32 fun j => Ψ 2 j) ∗ (bigSep R32 fun j => Ψ 3 j)) := by
  rw [bigSep_univ_prod, bigSep_fin4, ← bigSep_fin32 (Ψ 0), ← bigSep_fin32 (Ψ 1), ← bigSep_fin32 (Ψ 2), ← bigSep_fin32 (Ψ 3)]
  rfl

theorem univ_option_eq {α : Type} [Fintype α] [DecidableEq α] :
    (Finset.univ : Finset (Option α)) = insert none ((Finset.univ : Finset α).map Function.Embedding.some) := by
  ext x; cases x <;> simp

theorem bigSep_option {α : Type} [Fintype α] [DecidableEq α] (Φ : Option α → sProp 𝕄) :
    bigSep Finset.univ Φ = iprop(Φ none ∗ bigSep Finset.univ fun a => Φ (some a)) := by
  rw [univ_option_eq, bigSep_insert (by simp), bigSep_map]; rfl

/-- Over a device's 129 cells: the entry cell, then the four families. -/
theorem bigSep_cells (c : Dev nD) (Φ : GSem nD τ sig → sProp 𝕄) :
    bigSep (Finset.univ : Finset CellIx) (fun k => Φ (kcell (c, k)))
      = iprop(Φ (barCell c) ∗ (bigSep R32 fun j => Φ (fcell c 0 j)) ∗ (bigSep R32 fun j => Φ (fcell c 1 j))
          ∗ (bigSep R32 fun j => Φ (fcell c 2 j)) ∗ (bigSep R32 fun j => Φ (fcell c 3 j))) := by
  rw [bigSep_option, ← bigSep_fam (fun a j => Φ (fcell c a j))]

/-! ## The kernel's own semaphores, the cells, the tokens -/

/-- The kernel's own semaphores as the launch indexes them: semaphore `j` of family `a`. -/
abbrev osem : Fin 4 × Fin 32 → SemLoc sig := fun aj => .dma (fsem aj.1.val aj.2.val)

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective (csem : CellIx → SemLoc sig) := by
  intro k k' h
  match k, k', h with
  | none, none, _ => rfl
  | none, some _, h => exact absurd h (fun h' => by cases h')
  | some _, none, h => exact absurd h (fun h' => by cases h')
  | some (a, j), some (a', j'), h =>
    have h' : fsem a.val j.val = fsem a'.val j'.val := SemLoc.dma.inj h
    obtain ⟨h1, h2⟩ := fsem_inj a.isLt j.isLt a'.isLt j'.isLt h'
    rw [Fin.ext h1, Fin.ext h2]

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

/-- The duty tokens minted: per device, its entry cell's two duties and each copy cell's one. -/
abbrev TokIx : Type := Bool ⊕ (Fin 4 × Fin 32)
abbrev tokOf (ct : Dev nD × TokIx) : GSem nD τ sig × ℕ × Bool := match ct.2 with
  | .inl d => (barCell ct.1, 0, d)
  | .inr aj => (fcell ct.1 aj.1.val aj.2.val, 0, false)

theorem tokOf_injective : Function.Injective (tokOf : Dev nD × TokIx → GSem nD τ sig × ℕ × Bool) := by
  rintro ⟨c, t⟩ ⟨c', t'⟩ h
  have h1 : c = c' := by
    have := congrArg (fun x : GSem nD τ sig × ℕ × Bool => x.1.1.1) h
    match t, t' with
    | .inl _, .inl _ => exact this
    | .inl _, .inr _ => exact this
    | .inr _, .inl _ => exact this
    | .inr _, .inr _ => exact this
  subst h1
  match t, t', h with
  | .inl d, .inl d', h =>
    have : d = d' := congrArg (fun x : GSem nD τ sig × ℕ × Bool => x.2.2) h
    rw [this]
  | .inl _, .inr _, h => exact absurd (congrArg (fun x : GSem nD τ sig × ℕ × Bool => x.1.2) h) (fun h' => by cases h')
  | .inr _, .inl _, h => exact absurd (congrArg (fun x : GSem nD τ sig × ℕ × Bool => x.1.2) h) (fun h' => by cases h')
  | .inr (a, j), .inr (a', j'), h =>
    have h' : fsem a.val j.val = fsem a'.val j'.val := SemLoc.dma.inj (congrArg (fun x : GSem nD τ sig × ℕ × Bool => x.1.2) h)
    obtain ⟨e1, e2⟩ := fsem_inj a.isLt j.isLt a'.isLt j'.isLt h'
    rw [Fin.ext e1, Fin.ext e2]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells, family by family. -/
def toks (c : Dev nD) : sProp 𝕄 :=
  iprop(dutyTok ER (barCell c) 0 false ∗ dutyTok ER (barCell c) 0 true
    ∗ (bigSep R32 fun j => dutyTok ER (fcell c 0 j) 0 false) ∗ (bigSep R32 fun j => dutyTok ER (fcell c 1 j) 0 false)
    ∗ (bigSep R32 fun j => dutyTok ER (fcell c 2 j) 0 false) ∗ (bigSep R32 fun j => dutyTok ER (fcell c 3 j) 0 false))

/-- What the launch element deals device `c`. -/
def G (c : Dev nD) : sProp 𝕄 :=
  iprop((bigSep Finset.univ fun k : CellIx => roundState ER (ringRd m ρ) (kcell (c, k)) 0)
    ∗ (bigSep Finset.univ fun k : CellIx => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_bool (Φ : Bool → sProp 𝕄) : bigSep Finset.univ Φ = iprop(Φ false ∗ Φ true) :=
  bigSep_univ_eq_bigSepL [false, true] (by decide) (by decide) Φ

theorem toks_intro (c : Dev nD) :
    (bigSep Finset.univ fun t : TokIx => (dutyTok ER (tokOf (c, t)).1 (tokOf (c, t)).2.1 (tokOf (c, t)).2.2 : sProp 𝕄)) ⊢ toks c := by
  unfold toks
  rw [bigSep_univ_sum, bigSep_bool, ← bigSep_fam (fun a j => (dutyTok ER (fcell c a j) 0 false : sProp 𝕄))]
  show iprop((_ ∗ _) ∗ _) ⊢ _
  iintro ⟨⟨HA, HB⟩, HC⟩
  isplitl [HA]; · iexact HA
  isplitl [HB]; · iexact HB
  iexact HC

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (hT) $$ Htok
  unfold G; simp only [bigSep_sep']
  isplitl [Hst']; · iexact Hst'
  isplitl [Hat' Hr']
  · isplitl [Hat'] <;> iassumption
  iexact Htok'

/-- The launch element, split: the pipeline's part and the protocol's, the latter dealt to the devices. -/
theorem u₀_intro : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The semaphores at zero, cell by cell; the invariants allocated -/

/-- The runtime's barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores at zero, family by family. -/
theorem ownSems0_eq (c : Dev nD) :
    (Pipeline.ownSems0 (Ix := Unit) (Name := ℕ) (U := UU) (Lvl := ℕ) (Val := Elt F) (τ := τ) osem c : sProp 𝕄)
      = iprop((bigSep R32 fun j => semVal (fcell c 0 j) 0) ∗ (bigSep R32 fun j => semVal (fcell c 1 j) 0)
          ∗ (bigSep R32 fun j => semVal (fcell c 2 j) 0) ∗ (bigSep R32 fun j => semVal (fcell c 3 j) 0)) := by
  rw [← bigSep_fam (fun a j => (semVal (fcell c a j) 0 : sProp 𝕄))]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  have e : (Pipeline.ownSems0 (Ix := Unit) (Name := ℕ) (U := UU) (Lvl := ℕ) (Val := Elt F) (τ := τ) osem c : sProp 𝕄)
      = bigSep Finset.univ fun a : Fin 4 × Fin 32 => semVal (kcell (c, some a)) 0 := rfl
  rw [e, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellIx => iprop(∃ κ : ℕ, cellInv ER (ringRd m ρ) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (ringRd m ρ) (kcell (c, k)) 0)
      ⊢ (|={Set.univ}=> bigSep Finset.univ fun k : CellIx => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay them; the devices' ghost state -/

theorem ghost_intro (K : Dev nD × CellIx → ℕ) (c : Dev nD) : iprop(records m ρ K ∗ linear c) ⊢ G' m ρ c := by
  unfold G' ghost
  iintro H
  iexists K
  iexact H

/-- The tokens of the duties device `c` pays. -/
def payToks (c : Dev nD) : sProp 𝕄 :=
  iprop(dutyTok ER (barCell (xnb c)) 0 false ∗ dutyTok ER (barCell (ynb c)) 0 true
    ∗ (bigSep R32 fun j => dutyTok ER (fcell c 0 j) 0 false) ∗ (bigSep R32 fun j => dutyTok ER (fcell (xnb c) 1 j) 0 false)
    ∗ (bigSep R32 fun j => dutyTok ER (fcell c 2 j) 0 false) ∗ (bigSep R32 fun j => dutyTok ER (fcell (ynb c) 3 j) 0 false))

/-- The tokens dealt across the mesh: an entry cell's `false` token and the first receive cells' tokens to the device
    across the first axis, the `true` token and the second receive cells' tokens to the device across the second. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv xring (fun c : Dev nD => (dutyTok ER (barCell c) 0 false : sProp 𝕄)),
    bigSep_univ_equiv yring (fun c : Dev nD => (dutyTok ER (barCell c) 0 true : sProp 𝕄)),
    bigSep_univ_equiv xring (fun c : Dev nD => (bigSep R32 fun j => dutyTok ER (fcell c 1 j) 0 false : sProp 𝕄)),
    bigSep_univ_equiv yring (fun c : Dev nD => (bigSep R32 fun j => dutyTok ER (fcell c 3 j) 0 false : sProp 𝕄))]
  iintro ⟨H1, H2, H3, H4, H5, H6⟩
  isplitl [H1]; · iexact H1
  isplitl [H2]; · iexact H2
  isplitl [H3]; · iexact H3
  isplitl [H4]; · iexact H4
  isplitl [H5]; · iexact H5
  iexact H6

theorem linear_intro (c : Dev nD) :
    iprop((bigSep Finset.univ fun k : CellIx => atPos ER (kcell (c, k)) 0 ∅ 0) ∗ payToks c) ⊢ (linear c : sProp 𝕄) := by
  rw [bigSep_cells c (fun g => (atPos ER g 0 ∅ 0 : sProp 𝕄))]
  unfold linear payToks
  iintro ⟨⟨Ha, H0, H1, H2, H3⟩, HP⟩
  isplitl [Ha]; · iexact Ha
  isplitl [H0]; · iexact H0
  isplitl [H1]; · iexact H1
  isplitl [H2]; · iexact H2
  isplitl [H3]; · iexact H3
  iexact HP

theorem regroup :
    (bigSep Finset.univ fun c : Dev nD => iprop((bigSep Finset.univ fun k : CellIx => iprop(∃ κ : ℕ, cellInv ER (ringRd m ρ) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellIx => iprop(∃ κ : ℕ, cellInv ER (ringRd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄)) payToks).symm).trans
      (bigSep_mono fun c _ => linear_intro c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelProof.glob' depends on axioms: [propext, Classical.choice, Quot.sound] -/
#guard_msgs in #print axioms glob

end Cert.KernelProof

end
-- ==== Proof.Kernel.Launch.Credit.lean ====
/-
  The launch credit (what every device owes a device's cells at launch, dealt to that device as credit tokens) and the
  level facts: the pipeline's staging semaphores sit below every cell a device owes to.
-/
import proofs.«900267_g7700000000000268_dist_redx_gaty_m1024_n512_v7x_xy2x2_f32_1_alg».proof.Proof.Kernel.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit: what the devices owe a device's cells at launch, dealt to it as credit -/

/-- A device's launch credit under the four kinds of dues. -/
theorem launchCred_O₀ (c : Dev nD) :
    (Pipeline.launchCred O₀ c : sProp 𝕄)
      = iprop(((Pipeline.launchCred (fun d => Oy d 0) c ∗ Pipeline.launchCred (fun d => Ox d 0) c)
          ∗ Pipeline.launchCred (fun d => tallyAt (barCell (ynb d)) () 1) c)
          ∗ Pipeline.launchCred (fun d => tallyAt (barCell (xnb d)) () 1) c) := by
  rw [← Pipeline.launchCred_add (fun d => Oy d 0) (fun d => Ox d 0) c,
    ← Pipeline.launchCred_add (fun d => Oy d 0 + Ox d 0) (fun d => tallyAt (barCell (ynb d)) () 1) c,
    ← Pipeline.launchCred_add (fun d => Oy d 0 + Ox d 0 + tallyAt (barCell (ynb d)) () 1) (fun d => tallyAt (barCell (xnb d)) () 1) c]
  rfl

/-- The first copies' credit: every device owes chunk `j`'s landing to the device across the first axis. -/
theorem launchCred_Ox (c : Dev nD) :
    (Pipeline.launchCred (fun d => Ox d 0) c : sProp 𝕄) ⊢ bigSep R32 fun j => cred (tallyAt (fcell c 1 j) () Nx) := by
  have e : (Pipeline.launchCred (fun d => Ox d 0) c : sProp 𝕄)
      = bigSep (Finset.Ico 0 32) fun j => Pipeline.launchCred (fun d => tallyAt (fcell (xnb d) 1 j) () Nx) c :=
    Pipeline.launchCred_sum (Finset.Ico 0 32) (fun j d => tallyAt (fcell (xnb d) 1 j) () Nx) c
  rw [e, show R32 = Finset.Ico 0 32 from Finset.range_eq_Ico 32]
  exact bigSep_mono fun j _ => Pipeline.launchCred_tallyAt (.dma (fsem 1 j)) xnb xnb xnb_xnb xnb_xnb () Nx c

/-- The second copies' credit, across the second axis. -/
theorem launchCred_Oy (c : Dev nD) :
    (Pipeline.launchCred (fun d => Oy d 0) c : sProp 𝕄) ⊢ bigSep R32 fun j => cred (tallyAt (fcell c 3 j) () No) := by
  have e : (Pipeline.launchCred (fun d => Oy d 0) c : sProp 𝕄)
      = bigSep (Finset.Ico 0 32) fun j => Pipeline.launchCred (fun d => tallyAt (fcell (ynb d) 3 j) () No) c :=
    Pipeline.launchCred_sum (Finset.Ico 0 32) (fun j d => tallyAt (fcell (ynb d) 3 j) () No) c
  rw [e, show R32 = Finset.Ico 0 32 from Finset.range_eq_Ico 32]
  exact bigSep_mono fun j _ => Pipeline.launchCred_tallyAt (.dma (fsem 3 j)) ynb ynb ynb_ynb ynb_ynb () No c

/-- Two units on one cell are one credit of two. -/
theorem cred_two (c : Dev nD) :
    iprop(cred (tallyAt (barCell c) () 1) ∗ cred (tallyAt (barCell c) () 1)) ⊢ (cred (tallyAt (barCell c) () 2) : sProp 𝕄) :=
  (cred_add _ _).2.trans (Entails.of_eq (by rw [tallyAt_add]))

/-- What the launch deals device `c`. -/
theorem creds_intro (c : Dev nD) : (Pipeline.launchCred O₀ c : sProp 𝕄) ⊢ creds c := by
  rw [launchCred_O₀]
  unfold creds
  iintro ⟨⟨⟨Hy, Hx⟩, Hby⟩, Hbx⟩
  ihave Hby' := (Pipeline.launchCred_tallyAt (.reg barS) ynb ynb ynb_ynb ynb_ynb () 1 c) $$ Hby
  ihave Hbx' := (Pipeline.launchCred_tallyAt (.reg barS) xnb xnb xnb_xnb xnb_xnb () 1 c) $$ Hbx
  isplitl [Hby' Hbx']
  · iapply (cred_two (F := F) c)
    isplitl [Hby'] <;> iassumption
  isplitl [Hx]
  · iapply (launchCred_Ox (F := F) c); iexact Hx
  · iapply (launchCred_Oy (F := F) c); iexact Hy

/-! ## The levels: a staging semaphore may be waited whatever the device still owes -/

/-- Where the launch dues are positive. -/
theorem O₀_pos {c : Dev nD} {g : GSem nD τ sig} {u : Unit} (h : 0 < O₀ c g u) :
    (∃ j, j < 32 ∧ g = fcell (xnb c) 1 j) ∨ (∃ j, j < 32 ∧ g = fcell (ynb c) 3 j) ∨ g = barCell (ynb c) ∨ g = barCell (xnb c) := by
  unfold O₀ O₁ at h
  rcases Pipeline.add_pos_cases h with h | h
  · rcases Pipeline.add_pos_cases h with h | h
    · rcases Pipeline.add_pos_cases h with h | h
      · unfold Oy at h
        obtain ⟨j, hj, hp⟩ := Pipeline.sum_pos_exists h
        exact Or.inr (Or.inl ⟨j, (Finset.mem_Ico.mp hj).2, (Pipeline.tallyAt_pos hp).1⟩)
      · unfold Ox at h
        obtain ⟨j, hj, hp⟩ := Pipeline.sum_pos_exists h
        exact Or.inl ⟨j, (Finset.mem_Ico.mp hj).2, (Pipeline.tallyAt_pos hp).1⟩
    · exact Or.inr (Or.inr (Or.inl (Pipeline.tallyAt_pos h).1))
  · exact Or.inr (Or.inr (Or.inr (Pipeline.tallyAt_pos h).1))

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) (fun g u hg => ?_)
    have hlq : lv ((c : Thread nD τ), .dma q) () = 0 := by
      show (if 34 ≤ q.val ∧ q.val < 66 then 2 else if 98 ≤ q.val then 3 else 0) = 0
      rw [if_neg (by omega), if_neg (by omega)]
    rw [hlq]
    rcases O₀_pos hg with ⟨j, hj, rfl⟩ | ⟨j, hj, rfl⟩ | rfl | rfl
    · exact ⟨by rw [L_tc]; exact Finset.mem_singleton_self _, by rw [lv_f _ 1 j (by decide) hj]; decide⟩
    · exact ⟨by rw [L_tc]; exact Finset.mem_singleton_self _, by rw [lv_f _ 3 j (by decide) hj]; decide⟩
    · exact ⟨by rw [L_tc]; exact Finset.mem_singleton_self _, by rw [lv_bar]; decide⟩
    · exact ⟨by rw [L_tc]; exact Finset.mem_singleton_self _, by rw [lv_bar]; decide⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelProof

end
-- ==== Proof.Kernel.Launch.lean ====
/-
  The launch: from each device's body obligation to the run of the whole program on the four devices — every weakly
  fair execution terminates, and every final state has each device's windowed arrays at the proof data's final contents.
-/
import proofs.«900267_g7700000000000268_dist_redx_gaty_m1024_n512_v7x_xy2x2_f32_1_alg».proof.Proof.Kernel.Sched
import proofs.«900267_g7700000000000268_dist_redx_gaty_m1024_n512_v7x_xy2x2_f32_1_alg».proof.Proof.Kernel.Launch.Fund
import proofs.«900267_g7700000000000268_dist_redx_gaty_m1024_n512_v7x_xy2x2_f32_1_alg».proof.Proof.Kernel.Launch.Credit

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

/-- What a device's body starts from, out of what the launch deals it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

/-- Before the point: that and the landing buffer, the one scoped buffer that is no staging buffer. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, Hr⟩
  isplitl [Hs]; · iexact Hs
  iexact Hr

/-- After the point: the kernel's own semaphores at zero and the landing buffer go back. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrAny
  iintro ⟨Hr, H0, H1, H2, H3⟩
  isplitr; · iempintro
  isplitr [Hr]
  · isplitl [H0]; · iexact H0
    isplitl [H1]; · iexact H1
    isplitl [H2]; · iexact H2
    iexact H3
  iexact Hr

/-! ## The run -/

/-- Each windowed array's contents after the run, as the proof data computes them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- At the compiled mesh of four devices, for any float values, from any memory with zero counters: every weakly fair
    execution of @main terminates, and every final state has each device's arrays at `finalA`. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := u₀_intro m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds what the body left in the result's staging buffer. -/
theorem finalA_out (c : Dev nD) : finalA m ρ c (1 : Fin 2) = outC m ρ c := by
  have h := (dats (F := F) m ρ 0 c).arrAt_succ (1 : Fin 2) t₀
  rw [flush0_1 t₀, if_pos rfl] at h
  refine Eq.trans (show finalA m ρ c (1 : Fin 2) = (dats (F := F) m ρ 0 c).arrAt (1 : Fin 2) (t₀.val + 1) from rfl) (h.trans ?_)
  generalize (dats (F := F) m ρ 0 c).arrAt (1 : Fin 2) t₀.val = prev
  have hw : (dats (F := F) m ρ 0 c).flushed (1 : Fin 2) t₀ = outC m ρ c := rfl
  rw [hw]
  have hz : (fun a => (cfg0.win (1 : Fin 2)).index t₀ a * (cfg0.win (1 : Fin 2)).size a) = fun _ => 0 := funext fun a => Nat.zero_mul _
  have hr := Memref.read_access_unit_zero (Elt F) main_v1 hz (fun a => Pipeline.Clip.inb ((cfg0.win (1 : Fin 2)).hclip (cfg0.grid.coords t₀) a))
    (((cfg0.win (1 : Fin 2)).blk t₀).view.write (Elt F) prev (outC m ρ c) Finset.univ)
  exact hr.symm.trans (View.read_write_univ _ _)

/-- info: 'Cert.KernelProof.run_main' depends on axioms: [propext, Classical.choice, Quot.sound] -/
#guard_msgs in #print axioms run_main

end Cert.KernelProof

end
-- ==== Proof.Kernel.Final.lean ====
/-
  The run read back: what each device's result array holds at the end, as a function of the devices' input blocks.
-/
import proofs.«900267_g7700000000000268_dist_redx_gaty_m1024_n512_v7x_xy2x2_f32_1_alg».proof.Proof.Kernel.Launch

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input window's one block is the whole array: the input block as staged is the argument array's contents. -/
theorem xstg_eq (c : Dev nD) : xstg m ρ c = m ((c : Thread nD τ).loc main_arg0) := by
  unfold xstg
  have hz : (fun a => win0_0.index (0 : Fin 1) a * win0_0.size a) = fun _ => 0 := funext fun a => Nat.zero_mul _
  exact Memref.read_access_unit_zero (Elt F) main_arg0 hz (fun a => Pipeline.Clip.inb (win0_0.hclip (grid0.coords (0 : Fin 1)) a)) _

/-- The run with its values: every weakly fair execution terminates, each device's result array ends at `outC` of the
    devices' input blocks and its argument array unchanged. -/
theorem run_vals (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outC m ρ c
      ∧ r.2.mem ((c.tc : Thread nD τ).loc main_arg0) = m ((c.tc : Thread nD τ).loc main_arg0)) :=
  (θ_run _ _ _).mono (fun r h c => ⟨(h c (1 : Fin 2)).trans (finalA_out m ρ c), (h c (0 : Fin 2)).trans (finalA_x m ρ c)⟩)
    (run_main m ρ hbody)

end Cert.KernelProof

end
-- ==== Proof.Claims.lean ====
/-
  The five conjuncts of the claim: the three frames, the idealization's preservation, and the algebraic equivalence of
  the four-device kernel with the one-device reference — each device's result is the whole array's two row blocks
  summed, which is what the reference computes.
-/
import proofs.«900267_g7700000000000268_dist_redx_gaty_m1024_n512_v7x_xy2x2_f32_1_alg».proof.Defs
import proofs.«900267_g7700000000000268_dist_redx_gaty_m1024_n512_v7x_xy2x2_f32_1_alg».proof.Proof.Gen.Kernel
import proofs.«900267_g7700000000000268_dist_redx_gaty_m1024_n512_v7x_xy2x2_f32_1_alg».proof.Proof.Gen.KernelIdeal
import proofs.«900267_g7700000000000268_dist_redx_gaty_m1024_n512_v7x_xy2x2_f32_1_alg».proof.Proof.Gen.ReferenceIdeal
import proofs.«900267_g7700000000000268_dist_redx_gaty_m1024_n512_v7x_xy2x2_f32_1_alg».proof.Proof.Gen.Pre_finite_inputs_Kernel
import proofs.«900267_g7700000000000268_dist_redx_gaty_m1024_n512_v7x_xy2x2_f32_1_alg».proof.Proof.Gen.Pre_finite_inputs_ReferenceIdeal
import proofs.«900267_g7700000000000268_dist_redx_gaty_m1024_n512_v7x_xy2x2_f32_1_alg».proof.Proof.RefSide
import proofs.«900267_g7700000000000268_dist_redx_gaty_m1024_n512_v7x_xy2x2_f32_1_alg».proof.Proof.KernelIdeal.Body
import proofs.«900267_g7700000000000268_dist_redx_gaty_m1024_n512_v7x_xy2x2_f32_1_alg».proof.Proof.KernelIdeal.Final
import proofs.«900267_g7700000000000268_dist_redx_gaty_m1024_n512_v7x_xy2x2_f32_1_alg».proof.Proof.Kernel.Body
import proofs.«900267_g7700000000000268_dist_redx_gaty_m1024_n512_v7x_xy2x2_f32_1_alg».proof.Proof.Kernel.Final

noncomputable section

namespace Cert.Claims

open Idealize.ShloMosaic Idealize.SL.Sem Cert.Spec

/-- The kernel as printed runs and leaves its argument blocks unchanged. -/
theorem frame_k : Cert.frame_Kernel := fun m g _ =>
  (θ_run _ _ _).mono (fun _ h c => (h c).2)
    (Cert.KernelProof.run_vals (F := Bits) m g (Cert.KernelProof.body_obligation m g))

/-- The idealized kernel runs and leaves its argument blocks unchanged. -/
theorem frame_ki : Cert.frame_KernelIdeal := fun m g _ =>
  (θ_run _ _ _).mono (fun _ h c => (h c).2)
    (Cert.KernelIdealProof.run_vals (F := Ideal) m g (Cert.KernelIdealProof.body_obligation m g))

/-- The reference runs and leaves its argument unchanged. -/
theorem frame_ri : Cert.frame_ReferenceIdeal := Cert.RefSide.frame_ri

/-- The ideal pass rewrote no operation. -/
theorem preserves : Cert.preserves_Kernel_KernelIdeal := trivial

/-- From memories where each device holds its block of the reference's whole array, every device's result is the
    reference's result: the sum of the whole array's two row blocks. -/
theorem algebraic : Cert.algebraic_KernelIdeal_ReferenceIdeal := by
  intro m g m' g' _ hblk
  refine ⟨Cert.RefSide.refVal (m' (((0 : Dev Cert.ReferenceIdeal.nD).tc : Thread Cert.ReferenceIdeal.nD Cert.ReferenceIdeal.τ).loc Cert.ReferenceIdeal.main_arg0)), ?_,
    Cert.RefSide.ref_run m' g'⟩
  refine (θ_run _ _ _).mono (fun r h c => ⟨(h c).1.trans ?_, (h c).2⟩)
    (Cert.KernelIdealProof.run_vals (F := Ideal) m g (Cert.KernelIdealProof.body_obligation m g))
  show Cert.Spec.outAt (F := Ideal) (fun d => Cert.KernelIdealProof.xstg m g d) c = _
  rw [show (fun d => Cert.KernelIdealProof.xstg m g d)
      = fun d => Layout.blockN SB SW (Layout.meshBlock [2, 2] ![[0], [1]] d)
          (m' (((0 : Dev Cert.ReferenceIdeal.nD).tc : Thread Cert.ReferenceIdeal.nD Cert.ReferenceIdeal.τ).loc Cert.ReferenceIdeal.main_arg0))
    from funext fun d => (Cert.KernelIdealProof.xstg_eq m g d).trans (hblk d)]
  exact Cert.RefSide.outAt_eq_refVal _ c

end Cert.Claims

end
-- ==== Proof.lean ====
/-
  The certificate: on the 2 × 2 mesh, from memories where device (cx, cy) holds block (cx, cy) of a whole
  f32[2048, 1024] array, the kernel — as printed and idealized — runs to the end on every device with its arguments
  unchanged, and every device's f32[1024, 1024] result is the one-device reference's: entry (r, q) is the sum of the
  whole array's entries (r, q) and (1024 + r, q).
-/
import proofs.«900267_g7700000000000268_dist_redx_gaty_m1024_n512_v7x_xy2x2_f32_1_alg».proof.Defs
import proofs.«900267_g7700000000000268_dist_redx_gaty_m1024_n512_v7x_xy2x2_f32_1_alg».proof.Proof.Gen.Kernel
import proofs.«900267_g7700000000000268_dist_redx_gaty_m1024_n512_v7x_xy2x2_f32_1_alg».proof.Proof.Gen.KernelIdeal
import proofs.«900267_g7700000000000268_dist_redx_gaty_m1024_n512_v7x_xy2x2_f32_1_alg».proof.Proof.Gen.ReferenceIdeal
import proofs.«900267_g7700000000000268_dist_redx_gaty_m1024_n512_v7x_xy2x2_f32_1_alg».proof.Proof.Gen.Pre_finite_inputs_Kernel
import proofs.«900267_g7700000000000268_dist_redx_gaty_m1024_n512_v7x_xy2x2_f32_1_alg».proof.Proof.Gen.Pre_finite_inputs_ReferenceIdeal
import proofs.«900267_g7700000000000268_dist_redx_gaty_m1024_n512_v7x_xy2x2_f32_1_alg».proof.Proof.Claims

noncomputable section

namespace Cert.Proof

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Claims.frame_k, Cert.Claims.frame_ki, Cert.Claims.frame_ri, Cert.Claims.preserves, Cert.Claims.algebraic⟩

end Cert.Proof

end
